-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v139)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v139) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v308) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S64x32 : Shape := ⟨2, ![64, 32]⟩
abbrev S32 : Shape := ⟨1, ![32]⟩
abbrev S3x64x64 : Shape := ⟨3, ![3, 64, 64]⟩
abbrev S3x64 : Shape := ⟨2, ![3, 64]⟩
abbrev S3x64x32 : Shape := ⟨3, ![3, 64, 32]⟩
abbrev S3x32 : Shape := ⟨2, ![3, 32]⟩
abbrev S3x96x32 : Shape := ⟨3, ![3, 96, 32]⟩
abbrev S3x96 : Shape := ⟨2, ![3, 96]⟩
abbrev S32x64 : Shape := ⟨2, ![32, 64]⟩
abbrev S64 : Shape := ⟨1, ![64]⟩
abbrev S64x64 : Shape := ⟨2, ![64, 64]⟩
abbrev S64x8 : Shape := ⟨2, ![64, 8]⟩
abbrev S8 : Shape := ⟨1, ![8]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S3x64x64 : S_.BroadcastsInDim S3x64x64 (![] : Fin 0 → Fin S3x64x64.rank)
  reducesTo_S3x64x64_S_d0_1_2 : S3x64x64.ReducesTo [0, 1, 2] S_
  bcast_S_S3x64 : S_.BroadcastsInDim S3x64 (![] : Fin 0 → Fin S3x64.rank)
  reducesTo_S3x64_S_d0_1 : S3x64.ReducesTo [0, 1] S_
  bcast_S_S3x64x32 : S_.BroadcastsInDim S3x64x32 (![] : Fin 0 → Fin S3x64x32.rank)
  reducesTo_S3x64x32_S_d0_1_2 : S3x64x32.ReducesTo [0, 1, 2] S_
  bcast_S_S3x32 : S_.BroadcastsInDim S3x32 (![] : Fin 0 → Fin S3x32.rank)
  reducesTo_S3x32_S_d0_1 : S3x32.ReducesTo [0, 1] S_
  bcast_S_S3x96x32 : S_.BroadcastsInDim S3x96x32 (![] : Fin 0 → Fin S3x96x32.rank)
  reducesTo_S3x96x32_S_d0_1_2 : S3x96x32.ReducesTo [0, 1, 2] S_
  bcast_S_S3x96 : S_.BroadcastsInDim S3x96 (![] : Fin 0 → Fin S3x96.rank)
  reducesTo_S3x96_S_d0_1 : S3x96.ReducesTo [0, 1] S_
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x8 : S_.BroadcastsInDim S64x8 (![] : Fin 0 → Fin S64x8.rank)
  reducesTo_S64x8_S_d0_1 : S64x8.ReducesTo [0, 1] S_
  bcast_S_S8 : S_.BroadcastsInDim S8 (![] : Fin 0 → Fin S8.rank)
  reducesTo_S8_S_d0 : S8.ReducesTo [0] S_
  bcast_S_S2x800000 : S_.BroadcastsInDim S2x800000 (![] : Fin 0 → Fin S2x800000.rank)
  reducesTo_S2x800000_S_d0_1 : S2x800000.ReducesTo [0, 1] S_

variable [Facts]

def fn_part5 {F : FTy → Type} [FloatOps F] (main_arg1 : IVec S2x800000 32) (main_arg19 : FVec F S8 .f32) (main_v83 : IVec S_ 1) (main_v84 : FVec F S64x8 .f32) (main_cst_32 : FVec F S_ .f32) : IVec S_ 1 :=
  let main_v85 : FVec F S64x8 .f32 := broadcastInDim S64x8 ![] bcast_S_S64x8 main_cst_32
  let main_v86 : IVec S64x8 1 := cmpf .olt main_v84 main_v85
  let main_c_33 : IVec S_ 1 := constantI S_ 1 1#1
  let main_v87 : IVec S_ 1 := (fun x v => Host.reduce IntOp.andi x v reducesTo_S64x8_S_d0_1 h_S_) main_v86 main_c_33
  let main_v88 : IVec S_ 1 := andi main_v83 main_v87
  let main_v89 : FVec F S8 .f32 := Host.absf main_arg19
  let main_cst_34 : FVec F S_ .f32 := constant S_ .f32 0x7F800000#32
  let main_v90 : FVec F S8 .f32 := broadcastInDim S8 ![] bcast_S_S8 main_cst_34
  let main_v91 : IVec S8 1 := cmpf .olt main_v89 main_v90
  let main_c_35 : IVec S_ 1 := constantI S_ 1 1#1
  let main_v92 : IVec S_ 1 := (fun x v => Host.reduce IntOp.andi x v reducesTo_S8_S_d0 h_S_) main_v91 main_c_35
  let main_v93 : IVec S_ 1 := andi main_v88 main_v92
  let main_c_36 : IVec S_ 32 := constantI S_ 32 0#32
  let main_v94 : IVec S2x800000 32 := broadcastInDim S2x800000 ![] bcast_S_S2x800000 main_c_36
  let main_v95 : IVec S2x800000 1 := cmpi .sge main_arg1 main_v94
  let main_c_37 : IVec S_ 1 := constantI S_ 1 1#1
  let main_v96 : IVec S_ 1 := (fun x v => Host.reduce IntOp.andi x v reducesTo_S2x800000_S_d0_1 h_S_) main_v95 main_c_37
  let main_v97 : IVec S_ 1 := andi main_v93 main_v96
  let main_c_38 : IVec S_ 32 := constantI S_ 32 50000#32
  let main_v98 : IVec S2x800000 32 := broadcastInDim S2x800000 ![] bcast_S_S2x800000 main_c_38
  let main_v99 : IVec S2x800000 1 := cmpi .slt main_arg1 main_v98
  let main_c_39 : IVec S_ 1 := constantI S_ 1 1#1
  let main_v100 : IVec S_ 1 := (fun x v => Host.reduce IntOp.andi x v reducesTo_S2x800000_S_d0_1 h_S_) main_v99 main_c_39
  let main_v101 : IVec S_ 1 := andi main_v97 main_v100
  main_v101

def fn_part4 {F : FTy → Type} [FloatOps F] (main_arg1 : IVec S2x800000 32) (main_arg15 : FVec F S64 .f32) (main_arg16 : FVec F S64x64 .f32) (main_arg17 : FVec F S64 .f32) (main_arg18 : FVec F S64x8 .f32) (main_arg19 : FVec F S8 .f32) (main_v63 : IVec S_ 1) (main_v67 : IVec S_ 1) : IVec S_ 1 :=
  let main_v68 : IVec S_ 1 := andi main_v63 main_v67
  let main_v69 : FVec F S64 .f32 := Host.absf main_arg15
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S64x64 .f32 := Host.absf main_arg16
  let main_cst_28 : FVec F S_ .f32 := constant S_ .f32 0x7F800000#32
  let main_v75 : FVec F S64x64 .f32 := broadcastInDim S64x64 ![] bcast_S_S64x64 main_cst_28
  let main_v76 : IVec S64x64 1 := cmpf .olt main_v74 main_v75
  let main_c_29 : IVec S_ 1 := constantI S_ 1 1#1
  let main_v77 : IVec S_ 1 := (fun x v => Host.reduce IntOp.andi x v reducesTo_S64x64_S_d0_1 h_S_) main_v76 main_c_29
  let main_v78 : IVec S_ 1 := andi main_v73 main_v77
  let main_v79 : FVec F S64 .f32 := Host.absf main_arg17
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  let main_v84 : FVec F S64x8 .f32 := Host.absf main_arg18
  let main_cst_32 : FVec F S_ .f32 := constant S_ .f32 0x7F800000#32
  fn_part5 (F := F) main_arg1 main_arg19 main_v83 main_v84 main_cst_32

def fn_part3 {F : FTy → Type} [FloatOps F] (main_arg1 : IVec S2x800000 32) (main_arg12 : FVec F S3x96 .f32) (main_arg13 : FVec F S3x96 .f32) (main_arg14 : FVec F S32x64 .f32) (main_arg15 : FVec F S64 .f32) (main_arg16 : FVec F S64x64 .f32) (main_arg17 : FVec F S64 .f32) (main_arg18 : FVec F S64x8 .f32) (main_arg19 : FVec F S8 .f32) (main_v48 : IVec S_ 1) (main_v49 : FVec F S3x96x32 .f32) (main_v50 : FVec F S3x96x32 .f32) : IVec S_ 1 :=
  let main_v51 : IVec S3x96x32 1 := cmpf .olt main_v49 main_v50
  let main_c_19 : IVec S_ 1 := constantI S_ 1 1#1
  let main_v52 : IVec S_ 1 := (fun x v => Host.reduce IntOp.andi x v reducesTo_S3x96x32_S_d0_1_2 h_S_) main_v51 main_c_19
  let main_v53 : IVec S_ 1 := andi main_v48 main_v52
  let main_v54 : FVec F S3x96 .f32 := Host.absf main_arg12
  let main_cst_20 : FVec F S_ .f32 := constant S_ .f32 0x7F800000#32
  let main_v55 : FVec F S3x96 .f32 := broadcastInDim S3x96 ![] bcast_S_S3x96 main_cst_20
  let main_v56 : IVec S3x96 1 := cmpf .olt main_v54 main_v55
  let main_c_21 : IVec S_ 1 := constantI S_ 1 1#1
  let main_v57 : IVec S_ 1 := (fun x v => Host.reduce IntOp.andi x v reducesTo_S3x96_S_d0_1 h_S_) main_v56 main_c_21
  let main_v58 : IVec S_ 1 := andi main_v53 main_v57
  let main_v59 : FVec F S3x96 .f32 := Host.absf main_arg13
  let main_cst_22 : FVec F S_ .f32 := constant S_ .f32 0x7F800000#32
  let main_v60 : FVec F S3x96 .f32 := broadcastInDim S3x96 ![] bcast_S_S3x96 main_cst_22
  let main_v61 : IVec S3x96 1 := cmpf .olt main_v59 main_v60
  let main_c_23 : IVec S_ 1 := constantI S_ 1 1#1
  let main_v62 : IVec S_ 1 := (fun x v => Host.reduce IntOp.andi x v reducesTo_S3x96_S_d0_1 h_S_) main_v61 main_c_23
  let main_v63 : IVec S_ 1 := andi main_v58 main_v62
  let main_v64 : FVec F S32x64 .f32 := Host.absf main_arg14
  let main_cst_24 : FVec F S_ .f32 := constant S_ .f32 0x7F800000#32
  let main_v65 : FVec F S32x64 .f32 := broadcastInDim S32x64 ![] bcast_S_S32x64 main_cst_24
  let main_v66 : IVec S32x64 1 := cmpf .olt main_v64 main_v65
  let main_c_25 : IVec S_ 1 := constantI S_ 1 1#1
  let main_v67 : IVec S_ 1 := (fun x v => Host.reduce IntOp.andi x v reducesTo_S32x64_S_d0_1 h_S_) main_v66 main_c_25
  fn_part4 (F := F) main_arg1 main_arg15 main_arg16 main_arg17 main_arg18 main_arg19 main_v63 main_v67

def fn_part2 {F : FTy → Type} [FloatOps F] (main_arg1 : IVec S2x800000 32) (main_arg8 : FVec F S3x64x32 .f32) (main_arg9 : FVec F S3x32 .f32) (main_arg10 : FVec F S3x96x32 .f32) (main_arg11 : FVec F S3x96x32 .f32) (main_arg12 : FVec F S3x96 .f32) (main_arg13 : FVec F S3x96 .f32) (main_arg14 : FVec F S32x64 .f32) (main_arg15 : FVec F S64 .f32) (main_arg16 : FVec F S64x64 .f32) (main_arg17 : FVec F S64 .f32) (main_arg18 : FVec F S64x8 .f32) (main_arg19 : FVec F S8 .f32) (main_v33 : IVec S_ 1) : IVec S_ 1 :=
  let main_v34 : FVec F S3x64x32 .f32 := Host.absf main_arg8
  let main_cst_12 : FVec F S_ .f32 := constant S_ .f32 0x7F800000#32
  let main_v35 : FVec F S3x64x32 .f32 := broadcastInDim S3x64x32 ![] bcast_S_S3x64x32 main_cst_12
  let main_v36 : IVec S3x64x32 1 := cmpf .olt main_v34 main_v35
  let main_c_13 : IVec S_ 1 := constantI S_ 1 1#1
  let main_v37 : IVec S_ 1 := (fun x v => Host.reduce IntOp.andi x v reducesTo_S3x64x32_S_d0_1_2 h_S_) main_v36 main_c_13
  let main_v38 : IVec S_ 1 := andi main_v33 main_v37
  let main_v39 : FVec F S3x32 .f32 := Host.absf main_arg9
  let main_cst_14 : FVec F S_ .f32 := constant S_ .f32 0x7F800000#32
  let main_v40 : FVec F S3x32 .f32 := broadcastInDim S3x32 ![] bcast_S_S3x32 main_cst_14
  let main_v41 : IVec S3x32 1 := cmpf .olt main_v39 main_v40
  let main_c_15 : IVec S_ 1 := constantI S_ 1 1#1
  let main_v42 : IVec S_ 1 := (fun x v => Host.reduce IntOp.andi x v reducesTo_S3x32_S_d0_1 h_S_) main_v41 main_c_15
  let main_v43 : IVec S_ 1 := andi main_v38 main_v42
  let main_v44 : FVec F S3x96x32 .f32 := Host.absf main_arg10
  let main_cst_16 : FVec F S_ .f32 := constant S_ .f32 0x7F800000#32
  let main_v45 : FVec F S3x96x32 .f32 := broadcastInDim S3x96x32 ![] bcast_S_S3x96x32 main_cst_16
  let main_v46 : IVec S3x96x32 1 := cmpf .olt main_v44 main_v45
  let main_c_17 : IVec S_ 1 := constantI S_ 1 1#1
  let main_v47 : IVec S_ 1 := (fun x v => Host.reduce IntOp.andi x v reducesTo_S3x96x32_S_d0_1_2 h_S_) main_v46 main_c_17
  let main_v48 : IVec S_ 1 := andi main_v43 main_v47
  let main_v49 : FVec F S3x96x32 .f32 := Host.absf main_arg11
  let main_cst_18 : FVec F S_ .f32 := constant S_ .f32 0x7F800000#32
  let main_v50 : FVec F S3x96x32 .f32 := broadcastInDim S3x96x32 ![] bcast_S_S3x96x32 main_cst_18
  fn_part3 (F := F) main_arg1 main_arg12 main_arg13 main_arg14 main_arg15 main_arg16 main_arg17 main_arg18 main_arg19 main_v48 main_v49 main_v50

def fn_part1 {F : FTy → Type} [FloatOps F] (main_arg1 : IVec S2x800000 32) (main_arg5 : FVec F S3x64 .f32) (main_arg6 : FVec F S3x64x64 .f32) (main_arg7 : FVec F S3x64 .f32) (main_arg8 : FVec F S3x64x32 .f32) (main_arg9 : FVec F S3x32 .f32) (main_arg10 : FVec F S3x96x32 .f32) (main_arg11 : FVec F S3x96x32 .f32) (main_arg12 : FVec F S3x96 .f32) (main_arg13 : FVec F S3x96 .f32) (main_arg14 : FVec F S32x64 .f32) (main_arg15 : FVec F S64 .f32) (main_arg16 : FVec F S64x64 .f32) (main_arg17 : FVec F S64 .f32) (main_arg18 : FVec F S64x8 .f32) (main_arg19 : FVec F S8 .f32) (main_v13 : IVec S_ 1) (main_v16 : IVec S3x64x64 1) : IVec S_ 1 :=
  let main_c_5 : IVec S_ 1 := constantI S_ 1 1#1
  let main_v17 : IVec S_ 1 := (fun x v => Host.reduce IntOp.andi x v reducesTo_S3x64x64_S_d0_1_2 h_S_) main_v16 main_c_5
  let main_v18 : IVec S_ 1 := andi main_v13 main_v17
  let main_v19 : FVec F S3x64 .f32 := Host.absf main_arg5
  let main_cst_6 : FVec F S_ .f32 := constant S_ .f32 0x7F800000#32
  let main_v20 : FVec F S3x64 .f32 := broadcastInDim S3x64 ![] bcast_S_S3x64 main_cst_6
  let main_v21 : IVec S3x64 1 := cmpf .olt main_v19 main_v20
  let main_c_7 : IVec S_ 1 := constantI S_ 1 1#1
  let main_v22 : IVec S_ 1 := (fun x v => Host.reduce IntOp.andi x v reducesTo_S3x64_S_d0_1 h_S_) main_v21 main_c_7
  let main_v23 : IVec S_ 1 := andi main_v18 main_v22
  let main_v24 : FVec F S3x64x64 .f32 := Host.absf main_arg6
  let main_cst_8 : FVec F S_ .f32 := constant S_ .f32 0x7F800000#32
  let main_v25 : FVec F S3x64x64 .f32 := broadcastInDim S3x64x64 ![] bcast_S_S3x64x64 main_cst_8
  let main_v26 : IVec S3x64x64 1 := cmpf .olt main_v24 main_v25
  let main_c_9 : IVec S_ 1 := constantI S_ 1 1#1
  let main_v27 : IVec S_ 1 := (fun x v => Host.reduce IntOp.andi x v reducesTo_S3x64x64_S_d0_1_2 h_S_) main_v26 main_c_9
  let main_v28 : IVec S_ 1 := andi main_v23 main_v27
  let main_v29 : FVec F S3x64 .f32 := Host.absf main_arg7
  let main_cst_10 : FVec F S_ .f32 := constant S_ .f32 0x7F800000#32
  let main_v30 : FVec F S3x64 .f32 := broadcastInDim S3x64 ![] bcast_S_S3x64 main_cst_10
  let main_v31 : IVec S3x64 1 := cmpf .olt main_v29 main_v30
  let main_c_11 : IVec S_ 1 := constantI S_ 1 1#1
  let main_v32 : IVec S_ 1 := (fun x v => Host.reduce IntOp.andi x v reducesTo_S3x64_S_d0_1 h_S_) main_v31 main_c_11
  let main_v33 : IVec S_ 1 := andi main_v28 main_v32
  fn_part2 (F := F) main_arg1 main_arg8 main_arg9 main_arg10 main_arg11 main_arg12 main_arg13 main_arg14 main_arg15 main_arg16 main_arg17 main_arg18 main_arg19 main_v33

def fn {F : FTy → Type} [FloatOps F] (main_arg0 : FVec F S50000x64 .f32) (main_arg1 : IVec S2x800000 32) (main_arg2 : FVec F S64x32 .f32) (main_arg3 : FVec F S32 .f32) (main_arg4 : FVec F S3x64x64 .f32) (main_arg5 : FVec F S3x64 .f32) (main_arg6 : FVec F S3x64x64 .f32) (main_arg7 : FVec F S3x64 .f32) (main_arg8 : FVec F S3x64x32 .f32) (main_arg9 : FVec F S3x32 .f32) (main_arg10 : FVec F S3x96x32 .f32) (main_arg11 : FVec F S3x96x32 .f32) (main_arg12 : FVec F S3x96 .f32) (main_arg13 : FVec F S3x96 .f32) (main_arg14 : FVec F S32x64 .f32) (main_arg15 : FVec F S64 .f32) (main_arg16 : FVec F S64x64 .f32) (main_arg17 : FVec F S64 .f32) (main_arg18 : FVec F S64x8 .f32) (main_arg19 : FVec F S8 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x32 .f32 := Host.absf main_arg2
  let main_cst_0 : FVec F S_ .f32 := constant S_ .f32 0x7F800000#32
  let main_v5 : FVec F S64x32 .f32 := broadcastInDim S64x32 ![] bcast_S_S64x32 main_cst_0
  let main_v6 : IVec S64x32 1 := cmpf .olt main_v4 main_v5
  let main_c_1 : IVec S_ 1 := constantI S_ 1 1#1
  let main_v7 : IVec S_ 1 := (fun x v => Host.reduce IntOp.andi x v reducesTo_S64x32_S_d0_1 h_S_) main_v6 main_c_1
  let main_v8 : IVec S_ 1 := andi main_v3 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S3x64x64 .f32 := Host.absf main_arg4
  let main_cst_4 : FVec F S_ .f32 := constant S_ .f32 0x7F800000#32
  let main_v15 : FVec F S3x64x64 .f32 := broadcastInDim S3x64x64 ![] bcast_S_S3x64x64 main_cst_4
  let main_v16 : IVec S3x64x64 1 := cmpf .olt main_v14 main_v15
  fn_part1 (F := F) main_arg1 main_arg5 main_arg6 main_arg7 main_arg8 main_arg9 main_arg10 main_arg11 main_arg12 main_arg13 main_arg14 main_arg15 main_arg16 main_arg17 main_arg18 main_arg19 main_v13 main_v16
-- ==== Kernel.lean ====
abbrev S50000x64 : Shape := ⟨2, ![50000, 64]⟩
abbrev S2x800000 : Shape := ⟨2, ![2, 800000]⟩
abbrev S64x32 : Shape := ⟨2, ![64, 32]⟩
abbrev S32 : Shape := ⟨1, ![32]⟩
abbrev S3x64x64 : Shape := ⟨3, ![3, 64, 64]⟩
abbrev S3x64 : Shape := ⟨2, ![3, 64]⟩
abbrev S3x64x32 : Shape := ⟨3, ![3, 64, 32]⟩
abbrev S3x32 : Shape := ⟨2, ![3, 32]⟩
abbrev S3x96x32 : Shape := ⟨3, ![3, 96, 32]⟩
abbrev S3x96 : Shape := ⟨2, ![3, 96]⟩
abbrev S32x64 : Shape := ⟨2, ![32, 64]⟩
abbrev S64 : Shape := ⟨1, ![64]⟩
abbrev S64x64 : Shape := ⟨2, ![64, 64]⟩
abbrev S64x8 : Shape := ⟨2, ![64, 8]⟩
abbrev S8 : Shape := ⟨1, ![8]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x1 : Shape := ⟨2, ![50000, 1]⟩
abbrev S1x32 : Shape := ⟨2, ![1, 32]⟩
abbrev S50000x32 : Shape := ⟨2, ![50000, 32]⟩
abbrev S10000x64 : Shape := ⟨2, ![10000, 64]⟩
abbrev S10000x32 : Shape := ⟨2, ![10000, 32]⟩
abbrev S1 : Shape := ⟨1, ![1]⟩
abbrev S1x1 : Shape := ⟨2, ![1, 1]⟩
abbrev S850000x32 : Shape := ⟨2, ![850000, 32]⟩
abbrev S1x64x64 : Shape := ⟨3, ![1, 64, 64]⟩
abbrev S1x64 : Shape := ⟨2, ![1, 64]⟩
abbrev S1x64x32 : Shape := ⟨3, ![1, 64, 32]⟩
abbrev S5000x32 : Shape := ⟨2, ![5000, 32]⟩
abbrev S5000x64 : Shape := ⟨2, ![5000, 64]⟩
abbrev S1x96x32 : Shape := ⟨3, ![1, 96, 32]⟩
abbrev S96x32 : Shape := ⟨2, ![96, 32]⟩
abbrev S32x96 : Shape := ⟨2, ![32, 96]⟩
abbrev S1x96 : Shape := ⟨2, ![1, 96]⟩
abbrev S96 : Shape := ⟨1, ![96]⟩
abbrev S2000x32 : Shape := ⟨2, ![2000, 32]⟩
abbrev S2000x96 : Shape := ⟨2, ![2000, 96]⟩
abbrev S1x8 : Shape := ⟨2, ![1, 8]⟩
abbrev S50000x8 : Shape := ⟨2, ![50000, 8]⟩
abbrev S5000x8 : Shape := ⟨2, ![5000, 8]⟩

abbrev nBuf : Space → Nat
  | .hbm => 298
  | .vmem => 85
  | .smem => 0
  | _ => 0

abbrev hbmTy0_0 (i : Nat) : BufTy := match i % 128 with
  | 0 => ⟨S50000x64, .f32⟩
  | 1 => ⟨S2x800000, .i32⟩
  | 2 => ⟨S64x32, .f32⟩
  | 3 => ⟨S32, .f32⟩
  | 4 => ⟨S3x64x64, .f32⟩
  | 5 => ⟨S3x64, .f32⟩
  | 6 => ⟨S3x64x64, .f32⟩
  | 7 => ⟨S3x64, .f32⟩
  | 8 => ⟨S3x64x32, .f32⟩
  | 9 => ⟨S3x32, .f32⟩
  | 10 => ⟨S3x96x32, .f32⟩
  | 11 => ⟨S3x96x32, .f32⟩
  | 12 => ⟨S3x96, .f32⟩
  | 13 => ⟨S3x96, .f32⟩
  | 14 => ⟨S32x64, .f32⟩
  | 15 => ⟨S64, .f32⟩
  | 16 => ⟨S64x64, .f32⟩
  | 17 => ⟨S64, .f32⟩
  | 18 => ⟨S64x8, .f32⟩
  | 19 => ⟨S8, .f32⟩
  | 20 => ⟨S50000, .i32⟩
  | 21 => ⟨S1x800000, .i32⟩
  | 22 => ⟨S800000, .i32⟩
  | 23 => ⟨S850000, .i32⟩
  | 24 => ⟨S1x800000, .i32⟩
  | 25 => ⟨S800000, .i32⟩
  | 26 => ⟨S850000, .i32⟩
  | 27 => ⟨S_, .f32⟩
  | 28 => ⟨S850000, .f32⟩
  | 29 => ⟨S_, .f32⟩
  | 30 => ⟨S50000, .f32⟩
  | 31 => ⟨S850000x1, .i32⟩
  | 32 => ⟨S50000, .f32⟩
  | 33 => ⟨S_, .f32⟩
  | 34 => ⟨S50000, .f32⟩
  | 35 => ⟨S50000, .f32⟩
  | 36 => ⟨S50000x1, .f32⟩
  | 37 => ⟨S1x32, .f32⟩
  | 38 => ⟨S50000x32, .f32⟩
  | 39 => ⟨S_, .i32⟩
  | 40 => ⟨S850000, .i32⟩
  | 41 => ⟨S850000, .i1⟩
  | 42 => ⟨S_, .i32⟩
  | 43 => ⟨S850000, .i32⟩
  | 44 => ⟨S850000, .i32⟩
  | 45 => ⟨S850000, .i32⟩
  | 46 => ⟨S850000x1, .i32⟩
  | 47 => ⟨S1, .i32⟩
  | 48 => ⟨S_, .i32⟩
  | 49 => ⟨S850000x1, .i32⟩
  | 50 => ⟨S850000x1, .i1⟩
  | 51 => ⟨S1x1, .i32⟩
  | 52 => ⟨S850000x1, .i32⟩
  | 53 => ⟨S850000x1, .i1⟩
  | 54 => ⟨S850000x1, .i1⟩
  | 55 => ⟨S_, .i1⟩
  | 56 => ⟨S850000, .i1⟩
  | 57 => ⟨S850000x32, .f32⟩
  | 58 => ⟨S850000x32, .i1⟩
  | 59 => ⟨S_, .f32⟩
  | 60 => ⟨S850000x32, .f32⟩
  | 61 => ⟨S850000x32, .f32⟩
  | 62 => ⟨S_, .i32⟩
  | 63 => ⟨S850000, .i32⟩
  | 64 => ⟨S850000, .i1⟩
  | 65 => ⟨S_, .i32⟩
  | 66 => ⟨S850000, .i32⟩
  | 67 => ⟨S850000, .i32⟩
  | 68 => ⟨S850000, .i32⟩
  | 69 => ⟨S850000x1, .i32⟩
  | 70 => ⟨S1, .i32⟩
  | 71 => ⟨S_, .i32⟩
  | 72 => ⟨S850000x1, .i32⟩
  | 73 => ⟨S850000x1, .i1⟩
  | 74 => ⟨S1x1, .i32⟩
  | 75 => ⟨S850000x1, .i32⟩
  | 76 => ⟨S850000x1, .i1⟩
  | 77 => ⟨S850000x1, .i1⟩
  | 78 => ⟨S_, .i1⟩
  | 79 => ⟨S850000, .i1⟩
  | 80 => ⟨S850000x32, .f32⟩
  | 81 => ⟨S850000x32, .i1⟩
  | 82 => ⟨S_, .f32⟩
  | 83 => ⟨S850000x32, .f32⟩
  | 84 => ⟨S850000x32, .f32⟩
  | 85 => ⟨S1x64x64, .f32⟩
  | 86 => ⟨S64x64, .f32⟩
  | 87 => ⟨S32x64, .f32⟩
  | 88 => ⟨S1x64x64, .f32⟩
  | 89 => ⟨S64x64, .f32⟩
  | 90 => ⟨S32x64, .f32⟩
  | 91 => ⟨S1x64, .f32⟩
  | 92 => ⟨S64, .f32⟩
  | 93 => ⟨S1x64, .f32⟩
  | 94 => ⟨S1x64x64, .f32⟩
  | 95 => ⟨S64x64, .f32⟩
  | 96 => ⟨S1x64, .f32⟩
  | 97 => ⟨S64, .f32⟩
  | 98 => ⟨S1x64, .f32⟩
  | 99 => ⟨S1x64x32, .f32⟩
  | 100 => ⟨S64x32, .f32⟩
  | 101 => ⟨S1x32, .f32⟩
  | 102 => ⟨S32, .f32⟩
  | 103 => ⟨S1x32, .f32⟩
  | 104 => ⟨S850000x32, .f32⟩
  | 105 => ⟨S_, .f32⟩
  | 106 => ⟨S50000x32, .f32⟩
  | 107 => ⟨S850000x1, .i32⟩
  | 108 => ⟨S50000x32, .f32⟩
  | 109 => ⟨S50000x32, .f32⟩
  | 110 => ⟨S50000x32, .f32⟩
  | 111 => ⟨S1x96x32, .f32⟩
  | 112 => ⟨S96x32, .f32⟩
  | 113 => ⟨S32x96, .f32⟩
  | 114 => ⟨S1x96x32, .f32⟩
  | 115 => ⟨S96x32, .f32⟩
  | 116 => ⟨S32x96, .f32⟩
  | 117 => ⟨S1x96, .f32⟩
  | 118 => ⟨S96, .f32⟩
  | 119 => ⟨S1x96, .f32⟩
  | 120 => ⟨S1x96, .f32⟩
  | 121 => ⟨S96, .f32⟩
  | 122 => ⟨S1x96, .f32⟩
  | 123 => ⟨S50000x32, .f32⟩
  | 124 => ⟨S_, .i32⟩
  | 125 => ⟨S850000, .i32⟩
  | 126 => ⟨S850000, .i1⟩
  | 127 => ⟨S_, .i32⟩
  | _ => ⟨S50000x64, .f32⟩

abbrev hbmTy0_1 (i : Nat) : BufTy := match i % 128 with
  | 0 => ⟨S850000, .i32⟩
  | 1 => ⟨S850000, .i32⟩
  | 2 => ⟨S850000, .i32⟩
  | 3 => ⟨S850000x1, .i32⟩
  | 4 => ⟨S1, .i32⟩
  | 5 => ⟨S_, .i32⟩
  | 6 => ⟨S850000x1, .i32⟩
  | 7 => ⟨S850000x1, .i1⟩
  | 8 => ⟨S1x1, .i32⟩
  | 9 => ⟨S850000x1, .i32⟩
  | 10 => ⟨S850000x1, .i1⟩
  | 11 => ⟨S850000x1, .i1⟩
  | 12 => ⟨S_, .i1⟩
  | 13 => ⟨S850000, .i1⟩
  | 14 => ⟨S850000x32, .f32⟩
  | 15 => ⟨S850000x32, .i1⟩
  | 16 => ⟨S_, .f32⟩
  | 17 => ⟨S850000x32, .f32⟩
  | 18 => ⟨S850000x32, .f32⟩
  | 19 => ⟨S_, .i32⟩
  | 20 => ⟨S850000, .i32⟩
  | 21 => ⟨S850000, .i1⟩
  | 22 => ⟨S_, .i32⟩
  | 23 => ⟨S850000, .i32⟩
  | 24 => ⟨S850000, .i32⟩
  | 25 => ⟨S850000, .i32⟩
  | 26 => ⟨S850000x1, .i32⟩
  | 27 => ⟨S1, .i32⟩
  | 28 => ⟨S_, .i32⟩
  | 29 => ⟨S850000x1, .i32⟩
  | 30 => ⟨S850000x1, .i1⟩
  | 31 => ⟨S1x1, .i32⟩
  | 32 => ⟨S850000x1, .i32⟩
  | 33 => ⟨S850000x1, .i1⟩
  | 34 => ⟨S850000x1, .i1⟩
  | 35 => ⟨S_, .i1⟩
  | 36 => ⟨S850000, .i1⟩
  | 37 => ⟨S850000x32, .f32⟩
  | 38 => ⟨S850000x32, .i1⟩
  | 39 => ⟨S_, .f32⟩
  | 40 => ⟨S850000x32, .f32⟩
  | 41 => ⟨S850000x32, .f32⟩
  | 42 => ⟨S1x64x64, .f32⟩
  | 43 => ⟨S64x64, .f32⟩
  | 44 => ⟨S32x64, .f32⟩
  | 45 => ⟨S1x64x64, .f32⟩
  | 46 => ⟨S64x64, .f32⟩
  | 47 => ⟨S32x64, .f32⟩
  | 48 => ⟨S1x64, .f32⟩
  | 49 => ⟨S64, .f32⟩
  | 50 => ⟨S1x64, .f32⟩
  | 51 => ⟨S1x64x64, .f32⟩
  | 52 => ⟨S64x64, .f32⟩
  | 53 => ⟨S1x64, .f32⟩
  | 54 => ⟨S64, .f32⟩
  | 55 => ⟨S1x64, .f32⟩
  | 56 => ⟨S1x64x32, .f32⟩
  | 57 => ⟨S64x32, .f32⟩
  | 58 => ⟨S1x32, .f32⟩
  | 59 => ⟨S32, .f32⟩
  | 60 => ⟨S1x32, .f32⟩
  | 61 => ⟨S850000x32, .f32⟩
  | 62 => ⟨S_, .f32⟩
  | 63 => ⟨S50000x32, .f32⟩
  | 64 => ⟨S850000x1, .i32⟩
  | 65 => ⟨S50000x32, .f32⟩
  | 66 => ⟨S50000x32, .f32⟩
  | 67 => ⟨S50000x32, .f32⟩
  | 68 => ⟨S1x96x32, .f32⟩
  | 69 => ⟨S96x32, .f32⟩
  | 70 => ⟨S32x96, .f32⟩
  | 71 => ⟨S1x96x32, .f32⟩
  | 72 => ⟨S96x32, .f32⟩
  | 73 => ⟨S32x96, .f32⟩
  | 74 => ⟨S1x96, .f32⟩
  | 75 => ⟨S96, .f32⟩
  | 76 => ⟨S1x96, .f32⟩
  | 77 => ⟨S1x96, .f32⟩
  | 78 => ⟨S96, .f32⟩
  | 79 => ⟨S1x96, .f32⟩
  | 80 => ⟨S50000x32, .f32⟩
  | 81 => ⟨S_, .i32⟩
  | 82 => ⟨S850000, .i32⟩
  | 83 => ⟨S850000, .i1⟩
  | 84 => ⟨S_, .i32⟩
  | 85 => ⟨S850000, .i32⟩
  | 86 => ⟨S850000, .i32⟩
  | 87 => ⟨S850000, .i32⟩
  | 88 => ⟨S850000x1, .i32⟩
  | 89 => ⟨S1, .i32⟩
  | 90 => ⟨S_, .i32⟩
  | 91 => ⟨S850000x1, .i32⟩
  | 92 => ⟨S850000x1, .i1⟩
  | 93 => ⟨S1x1, .i32⟩
  | 94 => ⟨S850000x1, .i32⟩
  | 95 => ⟨S850000x1, .i1⟩
  | 96 => ⟨S850000x1, .i1⟩
  | 97 => ⟨S_, .i1⟩
  | 98 => ⟨S850000, .i1⟩
  | 99 => ⟨S850000x32, .f32⟩
  | 100 => ⟨S850000x32, .i1⟩
  | 101 => ⟨S_, .f32⟩
  | 102 => ⟨S850000x32, .f32⟩
  | 103 => ⟨S850000x32, .f32⟩
  | 104 => ⟨S_, .i32⟩
  | 105 => ⟨S850000, .i32⟩
  | 106 => ⟨S850000, .i1⟩
  | 107 => ⟨S_, .i32⟩
  | 108 => ⟨S850000, .i32⟩
  | 109 => ⟨S850000, .i32⟩
  | 110 => ⟨S850000, .i32⟩
  | 111 => ⟨S850000x1, .i32⟩
  | 112 => ⟨S1, .i32⟩
  | 113 => ⟨S_, .i32⟩
  | 114 => ⟨S850000x1, .i32⟩
  | 115 => ⟨S850000x1, .i1⟩
  | 116 => ⟨S1x1, .i32⟩
  | 117 => ⟨S850000x1, .i32⟩
  | 118 => ⟨S850000x1, .i1⟩
  | 119 => ⟨S850000x1, .i1⟩
  | 120 => ⟨S_, .i1⟩
  | 121 => ⟨S850000, .i1⟩
  | 122 => ⟨S850000x32, .f32⟩
  | 123 => ⟨S850000x32, .i1⟩
  | 124 => ⟨S_, .f32⟩
  | 125 => ⟨S850000x32, .f32⟩
  | 126 => ⟨S850000x32, .f32⟩
  | 127 => ⟨S1x64x64, .f32⟩
  | _ => ⟨S50000x64, .f32⟩

abbrev hbmTy0_2 (i : Nat) : BufTy := match i % 128 with
  | 0 => ⟨S64x64, .f32⟩
  | 1 => ⟨S32x64, .f32⟩
  | 2 => ⟨S1x64x64, .f32⟩
  | 3 => ⟨S64x64, .f32⟩
  | 4 => ⟨S32x64, .f32⟩
  | 5 => ⟨S1x64, .f32⟩
  | 6 => ⟨S64, .f32⟩
  | 7 => ⟨S1x64, .f32⟩
  | 8 => ⟨S1x64x64, .f32⟩
  | 9 => ⟨S64x64, .f32⟩
  | 10 => ⟨S1x64, .f32⟩
  | 11 => ⟨S64, .f32⟩
  | 12 => ⟨S1x64, .f32⟩
  | 13 => ⟨S1x64x32, .f32⟩
  | 14 => ⟨S64x32, .f32⟩
  | 15 => ⟨S1x32, .f32⟩
  | 16 => ⟨S32, .f32⟩
  | 17 => ⟨S1x32, .f32⟩
  | 18 => ⟨S850000x32, .f32⟩
  | 19 => ⟨S_, .f32⟩
  | 20 => ⟨S50000x32, .f32⟩
  | 21 => ⟨S850000x1, .i32⟩
  | 22 => ⟨S50000x32, .f32⟩
  | 23 => ⟨S50000x32, .f32⟩
  | 24 => ⟨S50000x32, .f32⟩
  | 25 => ⟨S1x96x32, .f32⟩
  | 26 => ⟨S96x32, .f32⟩
  | 27 => ⟨S32x96, .f32⟩
  | 28 => ⟨S1x96x32, .f32⟩
  | 29 => ⟨S96x32, .f32⟩
  | 30 => ⟨S32x96, .f32⟩
  | 31 => ⟨S1x96, .f32⟩
  | 32 => ⟨S96, .f32⟩
  | 33 => ⟨S1x96, .f32⟩
  | 34 => ⟨S1x96, .f32⟩
  | 35 => ⟨S96, .f32⟩
  | 36 => ⟨S1x96, .f32⟩
  | 37 => ⟨S50000x32, .f32⟩
  | 38 => ⟨S1x64, .f32⟩
  | 39 => ⟨S1x64, .f32⟩
  | 40 => ⟨S1x8, .f32⟩
  | 41 => ⟨S50000x8, .f32⟩
  | _ => ⟨S50000x64, .f32⟩

abbrev hbmTy (i : Nat) : BufTy := match i / 128 with
  | 0 => hbmTy0_0 i
  | 1 => hbmTy0_1 i
  | 2 => hbmTy0_2 i
  | _ => ⟨S50000x64, .f32⟩

abbrev bufTy : (tb : Table) → Fin (tcTables nBuf tb) → BufTy
  | .hbm, ⟨i, _⟩ => hbmTy i
  | .local _ .vmem, ⟨0, _⟩ => ⟨S10000x64, .f32⟩
  | .local _ .vmem, ⟨1, _⟩ => ⟨S10000x64, .f32⟩
  | .local _ .vmem, ⟨2, _⟩ => ⟨S64x32, .f32⟩
  | .local _ .vmem, ⟨3, _⟩ => ⟨S1x32, .f32⟩
  | .local _ .vmem, ⟨4, _⟩ => ⟨S10000x32, .f32⟩
  | .local _ .vmem, ⟨5, _⟩ => ⟨S10000x32, .f32⟩
  | .local _ .vmem, ⟨6, _⟩ => ⟨S5000x32, .f32⟩
  | .local _ .vmem, ⟨7, _⟩ => ⟨S5000x32, .f32⟩
  | .local _ .vmem, ⟨8, _⟩ => ⟨S5000x32, .f32⟩
  | .local _ .vmem, ⟨9, _⟩ => ⟨S5000x32, .f32⟩
  | .local _ .vmem, ⟨10, _⟩ => ⟨S32x64, .f32⟩
  | .local _ .vmem, ⟨11, _⟩ => ⟨S32x64, .f32⟩
  | .local _ .vmem, ⟨12, _⟩ => ⟨S1x64, .f32⟩
  | .local _ .vmem, ⟨13, _⟩ => ⟨S64x64, .f32⟩
  | .local _ .vmem, ⟨14, _⟩ => ⟨S1x64, .f32⟩
  | .local _ .vmem, ⟨15, _⟩ => ⟨S64x32, .f32⟩
  | .local _ .vmem, ⟨16, _⟩ => ⟨S1x32, .f32⟩
  | .local _ .vmem, ⟨17, _⟩ => ⟨S5000x32, .f32⟩
  | .local _ .vmem, ⟨18, _⟩ => ⟨S5000x32, .f32⟩
  | .local _ .vmem, ⟨19, _⟩ => ⟨S2000x32, .f32⟩
  | .local _ .vmem, ⟨20, _⟩ => ⟨S2000x32, .f32⟩
  | .local _ .vmem, ⟨21, _⟩ => ⟨S2000x32, .f32⟩
  | .local _ .vmem, ⟨22, _⟩ => ⟨S2000x32, .f32⟩
  | .local _ .vmem, ⟨23, _⟩ => ⟨S32x96, .f32⟩
  | .local _ .vmem, ⟨24, _⟩ => ⟨S32x96, .f32⟩
  | .local _ .vmem, ⟨25, _⟩ => ⟨S1x96, .f32⟩
  | .local _ .vmem, ⟨26, _⟩ => ⟨S1x96, .f32⟩
  | .local _ .vmem, ⟨27, _⟩ => ⟨S2000x32, .f32⟩
  | .local _ .vmem, ⟨28, _⟩ => ⟨S2000x32, .f32⟩
  | .local _ .vmem, ⟨29, _⟩ => ⟨S5000x32, .f32⟩
  | .local _ .vmem, ⟨30, _⟩ => ⟨S5000x32, .f32⟩
  | .local _ .vmem, ⟨31, _⟩ => ⟨S5000x32, .f32⟩
  | .local _ .vmem, ⟨32, _⟩ => ⟨S5000x32, .f32⟩
  | .local _ .vmem, ⟨33, _⟩ => ⟨S32x64, .f32⟩
  | .local _ .vmem, ⟨34, _⟩ => ⟨S32x64, .f32⟩
  | .local _ .vmem, ⟨35, _⟩ => ⟨S1x64, .f32⟩
  | .local _ .vmem, ⟨36, _⟩ => ⟨S64x64, .f32⟩
  | .local _ .vmem, ⟨37, _⟩ => ⟨S1x64, .f32⟩
  | .local _ .vmem, ⟨38, _⟩ => ⟨S64x32, .f32⟩
  | .local _ .vmem, ⟨39, _⟩ => ⟨S1x32, .f32⟩
  | .local _ .vmem, ⟨40, _⟩ => ⟨S5000x32, .f32⟩
  | .local _ .vmem, ⟨41, _⟩ => ⟨S5000x32, .f32⟩
  | .local _ .vmem, ⟨42, _⟩ => ⟨S2000x32, .f32⟩
  | .local _ .vmem, ⟨43, _⟩ => ⟨S2000x32, .f32⟩
  | .local _ .vmem, ⟨44, _⟩ => ⟨S2000x32, .f32⟩
  | .local _ .vmem, ⟨45, _⟩ => ⟨S2000x32, .f32⟩
  | .local _ .vmem, ⟨46, _⟩ => ⟨S32x96, .f32⟩
  | .local _ .vmem, ⟨47, _⟩ => ⟨S32x96, .f32⟩
  | .local _ .vmem, ⟨48, _⟩ => ⟨S1x96, .f32⟩
  | .local _ .vmem, ⟨49, _⟩ => ⟨S1x96, .f32⟩
  | .local _ .vmem, ⟨50, _⟩ => ⟨S2000x32, .f32⟩
  | .local _ .vmem, ⟨51, _⟩ => ⟨S2000x32, .f32⟩
  | .local _ .vmem, ⟨52, _⟩ => ⟨S5000x32, .f32⟩
  | .local _ .vmem, ⟨53, _⟩ => ⟨S5000x32, .f32⟩
  | .local _ .vmem, ⟨54, _⟩ => ⟨S5000x32, .f32⟩
  | .local _ .vmem, ⟨55, _⟩ => ⟨S5000x32, .f32⟩
  | .local _ .vmem, ⟨56, _⟩ => ⟨S32x64, .f32⟩
  | .local _ .vmem, ⟨57, _⟩ => ⟨S32x64, .f32⟩
  | .local _ .vmem, ⟨58, _⟩ => ⟨S1x64, .f32⟩
  | .local _ .vmem, ⟨59, _⟩ => ⟨S64x64, .f32⟩
  | .local _ .vmem, ⟨60, _⟩ => ⟨S1x64, .f32⟩
  | .local _ .vmem, ⟨61, _⟩ => ⟨S64x32, .f32⟩
  | .local _ .vmem, ⟨62, _⟩ => ⟨S1x32, .f32⟩
  | .local _ .vmem, ⟨63, _⟩ => ⟨S5000x32, .f32⟩
  | .local _ .vmem, ⟨64, _⟩ => ⟨S5000x32, .f32⟩
  | .local _ .vmem, ⟨65, _⟩ => ⟨S2000x32, .f32⟩
  | .local _ .vmem, ⟨66, _⟩ => ⟨S2000x32, .f32⟩
  | .local _ .vmem, ⟨67, _⟩ => ⟨S2000x32, .f32⟩
  | .local _ .vmem, ⟨68, _⟩ => ⟨S2000x32, .f32⟩
  | .local _ .vmem, ⟨69, _⟩ => ⟨S32x96, .f32⟩
  | .local _ .vmem, ⟨70, _⟩ => ⟨S32x96, .f32⟩
  | .local _ .vmem, ⟨71, _⟩ => ⟨S1x96, .f32⟩
  | .local _ .vmem, ⟨72, _⟩ => ⟨S1x96, .f32⟩
  | .local _ .vmem, ⟨73, _⟩ => ⟨S2000x32, .f32⟩
  | .local _ .vmem, ⟨74, _⟩ => ⟨S2000x32, .f32⟩
  | .local _ .vmem, ⟨75, _⟩ => ⟨S5000x32, .f32⟩
  | .local _ .vmem, ⟨76, _⟩ => ⟨S5000x32, .f32⟩
  | .local _ .vmem, ⟨77, _⟩ => ⟨S32x64, .f32⟩
  | .local _ .vmem, ⟨78, _⟩ => ⟨S1x64, .f32⟩
  | .local _ .vmem, ⟨79, _⟩ => ⟨S64x64, .f32⟩
  | .local _ .vmem, ⟨80, _⟩ => ⟨S1x64, .f32⟩
  | .local _ .vmem, ⟨81, _⟩ => ⟨S64x8, .f32⟩
  | .local _ .vmem, ⟨82, _⟩ => ⟨S1x8, .f32⟩
  | .local _ .vmem, ⟨83, _⟩ => ⟨S5000x8, .f32⟩
  | .local _ .vmem, ⟨84, _⟩ => ⟨S5000x8, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | _, _ => false

abbrev semScoped : Fin 0 → Bool
  | ⟨_, h⟩ => absurd h (Nat.not_lt_zero _)

abbrev dmaSemScoped : Fin 85 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | _ => false

abbrev sig : RefSig :=
  ofTc nBuf bufTy 0 85 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_cst : Ref sig .tc := ⟨.hbm, 27, rfl⟩
abbrev main_v7 : Ref sig .tc := ⟨.hbm, 28, rfl⟩
abbrev main_cst_0 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_cst_1 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_call0_c : Ref sig .tc := ⟨.hbm, 39, rfl⟩
abbrev main_call0_v0 : Ref sig .tc := ⟨.hbm, 40, rfl⟩
abbrev main_call0_v1 : Ref sig .tc := ⟨.hbm, 41, rfl⟩
abbrev main_call0_c_0 : Ref sig .tc := ⟨.hbm, 42, rfl⟩
abbrev main_call0_v2 : Ref sig .tc := ⟨.hbm, 43, rfl⟩
abbrev main_call0_v3 : Ref sig .tc := ⟨.hbm, 44, rfl⟩
abbrev main_call0_v4 : Ref sig .tc := ⟨.hbm, 45, rfl⟩
abbrev main_call0_v5 : Ref sig .tc := ⟨.hbm, 46, rfl⟩
abbrev main_call0_c_1 : Ref sig .tc := ⟨.hbm, 47, rfl⟩
abbrev main_call0_c_2 : Ref sig .tc := ⟨.hbm, 48, rfl⟩
abbrev main_call0_v6 : Ref sig .tc := ⟨.hbm, 49, rfl⟩
abbrev main_call0_v7 : Ref sig .tc := ⟨.hbm, 50, rfl⟩
abbrev main_call0_v8 : Ref sig .tc := ⟨.hbm, 51, rfl⟩
abbrev main_call0_v9 : Ref sig .tc := ⟨.hbm, 52, rfl⟩
abbrev main_call0_v10 : Ref sig .tc := ⟨.hbm, 53, rfl⟩
abbrev main_call0_v11 : Ref sig .tc := ⟨.hbm, 54, rfl⟩
abbrev main_call0_c_3 : Ref sig .tc := ⟨.hbm, 55, rfl⟩
abbrev main_call0_v12 : Ref sig .tc := ⟨.hbm, 56, rfl⟩
abbrev main_call0_v13 : Ref sig .tc := ⟨.hbm, 57, rfl⟩
abbrev main_call0_v14 : Ref sig .tc := ⟨.hbm, 58, rfl⟩
abbrev main_call0_cst : Ref sig .tc := ⟨.hbm, 59, rfl⟩
abbrev main_call0_v15 : Ref sig .tc := ⟨.hbm, 60, rfl⟩
abbrev main_v16 : Ref sig .tc := ⟨.hbm, 61, rfl⟩
abbrev main_call1_c : Ref sig .tc := ⟨.hbm, 62, rfl⟩
abbrev main_call1_v0 : Ref sig .tc := ⟨.hbm, 63, rfl⟩
abbrev main_call1_v1 : Ref sig .tc := ⟨.hbm, 64, rfl⟩
abbrev main_call1_c_0 : Ref sig .tc := ⟨.hbm, 65, rfl⟩
abbrev main_call1_v2 : Ref sig .tc := ⟨.hbm, 66, rfl⟩
abbrev main_call1_v3 : Ref sig .tc := ⟨.hbm, 67, rfl⟩
abbrev main_call1_v4 : Ref sig .tc := ⟨.hbm, 68, rfl⟩
abbrev main_call1_v5 : Ref sig .tc := ⟨.hbm, 69, rfl⟩
abbrev main_call1_c_1 : Ref sig .tc := ⟨.hbm, 70, rfl⟩
abbrev main_call1_c_2 : Ref sig .tc := ⟨.hbm, 71, rfl⟩
abbrev main_call1_v6 : Ref sig .tc := ⟨.hbm, 72, rfl⟩
abbrev main_call1_v7 : Ref sig .tc := ⟨.hbm, 73, rfl⟩
abbrev main_call1_v8 : Ref sig .tc := ⟨.hbm, 74, rfl⟩
abbrev main_call1_v9 : Ref sig .tc := ⟨.hbm, 75, rfl⟩
abbrev main_call1_v10 : Ref sig .tc := ⟨.hbm, 76, rfl⟩
abbrev main_call1_v11 : Ref sig .tc := ⟨.hbm, 77, rfl⟩
abbrev main_call1_c_3 : Ref sig .tc := ⟨.hbm, 78, rfl⟩
abbrev main_call1_v12 : Ref sig .tc := ⟨.hbm, 79, rfl⟩
abbrev main_call1_v13 : Ref sig .tc := ⟨.hbm, 80, rfl⟩
abbrev main_call1_v14 : Ref sig .tc := ⟨.hbm, 81, rfl⟩
abbrev main_call1_cst : Ref sig .tc := ⟨.hbm, 82, rfl⟩
abbrev main_call1_v15 : Ref sig .tc := ⟨.hbm, 83, rfl⟩
abbrev main_v17 : Ref sig .tc := ⟨.hbm, 84, rfl⟩
abbrev main_v18 : Ref sig .tc := ⟨.hbm, 85, rfl⟩
abbrev main_v19 : Ref sig .tc := ⟨.hbm, 86, rfl⟩
abbrev main_v20 : Ref sig .tc := ⟨.hbm, 87, rfl⟩
abbrev main_v21 : Ref sig .tc := ⟨.hbm, 88, rfl⟩
abbrev main_v22 : Ref sig .tc := ⟨.hbm, 89, rfl⟩
abbrev main_v23 : Ref sig .tc := ⟨.hbm, 90, rfl⟩
abbrev main_v24 : Ref sig .tc := ⟨.hbm, 91, rfl⟩
abbrev main_v25 : Ref sig .tc := ⟨.hbm, 92, rfl⟩
abbrev main_v26 : Ref sig .tc := ⟨.hbm, 93, rfl⟩
abbrev main_v27 : Ref sig .tc := ⟨.hbm, 94, rfl⟩
abbrev main_v28 : Ref sig .tc := ⟨.hbm, 95, rfl⟩
abbrev main_v29 : Ref sig .tc := ⟨.hbm, 96, rfl⟩
abbrev main_v30 : Ref sig .tc := ⟨.hbm, 97, rfl⟩
abbrev main_v31 : Ref sig .tc := ⟨.hbm, 98, rfl⟩
abbrev main_v32 : Ref sig .tc := ⟨.hbm, 99, rfl⟩
abbrev main_v33 : Ref sig .tc := ⟨.hbm, 100, rfl⟩
abbrev main_v34 : Ref sig .tc := ⟨.hbm, 101, rfl⟩
abbrev main_v35 : Ref sig .tc := ⟨.hbm, 102, rfl⟩
abbrev main_v36 : Ref sig .tc := ⟨.hbm, 103, rfl⟩
abbrev main_v37 : Ref sig .tc := ⟨.hbm, 104, rfl⟩
abbrev main_cst_2 : Ref sig .tc := ⟨.hbm, 105, rfl⟩
abbrev main_v38 : Ref sig .tc := ⟨.hbm, 106, rfl⟩
abbrev main_v39 : Ref sig .tc := ⟨.hbm, 107, rfl⟩
abbrev main_v40 : Ref sig .tc := ⟨.hbm, 108, rfl⟩
abbrev main_v41 : Ref sig .tc := ⟨.hbm, 109, rfl⟩
abbrev main_v42 : Ref sig .tc := ⟨.hbm, 110, rfl⟩
abbrev main_v43 : Ref sig .tc := ⟨.hbm, 111, rfl⟩
abbrev main_v44 : Ref sig .tc := ⟨.hbm, 112, rfl⟩
abbrev main_v45 : Ref sig .tc := ⟨.hbm, 113, rfl⟩
abbrev main_v46 : Ref sig .tc := ⟨.hbm, 114, rfl⟩
abbrev main_v47 : Ref sig .tc := ⟨.hbm, 115, rfl⟩
abbrev main_v48 : Ref sig .tc := ⟨.hbm, 116, rfl⟩
abbrev main_v49 : Ref sig .tc := ⟨.hbm, 117, rfl⟩
abbrev main_v50 : Ref sig .tc := ⟨.hbm, 118, rfl⟩
abbrev main_v51 : Ref sig .tc := ⟨.hbm, 119, rfl⟩
abbrev main_v52 : Ref sig .tc := ⟨.hbm, 120, rfl⟩
abbrev main_v53 : Ref sig .tc := ⟨.hbm, 121, rfl⟩
abbrev main_v54 : Ref sig .tc := ⟨.hbm, 122, rfl⟩
abbrev main_v55 : Ref sig .tc := ⟨.hbm, 123, rfl⟩
abbrev main_call2_c : Ref sig .tc := ⟨.hbm, 124, rfl⟩
abbrev main_call2_v0 : Ref sig .tc := ⟨.hbm, 125, rfl⟩
abbrev main_call2_v1 : Ref sig .tc := ⟨.hbm, 126, rfl⟩
abbrev main_call2_c_0 : Ref sig .tc := ⟨.hbm, 127, rfl⟩
abbrev main_call2_v2 : Ref sig .tc := ⟨.hbm, 128, rfl⟩
abbrev main_call2_v3 : Ref sig .tc := ⟨.hbm, 129, rfl⟩
abbrev main_call2_v4 : Ref sig .tc := ⟨.hbm, 130, rfl⟩
abbrev main_call2_v5 : Ref sig .tc := ⟨.hbm, 131, rfl⟩
abbrev main_call2_c_1 : Ref sig .tc := ⟨.hbm, 132, rfl⟩
abbrev main_call2_c_2 : Ref sig .tc := ⟨.hbm, 133, rfl⟩
abbrev main_call2_v6 : Ref sig .tc := ⟨.hbm, 134, rfl⟩
abbrev main_call2_v7 : Ref sig .tc := ⟨.hbm, 135, rfl⟩
abbrev main_call2_v8 : Ref sig .tc := ⟨.hbm, 136, rfl⟩
abbrev main_call2_v9 : Ref sig .tc := ⟨.hbm, 137, rfl⟩
abbrev main_call2_v10 : Ref sig .tc := ⟨.hbm, 138, rfl⟩
abbrev main_call2_v11 : Ref sig .tc := ⟨.hbm, 139, rfl⟩
abbrev main_call2_c_3 : Ref sig .tc := ⟨.hbm, 140, rfl⟩
abbrev main_call2_v12 : Ref sig .tc := ⟨.hbm, 141, rfl⟩
abbrev main_call2_v13 : Ref sig .tc := ⟨.hbm, 142, rfl⟩
abbrev main_call2_v14 : Ref sig .tc := ⟨.hbm, 143, rfl⟩
abbrev main_call2_cst : Ref sig .tc := ⟨.hbm, 144, rfl⟩
abbrev main_call2_v15 : Ref sig .tc := ⟨.hbm, 145, rfl⟩
abbrev main_v56 : Ref sig .tc := ⟨.hbm, 146, rfl⟩
abbrev main_call3_c : Ref sig .tc := ⟨.hbm, 147, rfl⟩
abbrev main_call3_v0 : Ref sig .tc := ⟨.hbm, 148, rfl⟩
abbrev main_call3_v1 : Ref sig .tc := ⟨.hbm, 149, rfl⟩
abbrev main_call3_c_0 : Ref sig .tc := ⟨.hbm, 150, rfl⟩
abbrev main_call3_v2 : Ref sig .tc := ⟨.hbm, 151, rfl⟩
abbrev main_call3_v3 : Ref sig .tc := ⟨.hbm, 152, rfl⟩
abbrev main_call3_v4 : Ref sig .tc := ⟨.hbm, 153, rfl⟩
abbrev main_call3_v5 : Ref sig .tc := ⟨.hbm, 154, rfl⟩
abbrev main_call3_c_1 : Ref sig .tc := ⟨.hbm, 155, rfl⟩
abbrev main_call3_c_2 : Ref sig .tc := ⟨.hbm, 156, rfl⟩
abbrev main_call3_v6 : Ref sig .tc := ⟨.hbm, 157, rfl⟩
abbrev main_call3_v7 : Ref sig .tc := ⟨.hbm, 158, rfl⟩
abbrev main_call3_v8 : Ref sig .tc := ⟨.hbm, 159, rfl⟩
abbrev main_call3_v9 : Ref sig .tc := ⟨.hbm, 160, rfl⟩
abbrev main_call3_v10 : Ref sig .tc := ⟨.hbm, 161, rfl⟩
abbrev main_call3_v11 : Ref sig .tc := ⟨.hbm, 162, rfl⟩
abbrev main_call3_c_3 : Ref sig .tc := ⟨.hbm, 163, rfl⟩
abbrev main_call3_v12 : Ref sig .tc := ⟨.hbm, 164, rfl⟩
abbrev main_call3_v13 : Ref sig .tc := ⟨.hbm, 165, rfl⟩
abbrev main_call3_v14 : Ref sig .tc := ⟨.hbm, 166, rfl⟩
abbrev main_call3_cst : Ref sig .tc := ⟨.hbm, 167, rfl⟩
abbrev main_call3_v15 : Ref sig .tc := ⟨.hbm, 168, rfl⟩
abbrev main_v57 : Ref sig .tc := ⟨.hbm, 169, rfl⟩
abbrev main_v58 : Ref sig .tc := ⟨.hbm, 170, rfl⟩
abbrev main_v59 : Ref sig .tc := ⟨.hbm, 171, rfl⟩
abbrev main_v60 : Ref sig .tc := ⟨.hbm, 172, rfl⟩
abbrev main_v61 : Ref sig .tc := ⟨.hbm, 173, rfl⟩
abbrev main_v62 : Ref sig .tc := ⟨.hbm, 174, rfl⟩
abbrev main_v63 : Ref sig .tc := ⟨.hbm, 175, rfl⟩
abbrev main_v64 : Ref sig .tc := ⟨.hbm, 176, rfl⟩
abbrev main_v65 : Ref sig .tc := ⟨.hbm, 177, rfl⟩
abbrev main_v66 : Ref sig .tc := ⟨.hbm, 178, rfl⟩
abbrev main_v67 : Ref sig .tc := ⟨.hbm, 179, rfl⟩
abbrev main_v68 : Ref sig .tc := ⟨.hbm, 180, rfl⟩
abbrev main_v69 : Ref sig .tc := ⟨.hbm, 181, rfl⟩
abbrev main_v70 : Ref sig .tc := ⟨.hbm, 182, rfl⟩
abbrev main_v71 : Ref sig .tc := ⟨.hbm, 183, rfl⟩
abbrev main_v72 : Ref sig .tc := ⟨.hbm, 184, rfl⟩
abbrev main_v73 : Ref sig .tc := ⟨.hbm, 185, rfl⟩
abbrev main_v74 : Ref sig .tc := ⟨.hbm, 186, rfl⟩
abbrev main_v75 : Ref sig .tc := ⟨.hbm, 187, rfl⟩
abbrev main_v76 : Ref sig .tc := ⟨.hbm, 188, rfl⟩
abbrev main_v77 : Ref sig .tc := ⟨.hbm, 189, rfl⟩
abbrev main_cst_3 : Ref sig .tc := ⟨.hbm, 190, rfl⟩
abbrev main_v78 : Ref sig .tc := ⟨.hbm, 191, rfl⟩
abbrev main_v79 : Ref sig .tc := ⟨.hbm, 192, rfl⟩
abbrev main_v80 : Ref sig .tc := ⟨.hbm, 193, rfl⟩
abbrev main_v81 : Ref sig .tc := ⟨.hbm, 194, rfl⟩
abbrev main_v82 : Ref sig .tc := ⟨.hbm, 195, rfl⟩
abbrev main_v83 : Ref sig .tc := ⟨.hbm, 196, rfl⟩
abbrev main_v84 : Ref sig .tc := ⟨.hbm, 197, rfl⟩
abbrev main_v85 : Ref sig .tc := ⟨.hbm, 198, rfl⟩
abbrev main_v86 : Ref sig .tc := ⟨.hbm, 199, rfl⟩
abbrev main_v87 : Ref sig .tc := ⟨.hbm, 200, rfl⟩
abbrev main_v88 : Ref sig .tc := ⟨.hbm, 201, rfl⟩
abbrev main_v89 : Ref sig .tc := ⟨.hbm, 202, rfl⟩
abbrev main_v90 : Ref sig .tc := ⟨.hbm, 203, rfl⟩
abbrev main_v91 : Ref sig .tc := ⟨.hbm, 204, rfl⟩
abbrev main_v92 : Ref sig .tc := ⟨.hbm, 205, rfl⟩
abbrev main_v93 : Ref sig .tc := ⟨.hbm, 206, rfl⟩
abbrev main_v94 : Ref sig .tc := ⟨.hbm, 207, rfl⟩
abbrev main_v95 : Ref sig .tc := ⟨.hbm, 208, rfl⟩
abbrev main_call4_c : Ref sig .tc := ⟨.hbm, 209, rfl⟩
abbrev main_call4_v0 : Ref sig .tc := ⟨.hbm, 210, rfl⟩
abbrev main_call4_v1 : Ref sig .tc := ⟨.hbm, 211, rfl⟩
abbrev main_call4_c_0 : Ref sig .tc := ⟨.hbm, 212, rfl⟩
abbrev main_call4_v2 : Ref sig .tc := ⟨.hbm, 213, rfl⟩
abbrev main_call4_v3 : Ref sig .tc := ⟨.hbm, 214, rfl⟩
abbrev main_call4_v4 : Ref sig .tc := ⟨.hbm, 215, rfl⟩
abbrev main_call4_v5 : Ref sig .tc := ⟨.hbm, 216, rfl⟩
abbrev main_call4_c_1 : Ref sig .tc := ⟨.hbm, 217, rfl⟩
abbrev main_call4_c_2 : Ref sig .tc := ⟨.hbm, 218, rfl⟩
abbrev main_call4_v6 : Ref sig .tc := ⟨.hbm, 219, rfl⟩
abbrev main_call4_v7 : Ref sig .tc := ⟨.hbm, 220, rfl⟩
abbrev main_call4_v8 : Ref sig .tc := ⟨.hbm, 221, rfl⟩
abbrev main_call4_v9 : Ref sig .tc := ⟨.hbm, 222, rfl⟩
abbrev main_call4_v10 : Ref sig .tc := ⟨.hbm, 223, rfl⟩
abbrev main_call4_v11 : Ref sig .tc := ⟨.hbm, 224, rfl⟩
abbrev main_call4_c_3 : Ref sig .tc := ⟨.hbm, 225, rfl⟩
abbrev main_call4_v12 : Ref sig .tc := ⟨.hbm, 226, rfl⟩
abbrev main_call4_v13 : Ref sig .tc := ⟨.hbm, 227, rfl⟩
abbrev main_call4_v14 : Ref sig .tc := ⟨.hbm, 228, rfl⟩
abbrev main_call4_cst : Ref sig .tc := ⟨.hbm, 229, rfl⟩
abbrev main_call4_v15 : Ref sig .tc := ⟨.hbm, 230, rfl⟩
abbrev main_v96 : Ref sig .tc := ⟨.hbm, 231, rfl⟩
abbrev main_call5_c : Ref sig .tc := ⟨.hbm, 232, rfl⟩
abbrev main_call5_v0 : Ref sig .tc := ⟨.hbm, 233, rfl⟩
abbrev main_call5_v1 : Ref sig .tc := ⟨.hbm, 234, rfl⟩
abbrev main_call5_c_0 : Ref sig .tc := ⟨.hbm, 235, rfl⟩
abbrev main_call5_v2 : Ref sig .tc := ⟨.hbm, 236, rfl⟩
abbrev main_call5_v3 : Ref sig .tc := ⟨.hbm, 237, rfl⟩
abbrev main_call5_v4 : Ref sig .tc := ⟨.hbm, 238, rfl⟩
abbrev main_call5_v5 : Ref sig .tc := ⟨.hbm, 239, rfl⟩
abbrev main_call5_c_1 : Ref sig .tc := ⟨.hbm, 240, rfl⟩
abbrev main_call5_c_2 : Ref sig .tc := ⟨.hbm, 241, rfl⟩
abbrev main_call5_v6 : Ref sig .tc := ⟨.hbm, 242, rfl⟩
abbrev main_call5_v7 : Ref sig .tc := ⟨.hbm, 243, rfl⟩
abbrev main_call5_v8 : Ref sig .tc := ⟨.hbm, 244, rfl⟩
abbrev main_call5_v9 : Ref sig .tc := ⟨.hbm, 245, rfl⟩
abbrev main_call5_v10 : Ref sig .tc := ⟨.hbm, 246, rfl⟩
abbrev main_call5_v11 : Ref sig .tc := ⟨.hbm, 247, rfl⟩
abbrev main_call5_c_3 : Ref sig .tc := ⟨.hbm, 248, rfl⟩
abbrev main_call5_v12 : Ref sig .tc := ⟨.hbm, 249, rfl⟩
abbrev main_call5_v13 : Ref sig .tc := ⟨.hbm, 250, rfl⟩
abbrev main_call5_v14 : Ref sig .tc := ⟨.hbm, 251, rfl⟩
abbrev main_call5_cst : Ref sig .tc := ⟨.hbm, 252, rfl⟩
abbrev main_call5_v15 : Ref sig .tc := ⟨.hbm, 253, rfl⟩
abbrev main_v97 : Ref sig .tc := ⟨.hbm, 254, rfl⟩
abbrev main_v98 : Ref sig .tc := ⟨.hbm, 255, rfl⟩
abbrev main_v99 : Ref sig .tc := ⟨.hbm, 256, rfl⟩
abbrev main_v100 : Ref sig .tc := ⟨.hbm, 257, rfl⟩
abbrev main_v101 : Ref sig .tc := ⟨.hbm, 258, rfl⟩
abbrev main_v102 : Ref sig .tc := ⟨.hbm, 259, rfl⟩
abbrev main_v103 : Ref sig .tc := ⟨.hbm, 260, rfl⟩
abbrev main_v104 : Ref sig .tc := ⟨.hbm, 261, rfl⟩
abbrev main_v105 : Ref sig .tc := ⟨.hbm, 262, rfl⟩
abbrev main_v106 : Ref sig .tc := ⟨.hbm, 263, rfl⟩
abbrev main_v107 : Ref sig .tc := ⟨.hbm, 264, rfl⟩
abbrev main_v108 : Ref sig .tc := ⟨.hbm, 265, rfl⟩
abbrev main_v109 : Ref sig .tc := ⟨.hbm, 266, rfl⟩
abbrev main_v110 : Ref sig .tc := ⟨.hbm, 267, rfl⟩
abbrev main_v111 : Ref sig .tc := ⟨.hbm, 268, rfl⟩
abbrev main_v112 : Ref sig .tc := ⟨.hbm, 269, rfl⟩
abbrev main_v113 : Ref sig .tc := ⟨.hbm, 270, rfl⟩
abbrev main_v114 : Ref sig .tc := ⟨.hbm, 271, rfl⟩
abbrev main_v115 : Ref sig .tc := ⟨.hbm, 272, rfl⟩
abbrev main_v116 : Ref sig .tc := ⟨.hbm, 273, rfl⟩
abbrev main_v117 : Ref sig .tc := ⟨.hbm, 274, rfl⟩
abbrev main_cst_4 : Ref sig .tc := ⟨.hbm, 275, rfl⟩
abbrev main_v118 : Ref sig .tc := ⟨.hbm, 276, rfl⟩
abbrev main_v119 : Ref sig .tc := ⟨.hbm, 277, rfl⟩
abbrev main_v120 : Ref sig .tc := ⟨.hbm, 278, rfl⟩
abbrev main_v121 : Ref sig .tc := ⟨.hbm, 279, rfl⟩
abbrev main_v122 : Ref sig .tc := ⟨.hbm, 280, rfl⟩
abbrev main_v123 : Ref sig .tc := ⟨.hbm, 281, rfl⟩
abbrev main_v124 : Ref sig .tc := ⟨.hbm, 282, rfl⟩
abbrev main_v125 : Ref sig .tc := ⟨.hbm, 283, rfl⟩
abbrev main_v126 : Ref sig .tc := ⟨.hbm, 284, rfl⟩
abbrev main_v127 : Ref sig .tc := ⟨.hbm, 285, rfl⟩
abbrev main_v128 : Ref sig .tc := ⟨.hbm, 286, rfl⟩
abbrev main_v129 : Ref sig .tc := ⟨.hbm, 287, rfl⟩
abbrev main_v130 : Ref sig .tc := ⟨.hbm, 288, rfl⟩
abbrev main_v131 : Ref sig .tc := ⟨.hbm, 289, rfl⟩
abbrev main_v132 : Ref sig .tc := ⟨.hbm, 290, rfl⟩
abbrev main_v133 : Ref sig .tc := ⟨.hbm, 291, rfl⟩
abbrev main_v134 : Ref sig .tc := ⟨.hbm, 292, rfl⟩
abbrev main_v135 : Ref sig .tc := ⟨.hbm, 293, rfl⟩
abbrev main_v136 : Ref sig .tc := ⟨.hbm, 294, rfl⟩
abbrev main_v137 : Ref sig .tc := ⟨.hbm, 295, rfl⟩
abbrev main_v138 : Ref sig .tc := ⟨.hbm, 296, rfl⟩
abbrev main_v139 : Ref sig .tc := ⟨.hbm, 297, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg8_0 : Ref sig .tc := ⟨.vmem, 16, rfl⟩
abbrev cc1_stg9_0 : Ref sig .tc := ⟨.vmem, 17, rfl⟩
abbrev cc1_stg9_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg6_0 : Ref sig .tc := ⟨.vmem, 27, rfl⟩
abbrev cc2_stg6_1 : Ref sig .tc := ⟨.vmem, 28, rfl⟩
abbrev cc3_stg0_0 : Ref sig .tc := ⟨.vmem, 29, rfl⟩
abbrev cc3_stg0_1 : Ref sig .tc := ⟨.vmem, 30, rfl⟩
abbrev cc3_stg1_0 : Ref sig .tc := ⟨.vmem, 31, rfl⟩
abbrev cc3_stg1_1 : Ref sig .tc := ⟨.vmem, 32, rfl⟩
abbrev cc3_stg2_0 : Ref sig .tc := ⟨.vmem, 33, rfl⟩
abbrev cc3_stg3_0 : Ref sig .tc := ⟨.vmem, 34, rfl⟩
abbrev cc3_stg4_0 : Ref sig .tc := ⟨.vmem, 35, rfl⟩
abbrev cc3_stg5_0 : Ref sig .tc := ⟨.vmem, 36, rfl⟩
abbrev cc3_stg6_0 : Ref sig .tc := ⟨.vmem, 37, rfl⟩
abbrev cc3_stg7_0 : Ref sig .tc := ⟨.vmem, 38, rfl⟩
abbrev cc3_stg8_0 : Ref sig .tc := ⟨.vmem, 39, rfl⟩
abbrev cc3_stg9_0 : Ref sig .tc := ⟨.vmem, 40, rfl⟩
abbrev cc3_stg9_1 : Ref sig .tc := ⟨.vmem, 41, rfl⟩
abbrev cc4_stg0_0 : Ref sig .tc := ⟨.vmem, 42, rfl⟩
abbrev cc4_stg0_1 : Ref sig .tc := ⟨.vmem, 43, rfl⟩
abbrev cc4_stg1_0 : Ref sig .tc := ⟨.vmem, 44, rfl⟩
abbrev cc4_stg1_1 : Ref sig .tc := ⟨.vmem, 45, rfl⟩
abbrev cc4_stg2_0 : Ref sig .tc := ⟨.vmem, 46, rfl⟩
abbrev cc4_stg3_0 : Ref sig .tc := ⟨.vmem, 47, rfl⟩
abbrev cc4_stg4_0 : Ref sig .tc := ⟨.vmem, 48, rfl⟩
abbrev cc4_stg5_0 : Ref sig .tc := ⟨.vmem, 49, rfl⟩
abbrev cc4_stg6_0 : Ref sig .tc := ⟨.vmem, 50, rfl⟩
abbrev cc4_stg6_1 : Ref sig .tc := ⟨.vmem, 51, rfl⟩
abbrev cc5_stg0_0 : Ref sig .tc := ⟨.vmem, 52, rfl⟩
abbrev cc5_stg0_1 : Ref sig .tc := ⟨.vmem, 53, rfl⟩
abbrev cc5_stg1_0 : Ref sig .tc := ⟨.vmem, 54, rfl⟩
abbrev cc5_stg1_1 : Ref sig .tc := ⟨.vmem, 55, rfl⟩
abbrev cc5_stg2_0 : Ref sig .tc := ⟨.vmem, 56, rfl⟩
abbrev cc5_stg3_0 : Ref sig .tc := ⟨.vmem, 57, rfl⟩
abbrev cc5_stg4_0 : Ref sig .tc := ⟨.vmem, 58, rfl⟩
abbrev cc5_stg5_0 : Ref sig .tc := ⟨.vmem, 59, rfl⟩
abbrev cc5_stg6_0 : Ref sig .tc := ⟨.vmem, 60, rfl⟩
abbrev cc5_stg7_0 : Ref sig .tc := ⟨.vmem, 61, rfl⟩
abbrev cc5_stg8_0 : Ref sig .tc := ⟨.vmem, 62, rfl⟩
abbrev cc5_stg9_0 : Ref sig .tc := ⟨.vmem, 63, rfl⟩
abbrev cc5_stg9_1 : Ref sig .tc := ⟨.vmem, 64, rfl⟩
abbrev cc6_stg0_0 : Ref sig .tc := ⟨.vmem, 65, rfl⟩
abbrev cc6_stg0_1 : Ref sig .tc := ⟨.vmem, 66, rfl⟩
abbrev cc6_stg1_0 : Ref sig .tc := ⟨.vmem, 67, rfl⟩
abbrev cc6_stg1_1 : Ref sig .tc := ⟨.vmem, 68, rfl⟩
abbrev cc6_stg2_0 : Ref sig .tc := ⟨.vmem, 69, rfl⟩
abbrev cc6_stg3_0 : Ref sig .tc := ⟨.vmem, 70, rfl⟩
abbrev cc6_stg4_0 : Ref sig .tc := ⟨.vmem, 71, rfl⟩
abbrev cc6_stg5_0 : Ref sig .tc := ⟨.vmem, 72, rfl⟩
abbrev cc6_stg6_0 : Ref sig .tc := ⟨.vmem, 73, rfl⟩
abbrev cc6_stg6_1 : Ref sig .tc := ⟨.vmem, 74, rfl⟩
abbrev cc7_stg0_0 : Ref sig .tc := ⟨.vmem, 75, rfl⟩
abbrev cc7_stg0_1 : Ref sig .tc := ⟨.vmem, 76, rfl⟩
abbrev cc7_stg1_0 : Ref sig .tc := ⟨.vmem, 77, rfl⟩
abbrev cc7_stg2_0 : Ref sig .tc := ⟨.vmem, 78, rfl⟩
abbrev cc7_stg3_0 : Ref sig .tc := ⟨.vmem, 79, rfl⟩
abbrev cc7_stg4_0 : Ref sig .tc := ⟨.vmem, 80, rfl⟩
abbrev cc7_stg5_0 : Ref sig .tc := ⟨.vmem, 81, rfl⟩
abbrev cc7_stg6_0 : Ref sig .tc := ⟨.vmem, 82, rfl⟩
abbrev cc7_stg7_0 : Ref sig .tc := ⟨.vmem, 83, rfl⟩
abbrev cc7_stg7_1 : Ref sig .tc := ⟨.vmem, 84, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem8_0 : DmaSem sig := 16
abbrev cc1_sem9_0 : DmaSem sig := 17
abbrev cc1_sem9_1 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem3_0 : DmaSem sig := 24
abbrev cc2_sem4_0 : DmaSem sig := 25
abbrev cc2_sem5_0 : DmaSem sig := 26
abbrev cc2_sem6_0 : DmaSem sig := 27
abbrev cc2_sem6_1 : DmaSem sig := 28
abbrev cc3_sem0_0 : DmaSem sig := 29
abbrev cc3_sem0_1 : DmaSem sig := 30
abbrev cc3_sem1_0 : DmaSem sig := 31
abbrev cc3_sem1_1 : DmaSem sig := 32
abbrev cc3_sem2_0 : DmaSem sig := 33
abbrev cc3_sem3_0 : DmaSem sig := 34
abbrev cc3_sem4_0 : DmaSem sig := 35
abbrev cc3_sem5_0 : DmaSem sig := 36
abbrev cc3_sem6_0 : DmaSem sig := 37
abbrev cc3_sem7_0 : DmaSem sig := 38
abbrev cc3_sem8_0 : DmaSem sig := 39
abbrev cc3_sem9_0 : DmaSem sig := 40
abbrev cc3_sem9_1 : DmaSem sig := 41
abbrev cc4_sem0_0 : DmaSem sig := 42
abbrev cc4_sem0_1 : DmaSem sig := 43
abbrev cc4_sem1_0 : DmaSem sig := 44
abbrev cc4_sem1_1 : DmaSem sig := 45
abbrev cc4_sem2_0 : DmaSem sig := 46
abbrev cc4_sem3_0 : DmaSem sig := 47
abbrev cc4_sem4_0 : DmaSem sig := 48
abbrev cc4_sem5_0 : DmaSem sig := 49
abbrev cc4_sem6_0 : DmaSem sig := 50
abbrev cc4_sem6_1 : DmaSem sig := 51
abbrev cc5_sem0_0 : DmaSem sig := 52
abbrev cc5_sem0_1 : DmaSem sig := 53
abbrev cc5_sem1_0 : DmaSem sig := 54
abbrev cc5_sem1_1 : DmaSem sig := 55
abbrev cc5_sem2_0 : DmaSem sig := 56
abbrev cc5_sem3_0 : DmaSem sig := 57
abbrev cc5_sem4_0 : DmaSem sig := 58
abbrev cc5_sem5_0 : DmaSem sig := 59
abbrev cc5_sem6_0 : DmaSem sig := 60
abbrev cc5_sem7_0 : DmaSem sig := 61
abbrev cc5_sem8_0 : DmaSem sig := 62
abbrev cc5_sem9_0 : DmaSem sig := 63
abbrev cc5_sem9_1 : DmaSem sig := 64
abbrev cc6_sem0_0 : DmaSem sig := 65
abbrev cc6_sem0_1 : DmaSem sig := 66
abbrev cc6_sem1_0 : DmaSem sig := 67
abbrev cc6_sem1_1 : DmaSem sig := 68
abbrev cc6_sem2_0 : DmaSem sig := 69
abbrev cc6_sem3_0 : DmaSem sig := 70
abbrev cc6_sem4_0 : DmaSem sig := 71
abbrev cc6_sem5_0 : DmaSem sig := 72
abbrev cc6_sem6_0 : DmaSem sig := 73
abbrev cc6_sem6_1 : DmaSem sig := 74
abbrev cc7_sem0_0 : DmaSem sig := 75
abbrev cc7_sem0_1 : DmaSem sig := 76
abbrev cc7_sem1_0 : DmaSem sig := 77
abbrev cc7_sem2_0 : DmaSem sig := 78
abbrev cc7_sem3_0 : DmaSem sig := 79
abbrev cc7_sem4_0 : DmaSem sig := 80
abbrev cc7_sem5_0 : DmaSem sig := 81
abbrev cc7_sem6_0 : DmaSem sig := 82
abbrev cc7_sem7_0 : DmaSem sig := 83
abbrev cc7_sem7_1 : DmaSem sig := 84

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![170], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S32x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S32x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S64x32 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x32 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S5000x32 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x32 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S32x96 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S32x96 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x96 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x96 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2000x32 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![170], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x32 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S32x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S32x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S64x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x64 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S64x32 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x32 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 2 → Memref sig .tc .vmem S5000x32 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x32 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x32 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S32x96 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S32x96 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x96 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x96 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S2000x32 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨1, ![170], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_8 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_9 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x32 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x32 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S32x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S32x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S64x64 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x64 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S64x32 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev stage5_8 : Fin 1 → Memref sig .tc .vmem S1x32 .f32 := fun | 0 => Memref.whole cc5_stg8_0 | ⟨_ + 1, h⟩ => absurd h (Nat.not_lt.2 (Nat.le_add_left _ _))
abbrev sem5_8 : Fin 1 → DmaSem sig := fun | 0 => cc5_sem8_0 | ⟨_ + 1, h⟩ => absurd h (Nat.not_lt.2 (Nat.le_add_left _ _))
abbrev reads5_8 : Fin grid5.rank → Bool := ![false]

abbrev stage5_9 : Fin 2 → Memref sig .tc .vmem S5000x32 .f32 := fun | 0 => Memref.whole cc5_stg9_0 | 1 => Memref.whole cc5_stg9_1 | ⟨_ + 2, h⟩ => absurd h (Nat.not_lt.2 (Nat.le_add_left _ _))
abbrev sem5_9 : Fin 2 → DmaSem sig := fun | 0 => cc5_sem9_0 | 1 => cc5_sem9_1 | ⟨_ + 2, h⟩ => absurd h (Nat.not_lt.2 (Nat.le_add_left _ _))
abbrev reads5_9 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x32 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S2000x32 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S32x96 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S32x96 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x96 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S1x96 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 2 → Memref sig .tc .vmem S2000x32 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_7 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x32 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S32x64 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x64 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S64x64 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x64 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S64x8 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 1 → Memref sig .tc .vmem S1x8 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

abbrev stage7_7 : Fin 2 → Memref sig .tc .vmem S5000x8 .f32 := fun | 0 => Memref.whole cc7_stg7_0 | 1 => Memref.whole cc7_stg7_1 | ⟨_ + 2, h⟩ => absurd h (Nat.not_lt.2 (Nat.le_add_left _ _))
abbrev sem7_7 : Fin 2 → DmaSem sig := fun | 0 => cc7_sem7_0 | 1 => cc7_sem7_1 | ⟨_ + 2, h⟩ => absurd h (Nat.not_lt.2 (Nat.le_add_left _ _))
abbrev reads7_7 : Fin grid7.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S50000_S50000x1_0 : S50000.BroadcastsInDim S50000x1 (![0] : Fin 1 → Fin S50000x1.rank)
  shapeCasts_S32_S1x32 : S32.ShapeCasts S1x32
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  inb_S10000x32_S10000x32_0_0 : ∀ a, (![0, 0] : Fin 2 → Nat) a + S10000x32.size a ≤ S10000x32.size a
  h_S10000x32 : 0 < S10000x32.numel
  bcast_S_S850000x1 : S_.BroadcastsInDim S850000x1 (![] : Fin 0 → Fin S850000x1.rank)
  bcast_S1_S1x1_1 : S1.BroadcastsInDim S1x1 (![1] : Fin 1 → Fin S1x1.rank)
  bcast_S1x1_S850000x1_0_1 : S1x1.BroadcastsInDim S850000x1 (![0, 1] : Fin 2 → Fin S850000x1.rank)
  reducesTo_S850000x1_S850000_d1 : S850000x1.ReducesTo [1] S850000
  h_S_ : 0 < S_.numel
  bcast_S850000_S850000x32_0 : S850000.BroadcastsInDim S850000x32 (![0] : Fin 1 → Fin S850000x32.rank)
  bcast_S_S850000x32 : S_.BroadcastsInDim S850000x32 (![] : Fin 0 → Fin S850000x32.rank)
  slices_S3x64x64_S1x64x64_0_0_0 : S3x64x64.Slices ![0, 0, 0] S1x64x64
  shapeCasts_S1x64x64_S64x64 : S1x64x64.ShapeCasts S64x64
  slices_S64x64_S32x64_0_0 : S64x64.Slices ![0, 0] S32x64
  slices_S64x64_S32x64_32_0 : S64x64.Slices ![32, 0] S32x64
  slices_S3x64_S1x64_0_0 : S3x64.Slices ![0, 0] S1x64
  shapeCasts_S1x64_S64 : S1x64.ShapeCasts S64
  shapeCasts_S64_S1x64 : S64.ShapeCasts S1x64
  slices_S3x64x32_S1x64x32_0_0_0 : S3x64x32.Slices ![0, 0, 0] S1x64x32
  shapeCasts_S1x64x32_S64x32 : S1x64x32.ShapeCasts S64x32
  slices_S3x32_S1x32_0_0 : S3x32.Slices ![0, 0] S1x32
  shapeCasts_S1x32_S32 : S1x32.ShapeCasts S32
  inb_S5000x32_S5000x32_0_0 : ∀ a, (![0, 0] : Fin 2 → Nat) a + S5000x32.size a ≤ S5000x32.size a
  h_S5000x32 : 0 < S5000x32.numel
  shapeCasts_S5000x32_S5000x32 : S5000x32.ShapeCasts S5000x32
  inb_S32x64_S32x64_0_0 : ∀ a, (![0, 0] : Fin 2 → Nat) a + S32x64.size a ≤ S32x64.size a
  h_S32x64 : 0 < S32x64.numel
  shapeCasts_S32x64_S32x64 : S32x64.ShapeCasts S32x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  shapeCasts_S64x32_S64x32 : S64x32.ShapeCasts S64x32
  broadcasts_S1x32_S5000x32 : S1x32.Broadcasts S5000x32
  bcast_S_S50000x32 : S_.BroadcastsInDim S50000x32 (![] : Fin 0 → Fin S50000x32.rank)
  bcast_S50000x1_S50000x32_0_1 : S50000x1.BroadcastsInDim S50000x32 (![0, 1] : Fin 2 → Fin S50000x32.rank)
  slices_S3x96x32_S1x96x32_0_0_0 : S3x96x32.Slices ![0, 0, 0] S1x96x32
  shapeCasts_S1x96x32_S96x32 : S1x96x32.ShapeCasts S96x32
  transposes_S96x32_S32x96_1_0 : S96x32.Transposes [1, 0] S32x96
  slices_S3x96_S1x96_0_0 : S3x96.Slices ![0, 0] S1x96
  shapeCasts_S1x96_S96 : S1x96.ShapeCasts S96
  shapeCasts_S96_S1x96 : S96.ShapeCasts S1x96
  inb_S2000x32_S2000x32_0_0 : ∀ a, (![0, 0] : Fin 2 → Nat) a + S2000x32.size a ≤ S2000x32.size a
  h_S2000x32 : 0 < S2000x32.numel
  shapeCasts_S2000x32_S2000x32 : S2000x32.ShapeCasts S2000x32
  inb_S32x96_S32x96_0_0 : ∀ a, (![0, 0] : Fin 2 → Nat) a + S32x96.size a ≤ S32x96.size a
  h_S32x96 : 0 < S32x96.numel
  shapeCasts_S32x96_S32x96 : S32x96.ShapeCasts S32x96
  inb_S1x96_S1x96_0_0 : ∀ a, (![0, 0] : Fin 2 → Nat) a + S1x96.size a ≤ S1x96.size a
  h_S1x96 : 0 < S1x96.numel
  shapeCasts_S1x96_S1x96 : S1x96.ShapeCasts S1x96
  broadcasts_S1x96_S2000x96 : S1x96.Broadcasts S2000x96
  slices_S2000x96_o0_0_S2000x32 : S2000x96.Slices ![0, 0] S2000x32
  slices_S2000x96_o0_32_S2000x32 : S2000x96.Slices ![0, 32] S2000x32
  slices_S2000x96_o0_64_S2000x32 : S2000x96.Slices ![0, 64] S2000x32
  slices_S3x64x64_S1x64x64_1_0_0 : S3x64x64.Slices ![1, 0, 0] S1x64x64
  slices_S3x64_S1x64_1_0 : S3x64.Slices ![1, 0] S1x64
  slices_S3x64x32_S1x64x32_1_0_0 : S3x64x32.Slices ![1, 0, 0] S1x64x32
  slices_S3x32_S1x32_1_0 : S3x32.Slices ![1, 0] S1x32
  slices_S3x96x32_S1x96x32_1_0_0 : S3x96x32.Slices ![1, 0, 0] S1x96x32
  slices_S3x96_S1x96_1_0 : S3x96.Slices ![1, 0] S1x96
  slices_S3x64x64_S1x64x64_2_0_0 : S3x64x64.Slices ![2, 0, 0] S1x64x64
  slices_S3x64_S1x64_2_0 : S3x64.Slices ![2, 0] S1x64
  slices_S3x64x32_S1x64x32_2_0_0 : S3x64x32.Slices ![2, 0, 0] S1x64x32
  slices_S3x32_S1x32_2_0 : S3x32.Slices ![2, 0] S1x32
  slices_S3x96x32_S1x96x32_2_0_0 : S3x96x32.Slices ![2, 0, 0] S1x96x32
  slices_S3x96_S1x96_2_0 : S3x96.Slices ![2, 0] S1x96
  shapeCasts_S8_S1x8 : S8.ShapeCasts S1x8
  inb_S64x8_S64x8_0_0 : ∀ a, (![0, 0] : Fin 2 → Nat) a + S64x8.size a ≤ S64x8.size a
  h_S64x8 : 0 < S64x8.numel
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S5000x8 : S1x8.Broadcasts S5000x8
  inb_S5000x8_S5000x8_0_0 : ∀ a, (![0, 0] : Fin 2 → Nat) a + S5000x8.size a ≤ S5000x8.size a
  h_S5000x8 : 0 < S5000x8.numel
  scatter_S50000_S850000x1_S850000_n_0_0_1_wf : ScatterDims.WF S50000 S850000x1 S850000 [] [0] [0] 1
  dot_S10000x64_S64x32_S10000x32_1_0_0_1_n_n_wf : DotDims.WF S10000x64 S64x32 S10000x32 [1] [0] [0] [1] [] []
  gather_S50000x32_S850000x1_S850000x32_1_0_n_n_0_1_132_wf : GatherDims.WF S50000x32 S850000x1 S850000x32 [1] [0] [] [0] [] 1 ![1, 32]
  dot_S5000x32_S32x64_S5000x64_1_0_0_1_n_n_wf : DotDims.WF S5000x32 S32x64 S5000x64 [1] [0] [0] [1] [] []
  dot_S5000x64_S64x64_S5000x64_1_0_0_1_n_n_wf : DotDims.WF S5000x64 S64x64 S5000x64 [1] [0] [0] [1] [] []
  dot_S5000x64_S64x32_S5000x32_1_0_0_1_n_n_wf : DotDims.WF S5000x64 S64x32 S5000x32 [1] [0] [0] [1] [] []
  scatter_S50000x32_S850000x1_S850000x32_1_0_0_1_wf : ScatterDims.WF S50000x32 S850000x1 S850000x32 [1] [0] [0] 1
  dot_S2000x32_S32x96_S2000x96_1_0_0_1_n_n_wf : DotDims.WF S2000x32 S32x96 S2000x96 [1] [0] [0] [1] [] []
  dot_S5000x64_S64x8_S5000x8_1_0_0_1_n_n_wf : DotDims.WF S5000x64 S64x8 S5000x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S50000x64.size a
  hwx0_0 : ∀ i : grid0.Coords, EltTy.bits .f32 = 32 ∨ (Rect.block (s := S50000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x32.size a ≤ S64x32.size a
  hwx0_1 : ∀ i : grid0.Coords, EltTy.bits .f32 = 32 ∨ (Rect.block (s := S64x32) S64x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x32.size a ≤ S50000x32.size a
  hwx0_3 : ∀ i : grid0.Coords, EltTy.bits .f32 = 32 ∨ (Rect.block (s := S50000x32) S10000x32.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x32.size a ≤ S850000x32.size a
  hwx1_0 : ∀ i : grid1.Coords, EltTy.bits .f32 = 32 ∨ (Rect.block (s := S850000x32) S5000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x32.size a ≤ S850000x32.size a
  hwx1_1 : ∀ i : grid1.Coords, EltTy.bits .f32 = 32 ∨ (Rect.block (s := S850000x32) S5000x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x64.size a ≤ S32x64.size a
  hwx1_2 : ∀ i : grid1.Coords, EltTy.bits .f32 = 32 ∨ (Rect.block (s := S32x64) S32x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32x64.size a ≤ S32x64.size a
  hwx1_3 : ∀ i : grid1.Coords, EltTy.bits .f32 = 32 ∨ (Rect.block (s := S32x64) S32x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .f32 = 32 ∨ (Rect.block (s := S64x64) S64x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S64x32.size a ≤ S64x32.size a
  hwx1_7 : ∀ i : grid1.Coords, EltTy.bits .f32 = 32 ∨ (Rect.block (s := S64x32) S64x32.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x32.size a ≤ S1x32.size a
  hwx1_8 : ∀ i : grid1.Coords, EltTy.bits .f32 = 32 ∨ (Rect.block (s := S1x32) S1x32.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S5000x32.size a ≤ S850000x32.size a
  hwx1_9 : ∀ i : grid1.Coords, EltTy.bits .f32 = 32 ∨ (Rect.block (s := S850000x32) S5000x32.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x32.size a ≤ S50000x32.size a
  hwx2_0 : ∀ i : grid2.Coords, EltTy.bits .f32 = 32 ∨ (Rect.block (s := S50000x32) S2000x32.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x32.size a ≤ S50000x32.size a
  hwx2_1 : ∀ i : grid2.Coords, EltTy.bits .f32 = 32 ∨ (Rect.block (s := S50000x32) S2000x32.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S32x96.size a ≤ S32x96.size a
  hwx2_2 : ∀ i : grid2.Coords, EltTy.bits .f32 = 32 ∨ (Rect.block (s := S32x96) S32x96.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S32x96.size a ≤ S32x96.size a
  hwx2_3 : ∀ i : grid2.Coords, EltTy.bits .f32 = 32 ∨ (Rect.block (s := S32x96) S32x96.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x96.size a ≤ S1x96.size a
  hwx2_4 : ∀ i : grid2.Coords, EltTy.bits .f32 = 32 ∨ (Rect.block (s := S1x96) S1x96.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x96.size a ≤ S1x96.size a
  hwx2_5 : ∀ i : grid2.Coords, EltTy.bits .f32 = 32 ∨ (Rect.block (s := S1x96) S1x96.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x32.size a ≤ S50000x32.size a
  hwx2_6 : ∀ i : grid2.Coords, EltTy.bits .f32 = 32 ∨ (Rect.block (s := S50000x32) S2000x32.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x32.size a ≤ S850000x32.size a
  hwx3_0 : ∀ i : grid3.Coords, EltTy.bits .f32 = 32 ∨ (Rect.block (s := S850000x32) S5000x32.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x32.size a ≤ S850000x32.size a
  hwx3_1 : ∀ i : grid3.Coords, EltTy.bits .f32 = 32 ∨ (Rect.block (s := S850000x32) S5000x32.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S32x64.size a ≤ S32x64.size a
  hwx3_2 : ∀ i : grid3.Coords, EltTy.bits .f32 = 32 ∨ (Rect.block (s := S32x64) S32x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S32x64.size a ≤ S32x64.size a
  hwx3_3 : ∀ i : grid3.Coords, EltTy.bits .f32 = 32 ∨ (Rect.block (s := S32x64) S32x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S64x64.size a ≤ S64x64.size a
  hwx3_5 : ∀ i : grid3.Coords, EltTy.bits .f32 = 32 ∨ (Rect.block (s := S64x64) S64x64.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x64.size a ≤ S1x64.size a
  hwx3_6 : ∀ i : grid3.Coords, EltTy.bits .f32 = 32 ∨ (Rect.block (s := S1x64) S1x64.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S64x32.size a ≤ S64x32.size a
  hwx3_7 : ∀ i : grid3.Coords, EltTy.bits .f32 = 32 ∨ (Rect.block (s := S64x32) S64x32.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S1x32.size a ≤ S1x32.size a
  hwx3_8 : ∀ i : grid3.Coords, EltTy.bits .f32 = 32 ∨ (Rect.block (s := S1x32) S1x32.size (cc3_transform_8 i) (hinb3_8 i)).WholeWords (EltTy.packing .f32)
  hstage3_9 : ∀ j, (stage3_9 j).IsWhole
  nbuf3_9 : grid3.bufCount reads3_9 false = 2
  hreads3_9 : ∀ i i' : grid3.Coords, (∀ a, reads3_9 a = true → i a = i' a) → cc3_transform_9 i = cc3_transform_9 i'
  hinb3_9 : ∀ (i : grid3.Coords) a, (cc3_transform_9 i a + 1) * S5000x32.size a ≤ S850000x32.size a
  hwx3_9 : ∀ i : grid3.Coords, EltTy.bits .f32 = 32 ∨ (Rect.block (s := S850000x32) S5000x32.size (cc3_transform_9 i) (hinb3_9 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x32.size a ≤ S50000x32.size a
  hwx4_0 : ∀ i : grid4.Coords, EltTy.bits .f32 = 32 ∨ (Rect.block (s := S50000x32) S2000x32.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x32.size a ≤ S50000x32.size a
  hwx4_1 : ∀ i : grid4.Coords, EltTy.bits .f32 = 32 ∨ (Rect.block (s := S50000x32) S2000x32.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S32x96.size a ≤ S32x96.size a
  hwx4_2 : ∀ i : grid4.Coords, EltTy.bits .f32 = 32 ∨ (Rect.block (s := S32x96) S32x96.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S32x96.size a ≤ S32x96.size a
  hwx4_3 : ∀ i : grid4.Coords, EltTy.bits .f32 = 32 ∨ (Rect.block (s := S32x96) S32x96.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x96.size a ≤ S1x96.size a
  hwx4_4 : ∀ i : grid4.Coords, EltTy.bits .f32 = 32 ∨ (Rect.block (s := S1x96) S1x96.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x96.size a ≤ S1x96.size a
  hwx4_5 : ∀ i : grid4.Coords, EltTy.bits .f32 = 32 ∨ (Rect.block (s := S1x96) S1x96.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S2000x32.size a ≤ S50000x32.size a
  hwx4_6 : ∀ i : grid4.Coords, EltTy.bits .f32 = 32 ∨ (Rect.block (s := S50000x32) S2000x32.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x32.size a ≤ S850000x32.size a
  hwx5_0 : ∀ i : grid5.Coords, EltTy.bits .f32 = 32 ∨ (Rect.block (s := S850000x32) S5000x32.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x32.size a ≤ S850000x32.size a
  hwx5_1 : ∀ i : grid5.Coords, EltTy.bits .f32 = 32 ∨ (Rect.block (s := S850000x32) S5000x32.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S32x64.size a ≤ S32x64.size a
  hwx5_2 : ∀ i : grid5.Coords, EltTy.bits .f32 = 32 ∨ (Rect.block (s := S32x64) S32x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S32x64.size a ≤ S32x64.size a
  hwx5_3 : ∀ i : grid5.Coords, EltTy.bits .f32 = 32 ∨ (Rect.block (s := S32x64) S32x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x64.size a ≤ S1x64.size a
  hwx5_4 : ∀ i : grid5.Coords, EltTy.bits .f32 = 32 ∨ (Rect.block (s := S1x64) S1x64.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S64x64.size a ≤ S64x64.size a
  hwx5_5 : ∀ i : grid5.Coords, EltTy.bits .f32 = 32 ∨ (Rect.block (s := S64x64) S64x64.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x64.size a ≤ S1x64.size a
  hwx5_6 : ∀ i : grid5.Coords, EltTy.bits .f32 = 32 ∨ (Rect.block (s := S1x64) S1x64.size (cc5_transform_6 i) (hinb5_6 i)).WholeWords (EltTy.packing .f32)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S64x32.size a ≤ S64x32.size a
  hwx5_7 : ∀ i : grid5.Coords, EltTy.bits .f32 = 32 ∨ (Rect.block (s := S64x32) S64x32.size (cc5_transform_7 i) (hinb5_7 i)).WholeWords (EltTy.packing .f32)
  hstage5_8 : ∀ j, (stage5_8 j).IsWhole
  nbuf5_8 : grid5.bufCount reads5_8 true = 1
  hreads5_8 : ∀ i i' : grid5.Coords, (∀ a, reads5_8 a = true → i a = i' a) → cc5_transform_8 i = cc5_transform_8 i'
  hinb5_8 : ∀ (i : grid5.Coords) a, (cc5_transform_8 i a + 1) * S1x32.size a ≤ S1x32.size a
  hwx5_8 : ∀ i : grid5.Coords, EltTy.bits .f32 = 32 ∨ (Rect.block (s := S1x32) S1x32.size (cc5_transform_8 i) (hinb5_8 i)).WholeWords (EltTy.packing .f32)
  hstage5_9 : ∀ j, (stage5_9 j).IsWhole
  nbuf5_9 : grid5.bufCount reads5_9 false = 2
  hreads5_9 : ∀ i i' : grid5.Coords, (∀ a, reads5_9 a = true → i a = i' a) → cc5_transform_9 i = cc5_transform_9 i'
  hinb5_9 : ∀ (i : grid5.Coords) a, (cc5_transform_9 i a + 1) * S5000x32.size a ≤ S850000x32.size a
  hwx5_9 : ∀ i : grid5.Coords, EltTy.bits .f32 = 32 ∨ (Rect.block (s := S850000x32) S5000x32.size (cc5_transform_9 i) (hinb5_9 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x32.size a ≤ S50000x32.size a
  hwx6_0 : ∀ i : grid6.Coords, EltTy.bits .f32 = 32 ∨ (Rect.block (s := S50000x32) S2000x32.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S2000x32.size a ≤ S50000x32.size a
  hwx6_1 : ∀ i : grid6.Coords, EltTy.bits .f32 = 32 ∨ (Rect.block (s := S50000x32) S2000x32.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S32x96.size a ≤ S32x96.size a
  hwx6_2 : ∀ i : grid6.Coords, EltTy.bits .f32 = 32 ∨ (Rect.block (s := S32x96) S32x96.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S32x96.size a ≤ S32x96.size a
  hwx6_3 : ∀ i : grid6.Coords, EltTy.bits .f32 = 32 ∨ (Rect.block (s := S32x96) S32x96.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x96.size a ≤ S1x96.size a
  hwx6_4 : ∀ i : grid6.Coords, EltTy.bits .f32 = 32 ∨ (Rect.block (s := S1x96) S1x96.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S1x96.size a ≤ S1x96.size a
  hwx6_5 : ∀ i : grid6.Coords, EltTy.bits .f32 = 32 ∨ (Rect.block (s := S1x96) S1x96.size (cc6_transform_5 i) (hinb6_5 i)).WholeWords (EltTy.packing .f32)
  hstage6_6 : ∀ j, (stage6_6 j).IsWhole
  nbuf6_6 : grid6.bufCount reads6_6 false = 2
  hreads6_6 : ∀ i i' : grid6.Coords, (∀ a, reads6_6 a = true → i a = i' a) → cc6_transform_6 i = cc6_transform_6 i'
  hinb6_6 : ∀ (i : grid6.Coords) a, (cc6_transform_6 i a + 1) * S2000x32.size a ≤ S50000x32.size a
  hwx6_6 : ∀ i : grid6.Coords, EltTy.bits .f32 = 32 ∨ (Rect.block (s := S50000x32) S2000x32.size (cc6_transform_6 i) (hinb6_6 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x32.size a ≤ S50000x32.size a
  hwx7_0 : ∀ i : grid7.Coords, EltTy.bits .f32 = 32 ∨ (Rect.block (s := S50000x32) S5000x32.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S32x64.size a ≤ S32x64.size a
  hwx7_1 : ∀ i : grid7.Coords, EltTy.bits .f32 = 32 ∨ (Rect.block (s := S32x64) S32x64.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x64.size a ≤ S1x64.size a
  hwx7_2 : ∀ i : grid7.Coords, EltTy.bits .f32 = 32 ∨ (Rect.block (s := S1x64) S1x64.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S64x64.size a ≤ S64x64.size a
  hwx7_3 : ∀ i : grid7.Coords, EltTy.bits .f32 = 32 ∨ (Rect.block (s := S64x64) S64x64.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x64.size a ≤ S1x64.size a
  hwx7_4 : ∀ i : grid7.Coords, EltTy.bits .f32 = 32 ∨ (Rect.block (s := S1x64) S1x64.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S64x8.size a ≤ S64x8.size a
  hwx7_5 : ∀ i : grid7.Coords, EltTy.bits .f32 = 32 ∨ (Rect.block (s := S64x8) S64x8.size (cc7_transform_5 i) (hinb7_5 i)).WholeWords (EltTy.packing .f32)
  hstage7_6 : ∀ j, (stage7_6 j).IsWhole
  nbuf7_6 : grid7.bufCount reads7_6 true = 1
  hreads7_6 : ∀ i i' : grid7.Coords, (∀ a, reads7_6 a = true → i a = i' a) → cc7_transform_6 i = cc7_transform_6 i'
  hinb7_6 : ∀ (i : grid7.Coords) a, (cc7_transform_6 i a + 1) * S1x8.size a ≤ S1x8.size a
  hwx7_6 : ∀ i : grid7.Coords, EltTy.bits .f32 = 32 ∨ (Rect.block (s := S1x8) S1x8.size (cc7_transform_6 i) (hinb7_6 i)).WholeWords (EltTy.packing .f32)
  hstage7_7 : ∀ j, (stage7_7 j).IsWhole
  nbuf7_7 : grid7.bufCount reads7_7 false = 2
  hreads7_7 : ∀ i i' : grid7.Coords, (∀ a, reads7_7 a = true → i a = i' a) → cc7_transform_7 i = cc7_transform_7 i'
  hinb7_7 : ∀ (i : grid7.Coords) a, (cc7_transform_7 i a + 1) * S5000x8.size a ≤ S50000x8.size a
  hwx7_7 : ∀ i : grid7.Coords, EltTy.bits .f32 = 32 ∨ (Rect.block (s := S50000x8) S5000x8.size (cc7_transform_7 i) (hinb7_7 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def gather_S50000x32_S850000x1_S850000x32_1_0_n_n_0_1_132 : GatherDims S50000x32 S850000x1 S850000x32 where
  offsetDims := [1]
  collapsedSliceDims := [0]
  operandBatchingDims := []
  startIndicesBatchingDims := []
  startIndexMap := [0]
  indexVectorDim := 1
  sliceSizes := ![1, 32]
  wf := gather_S50000x32_S850000x1_S850000x32_1_0_n_n_0_1_132_wf
def dot_S5000x32_S32x64_S5000x64_1_0_0_1_n_n : DotDims S5000x32 S32x64 S5000x64 where
  lhsContracting := [1]
  rhsContracting := [0]
  lhsNonContracting := [0]
  rhsNonContracting := [1]
  lhsBatch := []
  rhsBatch := []
  wf := dot_S5000x32_S32x64_S5000x64_1_0_0_1_n_n_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf
def scatter_S50000x32_S850000x1_S850000x32_1_0_0_1 : ScatterDims S50000x32 S850000x1 S850000x32 where
  updateWindowDims := [1]
  insertedWindowDims := [0]
  scatterDimsToOperandDims := [0]
  indexVectorDim := 1
  wf := scatter_S50000x32_S850000x1_S850000x32_1_0_0_1_wf
def dot_S2000x32_S32x96_S2000x96_1_0_0_1_n_n : DotDims S2000x32 S32x96 S2000x96 where
  lhsContracting := [1]
  rhsContracting := [0]
  lhsNonContracting := [0]
  rhsNonContracting := [1]
  lhsBatch := []
  rhsBatch := []
  wf := dot_S2000x32_S32x96_S2000x96_1_0_0_1_n_n_wf
def dot_S5000x64_S64x8_S5000x8_1_0_0_1_n_n : DotDims S5000x64 S64x8 S5000x8 where
  lhsContracting := [1]
  rhsContracting := [0]
  lhsNonContracting := [0]
  rhsNonContracting := [1]
  lhsBatch := []
  rhsBatch := []
  wf := dot_S5000x64_S64x8_S5000x8_1_0_0_1_n_n_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v14) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S10000x32.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v16) S5000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S5000x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v20) S32x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v23) S32x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v26) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v28) S64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v31) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v33) S64x32.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v36) S1x32.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v37) S5000x32.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v42) S2000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S2000x32.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v45) S32x96.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v48) S32x96.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v51) S1x96.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v54) S1x96.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v55) S2000x32.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v56) S5000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v57) S5000x32.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v60) S32x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v63) S32x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v66) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v68) S64x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v71) S1x64.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v73) S64x32.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v76) S1x32.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v77) S5000x32.size cc3_transform_9 reads3_9 true false 2 stage3_9 sem3_9
    hrank3 hreads3_9 hinb3_9 nbuf3_9 (Memref.isWhole_whole _) hwx3_9 hstage3_9

abbrev win3 : Fin 10 → Pipeline.Window sig grid3 := fun | 0 => win3_0 | 1 => win3_1 | 2 => win3_2 | 3 => win3_3 | 4 => win3_4 | 5 => win3_5 | 6 => win3_6 | 7 => win3_7 | 8 => win3_8 | 9 => win3_9 | ⟨_ + 10, h⟩ => absurd h (Nat.not_lt.2 (Nat.le_add_left _ _))
abbrev spec3 : Fin 10 → Pipeline.WinSpec sig grid3.rank := fun w => (win3 w).toWinSpec

abbrev win4_0 : Pipeline.Window sig grid4 :=
  Pipeline.Window.ofSpec (Memref.whole main_v82) S2000x32.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v55) S2000x32.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v85) S32x96.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v88) S32x96.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v91) S1x96.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v94) S1x96.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v95) S2000x32.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v96) S5000x32.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v97) S5000x32.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v100) S32x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v103) S32x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v106) S1x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v108) S64x64.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v111) S1x64.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v113) S64x32.size cc5_transform_7 reads5_7 false true 1 stage5_7 sem5_7
    hrank5 hreads5_7 hinb5_7 nbuf5_7 (Memref.isWhole_whole _) hwx5_7 hstage5_7

abbrev win5_8 : Pipeline.Window sig grid5 :=
  Pipeline.Window.ofSpec (Memref.whole main_v116) S1x32.size cc5_transform_8 reads5_8 false true 1 stage5_8 sem5_8
    hrank5 hreads5_8 hinb5_8 nbuf5_8 (Memref.isWhole_whole _) hwx5_8 hstage5_8

abbrev win5_9 : Pipeline.Window sig grid5 :=
  Pipeline.Window.ofSpec (Memref.whole main_v117) S5000x32.size cc5_transform_9 reads5_9 true false 2 stage5_9 sem5_9
    hrank5 hreads5_9 hinb5_9 nbuf5_9 (Memref.isWhole_whole _) hwx5_9 hstage5_9

abbrev win5 : Fin 10 → Pipeline.Window sig grid5 := fun | 0 => win5_0 | 1 => win5_1 | 2 => win5_2 | 3 => win5_3 | 4 => win5_4 | 5 => win5_5 | 6 => win5_6 | 7 => win5_7 | 8 => win5_8 | 9 => win5_9 | ⟨_ + 10, h⟩ => absurd h (Nat.not_lt.2 (Nat.le_add_left _ _))
abbrev spec5 : Fin 10 → Pipeline.WinSpec sig grid5.rank := fun w => (win5 w).toWinSpec

abbrev win6_0 : Pipeline.Window sig grid6 :=
  Pipeline.Window.ofSpec (Memref.whole main_v122) S2000x32.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v95) S2000x32.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v125) S32x96.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v128) S32x96.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v131) S1x96.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v134) S1x96.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v135) S2000x32.size cc6_transform_6 reads6_6 true false 2 stage6_6 sem6_6
    hrank6 hreads6_6 hinb6_6 nbuf6_6 (Memref.isWhole_whole _) hwx6_6 hstage6_6

abbrev win6 : Fin 7 → Pipeline.Window sig grid6 := fun | 0 => win6_0 | 1 => win6_1 | 2 => win6_2 | 3 => win6_3 | 4 => win6_4 | 5 => win6_5 | 6 => win6_6 | ⟨_ + 7, h⟩ => absurd h (Nat.not_lt.2 (Nat.le_add_left _ _))
abbrev spec6 : Fin 7 → Pipeline.WinSpec sig grid6.rank := fun w => (win6 w).toWinSpec

abbrev win7_0 : Pipeline.Window sig grid7 :=
  Pipeline.Window.ofSpec (Memref.whole main_v135) S5000x32.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_arg14) S32x64.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v136) S1x64.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_arg16) S64x64.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v137) S1x64.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_arg18) S64x8.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v138) S1x8.size cc7_transform_6 reads7_6 false true 1 stage7_6 sem7_6
    hrank7 hreads7_6 hinb7_6 nbuf7_6 (Memref.isWhole_whole _) hwx7_6 hstage7_6

abbrev win7_7 : Pipeline.Window sig grid7 :=
  Pipeline.Window.ofSpec (Memref.whole main_v139) S5000x8.size cc7_transform_7 reads7_7 true false 2 stage7_7 sem7_7
    hrank7 hreads7_7 hinb7_7 nbuf7_7 (Memref.isWhole_whole _) hwx7_7 hstage7_7

abbrev win7 : Fin 8 → Pipeline.Window sig grid7 := fun | 0 => win7_0 | 1 => win7_1 | 2 => win7_2 | 3 => win7_3 | 4 => win7_4 | 5 => win7_5 | 6 => win7_6 | 7 => win7_7 | ⟨_ + 8, h⟩ => absurd h (Nat.not_lt.2 (Nat.le_add_left _ _))
abbrev spec7 : Fin 8 → Pipeline.WinSpec sig grid7.rank := fun w => (win7 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S64x32 : Shape := ⟨2, ![64, 32]⟩
abbrev S32 : Shape := ⟨1, ![32]⟩
abbrev S3x64x64 : Shape := ⟨3, ![3, 64, 64]⟩
abbrev S3x64 : Shape := ⟨2, ![3, 64]⟩
abbrev S3x64x32 : Shape := ⟨3, ![3, 64, 32]⟩
abbrev S3x32 : Shape := ⟨2, ![3, 32]⟩
abbrev S3x96x32 : Shape := ⟨3, ![3, 96, 32]⟩
abbrev S3x96 : Shape := ⟨2, ![3, 96]⟩
abbrev S32x64 : Shape := ⟨2, ![32, 64]⟩
abbrev S64 : Shape := ⟨1, ![64]⟩
abbrev S64x64 : Shape := ⟨2, ![64, 64]⟩
abbrev S64x8 : Shape := ⟨2, ![64, 8]⟩
abbrev S8 : Shape := ⟨1, ![8]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x1 : Shape := ⟨2, ![50000, 1]⟩
abbrev S50000x32 : Shape := ⟨2, ![50000, 32]⟩
abbrev S1x32 : Shape := ⟨2, ![1, 32]⟩
abbrev S850000x32 : Shape := ⟨2, ![850000, 32]⟩
abbrev S850000x64 : Shape := ⟨2, ![850000, 64]⟩
abbrev S1x64x64 : Shape := ⟨3, ![1, 64, 64]⟩
abbrev S1x64 : Shape := ⟨2, ![1, 64]⟩
abbrev S1x64x32 : Shape := ⟨3, ![1, 64, 32]⟩
abbrev S1x96x32 : Shape := ⟨3, ![1, 96, 32]⟩
abbrev S96x32 : Shape := ⟨2, ![96, 32]⟩
abbrev S32x96 : Shape := ⟨2, ![32, 96]⟩
abbrev S50000x96 : Shape := ⟨2, ![50000, 96]⟩
abbrev S1x96 : Shape := ⟨2, ![1, 96]⟩
abbrev S96 : Shape := ⟨1, ![96]⟩
abbrev S50000x8 : Shape := ⟨2, ![50000, 8]⟩
abbrev S1x8 : Shape := ⟨2, ![1, 8]⟩

abbrev nBuf : Space → Nat
  | .hbm => 364
  | .vmem => 0
  | .smem => 0
  | _ => 0

abbrev hbmTy0_0 (i : Nat) : BufTy := match i % 128 with
  | 0 => ⟨S50000x64, .f32⟩
  | 1 => ⟨S2x800000, .i32⟩
  | 2 => ⟨S64x32, .f32⟩
  | 3 => ⟨S32, .f32⟩
  | 4 => ⟨S3x64x64, .f32⟩
  | 5 => ⟨S3x64, .f32⟩
  | 6 => ⟨S3x64x64, .f32⟩
  | 7 => ⟨S3x64, .f32⟩
  | 8 => ⟨S3x64x32, .f32⟩
  | 9 => ⟨S3x32, .f32⟩
  | 10 => ⟨S3x96x32, .f32⟩
  | 11 => ⟨S3x96x32, .f32⟩
  | 12 => ⟨S3x96, .f32⟩
  | 13 => ⟨S3x96, .f32⟩
  | 14 => ⟨S32x64, .f32⟩
  | 15 => ⟨S64, .f32⟩
  | 16 => ⟨S64x64, .f32⟩
  | 17 => ⟨S64, .f32⟩
  | 18 => ⟨S64x8, .f32⟩
  | 19 => ⟨S8, .f32⟩
  | 20 => ⟨S50000, .i32⟩
  | 21 => ⟨S1x800000, .i32⟩
  | 22 => ⟨S800000, .i32⟩
  | 23 => ⟨S850000, .i32⟩
  | 24 => ⟨S1x800000, .i32⟩
  | 25 => ⟨S800000, .i32⟩
  | 26 => ⟨S850000, .i32⟩
  | 27 => ⟨S_, .f32⟩
  | 28 => ⟨S850000, .f32⟩
  | 29 => ⟨S_, .f32⟩
  | 30 => ⟨S50000, .f32⟩
  | 31 => ⟨S850000x1, .i32⟩
  | 32 => ⟨S50000, .f32⟩
  | 33 => ⟨S_, .f32⟩
  | 34 => ⟨S50000, .f32⟩
  | 35 => ⟨S50000, .f32⟩
  | 36 => ⟨S50000x1, .f32⟩
  | 37 => ⟨S50000x32, .f32⟩
  | 38 => ⟨S1x32, .f32⟩
  | 39 => ⟨S50000x32, .f32⟩
  | 40 => ⟨S50000x32, .f32⟩
  | 41 => ⟨S_, .f32⟩
  | 42 => ⟨S50000x32, .f32⟩
  | 43 => ⟨S50000x32, .f32⟩
  | 44 => ⟨S_, .i32⟩
  | 45 => ⟨S850000, .i32⟩
  | 46 => ⟨S850000, .i1⟩
  | 47 => ⟨S_, .i32⟩
  | 48 => ⟨S850000, .i32⟩
  | 49 => ⟨S850000, .i32⟩
  | 50 => ⟨S850000, .i32⟩
  | 51 => ⟨S850000x1, .i32⟩
  | 52 => ⟨S850000x32, .f32⟩
  | 53 => ⟨S_, .i32⟩
  | 54 => ⟨S850000, .i32⟩
  | 55 => ⟨S850000, .i1⟩
  | 56 => ⟨S_, .i32⟩
  | 57 => ⟨S850000, .i32⟩
  | 58 => ⟨S850000, .i32⟩
  | 59 => ⟨S850000, .i32⟩
  | 60 => ⟨S850000x1, .i32⟩
  | 61 => ⟨S850000x32, .f32⟩
  | 62 => ⟨S850000x64, .f32⟩
  | 63 => ⟨S1x64x64, .f32⟩
  | 64 => ⟨S64x64, .f32⟩
  | 65 => ⟨S850000x64, .f32⟩
  | 66 => ⟨S1x64, .f32⟩
  | 67 => ⟨S64, .f32⟩
  | 68 => ⟨S1x64, .f32⟩
  | 69 => ⟨S850000x64, .f32⟩
  | 70 => ⟨S850000x64, .f32⟩
  | 71 => ⟨S850000x64, .f32⟩
  | 72 => ⟨S1x64x64, .f32⟩
  | 73 => ⟨S64x64, .f32⟩
  | 74 => ⟨S850000x64, .f32⟩
  | 75 => ⟨S1x64, .f32⟩
  | 76 => ⟨S64, .f32⟩
  | 77 => ⟨S1x64, .f32⟩
  | 78 => ⟨S850000x64, .f32⟩
  | 79 => ⟨S850000x64, .f32⟩
  | 80 => ⟨S850000x64, .f32⟩
  | 81 => ⟨S1x64x32, .f32⟩
  | 82 => ⟨S64x32, .f32⟩
  | 83 => ⟨S850000x32, .f32⟩
  | 84 => ⟨S1x32, .f32⟩
  | 85 => ⟨S32, .f32⟩
  | 86 => ⟨S1x32, .f32⟩
  | 87 => ⟨S850000x32, .f32⟩
  | 88 => ⟨S850000x32, .f32⟩
  | 89 => ⟨S_, .f32⟩
  | 90 => ⟨S50000x32, .f32⟩
  | 91 => ⟨S850000x1, .i32⟩
  | 92 => ⟨S50000x32, .f32⟩
  | 93 => ⟨S50000x32, .f32⟩
  | 94 => ⟨S50000x32, .f32⟩
  | 95 => ⟨S1x96x32, .f32⟩
  | 96 => ⟨S96x32, .f32⟩
  | 97 => ⟨S32x96, .f32⟩
  | 98 => ⟨S50000x96, .f32⟩
  | 99 => ⟨S1x96, .f32⟩
  | 100 => ⟨S96, .f32⟩
  | 101 => ⟨S1x96, .f32⟩
  | 102 => ⟨S50000x96, .f32⟩
  | 103 => ⟨S50000x96, .f32⟩
  | 104 => ⟨S1x96x32, .f32⟩
  | 105 => ⟨S96x32, .f32⟩
  | 106 => ⟨S32x96, .f32⟩
  | 107 => ⟨S50000x96, .f32⟩
  | 108 => ⟨S1x96, .f32⟩
  | 109 => ⟨S96, .f32⟩
  | 110 => ⟨S1x96, .f32⟩
  | 111 => ⟨S50000x96, .f32⟩
  | 112 => ⟨S50000x96, .f32⟩
  | 113 => ⟨S50000x32, .f32⟩
  | 114 => ⟨S50000x32, .f32⟩
  | 115 => ⟨S50000x32, .f32⟩
  | 116 => ⟨S50000x32, .f32⟩
  | 117 => ⟨S50000x32, .f32⟩
  | 118 => ⟨S50000x32, .f32⟩
  | 119 => ⟨S50000x32, .f32⟩
  | 120 => ⟨S50000x32, .f32⟩
  | 121 => ⟨S50000x32, .f32⟩
  | 122 => ⟨S_, .f32⟩
  | 123 => ⟨S50000x32, .f32⟩
  | 124 => ⟨S50000x32, .f32⟩
  | 125 => ⟨S_, .f32⟩
  | 126 => ⟨S50000x32, .f32⟩
  | 127 => ⟨S50000x32, .f32⟩
  | _ => ⟨S50000x64, .f32⟩

abbrev hbmTy0_1 (i : Nat) : BufTy := match i % 128 with
  | 0 => ⟨S50000x32, .f32⟩
  | 1 => ⟨S50000x32, .f32⟩
  | 2 => ⟨S50000x32, .f32⟩
  | 3 => ⟨S_, .f32⟩
  | 4 => ⟨S50000x32, .f32⟩
  | 5 => ⟨S50000x32, .f32⟩
  | 6 => ⟨S_, .f32⟩
  | 7 => ⟨S50000x32, .f32⟩
  | 8 => ⟨S50000x32, .f32⟩
  | 9 => ⟨S50000x32, .f32⟩
  | 10 => ⟨S50000x32, .f32⟩
  | 11 => ⟨S50000x32, .f32⟩
  | 12 => ⟨S_, .f32⟩
  | 13 => ⟨S50000x32, .f32⟩
  | 14 => ⟨S50000x32, .f32⟩
  | 15 => ⟨S50000x32, .f32⟩
  | 16 => ⟨S50000x32, .f32⟩
  | 17 => ⟨S50000x32, .f32⟩
  | 18 => ⟨S_, .i32⟩
  | 19 => ⟨S850000, .i32⟩
  | 20 => ⟨S850000, .i1⟩
  | 21 => ⟨S_, .i32⟩
  | 22 => ⟨S850000, .i32⟩
  | 23 => ⟨S850000, .i32⟩
  | 24 => ⟨S850000, .i32⟩
  | 25 => ⟨S850000x1, .i32⟩
  | 26 => ⟨S850000x32, .f32⟩
  | 27 => ⟨S_, .i32⟩
  | 28 => ⟨S850000, .i32⟩
  | 29 => ⟨S850000, .i1⟩
  | 30 => ⟨S_, .i32⟩
  | 31 => ⟨S850000, .i32⟩
  | 32 => ⟨S850000, .i32⟩
  | 33 => ⟨S850000, .i32⟩
  | 34 => ⟨S850000x1, .i32⟩
  | 35 => ⟨S850000x32, .f32⟩
  | 36 => ⟨S850000x64, .f32⟩
  | 37 => ⟨S1x64x64, .f32⟩
  | 38 => ⟨S64x64, .f32⟩
  | 39 => ⟨S850000x64, .f32⟩
  | 40 => ⟨S1x64, .f32⟩
  | 41 => ⟨S64, .f32⟩
  | 42 => ⟨S1x64, .f32⟩
  | 43 => ⟨S850000x64, .f32⟩
  | 44 => ⟨S850000x64, .f32⟩
  | 45 => ⟨S850000x64, .f32⟩
  | 46 => ⟨S1x64x64, .f32⟩
  | 47 => ⟨S64x64, .f32⟩
  | 48 => ⟨S850000x64, .f32⟩
  | 49 => ⟨S1x64, .f32⟩
  | 50 => ⟨S64, .f32⟩
  | 51 => ⟨S1x64, .f32⟩
  | 52 => ⟨S850000x64, .f32⟩
  | 53 => ⟨S850000x64, .f32⟩
  | 54 => ⟨S850000x64, .f32⟩
  | 55 => ⟨S1x64x32, .f32⟩
  | 56 => ⟨S64x32, .f32⟩
  | 57 => ⟨S850000x32, .f32⟩
  | 58 => ⟨S1x32, .f32⟩
  | 59 => ⟨S32, .f32⟩
  | 60 => ⟨S1x32, .f32⟩
  | 61 => ⟨S850000x32, .f32⟩
  | 62 => ⟨S850000x32, .f32⟩
  | 63 => ⟨S_, .f32⟩
  | 64 => ⟨S50000x32, .f32⟩
  | 65 => ⟨S850000x1, .i32⟩
  | 66 => ⟨S50000x32, .f32⟩
  | 67 => ⟨S50000x32, .f32⟩
  | 68 => ⟨S50000x32, .f32⟩
  | 69 => ⟨S1x96x32, .f32⟩
  | 70 => ⟨S96x32, .f32⟩
  | 71 => ⟨S32x96, .f32⟩
  | 72 => ⟨S50000x96, .f32⟩
  | 73 => ⟨S1x96, .f32⟩
  | 74 => ⟨S96, .f32⟩
  | 75 => ⟨S1x96, .f32⟩
  | 76 => ⟨S50000x96, .f32⟩
  | 77 => ⟨S50000x96, .f32⟩
  | 78 => ⟨S1x96x32, .f32⟩
  | 79 => ⟨S96x32, .f32⟩
  | 80 => ⟨S32x96, .f32⟩
  | 81 => ⟨S50000x96, .f32⟩
  | 82 => ⟨S1x96, .f32⟩
  | 83 => ⟨S96, .f32⟩
  | 84 => ⟨S1x96, .f32⟩
  | 85 => ⟨S50000x96, .f32⟩
  | 86 => ⟨S50000x96, .f32⟩
  | 87 => ⟨S50000x32, .f32⟩
  | 88 => ⟨S50000x32, .f32⟩
  | 89 => ⟨S50000x32, .f32⟩
  | 90 => ⟨S50000x32, .f32⟩
  | 91 => ⟨S50000x32, .f32⟩
  | 92 => ⟨S50000x32, .f32⟩
  | 93 => ⟨S50000x32, .f32⟩
  | 94 => ⟨S50000x32, .f32⟩
  | 95 => ⟨S50000x32, .f32⟩
  | 96 => ⟨S_, .f32⟩
  | 97 => ⟨S50000x32, .f32⟩
  | 98 => ⟨S50000x32, .f32⟩
  | 99 => ⟨S_, .f32⟩
  | 100 => ⟨S50000x32, .f32⟩
  | 101 => ⟨S50000x32, .f32⟩
  | 102 => ⟨S50000x32, .f32⟩
  | 103 => ⟨S50000x32, .f32⟩
  | 104 => ⟨S50000x32, .f32⟩
  | 105 => ⟨S_, .f32⟩
  | 106 => ⟨S50000x32, .f32⟩
  | 107 => ⟨S50000x32, .f32⟩
  | 108 => ⟨S_, .f32⟩
  | 109 => ⟨S50000x32, .f32⟩
  | 110 => ⟨S50000x32, .f32⟩
  | 111 => ⟨S50000x32, .f32⟩
  | 112 => ⟨S50000x32, .f32⟩
  | 113 => ⟨S50000x32, .f32⟩
  | 114 => ⟨S_, .f32⟩
  | 115 => ⟨S50000x32, .f32⟩
  | 116 => ⟨S50000x32, .f32⟩
  | 117 => ⟨S50000x32, .f32⟩
  | 118 => ⟨S50000x32, .f32⟩
  | 119 => ⟨S50000x32, .f32⟩
  | 120 => ⟨S_, .i32⟩
  | 121 => ⟨S850000, .i32⟩
  | 122 => ⟨S850000, .i1⟩
  | 123 => ⟨S_, .i32⟩
  | 124 => ⟨S850000, .i32⟩
  | 125 => ⟨S850000, .i32⟩
  | 126 => ⟨S850000, .i32⟩
  | 127 => ⟨S850000x1, .i32⟩
  | _ => ⟨S50000x64, .f32⟩

abbrev hbmTy0_2 (i : Nat) : BufTy := match i % 128 with
  | 0 => ⟨S850000x32, .f32⟩
  | 1 => ⟨S_, .i32⟩
  | 2 => ⟨S850000, .i32⟩
  | 3 => ⟨S850000, .i1⟩
  | 4 => ⟨S_, .i32⟩
  | 5 => ⟨S850000, .i32⟩
  | 6 => ⟨S850000, .i32⟩
  | 7 => ⟨S850000, .i32⟩
  | 8 => ⟨S850000x1, .i32⟩
  | 9 => ⟨S850000x32, .f32⟩
  | 10 => ⟨S850000x64, .f32⟩
  | 11 => ⟨S1x64x64, .f32⟩
  | 12 => ⟨S64x64, .f32⟩
  | 13 => ⟨S850000x64, .f32⟩
  | 14 => ⟨S1x64, .f32⟩
  | 15 => ⟨S64, .f32⟩
  | 16 => ⟨S1x64, .f32⟩
  | 17 => ⟨S850000x64, .f32⟩
  | 18 => ⟨S850000x64, .f32⟩
  | 19 => ⟨S850000x64, .f32⟩
  | 20 => ⟨S1x64x64, .f32⟩
  | 21 => ⟨S64x64, .f32⟩
  | 22 => ⟨S850000x64, .f32⟩
  | 23 => ⟨S1x64, .f32⟩
  | 24 => ⟨S64, .f32⟩
  | 25 => ⟨S1x64, .f32⟩
  | 26 => ⟨S850000x64, .f32⟩
  | 27 => ⟨S850000x64, .f32⟩
  | 28 => ⟨S850000x64, .f32⟩
  | 29 => ⟨S1x64x32, .f32⟩
  | 30 => ⟨S64x32, .f32⟩
  | 31 => ⟨S850000x32, .f32⟩
  | 32 => ⟨S1x32, .f32⟩
  | 33 => ⟨S32, .f32⟩
  | 34 => ⟨S1x32, .f32⟩
  | 35 => ⟨S850000x32, .f32⟩
  | 36 => ⟨S850000x32, .f32⟩
  | 37 => ⟨S_, .f32⟩
  | 38 => ⟨S50000x32, .f32⟩
  | 39 => ⟨S850000x1, .i32⟩
  | 40 => ⟨S50000x32, .f32⟩
  | 41 => ⟨S50000x32, .f32⟩
  | 42 => ⟨S50000x32, .f32⟩
  | 43 => ⟨S1x96x32, .f32⟩
  | 44 => ⟨S96x32, .f32⟩
  | 45 => ⟨S32x96, .f32⟩
  | 46 => ⟨S50000x96, .f32⟩
  | 47 => ⟨S1x96, .f32⟩
  | 48 => ⟨S96, .f32⟩
  | 49 => ⟨S1x96, .f32⟩
  | 50 => ⟨S50000x96, .f32⟩
  | 51 => ⟨S50000x96, .f32⟩
  | 52 => ⟨S1x96x32, .f32⟩
  | 53 => ⟨S96x32, .f32⟩
  | 54 => ⟨S32x96, .f32⟩
  | 55 => ⟨S50000x96, .f32⟩
  | 56 => ⟨S1x96, .f32⟩
  | 57 => ⟨S96, .f32⟩
  | 58 => ⟨S1x96, .f32⟩
  | 59 => ⟨S50000x96, .f32⟩
  | 60 => ⟨S50000x96, .f32⟩
  | 61 => ⟨S50000x32, .f32⟩
  | 62 => ⟨S50000x32, .f32⟩
  | 63 => ⟨S50000x32, .f32⟩
  | 64 => ⟨S50000x32, .f32⟩
  | 65 => ⟨S50000x32, .f32⟩
  | 66 => ⟨S50000x32, .f32⟩
  | 67 => ⟨S50000x32, .f32⟩
  | 68 => ⟨S50000x32, .f32⟩
  | 69 => ⟨S50000x32, .f32⟩
  | 70 => ⟨S_, .f32⟩
  | 71 => ⟨S50000x32, .f32⟩
  | 72 => ⟨S50000x32, .f32⟩
  | 73 => ⟨S_, .f32⟩
  | 74 => ⟨S50000x32, .f32⟩
  | 75 => ⟨S50000x32, .f32⟩
  | 76 => ⟨S50000x32, .f32⟩
  | 77 => ⟨S50000x32, .f32⟩
  | 78 => ⟨S50000x32, .f32⟩
  | 79 => ⟨S_, .f32⟩
  | 80 => ⟨S50000x32, .f32⟩
  | 81 => ⟨S50000x32, .f32⟩
  | 82 => ⟨S_, .f32⟩
  | 83 => ⟨S50000x32, .f32⟩
  | 84 => ⟨S50000x32, .f32⟩
  | 85 => ⟨S50000x32, .f32⟩
  | 86 => ⟨S50000x32, .f32⟩
  | 87 => ⟨S50000x32, .f32⟩
  | 88 => ⟨S_, .f32⟩
  | 89 => ⟨S50000x32, .f32⟩
  | 90 => ⟨S50000x32, .f32⟩
  | 91 => ⟨S50000x32, .f32⟩
  | 92 => ⟨S50000x32, .f32⟩
  | 93 => ⟨S50000x32, .f32⟩
  | 94 => ⟨S50000x64, .f32⟩
  | 95 => ⟨S1x64, .f32⟩
  | 96 => ⟨S50000x64, .f32⟩
  | 97 => ⟨S50000x64, .f32⟩
  | 98 => ⟨S50000x64, .f32⟩
  | 99 => ⟨S50000x64, .f32⟩
  | 100 => ⟨S1x64, .f32⟩
  | 101 => ⟨S50000x64, .f32⟩
  | 102 => ⟨S50000x64, .f32⟩
  | 103 => ⟨S50000x64, .f32⟩
  | 104 => ⟨S50000x8, .f32⟩
  | 105 => ⟨S1x8, .f32⟩
  | 106 => ⟨S50000x8, .f32⟩
  | 107 => ⟨S50000x8, .f32⟩
  | _ => ⟨S50000x64, .f32⟩

abbrev hbmTy (i : Nat) : BufTy := match i / 128 with
  | 0 => hbmTy0_0 i
  | 1 => hbmTy0_1 i
  | 2 => hbmTy0_2 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_cst : Ref sig .tc := ⟨.hbm, 27, rfl⟩
abbrev main_v7 : Ref sig .tc := ⟨.hbm, 28, rfl⟩
abbrev main_cst_0 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_cst_1 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_call0_cst : Ref sig .tc := ⟨.hbm, 41, rfl⟩
abbrev main_call0_v0 : Ref sig .tc := ⟨.hbm, 42, rfl⟩
abbrev main_v18 : Ref sig .tc := ⟨.hbm, 43, rfl⟩
abbrev main_c : Ref sig .tc := ⟨.hbm, 44, rfl⟩
abbrev main_v19 : Ref sig .tc := ⟨.hbm, 45, rfl⟩
abbrev main_v20 : Ref sig .tc := ⟨.hbm, 46, rfl⟩
abbrev main_c_2 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_c_3 : Ref sig .tc := ⟨.hbm, 53, rfl⟩
abbrev main_v26 : Ref sig .tc := ⟨.hbm, 54, rfl⟩
abbrev main_v27 : Ref sig .tc := ⟨.hbm, 55, rfl⟩
abbrev main_c_4 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_cst_5 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_cst_6 : Ref sig .tc := ⟨.hbm, 122, rfl⟩
abbrev main_v92 : Ref sig .tc := ⟨.hbm, 123, rfl⟩
abbrev main_v93 : Ref sig .tc := ⟨.hbm, 124, rfl⟩
abbrev main_cst_7 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_cst_8 : Ref sig .tc := ⟨.hbm, 131, rfl⟩
abbrev main_v99 : Ref sig .tc := ⟨.hbm, 132, rfl⟩
abbrev main_v100 : Ref sig .tc := ⟨.hbm, 133, rfl⟩
abbrev main_cst_9 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_cst_10 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_c_11 : Ref sig .tc := ⟨.hbm, 146, rfl⟩
abbrev main_v111 : Ref sig .tc := ⟨.hbm, 147, rfl⟩
abbrev main_v112 : Ref sig .tc := ⟨.hbm, 148, rfl⟩
abbrev main_c_12 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_c_13 : Ref sig .tc := ⟨.hbm, 155, rfl⟩
abbrev main_v118 : Ref sig .tc := ⟨.hbm, 156, rfl⟩
abbrev main_v119 : Ref sig .tc := ⟨.hbm, 157, rfl⟩
abbrev main_c_14 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_v130 : Ref sig .tc := ⟨.hbm, 169, rfl⟩
abbrev main_v131 : Ref sig .tc := ⟨.hbm, 170, rfl⟩
abbrev main_v132 : Ref sig .tc := ⟨.hbm, 171, rfl⟩
abbrev main_v133 : Ref sig .tc := ⟨.hbm, 172, rfl⟩
abbrev main_v134 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩
abbrev main_v138 : Ref sig .tc := ⟨.hbm, 177, rfl⟩
abbrev main_v139 : Ref sig .tc := ⟨.hbm, 178, rfl⟩
abbrev main_v140 : Ref sig .tc := ⟨.hbm, 179, rfl⟩
abbrev main_v141 : Ref sig .tc := ⟨.hbm, 180, rfl⟩
abbrev main_v142 : Ref sig .tc := ⟨.hbm, 181, rfl⟩
abbrev main_v143 : Ref sig .tc := ⟨.hbm, 182, rfl⟩
abbrev main_v144 : Ref sig .tc := ⟨.hbm, 183, rfl⟩
abbrev main_v145 : Ref sig .tc := ⟨.hbm, 184, rfl⟩
abbrev main_v146 : Ref sig .tc := ⟨.hbm, 185, rfl⟩
abbrev main_v147 : Ref sig .tc := ⟨.hbm, 186, rfl⟩
abbrev main_v148 : Ref sig .tc := ⟨.hbm, 187, rfl⟩
abbrev main_v149 : Ref sig .tc := ⟨.hbm, 188, rfl⟩
abbrev main_v150 : Ref sig .tc := ⟨.hbm, 189, rfl⟩
abbrev main_v151 : Ref sig .tc := ⟨.hbm, 190, rfl⟩
abbrev main_cst_15 : Ref sig .tc := ⟨.hbm, 191, rfl⟩
abbrev main_v152 : Ref sig .tc := ⟨.hbm, 192, rfl⟩
abbrev main_v153 : Ref sig .tc := ⟨.hbm, 193, rfl⟩
abbrev main_v154 : Ref sig .tc := ⟨.hbm, 194, rfl⟩
abbrev main_v155 : Ref sig .tc := ⟨.hbm, 195, rfl⟩
abbrev main_v156 : Ref sig .tc := ⟨.hbm, 196, rfl⟩
abbrev main_v157 : Ref sig .tc := ⟨.hbm, 197, rfl⟩
abbrev main_v158 : Ref sig .tc := ⟨.hbm, 198, rfl⟩
abbrev main_v159 : Ref sig .tc := ⟨.hbm, 199, rfl⟩
abbrev main_v160 : Ref sig .tc := ⟨.hbm, 200, rfl⟩
abbrev main_v161 : Ref sig .tc := ⟨.hbm, 201, rfl⟩
abbrev main_v162 : Ref sig .tc := ⟨.hbm, 202, rfl⟩
abbrev main_v163 : Ref sig .tc := ⟨.hbm, 203, rfl⟩
abbrev main_v164 : Ref sig .tc := ⟨.hbm, 204, rfl⟩
abbrev main_v165 : Ref sig .tc := ⟨.hbm, 205, rfl⟩
abbrev main_v166 : Ref sig .tc := ⟨.hbm, 206, rfl⟩
abbrev main_v167 : Ref sig .tc := ⟨.hbm, 207, rfl⟩
abbrev main_v168 : Ref sig .tc := ⟨.hbm, 208, rfl⟩
abbrev main_v169 : Ref sig .tc := ⟨.hbm, 209, rfl⟩
abbrev main_v170 : Ref sig .tc := ⟨.hbm, 210, rfl⟩
abbrev main_v171 : Ref sig .tc := ⟨.hbm, 211, rfl⟩
abbrev main_v172 : Ref sig .tc := ⟨.hbm, 212, rfl⟩
abbrev main_v173 : Ref sig .tc := ⟨.hbm, 213, rfl⟩
abbrev main_v174 : Ref sig .tc := ⟨.hbm, 214, rfl⟩
abbrev main_v175 : Ref sig .tc := ⟨.hbm, 215, rfl⟩
abbrev main_v176 : Ref sig .tc := ⟨.hbm, 216, rfl⟩
abbrev main_v177 : Ref sig .tc := ⟨.hbm, 217, rfl⟩
abbrev main_v178 : Ref sig .tc := ⟨.hbm, 218, rfl⟩
abbrev main_v179 : Ref sig .tc := ⟨.hbm, 219, rfl⟩
abbrev main_v180 : Ref sig .tc := ⟨.hbm, 220, rfl⟩
abbrev main_v181 : Ref sig .tc := ⟨.hbm, 221, rfl⟩
abbrev main_v182 : Ref sig .tc := ⟨.hbm, 222, rfl⟩
abbrev main_v183 : Ref sig .tc := ⟨.hbm, 223, rfl⟩
abbrev main_cst_16 : Ref sig .tc := ⟨.hbm, 224, rfl⟩
abbrev main_v184 : Ref sig .tc := ⟨.hbm, 225, rfl⟩
abbrev main_v185 : Ref sig .tc := ⟨.hbm, 226, rfl⟩
abbrev main_cst_17 : Ref sig .tc := ⟨.hbm, 227, rfl⟩
abbrev main_v186 : Ref sig .tc := ⟨.hbm, 228, rfl⟩
abbrev main_v187 : Ref sig .tc := ⟨.hbm, 229, rfl⟩
abbrev main_v188 : Ref sig .tc := ⟨.hbm, 230, rfl⟩
abbrev main_v189 : Ref sig .tc := ⟨.hbm, 231, rfl⟩
abbrev main_v190 : Ref sig .tc := ⟨.hbm, 232, rfl⟩
abbrev main_cst_18 : Ref sig .tc := ⟨.hbm, 233, rfl⟩
abbrev main_v191 : Ref sig .tc := ⟨.hbm, 234, rfl⟩
abbrev main_v192 : Ref sig .tc := ⟨.hbm, 235, rfl⟩
abbrev main_cst_19 : Ref sig .tc := ⟨.hbm, 236, rfl⟩
abbrev main_v193 : Ref sig .tc := ⟨.hbm, 237, rfl⟩
abbrev main_v194 : Ref sig .tc := ⟨.hbm, 238, rfl⟩
abbrev main_v195 : Ref sig .tc := ⟨.hbm, 239, rfl⟩
abbrev main_v196 : Ref sig .tc := ⟨.hbm, 240, rfl⟩
abbrev main_v197 : Ref sig .tc := ⟨.hbm, 241, rfl⟩
abbrev main_cst_20 : Ref sig .tc := ⟨.hbm, 242, rfl⟩
abbrev main_v198 : Ref sig .tc := ⟨.hbm, 243, rfl⟩
abbrev main_v199 : Ref sig .tc := ⟨.hbm, 244, rfl⟩
abbrev main_v200 : Ref sig .tc := ⟨.hbm, 245, rfl⟩
abbrev main_v201 : Ref sig .tc := ⟨.hbm, 246, rfl⟩
abbrev main_v202 : Ref sig .tc := ⟨.hbm, 247, rfl⟩
abbrev main_c_21 : Ref sig .tc := ⟨.hbm, 248, rfl⟩
abbrev main_v203 : Ref sig .tc := ⟨.hbm, 249, rfl⟩
abbrev main_v204 : Ref sig .tc := ⟨.hbm, 250, rfl⟩
abbrev main_c_22 : Ref sig .tc := ⟨.hbm, 251, rfl⟩
abbrev main_v205 : Ref sig .tc := ⟨.hbm, 252, rfl⟩
abbrev main_v206 : Ref sig .tc := ⟨.hbm, 253, rfl⟩
abbrev main_v207 : Ref sig .tc := ⟨.hbm, 254, rfl⟩
abbrev main_v208 : Ref sig .tc := ⟨.hbm, 255, rfl⟩
abbrev main_v209 : Ref sig .tc := ⟨.hbm, 256, rfl⟩
abbrev main_c_23 : Ref sig .tc := ⟨.hbm, 257, rfl⟩
abbrev main_v210 : Ref sig .tc := ⟨.hbm, 258, rfl⟩
abbrev main_v211 : Ref sig .tc := ⟨.hbm, 259, rfl⟩
abbrev main_c_24 : Ref sig .tc := ⟨.hbm, 260, rfl⟩
abbrev main_v212 : Ref sig .tc := ⟨.hbm, 261, rfl⟩
abbrev main_v213 : Ref sig .tc := ⟨.hbm, 262, rfl⟩
abbrev main_v214 : Ref sig .tc := ⟨.hbm, 263, rfl⟩
abbrev main_v215 : Ref sig .tc := ⟨.hbm, 264, rfl⟩
abbrev main_v216 : Ref sig .tc := ⟨.hbm, 265, rfl⟩
abbrev main_v217 : Ref sig .tc := ⟨.hbm, 266, rfl⟩
abbrev main_v218 : Ref sig .tc := ⟨.hbm, 267, rfl⟩
abbrev main_v219 : Ref sig .tc := ⟨.hbm, 268, rfl⟩
abbrev main_v220 : Ref sig .tc := ⟨.hbm, 269, rfl⟩
abbrev main_v221 : Ref sig .tc := ⟨.hbm, 270, rfl⟩
abbrev main_v222 : Ref sig .tc := ⟨.hbm, 271, rfl⟩
abbrev main_v223 : Ref sig .tc := ⟨.hbm, 272, rfl⟩
abbrev main_v224 : Ref sig .tc := ⟨.hbm, 273, rfl⟩
abbrev main_v225 : Ref sig .tc := ⟨.hbm, 274, rfl⟩
abbrev main_v226 : Ref sig .tc := ⟨.hbm, 275, rfl⟩
abbrev main_v227 : Ref sig .tc := ⟨.hbm, 276, rfl⟩
abbrev main_v228 : Ref sig .tc := ⟨.hbm, 277, rfl⟩
abbrev main_v229 : Ref sig .tc := ⟨.hbm, 278, rfl⟩
abbrev main_v230 : Ref sig .tc := ⟨.hbm, 279, rfl⟩
abbrev main_v231 : Ref sig .tc := ⟨.hbm, 280, rfl⟩
abbrev main_v232 : Ref sig .tc := ⟨.hbm, 281, rfl⟩
abbrev main_v233 : Ref sig .tc := ⟨.hbm, 282, rfl⟩
abbrev main_v234 : Ref sig .tc := ⟨.hbm, 283, rfl⟩
abbrev main_v235 : Ref sig .tc := ⟨.hbm, 284, rfl⟩
abbrev main_v236 : Ref sig .tc := ⟨.hbm, 285, rfl⟩
abbrev main_v237 : Ref sig .tc := ⟨.hbm, 286, rfl⟩
abbrev main_v238 : Ref sig .tc := ⟨.hbm, 287, rfl⟩
abbrev main_v239 : Ref sig .tc := ⟨.hbm, 288, rfl⟩
abbrev main_v240 : Ref sig .tc := ⟨.hbm, 289, rfl⟩
abbrev main_v241 : Ref sig .tc := ⟨.hbm, 290, rfl⟩
abbrev main_v242 : Ref sig .tc := ⟨.hbm, 291, rfl⟩
abbrev main_v243 : Ref sig .tc := ⟨.hbm, 292, rfl⟩
abbrev main_cst_25 : Ref sig .tc := ⟨.hbm, 293, rfl⟩
abbrev main_v244 : Ref sig .tc := ⟨.hbm, 294, rfl⟩
abbrev main_v245 : Ref sig .tc := ⟨.hbm, 295, rfl⟩
abbrev main_v246 : Ref sig .tc := ⟨.hbm, 296, rfl⟩
abbrev main_v247 : Ref sig .tc := ⟨.hbm, 297, rfl⟩
abbrev main_v248 : Ref sig .tc := ⟨.hbm, 298, rfl⟩
abbrev main_v249 : Ref sig .tc := ⟨.hbm, 299, rfl⟩
abbrev main_v250 : Ref sig .tc := ⟨.hbm, 300, rfl⟩
abbrev main_v251 : Ref sig .tc := ⟨.hbm, 301, rfl⟩
abbrev main_v252 : Ref sig .tc := ⟨.hbm, 302, rfl⟩
abbrev main_v253 : Ref sig .tc := ⟨.hbm, 303, rfl⟩
abbrev main_v254 : Ref sig .tc := ⟨.hbm, 304, rfl⟩
abbrev main_v255 : Ref sig .tc := ⟨.hbm, 305, rfl⟩
abbrev main_v256 : Ref sig .tc := ⟨.hbm, 306, rfl⟩
abbrev main_v257 : Ref sig .tc := ⟨.hbm, 307, rfl⟩
abbrev main_v258 : Ref sig .tc := ⟨.hbm, 308, rfl⟩
abbrev main_v259 : Ref sig .tc := ⟨.hbm, 309, rfl⟩
abbrev main_v260 : Ref sig .tc := ⟨.hbm, 310, rfl⟩
abbrev main_v261 : Ref sig .tc := ⟨.hbm, 311, rfl⟩
abbrev main_v262 : Ref sig .tc := ⟨.hbm, 312, rfl⟩
abbrev main_v263 : Ref sig .tc := ⟨.hbm, 313, rfl⟩
abbrev main_v264 : Ref sig .tc := ⟨.hbm, 314, rfl⟩
abbrev main_v265 : Ref sig .tc := ⟨.hbm, 315, rfl⟩
abbrev main_v266 : Ref sig .tc := ⟨.hbm, 316, rfl⟩
abbrev main_v267 : Ref sig .tc := ⟨.hbm, 317, rfl⟩
abbrev main_v268 : Ref sig .tc := ⟨.hbm, 318, rfl⟩
abbrev main_v269 : Ref sig .tc := ⟨.hbm, 319, rfl⟩
abbrev main_v270 : Ref sig .tc := ⟨.hbm, 320, rfl⟩
abbrev main_v271 : Ref sig .tc := ⟨.hbm, 321, rfl⟩
abbrev main_v272 : Ref sig .tc := ⟨.hbm, 322, rfl⟩
abbrev main_v273 : Ref sig .tc := ⟨.hbm, 323, rfl⟩
abbrev main_v274 : Ref sig .tc := ⟨.hbm, 324, rfl⟩
abbrev main_v275 : Ref sig .tc := ⟨.hbm, 325, rfl⟩
abbrev main_cst_26 : Ref sig .tc := ⟨.hbm, 326, rfl⟩
abbrev main_v276 : Ref sig .tc := ⟨.hbm, 327, rfl⟩
abbrev main_v277 : Ref sig .tc := ⟨.hbm, 328, rfl⟩
abbrev main_cst_27 : Ref sig .tc := ⟨.hbm, 329, rfl⟩
abbrev main_v278 : Ref sig .tc := ⟨.hbm, 330, rfl⟩
abbrev main_v279 : Ref sig .tc := ⟨.hbm, 331, rfl⟩
abbrev main_v280 : Ref sig .tc := ⟨.hbm, 332, rfl⟩
abbrev main_v281 : Ref sig .tc := ⟨.hbm, 333, rfl⟩
abbrev main_v282 : Ref sig .tc := ⟨.hbm, 334, rfl⟩
abbrev main_cst_28 : Ref sig .tc := ⟨.hbm, 335, rfl⟩
abbrev main_v283 : Ref sig .tc := ⟨.hbm, 336, rfl⟩
abbrev main_v284 : Ref sig .tc := ⟨.hbm, 337, rfl⟩
abbrev main_cst_29 : Ref sig .tc := ⟨.hbm, 338, rfl⟩
abbrev main_v285 : Ref sig .tc := ⟨.hbm, 339, rfl⟩
abbrev main_v286 : Ref sig .tc := ⟨.hbm, 340, rfl⟩
abbrev main_v287 : Ref sig .tc := ⟨.hbm, 341, rfl⟩
abbrev main_v288 : Ref sig .tc := ⟨.hbm, 342, rfl⟩
abbrev main_v289 : Ref sig .tc := ⟨.hbm, 343, rfl⟩
abbrev main_cst_30 : Ref sig .tc := ⟨.hbm, 344, rfl⟩
abbrev main_v290 : Ref sig .tc := ⟨.hbm, 345, rfl⟩
abbrev main_v291 : Ref sig .tc := ⟨.hbm, 346, rfl⟩
abbrev main_v292 : Ref sig .tc := ⟨.hbm, 347, rfl⟩
abbrev main_v293 : Ref sig .tc := ⟨.hbm, 348, rfl⟩
abbrev main_v294 : Ref sig .tc := ⟨.hbm, 349, rfl⟩
abbrev main_v295 : Ref sig .tc := ⟨.hbm, 350, rfl⟩
abbrev main_v296 : Ref sig .tc := ⟨.hbm, 351, rfl⟩
abbrev main_v297 : Ref sig .tc := ⟨.hbm, 352, rfl⟩
abbrev main_v298 : Ref sig .tc := ⟨.hbm, 353, rfl⟩
abbrev main_v299 : Ref sig .tc := ⟨.hbm, 354, rfl⟩
abbrev main_v300 : Ref sig .tc := ⟨.hbm, 355, rfl⟩
abbrev main_v301 : Ref sig .tc := ⟨.hbm, 356, rfl⟩
abbrev main_v302 : Ref sig .tc := ⟨.hbm, 357, rfl⟩
abbrev main_v303 : Ref sig .tc := ⟨.hbm, 358, rfl⟩
abbrev main_v304 : Ref sig .tc := ⟨.hbm, 359, rfl⟩
abbrev main_v305 : Ref sig .tc := ⟨.hbm, 360, rfl⟩
abbrev main_v306 : Ref sig .tc := ⟨.hbm, 361, rfl⟩
abbrev main_v307 : Ref sig .tc := ⟨.hbm, 362, rfl⟩
abbrev main_v308 : Ref sig .tc := ⟨.hbm, 363, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S50000_S50000x1_0 : S50000.BroadcastsInDim S50000x1 (![0] : Fin 1 → Fin S50000x1.rank)
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  bcast_S_S50000x32 : S_.BroadcastsInDim S50000x32 (![] : Fin 0 → Fin S50000x32.rank)
  concatenates_S850000x32_S850000x32_S850000x64_d1 : Shape.Concatenates [S850000x32, S850000x32] S850000x64 1
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  bcast_S64_S1x64_1 : S64.BroadcastsInDim S1x64 (![1] : Fin 1 → Fin S1x64.rank)
  bcast_S1x64_S850000x64_0_1 : S1x64.BroadcastsInDim S850000x64 (![0, 1] : Fin 2 → Fin S850000x64.rank)
  slices_S3x64x32_S1x64x32_0_0_0 : S3x64x32.Slices ![0, 0, 0] S1x64x32
  shapeCasts_S1x64x32_S64x32 : S1x64x32.ShapeCasts S64x32
  slices_S3x32_S1x32_0_0 : S3x32.Slices ![0, 0] S1x32
  shapeCasts_S1x32_S32 : S1x32.ShapeCasts S32
  bcast_S1x32_S850000x32_0_1 : S1x32.BroadcastsInDim S850000x32 (![0, 1] : Fin 2 → Fin S850000x32.rank)
  bcast_S50000x1_S50000x32_0_1 : S50000x1.BroadcastsInDim S50000x32 (![0, 1] : Fin 2 → Fin S50000x32.rank)
  slices_S3x96x32_S1x96x32_0_0_0 : S3x96x32.Slices ![0, 0, 0] S1x96x32
  shapeCasts_S1x96x32_S96x32 : S1x96x32.ShapeCasts S96x32
  transposes_S96x32_S32x96_1_0 : S96x32.Transposes [1, 0] S32x96
  slices_S3x96_S1x96_0_0 : S3x96.Slices ![0, 0] S1x96
  shapeCasts_S1x96_S96 : S1x96.ShapeCasts S96
  bcast_S96_S1x96_1 : S96.BroadcastsInDim S1x96 (![1] : Fin 1 → Fin S1x96.rank)
  bcast_S1x96_S50000x96_0_1 : S1x96.BroadcastsInDim S50000x96 (![0, 1] : Fin 2 → Fin S50000x96.rank)
  slices_S50000x96_S50000x32_0_0 : S50000x96.Slices ![0, 0] S50000x32
  slices_S50000x96_S50000x32_0_32 : S50000x96.Slices ![0, 32] S50000x32
  slices_S50000x96_S50000x32_0_64 : S50000x96.Slices ![0, 64] S50000x32
  slices_S3x64x64_S1x64x64_1_0_0 : S3x64x64.Slices ![1, 0, 0] S1x64x64
  slices_S3x64_S1x64_1_0 : S3x64.Slices ![1, 0] S1x64
  slices_S3x64x32_S1x64x32_1_0_0 : S3x64x32.Slices ![1, 0, 0] S1x64x32
  slices_S3x32_S1x32_1_0 : S3x32.Slices ![1, 0] S1x32
  slices_S3x96x32_S1x96x32_1_0_0 : S3x96x32.Slices ![1, 0, 0] S1x96x32
  slices_S3x96_S1x96_1_0 : S3x96.Slices ![1, 0] S1x96
  slices_S3x64x64_S1x64x64_2_0_0 : S3x64x64.Slices ![2, 0, 0] S1x64x64
  slices_S3x64_S1x64_2_0 : S3x64.Slices ![2, 0] S1x64
  slices_S3x64x32_S1x64x32_2_0_0 : S3x64x32.Slices ![2, 0, 0] S1x64x32
  slices_S3x32_S1x32_2_0 : S3x32.Slices ![2, 0] S1x32
  slices_S3x96x32_S1x96x32_2_0_0 : S3x96x32.Slices ![2, 0, 0] S1x96x32
  slices_S3x96_S1x96_2_0 : S3x96.Slices ![2, 0] S1x96
  bcast_S1x64_S50000x64_0_1 : S1x64.BroadcastsInDim S50000x64 (![0, 1] : Fin 2 → Fin S50000x64.rank)
  bcast_S8_S1x8_1 : S8.BroadcastsInDim S1x8 (![1] : Fin 1 → Fin S1x8.rank)
  bcast_S1x8_S50000x8_0_1 : S1x8.BroadcastsInDim S50000x8 (![0, 1] : Fin 2 → Fin S50000x8.rank)
  scatter_S50000_S850000x1_S850000_n_0_0_1_wf : ScatterDims.WF S50000 S850000x1 S850000 [] [0] [0] 1
  dot_S50000x64_S64x32_S50000x32_1_0_0_1_n_n_wf : DotDims.WF S50000x64 S64x32 S50000x32 [1] [0] [0] [1] [] []
  gather_S50000x32_S850000x1_S850000x32_1_0_n_n_0_1_132_wf : GatherDims.WF S50000x32 S850000x1 S850000x32 [1] [0] [] [0] [] 1 ![1, 32]
  dot_S850000x64_S64x64_S850000x64_1_0_0_1_n_n_wf : DotDims.WF S850000x64 S64x64 S850000x64 [1] [0] [0] [1] [] []
  dot_S850000x64_S64x32_S850000x32_1_0_0_1_n_n_wf : DotDims.WF S850000x64 S64x32 S850000x32 [1] [0] [0] [1] [] []
  scatter_S50000x32_S850000x1_S850000x32_1_0_0_1_wf : ScatterDims.WF S50000x32 S850000x1 S850000x32 [1] [0] [0] 1
  dot_S50000x32_S32x96_S50000x96_1_0_0_1_n_n_wf : DotDims.WF S50000x32 S32x96 S50000x96 [1] [0] [0] [1] [] []
  dot_S50000x32_S32x64_S50000x64_1_0_0_1_n_n_wf : DotDims.WF S50000x32 S32x64 S50000x64 [1] [0] [0] [1] [] []
  dot_S50000x64_S64x64_S50000x64_1_0_0_1_n_n_wf : DotDims.WF S50000x64 S64x64 S50000x64 [1] [0] [0] [1] [] []
  dot_S50000x64_S64x8_S50000x8_1_0_0_1_n_n_wf : DotDims.WF S50000x64 S64x8 S50000x8 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S50000x64_S64x32_S50000x32_1_0_0_1_n_n : DotDims S50000x64 S64x32 S50000x32 where
  lhsContracting := [1]
  rhsContracting := [0]
  lhsNonContracting := [0]
  rhsNonContracting := [1]
  lhsBatch := []
  rhsBatch := []
  wf := dot_S50000x64_S64x32_S50000x32_1_0_0_1_n_n_wf
def gather_S50000x32_S850000x1_S850000x32_1_0_n_n_0_1_132 : GatherDims S50000x32 S850000x1 S850000x32 where
  offsetDims := [1]
  collapsedSliceDims := [0]
  operandBatchingDims := []
  startIndicesBatchingDims := []
  startIndexMap := [0]
  indexVectorDim := 1
  sliceSizes := ![1, 32]
  wf := gather_S50000x32_S850000x1_S850000x32_1_0_n_n_0_1_132_wf
def dot_S850000x64_S64x64_S850000x64_1_0_0_1_n_n : DotDims S850000x64 S64x64 S850000x64 where
  lhsContracting := [1]
  rhsContracting := [0]
  lhsNonContracting := [0]
  rhsNonContracting := [1]
  lhsBatch := []
  rhsBatch := []
  wf := dot_S850000x64_S64x64_S850000x64_1_0_0_1_n_n_wf
def dot_S850000x64_S64x32_S850000x32_1_0_0_1_n_n : DotDims S850000x64 S64x32 S850000x32 where
  lhsContracting := [1]
  rhsContracting := [0]
  lhsNonContracting := [0]
  rhsNonContracting := [1]
  lhsBatch := []
  rhsBatch := []
  wf := dot_S850000x64_S64x32_S850000x32_1_0_0_1_n_n_wf
def scatter_S50000x32_S850000x1_S850000x32_1_0_0_1 : ScatterDims S50000x32 S850000x1 S850000x32 where
  updateWindowDims := [1]
  insertedWindowDims := [0]
  scatterDimsToOperandDims := [0]
  indexVectorDim := 1
  wf := scatter_S50000x32_S850000x1_S850000x32_1_0_0_1_wf
def dot_S50000x32_S32x96_S50000x96_1_0_0_1_n_n : DotDims S50000x32 S32x96 S50000x96 where
  lhsContracting := [1]
  rhsContracting := [0]
  lhsNonContracting := [0]
  rhsNonContracting := [1]
  lhsBatch := []
  rhsBatch := []
  wf := dot_S50000x32_S32x96_S50000x96_1_0_0_1_n_n_wf
def dot_S50000x32_S32x64_S50000x64_1_0_0_1_n_n : DotDims S50000x32 S32x64 S50000x64 where
  lhsContracting := [1]
  rhsContracting := [0]
  lhsNonContracting := [0]
  rhsNonContracting := [1]
  lhsBatch := []
  rhsBatch := []
  wf := dot_S50000x32_S32x64_S50000x64_1_0_0_1_n_n_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def dot_S50000x64_S64x8_S50000x8_1_0_0_1_n_n : DotDims S50000x64 S64x8 S50000x8 where
  lhsContracting := [1]
  rhsContracting := [0]
  lhsNonContracting := [0]
  rhsNonContracting := [1]
  lhsBatch := []
  rhsBatch := []
  wf := dot_S50000x64_S64x8_S50000x8_1_0_0_1_n_n_wf

class Facts : Prop extends Facts₀ where

variable [Facts]
-- ==== Proof.Spec.lean ====
/-
  The mathematics of the four dense stages of the message-passing network, on extended reals, row by row.
  A matrix is a function of a two-coordinate index; every stage maps each ROW of its row-matrix inputs
  (with the shared weight matrices and one-row bias matrices) to a row of its output, so a stage applied to a
  block of consecutive rows is that block of the stage applied to the whole matrix.
-/
import Idealize.ShloMosaic.PureOps.Ideal
import Idealize.ShloMosaic.Lib.ValueIdx

noncomputable section

namespace Cert.Gnn

open Idealize.ShloMosaic Idealize.ShloMosaic.ValueIdx

/-- An `r × c` matrix of extended reals. -/
abbrev Mat (r c : Nat) : Type := FVec Ideal (⟨2, ![r, c]⟩ : Shape) .f32

/-- The row coordinate of a matrix index. -/
def r0 {r c : Nat} (i : (⟨2, ![r, c]⟩ : Shape).Idx) : Fin r := ⟨(i 0).val, idx2_lt0 i⟩
/-- The column coordinate of a matrix index. -/
def c1 {r c : Nat} (i : (⟨2, ![r, c]⟩ : Shape).Idx) : Fin c := ⟨(i 1).val, idx2_lt1 i⟩

theorem r0_ix2 {r c : Nat} (p : Fin r) (q : Fin c) : r0 (ix2 p q) = p := rfl
theorem c1_ix2 {r c : Nat} (p : Fin r) (q : Fin c) : c1 (ix2 p q) = q := rfl

/-- Row `p` of a matrix. -/
def row {r c : Nat} (x : Mat r c) (p : Fin r) : Fin c → EReal := fun k => x (ix2 p k)

/-- One dense layer on one row: entry `j` of `v · W + b`. -/
def dense {K N : Nat} (v : Fin K → EReal) (W : Mat K N) (b : Mat 1 N) (j : Fin N) : EReal :=
  (∑ k : Fin K, v k * W (ix2 k j)) + b (ix2 0 j)

/-- The encoder: `relu (x · W + b)`, row by row. -/
def encK {R : Nat} (x : Mat R 64) (W : Mat 64 32) (b : Mat 1 32) : Mat R 32 :=
  fun i => max (dense (row x (r0 i)) W b (c1 i)) 0

/-- The first hidden row of the message network: `tanh (h_dst · W1d + h_src · W1s + b1)`. -/
def msgHid1 (hd hs : Fin 32 → EReal) (w1d w1s : Mat 32 64) (b1 : Mat 1 64) (k : Fin 64) : EReal :=
  Ideal.tanh (((∑ a : Fin 32, hd a * w1d (ix2 a k)) + (∑ a : Fin 32, hs a * w1s (ix2 a k))) + b1 (ix2 0 k))

/-- The message network on one edge: three dense layers, `tanh` after the first two, the first layer fed by the
    target row and the source row through the two halves of its weight matrix. -/
def msgK {R : Nat} (hd hs : Mat R 32) (w1d w1s : Mat 32 64) (b1 : Mat 1 64) (w2 : Mat 64 64) (b2 : Mat 1 64)
    (w3 : Mat 64 32) (b3 : Mat 1 32) : Mat R 32 :=
  fun i => dense (fun k => Ideal.tanh (dense (msgHid1 (row hd (r0 i)) (row hs (r0 i)) w1d w1s b1) w2 b2 k)) w3 b3 (c1 i)

/-- Column `off + j` of a 96-column row. -/
def col96 (off : Nat) (hoff : off + 32 ≤ 96) (j : Fin 32) : Fin 96 := ⟨off + j.val, by have := j.isLt; omega⟩

/-- The gated recurrent update on one node: gates `r`, `z` (logistic) and candidate `n` (tanh) from the two
    96-column dense layers of the aggregate row and of the state row, then `(1 - z) n + z h`. -/
def gruK {R : Nat} (agg h : Mat R 32) (wih whh : Mat 32 96) (bih bhh : Mat 1 96) : Mat R 32 :=
  fun i =>
    let gi : Fin 96 → EReal := dense (row agg (r0 i)) wih bih
    let gh : Fin 96 → EReal := dense (row h (r0 i)) whh bhh
    let j : Fin 32 := c1 i
    let r : EReal := Ideal.logistic (gi (col96 0 (by omega) j) + gh (col96 0 (by omega) j))
    let z : EReal := Ideal.logistic (gi (col96 32 (by omega) j) + gh (col96 32 (by omega) j))
    let n : EReal := Ideal.tanh (gi (col96 64 (by omega) j) + r * gh (col96 64 (by omega) j))
    (Ideal.ofBits .f32 0x3F800000#32 - z) * n + z * h (ix2 (r0 i) j)

/-- The decoder: three dense layers, `tanh` after the first two. -/
def decK {R : Nat} (h : Mat R 32) (w1 : Mat 32 64) (b1 : Mat 1 64) (w2 : Mat 64 64) (b2 : Mat 1 64)
    (w3 : Mat 64 8) (b3 : Mat 1 8) : Mat R 8 :=
  fun i => dense (fun k => Ideal.tanh (dense (fun k' => Ideal.tanh (dense (row h (r0 i)) w1 b1 k')) w2 b2 k)) w3 b3 (c1 i)

/-! ## Rows are independent: a stage on rows taken from a bigger matrix is the stage on that matrix at those rows -/

theorem encK_rows {R R' : Nat} (x : Mat R 64) (x' : Mat R' 64) (W : Mat 64 32) (b : Mat 1 32) (f : Fin R' → Fin R)
    (hx : ∀ p k, x' (ix2 p k) = x (ix2 (f p) k)) (p : Fin R') (q : Fin 32) :
    encK x' W b (ix2 p q) = encK x W b (ix2 (f p) q) := by
  have hr : row x' p = row x (f p) := funext fun k => hx p k
  simp only [encK, r0_ix2, c1_ix2, hr]

theorem msgK_rows {R R' : Nat} (hd hs : Mat R 32) (hd' hs' : Mat R' 32) (w1d w1s : Mat 32 64) (b1 : Mat 1 64) (w2 : Mat 64 64)
    (b2 : Mat 1 64) (w3 : Mat 64 32) (b3 : Mat 1 32) (f : Fin R' → Fin R)
    (hhd : ∀ p k, hd' (ix2 p k) = hd (ix2 (f p) k)) (hhs : ∀ p k, hs' (ix2 p k) = hs (ix2 (f p) k)) (p : Fin R') (q : Fin 32) :
    msgK hd' hs' w1d w1s b1 w2 b2 w3 b3 (ix2 p q) = msgK hd hs w1d w1s b1 w2 b2 w3 b3 (ix2 (f p) q) := by
  have hr1 : row hd' p = row hd (f p) := funext fun k => hhd p k
  have hr2 : row hs' p = row hs (f p) := funext fun k => hhs p k
  simp only [msgK, r0_ix2, c1_ix2, hr1, hr2]

theorem gruK_rows {R R' : Nat} (agg h : Mat R 32) (agg' h' : Mat R' 32) (wih whh : Mat 32 96) (bih bhh : Mat 1 96) (f : Fin R' → Fin R)
    (hagg : ∀ p k, agg' (ix2 p k) = agg (ix2 (f p) k)) (hh : ∀ p k, h' (ix2 p k) = h (ix2 (f p) k)) (p : Fin R') (q : Fin 32) :
    gruK agg' h' wih whh bih bhh (ix2 p q) = gruK agg h wih whh bih bhh (ix2 (f p) q) := by
  have hr1 : row agg' p = row agg (f p) := funext fun k => hagg p k
  have hr2 : row h' p = row h (f p) := funext fun k => hh p k
  simp only [gruK, r0_ix2, c1_ix2, hr1, hr2, hh]

theorem decK_rows {R R' : Nat} (h : Mat R 32) (h' : Mat R' 32) (w1 : Mat 32 64) (b1 : Mat 1 64) (w2 : Mat 64 64) (b2 : Mat 1 64)
    (w3 : Mat 64 8) (b3 : Mat 1 8) (f : Fin R' → Fin R)
    (hh : ∀ p k, h' (ix2 p k) = h (ix2 (f p) k)) (p : Fin R') (q : Fin 8) :
    decK h' w1 b1 w2 b2 w3 b3 (ix2 p q) = decK h w1 b1 w2 b2 w3 b3 (ix2 (f p) q) := by
  have hr : row h' p = row h (f p) := funext fun k => hh p k
  simp only [decK, r0_ix2, c1_ix2, hr]

end Cert.Gnn

end
-- ==== Proof.ArrEnc.lean ====
import proofs.«427837_j2834678415534_1_alg».proof.Proof.Gen.KernelIdeal.Frame
import proofs.«427837_j2834678415534_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat Cfg Window)

/-! ## The encoder's matrix product: which entries of the two factors meet at an output entry -/

theorem encDot_lhs_0 (j : S10000x32.Idx) (k : dot_S10000x64_S64x32_S10000x32_1_0_0_1_n_n.contr.Idx) :
    (dot_S10000x64_S64x32_S10000x32_1_0_0_1_n_n.lhsIdx j k 0 : ℕ) = j 0 := by
  simp [DotDims.lhsIdx, dot_S10000x64_S64x32_S10000x32_1_0_0_1_n_n]; rfl
theorem encDot_lhs_1 (j : S10000x32.Idx) (k : dot_S10000x64_S64x32_S10000x32_1_0_0_1_n_n.contr.Idx) :
    (dot_S10000x64_S64x32_S10000x32_1_0_0_1_n_n.lhsIdx j k 1 : ℕ) = k ⟨0, by decide⟩ := by
  simp [DotDims.lhsIdx, dot_S10000x64_S64x32_S10000x32_1_0_0_1_n_n]; rfl
theorem encDot_rhs_0 (j : S10000x32.Idx) (k : dot_S10000x64_S64x32_S10000x32_1_0_0_1_n_n.contr.Idx) :
    (dot_S10000x64_S64x32_S10000x32_1_0_0_1_n_n.rhsIdx j k 0 : ℕ) = k ⟨0, by decide⟩ := by
  simp [DotDims.rhsIdx, dot_S10000x64_S64x32_S10000x32_1_0_0_1_n_n]; rfl
theorem encDot_rhs_1 (j : S10000x32.Idx) (k : dot_S10000x64_S64x32_S10000x32_1_0_0_1_n_n.contr.Idx) :
    (dot_S10000x64_S64x32_S10000x32_1_0_0_1_n_n.rhsIdx j k 1 : ℕ) = j 1 := by
  simp [DotDims.rhsIdx, dot_S10000x64_S64x32_S10000x32_1_0_0_1_n_n]; rfl

/-- The product into a zero accumulator, entry by entry: row `p` of the left factor against column `q` of the right. -/
theorem encDot_apply (a : FVec Ideal S10000x64 .bf16) (b : FVec Ideal S64x32 .bf16) (p : Fin 10000) (q : Fin 32) :
    matmul dot_S10000x64_S64x32_S10000x32_1_0_0_1_n_n none a b (constant (F := Ideal) S10000x32 .f32 0x00000000#32) (ix2 p q)
      = ∑ k : Fin 64, a (ix2 p k) * b (ix2 k q) := by
  show FloatOps.matmul dot_S10000x64_S64x32_S10000x32_1_0_0_1_n_n none a b _ (ix2 p q) = _
  rw [Ideal.matmul_constant_zero_apply,
    ← Equiv.sum_comp (contrEquiv1 dot_S10000x64_S64x32_S10000x32_1_0_0_1_n_n 64 rfl rfl).symm]
  refine Finset.sum_congr rfl fun c _ => ?_
  have hc := contrEquiv1_symm_val dot_S10000x64_S64x32_S10000x32_1_0_0_1_n_n 64 rfl rfl c
  have hl : dot_S10000x64_S64x32_S10000x32_1_0_0_1_n_n.lhsIdx (ix2 p q)
      ((contrEquiv1 dot_S10000x64_S64x32_S10000x32_1_0_0_1_n_n 64 rfl rfl).symm c) = ix2 p c := by
    funext ax; apply Fin.ext
    match ax with
    | ⟨0, _⟩ => exact encDot_lhs_0 _ _
    | ⟨1, _⟩ => exact (encDot_lhs_1 _ _).trans hc
  have hr : dot_S10000x64_S64x32_S10000x32_1_0_0_1_n_n.rhsIdx (ix2 p q)
      ((contrEquiv1 dot_S10000x64_S64x32_S10000x32_1_0_0_1_n_n 64 rfl rfl).symm c) = ix2 c q := by
    funext ax; apply Fin.ext
    match ax with
    | ⟨0, _⟩ => exact (encDot_rhs_0 _ _).trans hc
    | ⟨1, _⟩ => exact encDot_rhs_1 _ _
  rw [hl, hr]

/-- The one-row bias laid along every row. -/
theorem encBias_apply (b : FVec Ideal S1x32 .f32) (p : Fin 10000) (q : Fin 32) :
    broadcastTo S10000x32 (shapeCast S1x32 b shapeCasts_S1x32_S1x32) broadcasts_S1x32_S10000x32 (ix2 p q) = b (ix2 0 q) := by
  rw [shapeCast_self]
  refine broadcastTo_apply b broadcasts_S1x32_S10000x32 (ix2 p q) (ix2 (0 : Fin 1) q) fun a => ?_
  match a with
  | ⟨0, _⟩ => rfl
  | ⟨1, _⟩ => rfl

/-- The body's arithmetic on a block of rows is the encoder stage of that block: a format change is the identity on
    extended reals, the product into the zero accumulator is the exact sum, the floor is the maximum with zero. -/
theorem encPayload (x0 : Vec Ideal S10000x64 .f32) (x1 : Vec Ideal S64x32 .f32) (x2 : Vec Ideal S1x32 .f32) :
    k0_pay1 x0 x1 x2 = Cert.Gnn.encK x0 x1 x2 := by
  funext i
  obtain ⟨p, q, rfl⟩ : ∃ (p : Fin 10000) (q : Fin 32), i = ix2 p q := ⟨i 0, i 1, eq_ix2 i⟩
  unfold k0_pay1
  refine (maximumf_apply _ _ _).trans ?_
  rw [broadcast_apply, addf_apply]
  refine (congrArg₂ (fun u v => max (u + v) _) (encDot_apply _ _ p q) (encBias_apply x2 p q)).trans ?_
  show max _ (Ideal.ofBits .f32 0x00000000#32) = _
  rw [Ideal.ofBits_zero_f32]
  rfl

/-! ## From the blocks to the array -/

theorem zeroOffsets : (![0, 0] : Fin 2 → Nat) = fun _ => 0 := funext fun a => by fin_cases a <;> rfl

/-- The index maps over the five grid points: the node features and the output move one row tile per point, the weight
    matrix and the bias stay at their one block. -/
theorem encIndex : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The encoder stage of a tile of `10000` consecutive rows is that tile of the stage of the whole matrix. -/
theorem encK_tile (x : Vec Ideal S10000x64 .f32) (A : Vec Ideal S50000x64 .f32) (W : Vec Ideal S64x32 .f32) (b : Vec Ideal S1x32 .f32)
    (n : Nat) (hn : n < 5)
    (hx : ∀ (y : S10000x64.Idx) (i : S50000x64.Idx), (i 0).val = n * 10000 + (y 0).val → (i 1).val = (y 1).val → x y = A i)
    (j : S10000x32.Idx) (i : S50000x32.Idx) (h0 : (i 0).val = n * 10000 + (j 0).val) (h1 : (i 1).val = (j 1).val) :
    Cert.Gnn.encK x W b j = Cert.Gnn.encK A W b i := by
  obtain ⟨p, q, rfl⟩ : ∃ (p : Fin 10000) (q : Fin 32), j = ix2 p q := ⟨j 0, j 1, eq_ix2 j⟩
  have hi : i = ix2 (⟨n * 10000 + p.val, by have := p.isLt; omega⟩ : Fin 50000) q := by
    funext a; apply Fin.ext
    match a with
    | ⟨0, _⟩ => exact h0
    | ⟨1, _⟩ => exact h1
  rw [hi]
  exact Cert.Gnn.encK_rows A x W b (fun p => ⟨n * 10000 + p.val, by have := p.isLt; omega⟩)
    (fun p k => hx (ix2 p k) (ix2 _ k) rfl rfl) p q

variable (V : (c : Dev nD) → (b : Ref sig .tc) → Buf (Elt Ideal) ((c : Thread nD τ).loc b))

/-- The node-feature block at point `t` is rows `10000 t …` of the node-feature matrix. -/
theorem encX_block (c : Dev nD) (t : Fin cfg0.N) (y : S10000x64.Idx) (i : S50000x64.Idx)
    (h0 : (i 0).val = t.val * 10000 + (y 0).val) (h1 : (i 1).val = (y 1).val) :
    (iblk0 V c 0 t : Vec Ideal S10000x64 .f32) y = (V c (Pipeline.arrRef spec0 0) : Vec Ideal S50000x64 .f32) i := by
  obtain ⟨e0, e1, -⟩ := encIndex t
  show (V c (Pipeline.arrRef spec0 0) : Vec Ideal S50000x64 .f32) (((cfg0.win 0).blk t).view.emb y) = _
  refine congrArg _ (funext fun a => Fin.ext ?_)
  match a with
  | ⟨0, _⟩ => show win0_0.index t (0 : Fin 2) * 10000 + 1 * (y 0).val = (i 0).val; omega
  | ⟨1, _⟩ => show win0_0.index t (1 : Fin 2) * 64 + 1 * (y 1).val = (i 1).val; omega

/-- The weight block at every point is the whole weight matrix. -/
theorem encW_block (c : Dev nD) (t : Fin cfg0.N) :
    (iblk0 V c 1 t : Vec Ideal S64x32 .f32) = (V c (Pipeline.arrRef spec0 1) : Vec Ideal S64x32 .f32) := by
  obtain ⟨-, -, e0, e1, -⟩ := encIndex t
  funext y
  show (V c (Pipeline.arrRef spec0 1) : Vec Ideal S64x32 .f32) (((cfg0.win 1).blk t).view.emb y) = _
  refine congrArg _ (funext fun a => Fin.ext ?_)
  match a with
  | ⟨0, _⟩ => show win0_1.index t (0 : Fin 2) * 64 + 1 * (y 0).val = (y 0).val; omega
  | ⟨1, _⟩ => show win0_1.index t (1 : Fin 2) * 32 + 1 * (y 1).val = (y 1).val; omega

/-- The bias block at every point is the whole one-row bias. -/
theorem encB_block (c : Dev nD) (t : Fin cfg0.N) :
    (iblk0 V c 2 t : Vec Ideal S1x32 .f32) = (V c (Pipeline.arrRef spec0 2) : Vec Ideal S1x32 .f32) := by
  obtain ⟨-, -, -, -, e0, e1, -⟩ := encIndex t
  funext y
  show (V c (Pipeline.arrRef spec0 2) : Vec Ideal S1x32 .f32) (((cfg0.win 2).blk t).view.emb y) = _
  refine congrArg _ (funext fun a => Fin.ext ?_)
  match a with
  | ⟨0, _⟩ => show win0_2.index t (0 : Fin 2) * 1 + 1 * (y 0).val = (y 0).val; omega
  | ⟨1, _⟩ => show win0_2.index t (1 : Fin 2) * 32 + 1 * (y 1).val = (y 1).val; omega

/-- What point `t` writes back is its row tile of the encoder stage of the whole arrays. -/
theorem encFlushed (c : Dev nD) (t : Fin cfg0.N) :
    (dat0 (F := Ideal) V c).flushed 3 t = ((cfg0.win 3).blk t).view.read (Elt Ideal)
      (Cert.Gnn.encK (V c (Pipeline.arrRef spec0 0)) (V c (Pipeline.arrRef spec0 1)) (V c (Pipeline.arrRef spec0 2))) := by
  show (cfg0.win 3).cut (grid0.coords t) ((dat0 (F := Ideal) V c).after 3 t) = _
  rw [after0_3]
  unfold out0_3
  rw [View.canon_unit_zero zeroOffsets]
  simp only [View.ld_unit_zero (S := S10000x64) zeroOffsets, View.ld_unit_zero (S := S64x32) zeroOffsets,
    View.ld_unit_zero (S := S1x32) zeroOffsets]
  have hp := encPayload (iblk0 V c 0 t) (iblk0 V c 1 t) (iblk0 V c 2 t)
  rw [hp, encW_block V c t, encB_block V c t]
  obtain ⟨-, -, -, -, -, -, e0, e1⟩ := encIndex t
  have hN : cfg0.N = 5 := N_0
  funext j
  refine encK_tile (iblk0 V c 0 t) (V c (Pipeline.arrRef spec0 0)) (V c (Pipeline.arrRef spec0 1)) (V c (Pipeline.arrRef spec0 2))
    t.val (by have := t.isLt; omega) (fun y i h0 h1 => encX_block V c t y i h0 h1) j (((cfg0.win 3).blk t).view.emb j) ?_ ?_
  · show win0_3.index t (0 : Fin 2) * 10000 + 1 * (j 0).val = t.val * 10000 + (j 0).val; omega
  · show win0_3.index t (1 : Fin 2) * 32 + 1 * (j 1).val = (j 1).val; omega

/-- An index of the output array is in point `t`'s block iff each coordinate is in the block's range on its axis. -/
theorem encMemBlock (t : Fin cfg0.N) (i : S50000x32.Idx) :
    i ∈ ((cfg0.win 3).blk t).view.set ↔ ∀ a : Fin 2, win0_3.index t a * S10000x32.size a ≤ (i a).val
      ∧ (i a).val < win0_3.index t a * S10000x32.size a + S10000x32.size a := by
  show i ∈ ((View.whole main_v15).slice (win0_3.rect t)).set ↔ _
  rw [View.set_slice_whole, Rect.mem_set_unit]
  exact Iff.rfl

/-- Row `r` of the output is written by point `r / 10000`: the five row tiles cover the array. -/
theorem encCover (i : S50000x32.Idx) :
    ∃ t : Fin cfg0.N, (cfg0.win 3).flush t = true ∧ i ∈ ((cfg0.win 3).blk t).view.set := by
  have hN : cfg0.N = 5 := N_0
  have hi0 : (i 0).val < 50000 := (i 0).isLt
  have hi1 : (i 1).val < 32 := (i 1).isLt
  let t : Fin cfg0.N := ⟨(i 0).val / 10000, by rw [hN]; omega⟩
  refine ⟨t, flush0_3 t, ?_⟩
  obtain ⟨-, -, -, -, -, -, e0, e1⟩ := encIndex t
  have ht : t.val = (i 0).val / 10000 := rfl
  rw [encMemBlock]
  intro a
  match a with
  | ⟨0, _⟩ => show win0_3.index t (0 : Fin 2) * 10000 ≤ (i 0).val ∧ (i 0).val < win0_3.index t (0 : Fin 2) * 10000 + 10000; omega
  | ⟨1, _⟩ => show win0_3.index t (1 : Fin 2) * 32 ≤ (i 1).val ∧ (i 1).val < win0_3.index t (1 : Fin 2) * 32 + 32; omega

/-- What region 0 leaves in its output array: the stage's function of the arrays the region finds. -/
theorem region0_value (c : Dev nD) :
    (dat0 (F := Ideal) V c).arrAt 3 cfg0.N = Cert.Gnn.encK (V c (Pipeline.arrRef spec0 0)) (V c (Pipeline.arrRef spec0 1)) (V c (Pipeline.arrRef spec0 2)) :=
  (dat0 (F := Ideal) V c).arrAt_eq_of_cover 3 _ (fun t _ => encFlushed V c t) encCover

end Cert.KernelIdeal.RegionValue

end
-- ==== Proof.KHostFns.lean ====
/-
  The host-side functions both programs apply between the dense stages, each as the composite of the printed
  host operations: the source and target node of every message (the edge list followed by one self loop per node),
  the reciprocal in-degree, the row gather by (wrapped) node index, and the mean aggregation of the messages.
-/
import proofs.«427837_j2834678415534_1_alg».proof.Proof.Gen.KernelIdeal
import Idealize.ShloMosaic.PureOps.Ideal

noncomputable section

namespace Cert.KernelIdeal.HostFns

open Cert.KernelIdeal Idealize.ShloMosaic
open Cert.KernelIdeal.Facts₀ Cert.KernelIdeal.Facts

/-- The source node of each message: row 0 of the edge list, then node `i` for its self loop. -/
def srcOf (ei : IVec S2x800000 32) : IVec S850000 32 :=
  concatenate S850000 0 [⟨S800000, shapeCast S800000 (extractStridedSlice S1x800000 ![0, 0] ei slices_S2x800000_S1x800000_0_0) shapeCasts_S1x800000_S800000⟩, ⟨S50000, iotaInDim S50000 32 0⟩] concatenates_S800000_S50000_S850000_d0

/-- The target node of each message: row 1 of the edge list, then node `i` for its self loop. -/
def dstOf (ei : IVec S2x800000 32) : IVec S850000 32 :=
  concatenate S850000 0 [⟨S800000, shapeCast S800000 (extractStridedSlice S1x800000 ![1, 0] ei slices_S2x800000_S1x800000_1_0) shapeCasts_S1x800000_S800000⟩, ⟨S50000, iotaInDim S50000 32 0⟩] concatenates_S800000_S50000_S850000_d0

/-- One over the number of messages each node receives, as a column. -/
def invDeg (dst : IVec S850000 32) : FVec Ideal S50000x1 .f32 :=
  broadcastInDim S50000x1 ![0] bcast_S50000_S50000x1_0
    (Host.divf (broadcastInDim S50000 ![] bcast_S_S50000 (constant S_ .f32 0x3F800000#32))
      (Host.scatterAdd scatter_S50000_S850000x1_S850000_n_0_0_1 (broadcastInDim S50000 ![] bcast_S_S50000 (constant S_ .f32 0x00000000#32))
        (broadcastInDim S850000x1 ![0] bcast_S850000_S850000x1_0 dst)
        (broadcastInDim S850000 ![] bcast_S_S850000 (constant S_ .f32 0x3F800000#32))))

/-- A node index with a negative value counted from the end. -/
def wrapIdx (idx : IVec S850000 32) : IVec S850000 32 :=
  select (cmpi .slt idx (broadcastInDim S850000 ![] bcast_S_S850000 (constantI S_ 32 0#32)))
    (addi idx (broadcastInDim S850000 ![] bcast_S_S850000 (constantI S_ 32 50000#32))) idx

/-- The rows of `h` at the wrapped indices (an index outside the rows is clamped by the gather). -/
def gatherRows (h : FVec Ideal S50000x32 .f32) (idx : IVec S850000 32) : FVec Ideal S850000x32 .f32 :=
  Host.gather gather_S50000x32_S850000x1_S850000x32_1_0_n_n_0_1_132 h (broadcastInDim S850000x1 ![0] bcast_S850000_S850000x1_0 (wrapIdx idx))

/-- The messages summed into their target nodes, times the reciprocal in-degree: the mean message. -/
def aggOf (M : FVec Ideal S850000x32 .f32) (dst : IVec S850000 32) (invc : FVec Ideal S50000x1 .f32) : FVec Ideal S50000x32 .f32 :=
  mulf (Host.scatterAdd scatter_S50000x32_S850000x1_S850000x32_1_0_0_1 (broadcastInDim S50000x32 ![] bcast_S_S50000x32 (constant S_ .f32 0x00000000#32))
      (broadcastInDim S850000x1 ![0] bcast_S850000_S850000x1_0 dst) M)
    (broadcastInDim S50000x32 ![0, 1] bcast_S50000x1_S50000x32_0_1 invc)

/-- Which wrapped indices lie inside the rows `0 … 49999`. -/
def inRows (w : IVec S850000x1 32) : IVec S850000 1 :=
  Host.reduce IntOp.andi
    (andi (cmpi .sge w (broadcastInDim S850000x1 ![] bcast_S_S850000x1 (constantI S_ 32 0#32)))
      (cmpi .sle w (broadcastInDim S850000x1 ![0, 1] bcast_S1x1_S850000x1_0_1 (broadcastInDim S1x1 ![1] bcast_S1_S1x1_1 (constantI S1 32 49999#32)))))
    (constantI S_ 1 1#1) reducesTo_S850000x1_S850000_d1 h_S_

/-- The rows of `h` at the wrapped indices, with a fill value where the wrapped index is outside the rows. -/
def takeRows (h : FVec Ideal S50000x32 .f32) (idx : IVec S850000 32) : FVec Ideal S850000x32 .f32 :=
  select (broadcastInDim S850000x32 ![0] bcast_S850000_S850000x32_0 (inRows (broadcastInDim S850000x1 ![0] bcast_S850000_S850000x1_0 (wrapIdx idx))))
    (Host.gather gather_S50000x32_S850000x1_S850000x32_1_0_n_n_0_1_132 h (broadcastInDim S850000x1 ![0] bcast_S850000_S850000x1_0 (wrapIdx idx)))
    (broadcastInDim S850000x32 ![] bcast_S_S850000x32 (constant S_ .f32 0x7FC00000#32))

end Cert.KernelIdeal.HostFns

end
-- ==== Proof.Chain.lean ====
/-
  The whole network as ONE function of its argument arrays: the encoder, three rounds of
  (gather the target and source rows, message network, mean aggregation, gated recurrent update), the decoder.
  The row gathers and the aggregation enter as parameters: both programs apply the same host operations there,
  and nothing in the composition depends on what they are.
-/
import proofs.«427837_j2834678415534_1_alg».proof.Proof.Spec

noncomputable section

namespace Cert.Gnn

open Idealize.ShloMosaic Idealize.ShloMosaic.ValueIdx

/-- A stack of `n` matrices. -/
abbrev Stack (n r c : Nat) : Type := FVec Ideal (⟨3, ![n, r, c]⟩ : Shape) .f32
/-- A vector. -/
abbrev Vec1 (n : Nat) : Type := FVec Ideal (⟨1, ![n]⟩ : Shape) .f32

/-- A vector as a one-row matrix. -/
def asRow {n : Nat} (b : Vec1 n) : Mat 1 n := fun i => b (ix1 (c1 i))
/-- Row `l` of a matrix as a one-row matrix. -/
def rowOf {n c : Nat} (l : Fin n) (b : Mat n c) : Mat 1 c := fun i => b (ix2 l (c1 i))
/-- Matrix `l` of a stack. -/
def matOf {n r c : Nat} (l : Fin n) (a : Stack n r c) : Mat r c := fun i => a (ix3 l (r0 i) (c1 i))
/-- Matrix `l` of a stack, transposed. -/
def matOfT {n r c : Nat} (l : Fin n) (a : Stack n c r) : Mat r c := fun i => a (ix3 l (c1 i) (r0 i))
/-- Rows `off … off + 31` of matrix `l` of a stack of 64-row matrices. -/
def halfOf {n c : Nat} (l : Fin n) (off : Nat) (hoff : off + 32 ≤ 64) (a : Stack n 64 c) : Mat 32 c :=
  fun i => a (ix3 l ⟨off + (r0 i).val, by have := (r0 i).isLt; omega⟩ (c1 i))

/-- The network's weights: the arguments after the node features and the edge list. -/
structure Params where
  encW : Mat 64 32
  encB : Vec1 32
  msgW1 : Stack 3 64 64
  msgB1 : Mat 3 64
  msgW2 : Stack 3 64 64
  msgB2 : Mat 3 64
  msgW3 : Stack 3 64 32
  msgB3 : Mat 3 32
  gruWih : Stack 3 96 32
  gruWhh : Stack 3 96 32
  gruBih : Mat 3 96
  gruBhh : Mat 3 96
  decW1 : Mat 32 64
  decB1 : Vec1 64
  decW2 : Mat 64 64
  decB2 : Vec1 64
  decW3 : Mat 64 8
  decB3 : Vec1 8

/-- Round `l`'s messages from the node states. -/
def messages (P : Params) (gd gs : Mat 50000 32 → Mat 850000 32) (l : Fin 3) (h : Mat 50000 32) : Mat 850000 32 :=
  msgK (gd h) (gs h) (halfOf l 0 (by omega) P.msgW1) (halfOf l 32 (by omega) P.msgW1) (rowOf l P.msgB1)
    (matOf l P.msgW2) (rowOf l P.msgB2) (matOf l P.msgW3) (rowOf l P.msgB3)

/-- Round `l`: the node states after the update. -/
def round (P : Params) (gd gs : Mat 50000 32 → Mat 850000 32) (ag : Mat 850000 32 → Mat 50000 32) (l : Fin 3)
    (h : Mat 50000 32) : Mat 50000 32 :=
  gruK (ag (messages P gd gs l h)) h (matOfT l P.gruWih) (matOfT l P.gruWhh) (rowOf l P.gruBih) (rowOf l P.gruBhh)

/-- The encoder's node states. -/
def encode (P : Params) (x : Mat 50000 64) : Mat 50000 32 := encK x P.encW (asRow P.encB)

/-- The decoder on the final node states. -/
def decode (P : Params) (h : Mat 50000 32) : Mat 50000 8 :=
  decK h P.decW1 (asRow P.decB1) P.decW2 (asRow P.decB2) P.decW3 (asRow P.decB3)

/-- The network. -/
def network (P : Params) (gd gs : Mat 50000 32 → Mat 850000 32) (ag : Mat 850000 32 → Mat 50000 32) (x : Mat 50000 64) :
    Mat 50000 8 :=
  decode P (round P gd gs ag 2 (round P gd gs ag 1 (round P gd gs ag 0 (encode P x))))

end Cert.Gnn

end
-- ==== Proof.KHost0.lean ====
import proofs.«427837_j2834678415534_1_alg».proof.Proof.Gen.KernelIdeal.Launch
import proofs.«427837_j2834678415534_1_alg».proof.Proof.KHostFns
import proofs.«427837_j2834678415534_1_alg».proof.Proof.Chain
import Idealize.ShloMosaic.Lib.StableHlo.Run
import Idealize.ShloMosaic.Lib.ValueLayout

set_option maxRecDepth 16384

noncomputable section

namespace Cert.KernelIdeal.HostStages

namespace R0

open Cert.KernelIdeal Cert.KernelIdeal.Gen Idealize.ShloMosaic Idealize.ShloMosaic.TcCoe Idealize.SL.Sem
open Idealize.ShloMosaic.ValueIdx Cert.Gnn

/-! ## The weight plumbing, read index by index -/

/-- A vector cast to a one-row matrix is the vector as a row. -/
theorem shapeCast_asRow {n : Nat} (b : Vec1 n) (h : (⟨1, ![n]⟩ : Shape).ShapeCasts ⟨2, ![1, n]⟩) :
    shapeCast ⟨2, ![1, n]⟩ b h = asRow b := by
  funext i
  rw [eq_ix2 i]
  exact shapeCast_a_1a_apply b h _ _

/-- Row `l` cut out of a matrix, flattened to a vector and cast back to one row, is row `l` as a one-row matrix. -/
theorem slice_rowOf {n c : Nat} (l : Fin n) (b : Mat n c)
    (h1 : (⟨2, ![n, c]⟩ : Shape).Slices ![l.val, 0] ⟨2, ![1, c]⟩)
    (h2 : (⟨2, ![1, c]⟩ : Shape).ShapeCasts ⟨1, ![c]⟩)
    (h3 : (⟨1, ![c]⟩ : Shape).ShapeCasts ⟨2, ![1, c]⟩) :
    shapeCast ⟨2, ![1, c]⟩ (shapeCast ⟨1, ![c]⟩ (extractStridedSlice ⟨2, ![1, c]⟩ ![l.val, 0] b h1) h2) h3 = rowOf l b := by
  funext i
  rw [eq_ix2 i]
  refine (shapeCast_a_1a_apply _ h3 _ _).trans ?_
  refine (shapeCast_1a_a_apply _ h2 _).trans ?_
  exact slice2_axis0_apply l.val b h1 _ _ l rfl

/-- A stack cut at matrix `l` reads, at `(u, p, q)`, the stack at `(l, p, q)`. -/
theorem slice_stack_apply {n r c : Nat} (l : Fin n) (a : Stack n r c)
    (h : (⟨3, ![n, r, c]⟩ : Shape).Slices ![l.val, 0, 0] ⟨3, ![1, r, c]⟩) (u : Fin 1) (p : Fin r) (q : Fin c) :
    extractStridedSlice ⟨3, ![1, r, c]⟩ ![l.val, 0, 0] a h (ix3 u p q) = a (ix3 l p q) :=
  extractStridedSlice_apply _ a h _ _ (fun ax => by
    match ax with
    | ⟨0, _⟩ => show l.val = l.val + u.val; omega
    | ⟨1, _⟩ => exact (Nat.zero_add _).symm
    | ⟨2, _⟩ => exact (Nat.zero_add _).symm)

/-- Matrix `l` cut out of a stack and cast to a matrix is matrix `l`. -/
theorem slice_matOf {n r c : Nat} (l : Fin n) (a : Stack n r c)
    (h1 : (⟨3, ![n, r, c]⟩ : Shape).Slices ![l.val, 0, 0] ⟨3, ![1, r, c]⟩)
    (h2 : (⟨3, ![1, r, c]⟩ : Shape).ShapeCasts ⟨2, ![r, c]⟩) :
    shapeCast ⟨2, ![r, c]⟩ (extractStridedSlice ⟨3, ![1, r, c]⟩ ![l.val, 0, 0] a h1) h2 = matOf l a := by
  funext i
  rw [eq_ix2 i]
  refine (shapeCast_1ab_ab_apply _ h2 _ _).trans ?_
  exact slice_stack_apply l a h1 _ _ _

/-- Matrix `l` cut out of a stack, cast to a matrix and transposed, is matrix `l` transposed. -/
theorem slice_matOfT {n r c : Nat} (l : Fin n) (a : Stack n c r)
    (h1 : (⟨3, ![n, c, r]⟩ : Shape).Slices ![l.val, 0, 0] ⟨3, ![1, c, r]⟩)
    (h2 : (⟨3, ![1, c, r]⟩ : Shape).ShapeCasts ⟨2, ![c, r]⟩)
    (h3 : (⟨2, ![c, r]⟩ : Shape).Transposes [1, 0] ⟨2, ![r, c]⟩) :
    transpose ⟨2, ![r, c]⟩ [1, 0] (shapeCast ⟨2, ![c, r]⟩ (extractStridedSlice ⟨3, ![1, c, r]⟩ ![l.val, 0, 0] a h1) h2) h3
      = matOfT l a := by
  funext i
  rw [eq_ix2 i]
  refine (transpose_ix2_apply _ h3 _ _).trans ?_
  refine (shapeCast_1ab_ab_apply _ h2 _ _).trans ?_
  exact slice_stack_apply l a h1 _ _ _

/-- Rows `off … off + 31` cut out of matrix `l` of a stack. -/
theorem slice_halfOf {n c : Nat} (l : Fin n) (off : Nat) (hoff : off + 32 ≤ 64) (a : Stack n 64 c)
    (h1 : (⟨3, ![n, 64, c]⟩ : Shape).Slices ![l.val, 0, 0] ⟨3, ![1, 64, c]⟩)
    (h2 : (⟨3, ![1, 64, c]⟩ : Shape).ShapeCasts ⟨2, ![64, c]⟩)
    (h3 : (⟨2, ![64, c]⟩ : Shape).Slices ![off, 0] ⟨2, ![32, c]⟩) :
    extractStridedSlice ⟨2, ![32, c]⟩ ![off, 0]
        (shapeCast ⟨2, ![64, c]⟩ (extractStridedSlice ⟨3, ![1, 64, c]⟩ ![l.val, 0, 0] a h1) h2) h3
      = halfOf l off hoff a := by
  funext i
  rw [eq_ix2 i]
  refine (slice2_axis0_apply off _ h3 _ _ ⟨off + (i 0).val, by have := idx2_lt0 i; omega⟩ rfl).trans ?_
  refine (shapeCast_1ab_ab_apply _ h2 _ _).trans ?_
  exact slice_stack_apply l a h1 _ _ _

/-- One written reference lies among a list that holds it. -/
theorem single_sub_written {L : List (Ref sig .tc)} {y : Ref sig .tc} (h : y ∈ L) :
    ({Proc.devRef (τ := τ) .tc y} : Finset (DevRef τ sig)) ⊆ (L.map (Proc.devRef (τ := τ) .tc)).toFinset :=
  Finset.singleton_subset_iff.mpr (List.mem_toFinset.mpr (List.mem_map_of_mem h))

/-! ## Typed references at literal buffers: the transports are the identity -/

/-- A value carried to a buffer's own type and back is the value. -/
theorem cast_cast_cancel {A B : Type} (h : A = B) (h' : B = A) (v : A) : cast h' (cast h v) = v := by
  subst h; rfl

theorem ofBuf_v6 (v) : (StableHlo.TRef.of main_v6 : StableHlo.TRef sig ⟨S850000, .i32⟩).ofBuf (Val := Elt Ideal) v = v := rfl
theorem ofBuf_v3 (v) : (StableHlo.TRef.of main_v3 : StableHlo.TRef sig ⟨S850000, .i32⟩).ofBuf (Val := Elt Ideal) v = v := rfl
theorem ofBuf_v15 (v) : (StableHlo.TRef.of main_v15 : StableHlo.TRef sig ⟨S50000x32, .f32⟩).ofBuf (Val := Elt Ideal) v = v := rfl
theorem toBuf_v16 (v) : (StableHlo.TRef.of main_v16 : StableHlo.TRef sig ⟨S850000x32, .f32⟩).toBuf (Val := Elt Ideal) v = v := rfl
theorem toBuf_v17 (v) : (StableHlo.TRef.of main_v17 : StableHlo.TRef sig ⟨S850000x32, .f32⟩).toBuf (Val := Elt Ideal) v = v := rfl

end R0

open Cert.KernelIdeal Cert.KernelIdeal.Gen Cert.KernelIdeal.HostFns Idealize.ShloMosaic Idealize.ShloMosaic.TcCoe Idealize.SL.Sem
open Cert.Gnn (asRow rowOf matOf matOfT halfOf)
open R0

variable (W : Valuation τ sig (Elt Ideal))

/-! ## Before the encoder (`hostOps0`) -/

/-- The references the stretch writes. -/
def written_pre : List (Ref sig .tc) :=
  [main_v0, main_v1, main_v2, main_v3, main_v4, main_v5, main_v6, main_cst, main_v7, main_cst_0, main_v8, main_v9, main_v10,
   main_cst_1, main_v11, main_v12, main_v13, main_v14]

theorem pre_keep (r : Ref sig .tc) (hr : r ∉ written_pre) : StableHlo.after hostOps0 W (Proc.devRef .tc r) = W (Proc.devRef .tc r) :=
  StableHlo.after_of_writes_sub hostOps0 W (by
    simp only [hostOps0, List.Forall, StableHlo.nullary_writes, StableHlo.unary_writes, StableHlo.binary_writes, StableHlo.ternary_writes, StableHlo.reshape_writes]
    repeat' apply And.intro
    all_goals exact single_sub_written (by decide)) hr

theorem pre_src : StableHlo.after hostOps0 W (Proc.devRef .tc main_v3) = srcOf (W (Proc.devRef .tc main_arg1)) := by
  after_results
  unfold srcOf
  rfl
theorem pre_dst : StableHlo.after hostOps0 W (Proc.devRef .tc main_v6) = dstOf (W (Proc.devRef .tc main_arg1)) := by
  after_results
  unfold dstOf
  rfl
theorem pre_invDeg : StableHlo.after hostOps0 W (Proc.devRef .tc main_v13) = invDeg (dstOf (W (Proc.devRef .tc main_arg1))) := by
  after_results
  unfold invDeg dstOf
  rfl
theorem pre_encB : StableHlo.after hostOps0 W (Proc.devRef .tc main_v14) = asRow (W (Proc.devRef .tc main_arg3)) := by
  after_results
  exact shapeCast_asRow _ _

/-! ## Round 0: before the message network (`hostOps1`, `hostOps1_1`, `hostOps1_2`) -/

/-- The references the three stretches write. -/
def written_r0 : List (Ref sig .tc) :=
  [main_call0_c, main_call0_v0, main_call0_v1, main_call0_c_0, main_call0_v2, main_call0_v3, main_call0_v4, main_call0_v5,
   main_call0_c_1, main_call0_c_2, main_call0_v6, main_call0_v7, main_call0_v8, main_call0_v9, main_call0_v10, main_call0_v11,
   main_call0_c_3, main_call0_v12, main_call0_v13, main_call0_v14, main_call0_cst, main_call0_v15, main_v16, main_call1_c,
   main_call1_v0, main_call1_v1, main_call1_c_0, main_call1_v2, main_call1_v3, main_call1_v4, main_call1_v5, main_call1_c_1,
   main_call1_c_2, main_call1_v6, main_call1_v7, main_call1_v8, main_call1_v9, main_call1_v10, main_call1_v11, main_call1_c_3,
   main_call1_v12, main_call1_v13, main_call1_v14, main_call1_cst, main_call1_v15, main_v17, main_v18, main_v19, main_v20,
   main_v21, main_v22, main_v23, main_v24, main_v25, main_v26, main_v27, main_v28, main_v29, main_v30, main_v31, main_v32,
   main_v33, main_v34, main_v35, main_v36]

theorem r0_keep (r : Ref sig .tc) (hr : r ∉ written_r0) : StableHlo.after hostOps1_2 (StableHlo.after hostOps1_1 (StableHlo.after hostOps1 W)) (Proc.devRef .tc r) = W (Proc.devRef .tc r) :=
  (StableHlo.after_of_writes_sub hostOps1_2 _ (by
    simp only [hostOps1_2, List.Forall, StableHlo.nullary_writes, StableHlo.unary_writes, StableHlo.binary_writes, StableHlo.ternary_writes, StableHlo.reshape_writes]
    repeat' apply And.intro
    all_goals exact single_sub_written (by decide)) hr).trans
    ((StableHlo.after_of_writes_sub hostOps1_1 _ (by
    simp only [hostOps1_1, List.Forall, StableHlo.nullary_writes, StableHlo.unary_writes, StableHlo.binary_writes, StableHlo.ternary_writes, StableHlo.reshape_writes]
    repeat' apply And.intro
    all_goals exact single_sub_written (by decide)) hr).trans
      (StableHlo.after_of_writes_sub hostOps1 W (by
    simp only [hostOps1, List.Forall, StableHlo.nullary_writes, StableHlo.unary_writes, StableHlo.binary_writes, StableHlo.ternary_writes, StableHlo.reshape_writes]
    repeat' apply And.intro
    all_goals exact single_sub_written (by decide)) hr))

set_option maxHeartbeats 1000000 in
theorem r0_hd : StableHlo.after hostOps1_2 (StableHlo.after hostOps1_1 (StableHlo.after hostOps1 W)) (Proc.devRef .tc main_v16) = takeRows (W (Proc.devRef .tc main_v15)) (W (Proc.devRef .tc main_v6)) := by
  after_results_simp
  simp only [cast_cast_cancel, ofBuf_v6, ofBuf_v15, toBuf_v16]
  unfold takeRows inRows wrapIdx
  rfl
set_option maxHeartbeats 1000000 in
theorem r0_hs : StableHlo.after hostOps1_2 (StableHlo.after hostOps1_1 (StableHlo.after hostOps1 W)) (Proc.devRef .tc main_v17) = takeRows (W (Proc.devRef .tc main_v15)) (W (Proc.devRef .tc main_v3)) := by
  after_results_simp
  simp only [cast_cast_cancel, ofBuf_v3, ofBuf_v15, toBuf_v17]
  unfold takeRows inRows wrapIdx
  rfl

theorem r0_w1d : StableHlo.after hostOps1_2 (StableHlo.after hostOps1_1 (StableHlo.after hostOps1 W)) (Proc.devRef .tc main_v20) = halfOf (⟨0, by decide⟩ : Fin 3) 0 (by omega) (W (Proc.devRef .tc main_arg4)) := by
  after_results_simp
  exact slice_halfOf (⟨0, by decide⟩ : Fin 3) 0 (by omega) _ _ _ _
theorem r0_w1s : StableHlo.after hostOps1_2 (StableHlo.after hostOps1_1 (StableHlo.after hostOps1 W)) (Proc.devRef .tc main_v23) = halfOf (⟨0, by decide⟩ : Fin 3) 32 (by omega) (W (Proc.devRef .tc main_arg4)) := by
  after_results_simp
  exact slice_halfOf (⟨0, by decide⟩ : Fin 3) 32 (by omega) _ _ _ _
theorem r0_b1 : StableHlo.after hostOps1_2 (StableHlo.after hostOps1_1 (StableHlo.after hostOps1 W)) (Proc.devRef .tc main_v26) = rowOf (⟨0, by decide⟩ : Fin 3) (W (Proc.devRef .tc main_arg5)) := by
  after_results_simp
  exact slice_rowOf (⟨0, by decide⟩ : Fin 3) _ _ _ _
theorem r0_w2 : StableHlo.after hostOps1_2 (StableHlo.after hostOps1_1 (StableHlo.after hostOps1 W)) (Proc.devRef .tc main_v28) = matOf (⟨0, by decide⟩ : Fin 3) (W (Proc.devRef .tc main_arg6)) := by
  after_results_simp
  exact slice_matOf (⟨0, by decide⟩ : Fin 3) _ _ _
theorem r0_b2 : StableHlo.after hostOps1_2 (StableHlo.after hostOps1_1 (StableHlo.after hostOps1 W)) (Proc.devRef .tc main_v31) = rowOf (⟨0, by decide⟩ : Fin 3) (W (Proc.devRef .tc main_arg7)) := by
  after_results_simp
  exact slice_rowOf (⟨0, by decide⟩ : Fin 3) _ _ _ _
theorem r0_w3 : StableHlo.after hostOps1_2 (StableHlo.after hostOps1_1 (StableHlo.after hostOps1 W)) (Proc.devRef .tc main_v33) = matOf (⟨0, by decide⟩ : Fin 3) (W (Proc.devRef .tc main_arg8)) := by
  after_results_simp
  exact slice_matOf (⟨0, by decide⟩ : Fin 3) _ _ _
theorem r0_b3 : StableHlo.after hostOps1_2 (StableHlo.after hostOps1_1 (StableHlo.after hostOps1 W)) (Proc.devRef .tc main_v36) = rowOf (⟨0, by decide⟩ : Fin 3) (W (Proc.devRef .tc main_arg9)) := by
  after_results_simp
  exact slice_rowOf (⟨0, by decide⟩ : Fin 3) _ _ _ _

/-! ## Round 0: before the gated update (`hostOps2`) -/

/-- The references the stretch writes. -/
def written_a0 : List (Ref sig .tc) :=
  [main_cst_2, main_v38, main_v39, main_v40, main_v41, main_v42, main_v43, main_v44, main_v45, main_v46, main_v47, main_v48,
   main_v49, main_v50, main_v51, main_v52, main_v53, main_v54]

theorem a0_keep (r : Ref sig .tc) (hr : r ∉ written_a0) : StableHlo.after hostOps2 W (Proc.devRef .tc r) = W (Proc.devRef .tc r) :=
  StableHlo.after_of_writes_sub hostOps2 W (by
    simp only [hostOps2, List.Forall, StableHlo.nullary_writes, StableHlo.unary_writes, StableHlo.binary_writes, StableHlo.ternary_writes, StableHlo.reshape_writes]
    repeat' apply And.intro
    all_goals exact single_sub_written (by decide)) hr

theorem a0_agg : StableHlo.after hostOps2 W (Proc.devRef .tc main_v42) = aggOf (W (Proc.devRef .tc main_v37)) (W (Proc.devRef .tc main_v6)) (W (Proc.devRef .tc main_v13)) := by
  after_results
  unfold aggOf
  rfl
theorem a0_wih : StableHlo.after hostOps2 W (Proc.devRef .tc main_v45) = matOfT (⟨0, by decide⟩ : Fin 3) (W (Proc.devRef .tc main_arg10)) := by
  after_results
  exact slice_matOfT (⟨0, by decide⟩ : Fin 3) _ _ _ _
theorem a0_whh : StableHlo.after hostOps2 W (Proc.devRef .tc main_v48) = matOfT (⟨0, by decide⟩ : Fin 3) (W (Proc.devRef .tc main_arg11)) := by
  after_results
  exact slice_matOfT (⟨0, by decide⟩ : Fin 3) _ _ _ _
theorem a0_bih : StableHlo.after hostOps2 W (Proc.devRef .tc main_v51) = rowOf (⟨0, by decide⟩ : Fin 3) (W (Proc.devRef .tc main_arg12)) := by
  after_results
  exact slice_rowOf (⟨0, by decide⟩ : Fin 3) _ _ _ _
theorem a0_bhh : StableHlo.after hostOps2 W (Proc.devRef .tc main_v54) = rowOf (⟨0, by decide⟩ : Fin 3) (W (Proc.devRef .tc main_arg13)) := by
  after_results
  exact slice_rowOf (⟨0, by decide⟩ : Fin 3) _ _ _ _

/-! ## Before the decoder (`hostOps7`) -/

/-- The references the stretch writes. -/
def written_dec : List (Ref sig .tc) :=
  [main_v136, main_v137, main_v138]

theorem dec_keep (r : Ref sig .tc) (hr : r ∉ written_dec) : StableHlo.after hostOps7 W (Proc.devRef .tc r) = W (Proc.devRef .tc r) :=
  StableHlo.after_of_writes_sub hostOps7 W (by
    simp only [hostOps7, List.Forall, StableHlo.nullary_writes, StableHlo.unary_writes, StableHlo.binary_writes, StableHlo.ternary_writes, StableHlo.reshape_writes]
    repeat' apply And.intro
    all_goals exact single_sub_written (by decide)) hr

theorem dec_b1 : StableHlo.after hostOps7 W (Proc.devRef .tc main_v136) = asRow (W (Proc.devRef .tc main_arg15)) := by
  after_results
  exact shapeCast_asRow _ _
theorem dec_b2 : StableHlo.after hostOps7 W (Proc.devRef .tc main_v137) = asRow (W (Proc.devRef .tc main_arg17)) := by
  after_results
  exact shapeCast_asRow _ _
theorem dec_b3 : StableHlo.after hostOps7 W (Proc.devRef .tc main_v138) = asRow (W (Proc.devRef .tc main_arg19)) := by
  after_results
  exact shapeCast_asRow _ _

end Cert.KernelIdeal.HostStages

end
-- ==== Proof.KBase.lean ====
/-
  The kernel program's buffers at its segment boundaries, read as values: what stays the same from the launch to the
  last region (the argument arrays; the source and target lists and the reciprocal in-degrees once computed), and the
  node states after the encoder.
-/
import proofs.«427837_j2834678415534_1_alg».proof.Proof.Gen.KernelIdeal.Frame
import proofs.«427837_j2834678415534_1_alg».proof.Proof.ArrEnc
import proofs.«427837_j2834678415534_1_alg».proof.Proof.KHost0

set_option maxRecDepth 16384

noncomputable section

namespace Cert.KernelIdeal.Value

open Cert.KernelIdeal Cert.KernelIdeal.Gen Cert.KernelIdeal.HostFns Cert.KernelIdeal.HostStages Cert.KernelIdeal.RegionValue
open Idealize.ShloMosaic Idealize.ShloMosaic.TcCoe Idealize.SL.Sem

variable (m : (ℓ : Loc nD τ sig) → Buf (Elt Ideal) ℓ) (ρ : Dev nD → PrngReg) (c : Dev nD)

/-- The launch contents of core `c`'s buffers. -/
abbrev L0 : Valuation τ sig (Elt Ideal) := W0 m ρ c

/-- The network's weights as the kernel program finds them at launch. -/
def paramsOf : Cert.Gnn.Params where
  encW := L0 m ρ c (Proc.devRef .tc main_arg2)
  encB := L0 m ρ c (Proc.devRef .tc main_arg3)
  msgW1 := L0 m ρ c (Proc.devRef .tc main_arg4)
  msgB1 := L0 m ρ c (Proc.devRef .tc main_arg5)
  msgW2 := L0 m ρ c (Proc.devRef .tc main_arg6)
  msgB2 := L0 m ρ c (Proc.devRef .tc main_arg7)
  msgW3 := L0 m ρ c (Proc.devRef .tc main_arg8)
  msgB3 := L0 m ρ c (Proc.devRef .tc main_arg9)
  gruWih := L0 m ρ c (Proc.devRef .tc main_arg10)
  gruWhh := L0 m ρ c (Proc.devRef .tc main_arg11)
  gruBih := L0 m ρ c (Proc.devRef .tc main_arg12)
  gruBhh := L0 m ρ c (Proc.devRef .tc main_arg13)
  decW1 := L0 m ρ c (Proc.devRef .tc main_arg14)
  decB1 := L0 m ρ c (Proc.devRef .tc main_arg15)
  decW2 := L0 m ρ c (Proc.devRef .tc main_arg16)
  decB2 := L0 m ρ c (Proc.devRef .tc main_arg17)
  decW3 := L0 m ρ c (Proc.devRef .tc main_arg18)
  decB3 := L0 m ρ c (Proc.devRef .tc main_arg19)

/-- The target node of every message. -/
def dsts : IVec S850000 32 := dstOf (L0 m ρ c (Proc.devRef .tc main_arg1))
/-- The source node of every message. -/
def srcs : IVec S850000 32 := srcOf (L0 m ρ c (Proc.devRef .tc main_arg1))
/-- The target rows of the node states, as the kernel program gathers them. -/
def gd (h : Cert.Gnn.Mat 50000 32) : Cert.Gnn.Mat 850000 32 := takeRows h (dsts m ρ c)
/-- The source rows of the node states, as the kernel program gathers them. -/
def gs (h : Cert.Gnn.Mat 50000 32) : Cert.Gnn.Mat 850000 32 := takeRows h (srcs m ρ c)
/-- The mean of the messages at each target. -/
def ag (M : Cert.Gnn.Mat 850000 32) : Cert.Gnn.Mat 50000 32 := aggOf M (dsts m ρ c) (invDeg (dsts m ρ c))

/-- The argument buffers. -/
def argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19]

/-- What every boundary from the encoder's entry on has in common: the argument arrays as launched, and the
    source list, the target list and the reciprocal in-degrees as the first host stretch computed them. -/
structure Live (W : Valuation τ sig (Elt Ideal)) : Prop where
  args : ∀ r ∈ argRefs, W (Proc.devRef .tc r) = L0 m ρ c (Proc.devRef .tc r)
  src : W (Proc.devRef .tc main_v3) = srcs m ρ c
  dst : W (Proc.devRef .tc main_v6) = dsts m ρ c
  inv : W (Proc.devRef .tc main_v13) = invDeg (dsts m ρ c)

/-- The buffers `Live` speaks of. -/
def liveRefs : List (Ref sig .tc) := argRefs ++ [main_v3, main_v6, main_v13]

/-- A segment that leaves the live buffers alone keeps `Live`. -/
theorem Live.step {W W' : Valuation τ sig (Elt Ideal)} (P : Ref sig .tc → Prop)
    (hkeep : ∀ r, P r → W' (Proc.devRef .tc r) = W (Proc.devRef .tc r)) (hP : ∀ r ∈ liveRefs, P r)
    (h : Live m ρ c W) : Live m ρ c W' where
  args r hr := (hkeep r (hP r (List.mem_append_left _ hr))).trans (h.args r hr)
  src := (hkeep _ (hP _ (by decide))).trans h.src
  dst := (hkeep _ (hP _ (by decide))).trans h.dst
  inv := (hkeep _ (hP _ (by decide))).trans h.inv

/-! ## The encoder's entry and exit -/

theorem live1 : Live m ρ c (W1 m ρ c) where
  args r hr := pre_keep (L0 m ρ c) r (by revert r; decide)
  src := by show StableHlo.after hostOps0 (L0 m ρ c) (Proc.devRef .tc main_v3) = _; rw [pre_src]; rfl
  dst := by show StableHlo.after hostOps0 (L0 m ρ c) (Proc.devRef .tc main_v6) = _; rw [pre_dst]; rfl
  inv := by show StableHlo.after hostOps0 (L0 m ρ c) (Proc.devRef .tc main_v13) = _; rw [pre_invDeg]; rfl

/-! ## The encoder's region writes its output array only -/

/-- Region 0 changes no buffer but its output array. -/
theorem keep0 (r : Ref sig .tc) (hr : r ≠ main_v15) :
    W2 m ρ c (Proc.devRef .tc r) = W1 m ρ c (Proc.devRef .tc r) := by
  by_cases h : ∀ w, Pipeline.arrRef spec0 w ≠ r
  · exact W2_of_ne m ρ c r h
  · simp only [ne_eq, not_forall, not_not] at h
    obtain ⟨w, rfl⟩ := h
    match w with
    | ⟨0, _⟩ => exact (W2_arr m ρ c 0).trans (((dat0 (V1 m ρ) c).arrAt_in 0 rfl _).trans (A_eq0 (V1 m ρ) c 0))
    | ⟨1, _⟩ => exact (W2_arr m ρ c 1).trans (((dat0 (V1 m ρ) c).arrAt_in 1 rfl _).trans (A_eq0 (V1 m ρ) c 1))
    | ⟨2, _⟩ => exact (W2_arr m ρ c 2).trans (((dat0 (V1 m ρ) c).arrAt_in 2 rfl _).trans (A_eq0 (V1 m ρ) c 2))
    | ⟨3, _⟩ => exact absurd rfl hr

theorem live2 : Live m ρ c (W2 m ρ c) :=
  (live1 m ρ c).step m ρ c (fun r => r ≠ main_v15) (keep0 m ρ c) (by decide)

/-- The node states after the encoder. -/
theorem states0 : W2 m ρ c (Proc.devRef .tc main_v15)
    = Cert.Gnn.encode (paramsOf m ρ c) (L0 m ρ c (Proc.devRef .tc main_arg0)) := by
  refine (W2_arr m ρ c 3).trans ?_
  rw [region0_value (V1 m ρ) c]
  show Cert.Gnn.encK (W1 m ρ c (Proc.devRef .tc main_arg0)) (W1 m ρ c (Proc.devRef .tc main_arg2)) (W1 m ρ c (Proc.devRef .tc main_v14)) = _
  rw [(live1 m ρ c).args main_arg0 (by decide), (live1 m ρ c).args main_arg2 (by decide)]
  have e : W1 m ρ c (Proc.devRef .tc main_v14) = Cert.Gnn.asRow (L0 m ρ c (Proc.devRef .tc main_arg3)) := pre_encB (L0 m ρ c)
  rw [e]
  rfl

end Cert.KernelIdeal.Value

end
-- ==== Proof.PayMsg.lean ====
/-
  The message network's body at the extended reals: each of its three matrix products read at an entry, its three
  layers at an entry, and the whole arithmetic of the body as the stage function `Cert.Gnn.msgK` of the blocks it
  loads; the three message regions run the same arithmetic. Then the step from a block of rows to the whole
  matrices: the stage on a block whose rows are rows of bigger matrices is the stage on those at the same rows.
-/
import proofs.«427837_j2834678415534_1_alg».proof.Proof.Gen.KernelIdeal.Skeleton
import proofs.«427837_j2834678415534_1_alg».proof.Proof.Spec
import Idealize.ShloMosaic.PureOps.Ideal.Laws
import Idealize.ShloMosaic.Lib.Pipeline.Value
import Idealize.ShloMosaic.Lib.ValueLayout

set_option maxRecDepth 16384

noncomputable section

namespace Cert.KernelIdeal.RegionValue.Msg

open Cert.KernelIdeal Cert.KernelIdeal.Gen Idealize.ShloMosaic Idealize.SL.Sem
open Idealize.ShloMosaic.ValueIdx

/-! ## The three matrix products at an entry -/

section Products
variable {φ₁ φ₂ : FTy}

theorem lhsA_0 (i : S5000x64.Idx) (q : dot_S5000x32_S32x64_S5000x64_1_0_0_1_n_n.contr.Idx) :
    (dot_S5000x32_S32x64_S5000x64_1_0_0_1_n_n.lhsIdx i q 0).val = (i 0).val := by
  unfold DotDims.lhsIdx
  rw [dif_neg (show ¬(0 : Fin S5000x32.rank) ∈ dot_S5000x32_S32x64_S5000x64_1_0_0_1_n_n.lhsBatch by decide), dif_pos (show (0 : Fin S5000x32.rank) ∈ dot_S5000x32_S32x64_S5000x64_1_0_0_1_n_n.lhsNonContracting by decide)]
  rfl
theorem lhsA_1 (i : S5000x64.Idx) (q : dot_S5000x32_S32x64_S5000x64_1_0_0_1_n_n.contr.Idx) :
    (dot_S5000x32_S32x64_S5000x64_1_0_0_1_n_n.lhsIdx i q 1).val = (q ⟨0, by decide⟩).val :=
  dot_S5000x32_S32x64_S5000x64_1_0_0_1_n_n.lhsIdx_val_of_single rfl i q
theorem rhsA_0 (i : S5000x64.Idx) (q : dot_S5000x32_S32x64_S5000x64_1_0_0_1_n_n.contr.Idx) :
    (dot_S5000x32_S32x64_S5000x64_1_0_0_1_n_n.rhsIdx i q 0).val = (q ⟨0, by decide⟩).val :=
  dot_S5000x32_S32x64_S5000x64_1_0_0_1_n_n.rhsIdx_val_of_single rfl i q
theorem rhsA_1 (i : S5000x64.Idx) (q : dot_S5000x32_S32x64_S5000x64_1_0_0_1_n_n.contr.Idx) :
    (dot_S5000x32_S32x64_S5000x64_1_0_0_1_n_n.rhsIdx i q 1).val = (i 1).val := by
  unfold DotDims.rhsIdx
  rw [dif_neg (show ¬(1 : Fin S32x64.rank) ∈ dot_S5000x32_S32x64_S5000x64_1_0_0_1_n_n.rhsBatch by decide), dif_pos (show (1 : Fin S32x64.rank) ∈ dot_S5000x32_S32x64_S5000x64_1_0_0_1_n_n.rhsNonContracting by decide)]
  rfl

/-- A 5000×32 by 32×64 product into the zero matrix, at entry (p, q): row p of the left factor against column q of the right. -/
theorem prodA_apply (a : FVec Ideal S5000x32 φ₁) (b : FVec Ideal S32x64 φ₂) (p : Fin 5000) (q : Fin 64) :
    matmul dot_S5000x32_S32x64_S5000x64_1_0_0_1_n_n none a b (constant S5000x64 .f32 0x00000000#32) (ix2 p q)
      = ∑ k : Fin 32, a (ix2 p k) * b (ix2 k q) := by
  show FloatOps.matmul dot_S5000x32_S32x64_S5000x64_1_0_0_1_n_n none a b (constant S5000x64 .f32 0x00000000#32) (ix2 p q) = _
  rw [Ideal.matmul_constant_zero_apply, ← Equiv.sum_comp (contrEquiv1 dot_S5000x32_S32x64_S5000x64_1_0_0_1_n_n 32 rfl rfl).symm]
  refine Finset.sum_congr rfl fun k _ => ?_
  have hk := contrEquiv1_symm_val dot_S5000x32_S32x64_S5000x64_1_0_0_1_n_n 32 rfl rfl k
  have el : dot_S5000x32_S32x64_S5000x64_1_0_0_1_n_n.lhsIdx (ix2 p q) ((contrEquiv1 dot_S5000x32_S32x64_S5000x64_1_0_0_1_n_n 32 rfl rfl).symm k) = ix2 p k := funext fun a => Fin.ext (by
    match a with
    | ⟨0, _⟩ => exact lhsA_0 _ _
    | ⟨1, _⟩ => exact (lhsA_1 _ _).trans hk)
  have er : dot_S5000x32_S32x64_S5000x64_1_0_0_1_n_n.rhsIdx (ix2 p q) ((contrEquiv1 dot_S5000x32_S32x64_S5000x64_1_0_0_1_n_n 32 rfl rfl).symm k) = ix2 k q := funext fun a => Fin.ext (by
    match a with
    | ⟨0, _⟩ => exact (rhsA_0 _ _).trans hk
    | ⟨1, _⟩ => exact rhsA_1 _ _)
  rw [el, er]

theorem lhsB_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem lhsB_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem rhsB_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem rhsB_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- A 5000×64 by 64×64 product into the zero matrix, at entry (p, q). -/
theorem prodB_apply (a : FVec Ideal S5000x64 φ₁) (b : FVec Ideal S64x64 φ₂) (p : Fin 5000) (q : Fin 64) :
    matmul dot_S5000x64_S64x64_S5000x64_1_0_0_1_n_n none a b (constant S5000x64 .f32 0x00000000#32) (ix2 p q)
      = ∑ k : Fin 64, a (ix2 p k) * b (ix2 k q) := by
  show FloatOps.matmul dot_S5000x64_S64x64_S5000x64_1_0_0_1_n_n none a b (constant S5000x64 .f32 0x00000000#32) (ix2 p q) = _
  rw [Ideal.matmul_constant_zero_apply, ← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q) ((contrEquiv1 dot_S5000x64_S64x64_S5000x64_1_0_0_1_n_n 64 rfl rfl).symm k) = ix2 p k := funext fun a => Fin.ext (by
    match a with
    | ⟨0, _⟩ => exact lhsB_0 _ _
    | ⟨1, _⟩ => exact (lhsB_1 _ _).trans hk)
  have er : dot_S5000x64_S64x64_S5000x64_1_0_0_1_n_n.rhsIdx (ix2 p q) ((contrEquiv1 dot_S5000x64_S64x64_S5000x64_1_0_0_1_n_n 64 rfl rfl).symm k) = ix2 k q := funext fun a => Fin.ext (by
    match a with
    | ⟨0, _⟩ => exact (rhsB_0 _ _).trans hk
    | ⟨1, _⟩ => exact rhsB_1 _ _)
  rw [el, er]

theorem lhsC_0 (i : S5000x32.Idx) (q : dot_S5000x64_S64x32_S5000x32_1_0_0_1_n_n.contr.Idx) :
    (dot_S5000x64_S64x32_S5000x32_1_0_0_1_n_n.lhsIdx i q 0).val = (i 0).val := by
  unfold DotDims.lhsIdx
  rw [dif_neg (show ¬(0 : Fin S5000x64.rank) ∈ dot_S5000x64_S64x32_S5000x32_1_0_0_1_n_n.lhsBatch by decide), dif_pos (show (0 : Fin S5000x64.rank) ∈ dot_S5000x64_S64x32_S5000x32_1_0_0_1_n_n.lhsNonContracting by decide)]
  rfl
theorem lhsC_1 (i : S5000x32.Idx) (q : dot_S5000x64_S64x32_S5000x32_1_0_0_1_n_n.contr.Idx) :
    (dot_S5000x64_S64x32_S5000x32_1_0_0_1_n_n.lhsIdx i q 1).val = (q ⟨0, by decide⟩).val :=
  dot_S5000x64_S64x32_S5000x32_1_0_0_1_n_n.lhsIdx_val_of_single rfl i q
theorem rhsC_0 (i : S5000x32.Idx) (q : dot_S5000x64_S64x32_S5000x32_1_0_0_1_n_n.contr.Idx) :
    (dot_S5000x64_S64x32_S5000x32_1_0_0_1_n_n.rhsIdx i q 0).val = (q ⟨0, by decide⟩).val :=
  dot_S5000x64_S64x32_S5000x32_1_0_0_1_n_n.rhsIdx_val_of_single rfl i q
theorem rhsC_1 (i : S5000x32.Idx) (q : dot_S5000x64_S64x32_S5000x32_1_0_0_1_n_n.contr.Idx) :
    (dot_S5000x64_S64x32_S5000x32_1_0_0_1_n_n.rhsIdx i q 1).val = (i 1).val := by
  unfold DotDims.rhsIdx
  rw [dif_neg (show ¬(1 : Fin S64x32.rank) ∈ dot_S5000x64_S64x32_S5000x32_1_0_0_1_n_n.rhsBatch by decide), dif_pos (show (1 : Fin S64x32.rank) ∈ dot_S5000x64_S64x32_S5000x32_1_0_0_1_n_n.rhsNonContracting by decide)]
  rfl

/-- A 5000×64 by 64×32 product into the zero matrix, at entry (p, q). -/
theorem prodC_apply (a : FVec Ideal S5000x64 φ₁) (b : FVec Ideal S64x32 φ₂) (p : Fin 5000) (q : Fin 32) :
    matmul dot_S5000x64_S64x32_S5000x32_1_0_0_1_n_n none a b (constant S5000x32 .f32 0x00000000#32) (ix2 p q)
      = ∑ k : Fin 64, a (ix2 p k) * b (ix2 k q) := by
  show FloatOps.matmul dot_S5000x64_S64x32_S5000x32_1_0_0_1_n_n none a b (constant S5000x32 .f32 0x00000000#32) (ix2 p q) = _
  rw [Ideal.matmul_constant_zero_apply, ← Equiv.sum_comp (contrEquiv1 dot_S5000x64_S64x32_S5000x32_1_0_0_1_n_n 64 rfl rfl).symm]
  refine Finset.sum_congr rfl fun k _ => ?_
  have hk := contrEquiv1_symm_val dot_S5000x64_S64x32_S5000x32_1_0_0_1_n_n 64 rfl rfl k
  have el : dot_S5000x64_S64x32_S5000x32_1_0_0_1_n_n.lhsIdx (ix2 p q) ((contrEquiv1 dot_S5000x64_S64x32_S5000x32_1_0_0_1_n_n 64 rfl rfl).symm k) = ix2 p k := funext fun a => Fin.ext (by
    match a with
    | ⟨0, _⟩ => exact lhsC_0 _ _
    | ⟨1, _⟩ => exact (lhsC_1 _ _).trans hk)
  have er : dot_S5000x64_S64x32_S5000x32_1_0_0_1_n_n.rhsIdx (ix2 p q) ((contrEquiv1 dot_S5000x64_S64x32_S5000x32_1_0_0_1_n_n 64 rfl rfl).symm k) = ix2 k q := funext fun a => Fin.ext (by
    match a with
    | ⟨0, _⟩ => exact (rhsC_0 _ _).trans hk
    | ⟨1, _⟩ => exact rhsC_1 _ _)
  rw [el, er]

end Products

/-! ## The body's arithmetic, layer by layer, at an entry

The body rounds every matrix-product operand to the short format first: at the extended reals a change of format
is the identity, and a product into the zero matrix is the exact sum. -/

open Cert.Gnn in
/-- The first hidden layer at (p, k): the two half products are added before the bias, then `tanh`. -/
theorem hidden1_apply (x0 x1 : FVec Ideal S5000x32 .f32) (x2 x3 : FVec Ideal S32x64 .f32) (x4 : FVec Ideal S1x64 .f32)
    (hb : FTy.bits .bf16 < FTy.bits .f32) (hbc : S1x64.Broadcasts S5000x64) (p : Fin 5000) (k : Fin 64) :
    tanh (addf (addf (matmul dot_S5000x32_S32x64_S5000x64_1_0_0_1_n_n none (truncf .bf16 x0 hb) (truncf .bf16 x2 hb) (constant S5000x64 .f32 0x00000000#32))
        (matmul dot_S5000x32_S32x64_S5000x64_1_0_0_1_n_n none (truncf .bf16 x1 hb) (truncf .bf16 x3 hb) (constant S5000x64 .f32 0x00000000#32)))
      (broadcastTo S5000x64 x4 hbc)) (ix2 p k)
      = msgHid1 (row x0 p) (row x1 p) x2 x3 x4 k := by
  show Ideal.tanh ((matmul dot_S5000x32_S32x64_S5000x64_1_0_0_1_n_n none (truncf .bf16 x0 hb) (truncf .bf16 x2 hb) (constant S5000x64 .f32 0x00000000#32) (ix2 p k)
      + matmul dot_S5000x32_S32x64_S5000x64_1_0_0_1_n_n none (truncf .bf16 x1 hb) (truncf .bf16 x3 hb) (constant S5000x64 .f32 0x00000000#32) (ix2 p k))
      + broadcastTo S5000x64 x4 hbc (ix2 p k)) = _
  rw [prodA_apply, prodA_apply, broadcastTo_1b_ab_apply]
  rfl

open Cert.Gnn in
/-- The second hidden layer at (p, k), from the first hidden layer's matrix. -/
theorem hidden2_apply (h1 : FVec Ideal S5000x64 .f32) (x5 : FVec Ideal S64x64 .f32) (x6 : FVec Ideal S1x64 .f32)
    (hb : FTy.bits .bf16 < FTy.bits .f32) (hbc : S1x64.Broadcasts S5000x64) (p : Fin 5000) (k : Fin 64) :
    tanh (addf (matmul dot_S5000x64_S64x64_S5000x64_1_0_0_1_n_n none (truncf .bf16 h1 hb) (truncf .bf16 x5 hb) (constant S5000x64 .f32 0x00000000#32))
      (broadcastTo S5000x64 x6 hbc)) (ix2 p k)
      = Ideal.tanh (dense (fun a => h1 (ix2 p a)) x5 x6 k) := by
  show Ideal.tanh (matmul dot_S5000x64_S64x64_S5000x64_1_0_0_1_n_n none (truncf .bf16 h1 hb) (truncf .bf16 x5 hb) (constant S5000x64 .f32 0x00000000#32) (ix2 p k)
      + broadcastTo S5000x64 x6 hbc (ix2 p k)) = _
  rw [prodB_apply, broadcastTo_1b_ab_apply]
  rfl

open Cert.Gnn in
/-- The output layer at (p, q), from the second hidden layer's matrix. -/
theorem output_apply (h2 : FVec Ideal S5000x64 .f32) (x7 : FVec Ideal S64x32 .f32) (x8 : FVec Ideal S1x32 .f32)
    (hb : FTy.bits .bf16 < FTy.bits .f32) (hbc : S1x32.Broadcasts S5000x32) (p : Fin 5000) (q : Fin 32) :
    addf (matmul dot_S5000x64_S64x32_S5000x32_1_0_0_1_n_n none (truncf .bf16 h2 hb) (truncf .bf16 x7 hb) (constant S5000x32 .f32 0x00000000#32))
      (broadcastTo S5000x32 x8 hbc) (ix2 p q)
      = dense (fun a => h2 (ix2 p a)) x7 x8 q := by
  show matmul dot_S5000x64_S64x32_S5000x32_1_0_0_1_n_n none (truncf .bf16 h2 hb) (truncf .bf16 x7 hb) (constant S5000x32 .f32 0x00000000#32) (ix2 p q)
      + broadcastTo S5000x32 x8 hbc (ix2 p q) = _
  rw [prodC_apply, broadcastTo_1b_ab_apply]
  rfl

open Cert.Gnn in
/-- The body's arithmetic on the blocks it loads is the message network on those blocks. -/
theorem payload1_eq (x0 x1 : Vec Ideal S5000x32 .f32) (x2 x3 : Vec Ideal S32x64 .f32) (x4 : Vec Ideal S1x64 .f32)
    (x5 : Vec Ideal S64x64 .f32) (x6 : Vec Ideal S1x64 .f32) (x7 : Vec Ideal S64x32 .f32) (x8 : Vec Ideal S1x32 .f32) :
    k1_pay1 (k1_pay2 x0 x1 x2 x3 x4 x5 x6 x7) (k1_pay3 x8) = msgK x0 x1 x2 x3 x4 x5 x6 x7 x8 := by
  funext i
  obtain ⟨p, q, rfl⟩ : ∃ (p : Fin 5000) (q : Fin 32), i = ix2 p q := ⟨i 0, i 1, eq_ix2 i⟩
  unfold k1_pay1 k1_pay2 k1_pay3
  simp only [shapeCast_self]
  refine (output_apply _ _ _ _ _ p q).trans ?_
  refine congrArg (fun v => dense v x7 x8 q) (funext fun a => ?_)
  refine (hidden2_apply _ _ _ _ _ p a).trans ?_
  exact congrArg Ideal.tanh (congrArg (fun v => dense v x5 x6 a) (funext fun b => hidden1_apply _ _ _ _ _ _ _ p b))

/-! ## The three message regions run the same arithmetic -/

theorem k3_pay1_eq : @k3_pay1 Ideal _ = @k1_pay1 Ideal _ := rfl
theorem k3_pay2_eq : @k3_pay2 Ideal _ = @k1_pay2 Ideal _ := rfl
theorem k3_pay3_eq : @k3_pay3 Ideal = @k1_pay3 Ideal := rfl
theorem k5_pay1_eq : @k5_pay1 Ideal _ = @k1_pay1 Ideal _ := rfl
theorem k5_pay2_eq : @k5_pay2 Ideal _ = @k1_pay2 Ideal _ := rfl
theorem k5_pay3_eq : @k5_pay3 Ideal = @k1_pay3 Ideal := rfl

theorem payload3_eq (x0 x1 : Vec Ideal S5000x32 .f32) (x2 x3 : Vec Ideal S32x64 .f32) (x4 : Vec Ideal S1x64 .f32)
    (x5 : Vec Ideal S64x64 .f32) (x6 : Vec Ideal S1x64 .f32) (x7 : Vec Ideal S64x32 .f32) (x8 : Vec Ideal S1x32 .f32) :
    k3_pay1 (k3_pay2 x0 x1 x2 x3 x4 x5 x6 x7) (k3_pay3 x8) = Cert.Gnn.msgK x0 x1 x2 x3 x4 x5 x6 x7 x8 := by
  rw [k3_pay1_eq, k3_pay2_eq, k3_pay3_eq]
  exact payload1_eq x0 x1 x2 x3 x4 x5 x6 x7 x8

theorem payload5_eq (x0 x1 : Vec Ideal S5000x32 .f32) (x2 x3 : Vec Ideal S32x64 .f32) (x4 : Vec Ideal S1x64 .f32)
    (x5 : Vec Ideal S64x64 .f32) (x6 : Vec Ideal S1x64 .f32) (x7 : Vec Ideal S64x32 .f32) (x8 : Vec Ideal S1x32 .f32) :
    k5_pay1 (k5_pay2 x0 x1 x2 x3 x4 x5 x6 x7) (k5_pay3 x8) = Cert.Gnn.msgK x0 x1 x2 x3 x4 x5 x6 x7 x8 := by
  rw [k5_pay1_eq, k5_pay2_eq, k5_pay3_eq]
  exact payload1_eq x0 x1 x2 x3 x4 x5 x6 x7 x8

/-! ## From a block of rows to the whole matrices -/

open Cert.Gnn in
/-- The stage on a block — its two row inputs rows `f p` of bigger matrices, its weights the whole weight
    matrices — is, at row `p`, the stage on the bigger matrices at row `f p`. -/
theorem msgK_block {R R' : Nat} (hd hs : Mat R 32) (hd' hs' : Mat R' 32) (w1d w1s w1d' w1s' : Mat 32 64) (b1 b1' : Mat 1 64)
    (w2 w2' : Mat 64 64) (b2 b2' : Mat 1 64) (w3 w3' : Mat 64 32) (b3 b3' : Mat 1 32) (f : Fin R' → Fin R)
    (hhd : ∀ p k, hd' (ix2 p k) = hd (ix2 (f p) k)) (hhs : ∀ p k, hs' (ix2 p k) = hs (ix2 (f p) k))
    (e2 : w1d' = w1d) (e3 : w1s' = w1s) (e4 : b1' = b1) (e5 : w2' = w2) (e6 : b2' = b2) (e7 : w3' = w3) (e8 : b3' = b3)
    (p : Fin R') (q : Fin 32) :
    msgK hd' hs' w1d' w1s' b1' w2' b2' w3' b3' (ix2 p q) = msgK hd hs w1d w1s b1 w2 b2 w3 b3 (ix2 (f p) q) := by
  subst e2 e3 e4 e5 e6 e7 e8
  exact msgK_rows hd hs hd' hs' _ _ _ _ _ _ _ f hhd hhs p q

/-- The zero offsets of a whole-buffer access, as the constant function. -/
theorem hz : (![0, 0] : Fin 2 → Nat) = fun _ => 0 := funext fun a => by fin_cases a <;> rfl

end Cert.KernelIdeal.RegionValue.Msg

end
-- ==== Proof.ArrMsg1.lean ====
/-
  Message region 1: what its pipeline leaves in its output array. At a point the body computes the message network of
  the blocks it loads; the two row inputs' blocks are 5000 consecutive rows of their arrays and each weight's block is
  its whole array, so what a point writes back is its block of the message network of the whole arrays; the 170
  blocks cover the output, row r lying in the block of point r / 5000.
-/
import proofs.«427837_j2834678415534_1_alg».proof.Proof.Gen.KernelIdeal.Frame
import proofs.«427837_j2834678415534_1_alg».proof.Proof.PayMsg

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.Pipeline (Dat Cfg Window)
open Idealize.ShloMosaic.ValueIdx

variable (V : (c : Dev nD) → (b : Ref sig .tc) → Buf (Elt Ideal) ((c : Thread nD τ).loc b))

namespace Msg

/-- What the body leaves in the output window's buffer is the message network of the blocks it loads: its one
    store covers the buffer, and every load reads a whole buffer. -/
theorem out1_eq (x0 x1 : Vec Ideal S5000x32 .f32) (x2 x3 : Vec Ideal S32x64 .f32) (x4 : Vec Ideal S1x64 .f32)
    (x5 : Vec Ideal S64x64 .f32) (x6 : Vec Ideal S1x64 .f32) (x7 : Vec Ideal S64x32 .f32) (x8 : Vec Ideal S1x32 .f32) :
    out1_9 x0 x1 x2 x3 x4 x5 x6 x7 x8 = Cert.Gnn.msgK x0 x1 x2 x3 x4 x5 x6 x7 x8 := by
  unfold out1_9
  rw [View.canon_unit_zero hz]
  simp only [View.ld_unit_zero (S := S5000x32) hz, View.ld_unit_zero (S := S32x64) hz, View.ld_unit_zero (S := S1x64) hz,
    View.ld_unit_zero (S := S64x64) hz, View.ld_unit_zero (S := S64x32) hz, View.ld_unit_zero (S := S1x32) hz]
  exact payload1_eq x0 x1 x2 x3 x4 x5 x6 x7 x8

/-- Window 0's array (the target rows) as the region finds it, at its literal shape. -/
abbrev arr1_0 (c : Dev nD) : Cert.Gnn.Mat 850000 32 := V c (Pipeline.arrRef spec1 0)
/-- Window 0's block at point `t`, at its literal shape. -/
abbrev blk1_0 (c : Dev nD) (t : Fin cfg1.N) : Cert.Gnn.Mat 5000 32 := iblk1 V c 0 t
/-- Window 1's array (the source rows) as the region finds it, at its literal shape. -/
abbrev arr1_1 (c : Dev nD) : Cert.Gnn.Mat 850000 32 := V c (Pipeline.arrRef spec1 1)
/-- Window 1's block at point `t`, at its literal shape. -/
abbrev blk1_1 (c : Dev nD) (t : Fin cfg1.N) : Cert.Gnn.Mat 5000 32 := iblk1 V c 1 t
/-- Window 2's array (the first layer's weights for the target rows) as the region finds it, at its literal shape. -/
abbrev arr1_2 (c : Dev nD) : Cert.Gnn.Mat 32 64 := V c (Pipeline.arrRef spec1 2)
/-- Window 2's block at point `t`, at its literal shape. -/
abbrev blk1_2 (c : Dev nD) (t : Fin cfg1.N) : Cert.Gnn.Mat 32 64 := iblk1 V c 2 t
/-- Window 3's array (the first layer's weights for the source rows) as the region finds it, at its literal shape. -/
abbrev arr1_3 (c : Dev nD) : Cert.Gnn.Mat 32 64 := V c (Pipeline.arrRef spec1 3)
/-- Window 3's block at point `t`, at its literal shape. -/
abbrev blk1_3 (c : Dev nD) (t : Fin cfg1.N) : Cert.Gnn.Mat 32 64 := iblk1 V c 3 t
/-- Window 4's array (the first layer's bias) as the region finds it, at its literal shape. -/
abbrev arr1_4 (c : Dev nD) : Cert.Gnn.Mat 1 64 := V c (Pipeline.arrRef spec1 4)
/-- Window 4's block at point `t`, at its literal shape. -/
abbrev blk1_4 (c : Dev nD) (t : Fin cfg1.N) : Cert.Gnn.Mat 1 64 := iblk1 V c 4 t
/-- Window 5's array (the second layer's weights) as the region finds it, at its literal shape. -/
abbrev arr1_5 (c : Dev nD) : Cert.Gnn.Mat 64 64 := V c (Pipeline.arrRef spec1 5)
/-- Window 5's block at point `t`, at its literal shape. -/
abbrev blk1_5 (c : Dev nD) (t : Fin cfg1.N) : Cert.Gnn.Mat 64 64 := iblk1 V c 5 t
/-- Window 6's array (the second layer's bias) as the region finds it, at its literal shape. -/
abbrev arr1_6 (c : Dev nD) : Cert.Gnn.Mat 1 64 := V c (Pipeline.arrRef spec1 6)
/-- Window 6's block at point `t`, at its literal shape. -/
abbrev blk1_6 (c : Dev nD) (t : Fin cfg1.N) : Cert.Gnn.Mat 1 64 := iblk1 V c 6 t
/-- Window 7's array (the third layer's weights) as the region finds it, at its literal shape. -/
abbrev arr1_7 (c : Dev nD) : Cert.Gnn.Mat 64 32 := V c (Pipeline.arrRef spec1 7)
/-- Window 7's block at point `t`, at its literal shape. -/
abbrev blk1_7 (c : Dev nD) (t : Fin cfg1.N) : Cert.Gnn.Mat 64 32 := iblk1 V c 7 t
/-- Window 8's array (the third layer's bias) as the region finds it, at its literal shape. -/
abbrev arr1_8 (c : Dev nD) : Cert.Gnn.Mat 1 32 := V c (Pipeline.arrRef spec1 8)
/-- Window 8's block at point `t`, at its literal shape. -/
abbrev blk1_8 (c : Dev nD) (t : Fin cfg1.N) : Cert.Gnn.Mat 1 32 := iblk1 V c 8 t

/-- The index maps over the 170 points: the two row inputs and the output move down the rows with the point,
    every weight stays at its one block. -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = t.val ∧ win1_9.index t (1 : Fin 2) = 0 :=
  (by decide +kernel : ∀ t : Fin grid1.N, _)

/-- The row of the arrays that row `p` of point `t`'s blocks is. -/
def arow1 (t : Fin cfg1.N) (p : Fin 5000) : Fin 850000 :=
  ⟨t.val * 5000 + p.val, by have hN : cfg1.N = 170 := N_1; have := t.isLt; have := p.isLt; omega⟩

/-- Window 2 is one block: at every point its block is the whole array. -/
theorem whole1_2 (c : Dev nD) (t : Fin cfg1.N) : blk1_2 V c t = arr1_2 V c := by
  obtain ⟨e0a, e0b, e1a, e1b, e2a, e2b, e3a, e3b, e4a, e4b, e5a, e5b, e6a, e6b, e7a, e7b, e8a, e8b, e9a, e9b⟩ := idx1 t
  funext y
  unfold blk1_2 arr1_2 iblk1
  rw [View.read_apply]
  show V c (Pipeline.arrRef spec1 2) (((cfg1.win 2).blk t).view.emb y) = V c (Pipeline.arrRef spec1 2) y
  refine congrArg _ (funext fun a => Fin.ext ?_)
  match a with
  | ⟨0, _⟩ => show win1_2.index t (0 : Fin 2) * 32 + 1 * (y 0).val = (y 0).val; rw [e2a]; omega
  | ⟨1, _⟩ => show win1_2.index t (1 : Fin 2) * 64 + 1 * (y 1).val = (y 1).val; rw [e2b]; omega

/-- Window 3 is one block: at every point its block is the whole array. -/
theorem whole1_3 (c : Dev nD) (t : Fin cfg1.N) : blk1_3 V c t = arr1_3 V c := by
  obtain ⟨e0a, e0b, e1a, e1b, e2a, e2b, e3a, e3b, e4a, e4b, e5a, e5b, e6a, e6b, e7a, e7b, e8a, e8b, e9a, e9b⟩ := idx1 t
  funext y
  unfold blk1_3 arr1_3 iblk1
  rw [View.read_apply]
  show V c (Pipeline.arrRef spec1 3) (((cfg1.win 3).blk t).view.emb y) = V c (Pipeline.arrRef spec1 3) y
  refine congrArg _ (funext fun a => Fin.ext ?_)
  match a with
  | ⟨0, _⟩ => show win1_3.index t (0 : Fin 2) * 32 + 1 * (y 0).val = (y 0).val; rw [e3a]; omega
  | ⟨1, _⟩ => show win1_3.index t (1 : Fin 2) * 64 + 1 * (y 1).val = (y 1).val; rw [e3b]; omega

/-- Window 4 is one block: at every point its block is the whole array. -/
theorem whole1_4 (c : Dev nD) (t : Fin cfg1.N) : blk1_4 V c t = arr1_4 V c := by
  obtain ⟨e0a, e0b, e1a, e1b, e2a, e2b, e3a, e3b, e4a, e4b, e5a, e5b, e6a, e6b, e7a, e7b, e8a, e8b, e9a, e9b⟩ := idx1 t
  funext y
  unfold blk1_4 arr1_4 iblk1
  rw [View.read_apply]
  show V c (Pipeline.arrRef spec1 4) (((cfg1.win 4).blk t).view.emb y) = V c (Pipeline.arrRef spec1 4) y
  refine congrArg _ (funext fun a => Fin.ext ?_)
  match a with
  | ⟨0, _⟩ => show win1_4.index t (0 : Fin 2) * 1 + 1 * (y 0).val = (y 0).val; rw [e4a]; omega
  | ⟨1, _⟩ => show win1_4.index t (1 : Fin 2) * 64 + 1 * (y 1).val = (y 1).val; rw [e4b]; omega

/-- Window 5 is one block: at every point its block is the whole array. -/
theorem whole1_5 (c : Dev nD) (t : Fin cfg1.N) : blk1_5 V c t = arr1_5 V c := by
  obtain ⟨e0a, e0b, e1a, e1b, e2a, e2b, e3a, e3b, e4a, e4b, e5a, e5b, e6a, e6b, e7a, e7b, e8a, e8b, e9a, e9b⟩ := idx1 t
  funext y
  unfold blk1_5 arr1_5 iblk1
  rw [View.read_apply]
  show V c (Pipeline.arrRef spec1 5) (((cfg1.win 5).blk t).view.emb y) = V c (Pipeline.arrRef spec1 5) y
  refine congrArg _ (funext fun a => Fin.ext ?_)
  match a with
  | ⟨0, _⟩ => show win1_5.index t (0 : Fin 2) * 64 + 1 * (y 0).val = (y 0).val; rw [e5a]; omega
  | ⟨1, _⟩ => show win1_5.index t (1 : Fin 2) * 64 + 1 * (y 1).val = (y 1).val; rw [e5b]; omega

/-- Window 6 is one block: at every point its block is the whole array. -/
theorem whole1_6 (c : Dev nD) (t : Fin cfg1.N) : blk1_6 V c t = arr1_6 V c := by
  obtain ⟨e0a, e0b, e1a, e1b, e2a, e2b, e3a, e3b, e4a, e4b, e5a, e5b, e6a, e6b, e7a, e7b, e8a, e8b, e9a, e9b⟩ := idx1 t
  funext y
  unfold blk1_6 arr1_6 iblk1
  rw [View.read_apply]
  show V c (Pipeline.arrRef spec1 6) (((cfg1.win 6).blk t).view.emb y) = V c (Pipeline.arrRef spec1 6) y
  refine congrArg _ (funext fun a => Fin.ext ?_)
  match a with
  | ⟨0, _⟩ => show win1_6.index t (0 : Fin 2) * 1 + 1 * (y 0).val = (y 0).val; rw [e6a]; omega
  | ⟨1, _⟩ => show win1_6.index t (1 : Fin 2) * 64 + 1 * (y 1).val = (y 1).val; rw [e6b]; omega

/-- Window 7 is one block: at every point its block is the whole array. -/
theorem whole1_7 (c : Dev nD) (t : Fin cfg1.N) : blk1_7 V c t = arr1_7 V c := by
  obtain ⟨e0a, e0b, e1a, e1b, e2a, e2b, e3a, e3b, e4a, e4b, e5a, e5b, e6a, e6b, e7a, e7b, e8a, e8b, e9a, e9b⟩ := idx1 t
  funext y
  unfold blk1_7 arr1_7 iblk1
  rw [View.read_apply]
  show V c (Pipeline.arrRef spec1 7) (((cfg1.win 7).blk t).view.emb y) = V c (Pipeline.arrRef spec1 7) y
  refine congrArg _ (funext fun a => Fin.ext ?_)
  match a with
  | ⟨0, _⟩ => show win1_7.index t (0 : Fin 2) * 64 + 1 * (y 0).val = (y 0).val; rw [e7a]; omega
  | ⟨1, _⟩ => show win1_7.index t (1 : Fin 2) * 32 + 1 * (y 1).val = (y 1).val; rw [e7b]; omega

/-- Window 8 is one block: at every point its block is the whole array. -/
theorem whole1_8 (c : Dev nD) (t : Fin cfg1.N) : blk1_8 V c t = arr1_8 V c := by
  obtain ⟨e0a, e0b, e1a, e1b, e2a, e2b, e3a, e3b, e4a, e4b, e5a, e5b, e6a, e6b, e7a, e7b, e8a, e8b, e9a, e9b⟩ := idx1 t
  funext y
  unfold blk1_8 arr1_8 iblk1
  rw [View.read_apply]
  show V c (Pipeline.arrRef spec1 8) (((cfg1.win 8).blk t).view.emb y) = V c (Pipeline.arrRef spec1 8) y
  refine congrArg _ (funext fun a => Fin.ext ?_)
  match a with
  | ⟨0, _⟩ => show win1_8.index t (0 : Fin 2) * 1 + 1 * (y 0).val = (y 0).val; rw [e8a]; omega
  | ⟨1, _⟩ => show win1_8.index t (1 : Fin 2) * 32 + 1 * (y 1).val = (y 1).val; rw [e8b]; omega

/-- Window 0's block at point `t` is rows `5000 t … 5000 t + 4999` of its array. -/
theorem rows1_0 (c : Dev nD) (t : Fin cfg1.N) (p : Fin 5000) (k : Fin 32) :
    blk1_0 V c t (ix2 p k) = arr1_0 V c (ix2 (arow1 t p) k) := by
  obtain ⟨e0a, e0b, e1a, e1b, e2a, e2b, e3a, e3b, e4a, e4b, e5a, e5b, e6a, e6b, e7a, e7b, e8a, e8b, e9a, e9b⟩ := idx1 t
  unfold blk1_0 arr1_0 iblk1
  rw [View.read_apply]
  show V c (Pipeline.arrRef spec1 0) (((cfg1.win 0).blk t).view.emb (ix2 p k)) = V c (Pipeline.arrRef spec1 0) (ix2 (arow1 t p) k)
  refine congrArg _ (funext fun a => Fin.ext ?_)
  match a with
  | ⟨0, _⟩ => show win1_0.index t (0 : Fin 2) * 5000 + 1 * p.val = t.val * 5000 + p.val; rw [e0a]; omega
  | ⟨1, _⟩ => show win1_0.index t (1 : Fin 2) * 32 + 1 * k.val = k.val; rw [e0b]; omega

/-- Window 1's block at point `t` is rows `5000 t … 5000 t + 4999` of its array. -/
theorem rows1_1 (c : Dev nD) (t : Fin cfg1.N) (p : Fin 5000) (k : Fin 32) :
    blk1_1 V c t (ix2 p k) = arr1_1 V c (ix2 (arow1 t p) k) := by
  obtain ⟨e0a, e0b, e1a, e1b, e2a, e2b, e3a, e3b, e4a, e4b, e5a, e5b, e6a, e6b, e7a, e7b, e8a, e8b, e9a, e9b⟩ := idx1 t
  unfold blk1_1 arr1_1 iblk1
  rw [View.read_apply]
  show V c (Pipeline.arrRef spec1 1) (((cfg1.win 1).blk t).view.emb (ix2 p k)) = V c (Pipeline.arrRef spec1 1) (ix2 (arow1 t p) k)
  refine congrArg _ (funext fun a => Fin.ext ?_)
  match a with
  | ⟨0, _⟩ => show win1_1.index t (0 : Fin 2) * 5000 + 1 * p.val = t.val * 5000 + p.val; rw [e1a]; omega
  | ⟨1, _⟩ => show win1_1.index t (1 : Fin 2) * 32 + 1 * k.val = k.val; rw [e1b]; omega

/-- The message network of point `t`'s blocks, at row `p`, is that of the whole arrays at row `5000 t + p`. -/
theorem block_rows1 (c : Dev nD) (t : Fin cfg1.N) (p : Fin 5000) (q : Fin 32) :
    Cert.Gnn.msgK (blk1_0 V c t) (blk1_1 V c t) (blk1_2 V c t) (blk1_3 V c t) (blk1_4 V c t) (blk1_5 V c t) (blk1_6 V c t) (blk1_7 V c t) (blk1_8 V c t) (ix2 p q) = Cert.Gnn.msgK (arr1_0 V c) (arr1_1 V c) (arr1_2 V c) (arr1_3 V c) (arr1_4 V c) (arr1_5 V c) (arr1_6 V c) (arr1_7 V c) (arr1_8 V c) (ix2 (arow1 t p) q) :=
  msgK_block (arr1_0 V c) (arr1_1 V c) (blk1_0 V c t) (blk1_1 V c t) (arr1_2 V c) (arr1_3 V c) (blk1_2 V c t) (blk1_3 V c t)
    (arr1_4 V c) (blk1_4 V c t) (arr1_5 V c) (blk1_5 V c t) (arr1_6 V c) (blk1_6 V c t) (arr1_7 V c) (blk1_7 V c t)
    (arr1_8 V c) (blk1_8 V c t) (arow1 t) (rows1_0 V c t) (rows1_1 V c t)
    (whole1_2 V c t) (whole1_3 V c t) (whole1_4 V c t) (whole1_5 V c t) (whole1_6 V c t) (whole1_7 V c t) (whole1_8 V c t) p q

/-- A 5000-row block written back at point `t` is point `t`'s block of any whole matrix that holds the block's
    row `p` at its row `5000 t + p`. -/
theorem cut_eq_read1 (t : Fin cfg1.N) (X : Cert.Gnn.Mat 5000 32) (Y : Cert.Gnn.Mat 850000 32)
    (h : ∀ (p : Fin 5000) (q : Fin 32), X (ix2 p q) = Y (ix2 (arow1 t p) q)) :
    (cfg1.win 9).cut (grid1.coords t) X = ((cfg1.win 9).blk t).view.read (Elt Ideal) Y := by
  obtain ⟨e0a, e0b, e1a, e1b, e2a, e2b, e3a, e3b, e4a, e4b, e5a, e5b, e6a, e6b, e7a, e7b, e8a, e8b, e9a, e9b⟩ := idx1 t
  funext j
  have hj0 : (j 0).val < 5000 := (j 0).isLt
  have hj1 : (j 1).val < 32 := (j 1).isLt
  have e1 : (cfg1.win 9).xinj (grid1.coords t) j = ix2 (⟨(j 0).val, hj0⟩ : Fin 5000) (⟨(j 1).val, hj1⟩ : Fin 32) :=
    funext fun a => Fin.ext (by
      match a with
      | ⟨0, _⟩ => rfl
      | ⟨1, _⟩ => rfl)
  have e2 : ((cfg1.win 9).blk t).view.emb j = ix2 (arow1 t ⟨(j 0).val, hj0⟩) (⟨(j 1).val, hj1⟩ : Fin 32) :=
    funext fun a => Fin.ext (by
      match a with
      | ⟨0, _⟩ => show win1_9.index t (0 : Fin 2) * 5000 + 1 * (j 0).val = t.val * 5000 + (j 0).val; rw [e9a]; omega
      | ⟨1, _⟩ => show win1_9.index t (1 : Fin 2) * 32 + 1 * (j 1).val = (j 1).val; rw [e9b]; omega)
  show X ((cfg1.win 9).xinj (grid1.coords t) j) = Y (((cfg1.win 9).blk t).view.emb j)
  exact (congrArg X e1).trans ((h _ _).trans (congrArg Y e2.symm))

/-- What point `t` writes back is its block of the message network of the whole arrays. -/
theorem flushed1 (c : Dev nD) (t : Fin cfg1.N) :
    (dat1 (F := Ideal) V c).flushed 9 t = ((cfg1.win 9).blk t).view.read (Elt Ideal) (Cert.Gnn.msgK (arr1_0 V c) (arr1_1 V c) (arr1_2 V c) (arr1_3 V c) (arr1_4 V c) (arr1_5 V c) (arr1_6 V c) (arr1_7 V c) (arr1_8 V c)) := by
  show (cfg1.win 9).cut (grid1.coords t) ((dat1 V c).after 9 t) = _
  rw [after1_9, out1_eq]
  exact cut_eq_read1 t (Cert.Gnn.msgK (blk1_0 V c t) (blk1_1 V c t) (blk1_2 V c t) (blk1_3 V c t) (blk1_4 V c t) (blk1_5 V c t) (blk1_6 V c t) (blk1_7 V c t) (blk1_8 V c t)) (Cert.Gnn.msgK (arr1_0 V c) (arr1_1 V c) (arr1_2 V c) (arr1_3 V c) (arr1_4 V c) (arr1_5 V c) (arr1_6 V c) (arr1_7 V c) (arr1_8 V c)) (block_rows1 V c t)

/-- An index of the output array is in point `t`'s block iff each coordinate is in the block's range on its axis. -/
theorem mem_blk1 (t : Fin cfg1.N) (i : S850000x32.Idx) :
    i ∈ ((cfg1.win 9).blk t).view.set ↔ ∀ a : Fin 2, win1_9.index t a * S5000x32.size a ≤ (i a).val ∧ (i a).val < win1_9.index t a * S5000x32.size a + S5000x32.size a := by
  show i ∈ ((View.whole main_v37).slice (win1_9.rect t)).set ↔ _
  rw [View.set_slice_whole, Rect.mem_set_unit]
  exact Iff.rfl

/-- Every row of the output is in the block of the point that its number divided by 5000 names. -/
theorem cover1 (i : S850000x32.Idx) : ∃ t : Fin cfg1.N, (cfg1.win 9).flush t = true ∧ i ∈ ((cfg1.win 9).blk t).view.set := by
  have hN : cfg1.N = 170 := N_1
  have hi0 : (i 0).val < 850000 := (i 0).isLt
  have hi1 : (i 1).val < 32 := (i 1).isLt
  have ht : (i 0).val / 5000 < cfg1.N := by rw [hN]; omega
  refine ⟨⟨(i 0).val / 5000, ht⟩, flush1_9 _, ?_⟩
  obtain ⟨e0a, e0b, e1a, e1b, e2a, e2b, e3a, e3b, e4a, e4b, e5a, e5b, e6a, e6b, e7a, e7b, e8a, e8b, e9a, e9b⟩ := idx1 ⟨(i 0).val / 5000, ht⟩
  rw [mem_blk1]
  intro a
  match a with
  | ⟨0, _⟩ =>
    show win1_9.index ⟨(i 0).val / 5000, ht⟩ (0 : Fin 2) * 5000 ≤ (i 0).val ∧ (i 0).val < win1_9.index ⟨(i 0).val / 5000, ht⟩ (0 : Fin 2) * 5000 + 5000
    rw [e9a]; show (i 0).val / 5000 * 5000 ≤ (i 0).val ∧ (i 0).val < (i 0).val / 5000 * 5000 + 5000; omega
  | ⟨1, _⟩ =>
    show win1_9.index ⟨(i 0).val / 5000, ht⟩ (1 : Fin 2) * 32 ≤ (i 1).val ∧ (i 1).val < win1_9.index ⟨(i 0).val / 5000, ht⟩ (1 : Fin 2) * 32 + 32
    rw [e9b]; omega

end Msg

/-- What region 1 leaves in its output array: the stage's function of the arrays the region finds. -/
theorem region1_value (c : Dev nD) :
    (dat1 (F := Ideal) V c).arrAt 9 cfg1.N = Cert.Gnn.msgK (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) (V c (Pipeline.arrRef spec1 6)) (V c (Pipeline.arrRef spec1 7)) (V c (Pipeline.arrRef spec1 8)) :=
  (dat1 (F := Ideal) V c).arrAt_eq_of_cover 9 (Cert.Gnn.msgK (Msg.arr1_0 V c) (Msg.arr1_1 V c) (Msg.arr1_2 V c) (Msg.arr1_3 V c) (Msg.arr1_4 V c) (Msg.arr1_5 V c) (Msg.arr1_6 V c) (Msg.arr1_7 V c) (Msg.arr1_8 V c)) (fun t _ => Msg.flushed1 V c t) Msg.cover1

end Cert.KernelIdeal.RegionValue

end
-- ==== Proof.ArrMsg3.lean ====
/-
  Message region 3: what its pipeline leaves in its output array. At a point the body computes the message network of
  the blocks it loads; the two row inputs' blocks are 5000 consecutive rows of their arrays and each weight's block is
  its whole array, so what a point writes back is its block of the message network of the whole arrays; the 170
  blocks cover the output, row r lying in the block of point r / 5000.
-/
import proofs.«427837_j2834678415534_1_alg».proof.Proof.Gen.KernelIdeal.Frame
import proofs.«427837_j2834678415534_1_alg».proof.Proof.PayMsg

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.Pipeline (Dat Cfg Window)
open Idealize.ShloMosaic.ValueIdx

variable (V : (c : Dev nD) → (b : Ref sig .tc) → Buf (Elt Ideal) ((c : Thread nD τ).loc b))

namespace Msg

/-- What the body leaves in the output window's buffer is the message network of the blocks it loads: its one
    store covers the buffer, and every load reads a whole buffer. -/
theorem out3_eq (x0 x1 : Vec Ideal S5000x32 .f32) (x2 x3 : Vec Ideal S32x64 .f32) (x4 : Vec Ideal S1x64 .f32)
    (x5 : Vec Ideal S64x64 .f32) (x6 : Vec Ideal S1x64 .f32) (x7 : Vec Ideal S64x32 .f32) (x8 : Vec Ideal S1x32 .f32) :
    out3_9 x0 x1 x2 x3 x4 x5 x6 x7 x8 = Cert.Gnn.msgK x0 x1 x2 x3 x4 x5 x6 x7 x8 := by
  unfold out3_9
  rw [View.canon_unit_zero hz]
  simp only [View.ld_unit_zero (S := S5000x32) hz, View.ld_unit_zero (S := S32x64) hz, View.ld_unit_zero (S := S1x64) hz,
    View.ld_unit_zero (S := S64x64) hz, View.ld_unit_zero (S := S64x32) hz, View.ld_unit_zero (S := S1x32) hz]
  exact payload3_eq x0 x1 x2 x3 x4 x5 x6 x7 x8

/-- Window 0's array (the target rows) as the region finds it, at its literal shape. -/
abbrev arr3_0 (c : Dev nD) : Cert.Gnn.Mat 850000 32 := V c (Pipeline.arrRef spec3 0)
/-- Window 0's block at point `t`, at its literal shape. -/
abbrev blk3_0 (c : Dev nD) (t : Fin cfg3.N) : Cert.Gnn.Mat 5000 32 := iblk3 V c 0 t
/-- Window 1's array (the source rows) as the region finds it, at its literal shape. -/
abbrev arr3_1 (c : Dev nD) : Cert.Gnn.Mat 850000 32 := V c (Pipeline.arrRef spec3 1)
/-- Window 1's block at point `t`, at its literal shape. -/
abbrev blk3_1 (c : Dev nD) (t : Fin cfg3.N) : Cert.Gnn.Mat 5000 32 := iblk3 V c 1 t
/-- Window 2's array (the first layer's weights for the target rows) as the region finds it, at its literal shape. -/
abbrev arr3_2 (c : Dev nD) : Cert.Gnn.Mat 32 64 := V c (Pipeline.arrRef spec3 2)
/-- Window 2's block at point `t`, at its literal shape. -/
abbrev blk3_2 (c : Dev nD) (t : Fin cfg3.N) : Cert.Gnn.Mat 32 64 := iblk3 V c 2 t
/-- Window 3's array (the first layer's weights for the source rows) as the region finds it, at its literal shape. -/
abbrev arr3_3 (c : Dev nD) : Cert.Gnn.Mat 32 64 := V c (Pipeline.arrRef spec3 3)
/-- Window 3's block at point `t`, at its literal shape. -/
abbrev blk3_3 (c : Dev nD) (t : Fin cfg3.N) : Cert.Gnn.Mat 32 64 := iblk3 V c 3 t
/-- Window 4's array (the first layer's bias) as the region finds it, at its literal shape. -/
abbrev arr3_4 (c : Dev nD) : Cert.Gnn.Mat 1 64 := V c (Pipeline.arrRef spec3 4)
/-- Window 4's block at point `t`, at its literal shape. -/
abbrev blk3_4 (c : Dev nD) (t : Fin cfg3.N) : Cert.Gnn.Mat 1 64 := iblk3 V c 4 t
/-- Window 5's array (the second layer's weights) as the region finds it, at its literal shape. -/
abbrev arr3_5 (c : Dev nD) : Cert.Gnn.Mat 64 64 := V c (Pipeline.arrRef spec3 5)
/-- Window 5's block at point `t`, at its literal shape. -/
abbrev blk3_5 (c : Dev nD) (t : Fin cfg3.N) : Cert.Gnn.Mat 64 64 := iblk3 V c 5 t
/-- Window 6's array (the second layer's bias) as the region finds it, at its literal shape. -/
abbrev arr3_6 (c : Dev nD) : Cert.Gnn.Mat 1 64 := V c (Pipeline.arrRef spec3 6)
/-- Window 6's block at point `t`, at its literal shape. -/
abbrev blk3_6 (c : Dev nD) (t : Fin cfg3.N) : Cert.Gnn.Mat 1 64 := iblk3 V c 6 t
/-- Window 7's array (the third layer's weights) as the region finds it, at its literal shape. -/
abbrev arr3_7 (c : Dev nD) : Cert.Gnn.Mat 64 32 := V c (Pipeline.arrRef spec3 7)
/-- Window 7's block at point `t`, at its literal shape. -/
abbrev blk3_7 (c : Dev nD) (t : Fin cfg3.N) : Cert.Gnn.Mat 64 32 := iblk3 V c 7 t
/-- Window 8's array (the third layer's bias) as the region finds it, at its literal shape. -/
abbrev arr3_8 (c : Dev nD) : Cert.Gnn.Mat 1 32 := V c (Pipeline.arrRef spec3 8)
/-- Window 8's block at point `t`, at its literal shape. -/
abbrev blk3_8 (c : Dev nD) (t : Fin cfg3.N) : Cert.Gnn.Mat 1 32 := iblk3 V c 8 t

/-- The index maps over the 170 points: the two row inputs and the output move down the rows with the point,
    every weight stays at its one block. -/
theorem idx3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = 0 ∧ win3_7.index t (1 : Fin 2) = 0
    ∧ win3_8.index t (0 : Fin 2) = 0 ∧ win3_8.index t (1 : Fin 2) = 0
    ∧ win3_9.index t (0 : Fin 2) = t.val ∧ win3_9.index t (1 : Fin 2) = 0 :=
  (by decide +kernel : ∀ t : Fin grid3.N, _)

/-- The row of the arrays that row `p` of point `t`'s blocks is. -/
def arow3 (t : Fin cfg3.N) (p : Fin 5000) : Fin 850000 :=
  ⟨t.val * 5000 + p.val, by have hN : cfg3.N = 170 := N_3; have := t.isLt; have := p.isLt; omega⟩

/-- Window 2 is one block: at every point its block is the whole array. -/
theorem whole3_2 (c : Dev nD) (t : Fin cfg3.N) : blk3_2 V c t = arr3_2 V c := by
  obtain ⟨e0a, e0b, e1a, e1b, e2a, e2b, e3a, e3b, e4a, e4b, e5a, e5b, e6a, e6b, e7a, e7b, e8a, e8b, e9a, e9b⟩ := idx3 t
  funext y
  unfold blk3_2 arr3_2 iblk3
  rw [View.read_apply]
  show V c (Pipeline.arrRef spec3 2) (((cfg3.win 2).blk t).view.emb y) = V c (Pipeline.arrRef spec3 2) y
  refine congrArg _ (funext fun a => Fin.ext ?_)
  match a with
  | ⟨0, _⟩ => show win3_2.index t (0 : Fin 2) * 32 + 1 * (y 0).val = (y 0).val; rw [e2a]; omega
  | ⟨1, _⟩ => show win3_2.index t (1 : Fin 2) * 64 + 1 * (y 1).val = (y 1).val; rw [e2b]; omega

/-- Window 3 is one block: at every point its block is the whole array. -/
theorem whole3_3 (c : Dev nD) (t : Fin cfg3.N) : blk3_3 V c t = arr3_3 V c := by
  obtain ⟨e0a, e0b, e1a, e1b, e2a, e2b, e3a, e3b, e4a, e4b, e5a, e5b, e6a, e6b, e7a, e7b, e8a, e8b, e9a, e9b⟩ := idx3 t
  funext y
  unfold blk3_3 arr3_3 iblk3
  rw [View.read_apply]
  show V c (Pipeline.arrRef spec3 3) (((cfg3.win 3).blk t).view.emb y) = V c (Pipeline.arrRef spec3 3) y
  refine congrArg _ (funext fun a => Fin.ext ?_)
  match a with
  | ⟨0, _⟩ => show win3_3.index t (0 : Fin 2) * 32 + 1 * (y 0).val = (y 0).val; rw [e3a]; omega
  | ⟨1, _⟩ => show win3_3.index t (1 : Fin 2) * 64 + 1 * (y 1).val = (y 1).val; rw [e3b]; omega

/-- Window 4 is one block: at every point its block is the whole array. -/
theorem whole3_4 (c : Dev nD) (t : Fin cfg3.N) : blk3_4 V c t = arr3_4 V c := by
  obtain ⟨e0a, e0b, e1a, e1b, e2a, e2b, e3a, e3b, e4a, e4b, e5a, e5b, e6a, e6b, e7a, e7b, e8a, e8b, e9a, e9b⟩ := idx3 t
  funext y
  unfold blk3_4 arr3_4 iblk3
  rw [View.read_apply]
  show V c (Pipeline.arrRef spec3 4) (((cfg3.win 4).blk t).view.emb y) = V c (Pipeline.arrRef spec3 4) y
  refine congrArg _ (funext fun a => Fin.ext ?_)
  match a with
  | ⟨0, _⟩ => show win3_4.index t (0 : Fin 2) * 1 + 1 * (y 0).val = (y 0).val; rw [e4a]; omega
  | ⟨1, _⟩ => show win3_4.index t (1 : Fin 2) * 64 + 1 * (y 1).val = (y 1).val; rw [e4b]; omega

/-- Window 5 is one block: at every point its block is the whole array. -/
theorem whole3_5 (c : Dev nD) (t : Fin cfg3.N) : blk3_5 V c t = arr3_5 V c := by
  obtain ⟨e0a, e0b, e1a, e1b, e2a, e2b, e3a, e3b, e4a, e4b, e5a, e5b, e6a, e6b, e7a, e7b, e8a, e8b, e9a, e9b⟩ := idx3 t
  funext y
  unfold blk3_5 arr3_5 iblk3
  rw [View.read_apply]
  show V c (Pipeline.arrRef spec3 5) (((cfg3.win 5).blk t).view.emb y) = V c (Pipeline.arrRef spec3 5) y
  refine congrArg _ (funext fun a => Fin.ext ?_)
  match a with
  | ⟨0, _⟩ => show win3_5.index t (0 : Fin 2) * 64 + 1 * (y 0).val = (y 0).val; rw [e5a]; omega
  | ⟨1, _⟩ => show win3_5.index t (1 : Fin 2) * 64 + 1 * (y 1).val = (y 1).val; rw [e5b]; omega

/-- Window 6 is one block: at every point its block is the whole array. -/
theorem whole3_6 (c : Dev nD) (t : Fin cfg3.N) : blk3_6 V c t = arr3_6 V c := by
  obtain ⟨e0a, e0b, e1a, e1b, e2a, e2b, e3a, e3b, e4a, e4b, e5a, e5b, e6a, e6b, e7a, e7b, e8a, e8b, e9a, e9b⟩ := idx3 t
  funext y
  unfold blk3_6 arr3_6 iblk3
  rw [View.read_apply]
  show V c (Pipeline.arrRef spec3 6) (((cfg3.win 6).blk t).view.emb y) = V c (Pipeline.arrRef spec3 6) y
  refine congrArg _ (funext fun a => Fin.ext ?_)
  match a with
  | ⟨0, _⟩ => show win3_6.index t (0 : Fin 2) * 1 + 1 * (y 0).val = (y 0).val; rw [e6a]; omega
  | ⟨1, _⟩ => show win3_6.index t (1 : Fin 2) * 64 + 1 * (y 1).val = (y 1).val; rw [e6b]; omega

/-- Window 7 is one block: at every point its block is the whole array. -/
theorem whole3_7 (c : Dev nD) (t : Fin cfg3.N) : blk3_7 V c t = arr3_7 V c := by
  obtain ⟨e0a, e0b, e1a, e1b, e2a, e2b, e3a, e3b, e4a, e4b, e5a, e5b, e6a, e6b, e7a, e7b, e8a, e8b, e9a, e9b⟩ := idx3 t
  funext y
  unfold blk3_7 arr3_7 iblk3
  rw [View.read_apply]
  show V c (Pipeline.arrRef spec3 7) (((cfg3.win 7).blk t).view.emb y) = V c (Pipeline.arrRef spec3 7) y
  refine congrArg _ (funext fun a => Fin.ext ?_)
  match a with
  | ⟨0, _⟩ => show win3_7.index t (0 : Fin 2) * 64 + 1 * (y 0).val = (y 0).val; rw [e7a]; omega
  | ⟨1, _⟩ => show win3_7.index t (1 : Fin 2) * 32 + 1 * (y 1).val = (y 1).val; rw [e7b]; omega

/-- Window 8 is one block: at every point its block is the whole array. -/
theorem whole3_8 (c : Dev nD) (t : Fin cfg3.N) : blk3_8 V c t = arr3_8 V c := by
  obtain ⟨e0a, e0b, e1a, e1b, e2a, e2b, e3a, e3b, e4a, e4b, e5a, e5b, e6a, e6b, e7a, e7b, e8a, e8b, e9a, e9b⟩ := idx3 t
  funext y
  unfold blk3_8 arr3_8 iblk3
  rw [View.read_apply]
  show V c (Pipeline.arrRef spec3 8) (((cfg3.win 8).blk t).view.emb y) = V c (Pipeline.arrRef spec3 8) y
  refine congrArg _ (funext fun a => Fin.ext ?_)
  match a with
  | ⟨0, _⟩ => show win3_8.index t (0 : Fin 2) * 1 + 1 * (y 0).val = (y 0).val; rw [e8a]; omega
  | ⟨1, _⟩ => show win3_8.index t (1 : Fin 2) * 32 + 1 * (y 1).val = (y 1).val; rw [e8b]; omega

/-- Window 0's block at point `t` is rows `5000 t … 5000 t + 4999` of its array. -/
theorem rows3_0 (c : Dev nD) (t : Fin cfg3.N) (p : Fin 5000) (k : Fin 32) :
    blk3_0 V c t (ix2 p k) = arr3_0 V c (ix2 (arow3 t p) k) := by
  obtain ⟨e0a, e0b, e1a, e1b, e2a, e2b, e3a, e3b, e4a, e4b, e5a, e5b, e6a, e6b, e7a, e7b, e8a, e8b, e9a, e9b⟩ := idx3 t
  unfold blk3_0 arr3_0 iblk3
  rw [View.read_apply]
  show V c (Pipeline.arrRef spec3 0) (((cfg3.win 0).blk t).view.emb (ix2 p k)) = V c (Pipeline.arrRef spec3 0) (ix2 (arow3 t p) k)
  refine congrArg _ (funext fun a => Fin.ext ?_)
  match a with
  | ⟨0, _⟩ => show win3_0.index t (0 : Fin 2) * 5000 + 1 * p.val = t.val * 5000 + p.val; rw [e0a]; omega
  | ⟨1, _⟩ => show win3_0.index t (1 : Fin 2) * 32 + 1 * k.val = k.val; rw [e0b]; omega

/-- Window 1's block at point `t` is rows `5000 t … 5000 t + 4999` of its array. -/
theorem rows3_1 (c : Dev nD) (t : Fin cfg3.N) (p : Fin 5000) (k : Fin 32) :
    blk3_1 V c t (ix2 p k) = arr3_1 V c (ix2 (arow3 t p) k) := by
  obtain ⟨e0a, e0b, e1a, e1b, e2a, e2b, e3a, e3b, e4a, e4b, e5a, e5b, e6a, e6b, e7a, e7b, e8a, e8b, e9a, e9b⟩ := idx3 t
  unfold blk3_1 arr3_1 iblk3
  rw [View.read_apply]
  show V c (Pipeline.arrRef spec3 1) (((cfg3.win 1).blk t).view.emb (ix2 p k)) = V c (Pipeline.arrRef spec3 1) (ix2 (arow3 t p) k)
  refine congrArg _ (funext fun a => Fin.ext ?_)
  match a with
  | ⟨0, _⟩ => show win3_1.index t (0 : Fin 2) * 5000 + 1 * p.val = t.val * 5000 + p.val; rw [e1a]; omega
  | ⟨1, _⟩ => show win3_1.index t (1 : Fin 2) * 32 + 1 * k.val = k.val; rw [e1b]; omega

/-- The message network of point `t`'s blocks, at row `p`, is that of the whole arrays at row `5000 t + p`. -/
theorem block_rows3 (c : Dev nD) (t : Fin cfg3.N) (p : Fin 5000) (q : Fin 32) :
    Cert.Gnn.msgK (blk3_0 V c t) (blk3_1 V c t) (blk3_2 V c t) (blk3_3 V c t) (blk3_4 V c t) (blk3_5 V c t) (blk3_6 V c t) (blk3_7 V c t) (blk3_8 V c t) (ix2 p q) = Cert.Gnn.msgK (arr3_0 V c) (arr3_1 V c) (arr3_2 V c) (arr3_3 V c) (arr3_4 V c) (arr3_5 V c) (arr3_6 V c) (arr3_7 V c) (arr3_8 V c) (ix2 (arow3 t p) q) :=
  msgK_block (arr3_0 V c) (arr3_1 V c) (blk3_0 V c t) (blk3_1 V c t) (arr3_2 V c) (arr3_3 V c) (blk3_2 V c t) (blk3_3 V c t)
    (arr3_4 V c) (blk3_4 V c t) (arr3_5 V c) (blk3_5 V c t) (arr3_6 V c) (blk3_6 V c t) (arr3_7 V c) (blk3_7 V c t)
    (arr3_8 V c) (blk3_8 V c t) (arow3 t) (rows3_0 V c t) (rows3_1 V c t)
    (whole3_2 V c t) (whole3_3 V c t) (whole3_4 V c t) (whole3_5 V c t) (whole3_6 V c t) (whole3_7 V c t) (whole3_8 V c t) p q

/-- A 5000-row block written back at point `t` is point `t`'s block of any whole matrix that holds the block's
    row `p` at its row `5000 t + p`. -/
theorem cut_eq_read3 (t : Fin cfg3.N) (X : Cert.Gnn.Mat 5000 32) (Y : Cert.Gnn.Mat 850000 32)
    (h : ∀ (p : Fin 5000) (q : Fin 32), X (ix2 p q) = Y (ix2 (arow3 t p) q)) :
    (cfg3.win 9).cut (grid3.coords t) X = ((cfg3.win 9).blk t).view.read (Elt Ideal) Y := by
  obtain ⟨e0a, e0b, e1a, e1b, e2a, e2b, e3a, e3b, e4a, e4b, e5a, e5b, e6a, e6b, e7a, e7b, e8a, e8b, e9a, e9b⟩ := idx3 t
  funext j
  have hj0 : (j 0).val < 5000 := (j 0).isLt
  have hj1 : (j 1).val < 32 := (j 1).isLt
  have e1 : (cfg3.win 9).xinj (grid3.coords t) j = ix2 (⟨(j 0).val, hj0⟩ : Fin 5000) (⟨(j 1).val, hj1⟩ : Fin 32) :=
    funext fun a => Fin.ext (by
      match a with
      | ⟨0, _⟩ => rfl
      | ⟨1, _⟩ => rfl)
  have e2 : ((cfg3.win 9).blk t).view.emb j = ix2 (arow3 t ⟨(j 0).val, hj0⟩) (⟨(j 1).val, hj1⟩ : Fin 32) :=
    funext fun a => Fin.ext (by
      match a with
      | ⟨0, _⟩ => show win3_9.index t (0 : Fin 2) * 5000 + 1 * (j 0).val = t.val * 5000 + (j 0).val; rw [e9a]; omega
      | ⟨1, _⟩ => show win3_9.index t (1 : Fin 2) * 32 + 1 * (j 1).val = (j 1).val; rw [e9b]; omega)
  show X ((cfg3.win 9).xinj (grid3.coords t) j) = Y (((cfg3.win 9).blk t).view.emb j)
  exact (congrArg X e1).trans ((h _ _).trans (congrArg Y e2.symm))

/-- What point `t` writes back is its block of the message network of the whole arrays. -/
theorem flushed3 (c : Dev nD) (t : Fin cfg3.N) :
    (dat3 (F := Ideal) V c).flushed 9 t = ((cfg3.win 9).blk t).view.read (Elt Ideal) (Cert.Gnn.msgK (arr3_0 V c) (arr3_1 V c) (arr3_2 V c) (arr3_3 V c) (arr3_4 V c) (arr3_5 V c) (arr3_6 V c) (arr3_7 V c) (arr3_8 V c)) := by
  show (cfg3.win 9).cut (grid3.coords t) ((dat3 V c).after 9 t) = _
  rw [after3_9, out3_eq]
  exact cut_eq_read3 t (Cert.Gnn.msgK (blk3_0 V c t) (blk3_1 V c t) (blk3_2 V c t) (blk3_3 V c t) (blk3_4 V c t) (blk3_5 V c t) (blk3_6 V c t) (blk3_7 V c t) (blk3_8 V c t)) (Cert.Gnn.msgK (arr3_0 V c) (arr3_1 V c) (arr3_2 V c) (arr3_3 V c) (arr3_4 V c) (arr3_5 V c) (arr3_6 V c) (arr3_7 V c) (arr3_8 V c)) (block_rows3 V c t)

/-- An index of the output array is in point `t`'s block iff each coordinate is in the block's range on its axis. -/
theorem mem_blk3 (t : Fin cfg3.N) (i : S850000x32.Idx) :
    i ∈ ((cfg3.win 9).blk t).view.set ↔ ∀ a : Fin 2, win3_9.index t a * S5000x32.size a ≤ (i a).val ∧ (i a).val < win3_9.index t a * S5000x32.size a + S5000x32.size a := by
  show i ∈ ((View.whole main_v77).slice (win3_9.rect t)).set ↔ _
  rw [View.set_slice_whole, Rect.mem_set_unit]
  exact Iff.rfl

/-- Every row of the output is in the block of the point that its number divided by 5000 names. -/
theorem cover3 (i : S850000x32.Idx) : ∃ t : Fin cfg3.N, (cfg3.win 9).flush t = true ∧ i ∈ ((cfg3.win 9).blk t).view.set := by
  have hN : cfg3.N = 170 := N_3
  have hi0 : (i 0).val < 850000 := (i 0).isLt
  have hi1 : (i 1).val < 32 := (i 1).isLt
  have ht : (i 0).val / 5000 < cfg3.N := by rw [hN]; omega
  refine ⟨⟨(i 0).val / 5000, ht⟩, flush3_9 _, ?_⟩
  obtain ⟨e0a, e0b, e1a, e1b, e2a, e2b, e3a, e3b, e4a, e4b, e5a, e5b, e6a, e6b, e7a, e7b, e8a, e8b, e9a, e9b⟩ := idx3 ⟨(i 0).val / 5000, ht⟩
  rw [mem_blk3]
  intro a
  match a with
  | ⟨0, _⟩ =>
    show win3_9.index ⟨(i 0).val / 5000, ht⟩ (0 : Fin 2) * 5000 ≤ (i 0).val ∧ (i 0).val < win3_9.index ⟨(i 0).val / 5000, ht⟩ (0 : Fin 2) * 5000 + 5000
    rw [e9a]; show (i 0).val / 5000 * 5000 ≤ (i 0).val ∧ (i 0).val < (i 0).val / 5000 * 5000 + 5000; omega
  | ⟨1, _⟩ =>
    show win3_9.index ⟨(i 0).val / 5000, ht⟩ (1 : Fin 2) * 32 ≤ (i 1).val ∧ (i 1).val < win3_9.index ⟨(i 0).val / 5000, ht⟩ (1 : Fin 2) * 32 + 32
    rw [e9b]; omega

end Msg

/-- What region 3 leaves in its output array: the stage's function of the arrays the region finds. -/
theorem region3_value (c : Dev nD) :
    (dat3 (F := Ideal) V c).arrAt 9 cfg3.N = Cert.Gnn.msgK (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) (V c (Pipeline.arrRef spec3 6)) (V c (Pipeline.arrRef spec3 7)) (V c (Pipeline.arrRef spec3 8)) :=
  (dat3 (F := Ideal) V c).arrAt_eq_of_cover 9 (Cert.Gnn.msgK (Msg.arr3_0 V c) (Msg.arr3_1 V c) (Msg.arr3_2 V c) (Msg.arr3_3 V c) (Msg.arr3_4 V c) (Msg.arr3_5 V c) (Msg.arr3_6 V c) (Msg.arr3_7 V c) (Msg.arr3_8 V c)) (fun t _ => Msg.flushed3 V c t) Msg.cover3

end Cert.KernelIdeal.RegionValue

end
-- ==== Proof.ArrMsg5.lean ====
/-
  Message region 5: what its pipeline leaves in its output array. At a point the body computes the message network of
  the blocks it loads; the two row inputs' blocks are 5000 consecutive rows of their arrays and each weight's block is
  its whole array, so what a point writes back is its block of the message network of the whole arrays; the 170
  blocks cover the output, row r lying in the block of point r / 5000.
-/
import proofs.«427837_j2834678415534_1_alg».proof.Proof.Gen.KernelIdeal.Frame
import proofs.«427837_j2834678415534_1_alg».proof.Proof.PayMsg

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.Pipeline (Dat Cfg Window)
open Idealize.ShloMosaic.ValueIdx

variable (V : (c : Dev nD) → (b : Ref sig .tc) → Buf (Elt Ideal) ((c : Thread nD τ).loc b))

namespace Msg

/-- What the body leaves in the output window's buffer is the message network of the blocks it loads: its one
    store covers the buffer, and every load reads a whole buffer. -/
theorem out5_eq (x0 x1 : Vec Ideal S5000x32 .f32) (x2 x3 : Vec Ideal S32x64 .f32) (x4 : Vec Ideal S1x64 .f32)
    (x5 : Vec Ideal S64x64 .f32) (x6 : Vec Ideal S1x64 .f32) (x7 : Vec Ideal S64x32 .f32) (x8 : Vec Ideal S1x32 .f32) :
    out5_9 x0 x1 x2 x3 x4 x5 x6 x7 x8 = Cert.Gnn.msgK x0 x1 x2 x3 x4 x5 x6 x7 x8 := by
  unfold out5_9
  rw [View.canon_unit_zero hz]
  simp only [View.ld_unit_zero (S := S5000x32) hz, View.ld_unit_zero (S := S32x64) hz, View.ld_unit_zero (S := S1x64) hz,
    View.ld_unit_zero (S := S64x64) hz, View.ld_unit_zero (S := S64x32) hz, View.ld_unit_zero (S := S1x32) hz]
  exact payload5_eq x0 x1 x2 x3 x4 x5 x6 x7 x8

/-- Window 0's array (the target rows) as the region finds it, at its literal shape. -/
abbrev arr5_0 (c : Dev nD) : Cert.Gnn.Mat 850000 32 := V c (Pipeline.arrRef spec5 0)
/-- Window 0's block at point `t`, at its literal shape. -/
abbrev blk5_0 (c : Dev nD) (t : Fin cfg5.N) : Cert.Gnn.Mat 5000 32 := iblk5 V c 0 t
/-- Window 1's array (the source rows) as the region finds it, at its literal shape. -/
abbrev arr5_1 (c : Dev nD) : Cert.Gnn.Mat 850000 32 := V c (Pipeline.arrRef spec5 1)
/-- Window 1's block at point `t`, at its literal shape. -/
abbrev blk5_1 (c : Dev nD) (t : Fin cfg5.N) : Cert.Gnn.Mat 5000 32 := iblk5 V c 1 t
/-- Window 2's array (the first layer's weights for the target rows) as the region finds it, at its literal shape. -/
abbrev arr5_2 (c : Dev nD) : Cert.Gnn.Mat 32 64 := V c (Pipeline.arrRef spec5 2)
/-- Window 2's block at point `t`, at its literal shape. -/
abbrev blk5_2 (c : Dev nD) (t : Fin cfg5.N) : Cert.Gnn.Mat 32 64 := iblk5 V c 2 t
/-- Window 3's array (the first layer's weights for the source rows) as the region finds it, at its literal shape. -/
abbrev arr5_3 (c : Dev nD) : Cert.Gnn.Mat 32 64 := V c (Pipeline.arrRef spec5 3)
/-- Window 3's block at point `t`, at its literal shape. -/
abbrev blk5_3 (c : Dev nD) (t : Fin cfg5.N) : Cert.Gnn.Mat 32 64 := iblk5 V c 3 t
/-- Window 4's array (the first layer's bias) as the region finds it, at its literal shape. -/
abbrev arr5_4 (c : Dev nD) : Cert.Gnn.Mat 1 64 := V c (Pipeline.arrRef spec5 4)
/-- Window 4's block at point `t`, at its literal shape. -/
abbrev blk5_4 (c : Dev nD) (t : Fin cfg5.N) : Cert.Gnn.Mat 1 64 := iblk5 V c 4 t
/-- Window 5's array (the second layer's weights) as the region finds it, at its literal shape. -/
abbrev arr5_5 (c : Dev nD) : Cert.Gnn.Mat 64 64 := V c (Pipeline.arrRef spec5 5)
/-- Window 5's block at point `t`, at its literal shape. -/
abbrev blk5_5 (c : Dev nD) (t : Fin cfg5.N) : Cert.Gnn.Mat 64 64 := iblk5 V c 5 t
/-- Window 6's array (the second layer's bias) as the region finds it, at its literal shape. -/
abbrev arr5_6 (c : Dev nD) : Cert.Gnn.Mat 1 64 := V c (Pipeline.arrRef spec5 6)
/-- Window 6's block at point `t`, at its literal shape. -/
abbrev blk5_6 (c : Dev nD) (t : Fin cfg5.N) : Cert.Gnn.Mat 1 64 := iblk5 V c 6 t
/-- Window 7's array (the third layer's weights) as the region finds it, at its literal shape. -/
abbrev arr5_7 (c : Dev nD) : Cert.Gnn.Mat 64 32 := V c (Pipeline.arrRef spec5 7)
/-- Window 7's block at point `t`, at its literal shape. -/
abbrev blk5_7 (c : Dev nD) (t : Fin cfg5.N) : Cert.Gnn.Mat 64 32 := iblk5 V c 7 t
/-- Window 8's array (the third layer's bias) as the region finds it, at its literal shape. -/
abbrev arr5_8 (c : Dev nD) : Cert.Gnn.Mat 1 32 := V c (Pipeline.arrRef spec5 8)
/-- Window 8's block at point `t`, at its literal shape. -/
abbrev blk5_8 (c : Dev nD) (t : Fin cfg5.N) : Cert.Gnn.Mat 1 32 := iblk5 V c 8 t

/-- The index maps over the 170 points: the two row inputs and the output move down the rows with the point,
    every weight stays at its one block. -/
theorem idx5 : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) = 0 ∧ win5_6.index t (1 : Fin 2) = 0
    ∧ win5_7.index t (0 : Fin 2) = 0 ∧ win5_7.index t (1 : Fin 2) = 0
    ∧ win5_8.index t (0 : Fin 2) = 0 ∧ win5_8.index t (1 : Fin 2) = 0
    ∧ win5_9.index t (0 : Fin 2) = t.val ∧ win5_9.index t (1 : Fin 2) = 0 :=
  (by decide +kernel : ∀ t : Fin grid5.N, _)

/-- The row of the arrays that row `p` of point `t`'s blocks is. -/
def arow5 (t : Fin cfg5.N) (p : Fin 5000) : Fin 850000 :=
  ⟨t.val * 5000 + p.val, by have hN : cfg5.N = 170 := N_5; have := t.isLt; have := p.isLt; omega⟩

/-- Window 2 is one block: at every point its block is the whole array. -/
theorem whole5_2 (c : Dev nD) (t : Fin cfg5.N) : blk5_2 V c t = arr5_2 V c := by
  obtain ⟨e0a, e0b, e1a, e1b, e2a, e2b, e3a, e3b, e4a, e4b, e5a, e5b, e6a, e6b, e7a, e7b, e8a, e8b, e9a, e9b⟩ := idx5 t
  funext y
  unfold blk5_2 arr5_2 iblk5
  rw [View.read_apply]
  show V c (Pipeline.arrRef spec5 2) (((cfg5.win 2).blk t).view.emb y) = V c (Pipeline.arrRef spec5 2) y
  refine congrArg _ (funext fun a => Fin.ext ?_)
  match a with
  | ⟨0, _⟩ => show win5_2.index t (0 : Fin 2) * 32 + 1 * (y 0).val = (y 0).val; rw [e2a]; omega
  | ⟨1, _⟩ => show win5_2.index t (1 : Fin 2) * 64 + 1 * (y 1).val = (y 1).val; rw [e2b]; omega

/-- Window 3 is one block: at every point its block is the whole array. -/
theorem whole5_3 (c : Dev nD) (t : Fin cfg5.N) : blk5_3 V c t = arr5_3 V c := by
  obtain ⟨e0a, e0b, e1a, e1b, e2a, e2b, e3a, e3b, e4a, e4b, e5a, e5b, e6a, e6b, e7a, e7b, e8a, e8b, e9a, e9b⟩ := idx5 t
  funext y
  unfold blk5_3 arr5_3 iblk5
  rw [View.read_apply]
  show V c (Pipeline.arrRef spec5 3) (((cfg5.win 3).blk t).view.emb y) = V c (Pipeline.arrRef spec5 3) y
  refine congrArg _ (funext fun a => Fin.ext ?_)
  match a with
  | ⟨0, _⟩ => show win5_3.index t (0 : Fin 2) * 32 + 1 * (y 0).val = (y 0).val; rw [e3a]; omega
  | ⟨1, _⟩ => show win5_3.index t (1 : Fin 2) * 64 + 1 * (y 1).val = (y 1).val; rw [e3b]; omega

/-- Window 4 is one block: at every point its block is the whole array. -/
theorem whole5_4 (c : Dev nD) (t : Fin cfg5.N) : blk5_4 V c t = arr5_4 V c := by
  obtain ⟨e0a, e0b, e1a, e1b, e2a, e2b, e3a, e3b, e4a, e4b, e5a, e5b, e6a, e6b, e7a, e7b, e8a, e8b, e9a, e9b⟩ := idx5 t
  funext y
  unfold blk5_4 arr5_4 iblk5
  rw [View.read_apply]
  show V c (Pipeline.arrRef spec5 4) (((cfg5.win 4).blk t).view.emb y) = V c (Pipeline.arrRef spec5 4) y
  refine congrArg _ (funext fun a => Fin.ext ?_)
  match a with
  | ⟨0, _⟩ => show win5_4.index t (0 : Fin 2) * 1 + 1 * (y 0).val = (y 0).val; rw [e4a]; omega
  | ⟨1, _⟩ => show win5_4.index t (1 : Fin 2) * 64 + 1 * (y 1).val = (y 1).val; rw [e4b]; omega

/-- Window 5 is one block: at every point its block is the whole array. -/
theorem whole5_5 (c : Dev nD) (t : Fin cfg5.N) : blk5_5 V c t = arr5_5 V c := by
  obtain ⟨e0a, e0b, e1a, e1b, e2a, e2b, e3a, e3b, e4a, e4b, e5a, e5b, e6a, e6b, e7a, e7b, e8a, e8b, e9a, e9b⟩ := idx5 t
  funext y
  unfold blk5_5 arr5_5 iblk5
  rw [View.read_apply]
  show V c (Pipeline.arrRef spec5 5) (((cfg5.win 5).blk t).view.emb y) = V c (Pipeline.arrRef spec5 5) y
  refine congrArg _ (funext fun a => Fin.ext ?_)
  match a with
  | ⟨0, _⟩ => show win5_5.index t (0 : Fin 2) * 64 + 1 * (y 0).val = (y 0).val; rw [e5a]; omega
  | ⟨1, _⟩ => show win5_5.index t (1 : Fin 2) * 64 + 1 * (y 1).val = (y 1).val; rw [e5b]; omega

/-- Window 6 is one block: at every point its block is the whole array. -/
theorem whole5_6 (c : Dev nD) (t : Fin cfg5.N) : blk5_6 V c t = arr5_6 V c := by
  obtain ⟨e0a, e0b, e1a, e1b, e2a, e2b, e3a, e3b, e4a, e4b, e5a, e5b, e6a, e6b, e7a, e7b, e8a, e8b, e9a, e9b⟩ := idx5 t
  funext y
  unfold blk5_6 arr5_6 iblk5
  rw [View.read_apply]
  show V c (Pipeline.arrRef spec5 6) (((cfg5.win 6).blk t).view.emb y) = V c (Pipeline.arrRef spec5 6) y
  refine congrArg _ (funext fun a => Fin.ext ?_)
  match a with
  | ⟨0, _⟩ => show win5_6.index t (0 : Fin 2) * 1 + 1 * (y 0).val = (y 0).val; rw [e6a]; omega
  | ⟨1, _⟩ => show win5_6.index t (1 : Fin 2) * 64 + 1 * (y 1).val = (y 1).val; rw [e6b]; omega

/-- Window 7 is one block: at every point its block is the whole array. -/
theorem whole5_7 (c : Dev nD) (t : Fin cfg5.N) : blk5_7 V c t = arr5_7 V c := by
  obtain ⟨e0a, e0b, e1a, e1b, e2a, e2b, e3a, e3b, e4a, e4b, e5a, e5b, e6a, e6b, e7a, e7b, e8a, e8b, e9a, e9b⟩ := idx5 t
  funext y
  unfold blk5_7 arr5_7 iblk5
  rw [View.read_apply]
  show V c (Pipeline.arrRef spec5 7) (((cfg5.win 7).blk t).view.emb y) = V c (Pipeline.arrRef spec5 7) y
  refine congrArg _ (funext fun a => Fin.ext ?_)
  match a with
  | ⟨0, _⟩ => show win5_7.index t (0 : Fin 2) * 64 + 1 * (y 0).val = (y 0).val; rw [e7a]; omega
  | ⟨1, _⟩ => show win5_7.index t (1 : Fin 2) * 32 + 1 * (y 1).val = (y 1).val; rw [e7b]; omega

/-- Window 8 is one block: at every point its block is the whole array. -/
theorem whole5_8 (c : Dev nD) (t : Fin cfg5.N) : blk5_8 V c t = arr5_8 V c := by
  obtain ⟨e0a, e0b, e1a, e1b, e2a, e2b, e3a, e3b, e4a, e4b, e5a, e5b, e6a, e6b, e7a, e7b, e8a, e8b, e9a, e9b⟩ := idx5 t
  funext y
  unfold blk5_8 arr5_8 iblk5
  rw [View.read_apply]
  show V c (Pipeline.arrRef spec5 8) (((cfg5.win 8).blk t).view.emb y) = V c (Pipeline.arrRef spec5 8) y
  refine congrArg _ (funext fun a => Fin.ext ?_)
  match a with
  | ⟨0, _⟩ => show win5_8.index t (0 : Fin 2) * 1 + 1 * (y 0).val = (y 0).val; rw [e8a]; omega
  | ⟨1, _⟩ => show win5_8.index t (1 : Fin 2) * 32 + 1 * (y 1).val = (y 1).val; rw [e8b]; omega

/-- Window 0's block at point `t` is rows `5000 t … 5000 t + 4999` of its array. -/
theorem rows5_0 (c : Dev nD) (t : Fin cfg5.N) (p : Fin 5000) (k : Fin 32) :
    blk5_0 V c t (ix2 p k) = arr5_0 V c (ix2 (arow5 t p) k) := by
  obtain ⟨e0a, e0b, e1a, e1b, e2a, e2b, e3a, e3b, e4a, e4b, e5a, e5b, e6a, e6b, e7a, e7b, e8a, e8b, e9a, e9b⟩ := idx5 t
  unfold blk5_0 arr5_0 iblk5
  rw [View.read_apply]
  show V c (Pipeline.arrRef spec5 0) (((cfg5.win 0).blk t).view.emb (ix2 p k)) = V c (Pipeline.arrRef spec5 0) (ix2 (arow5 t p) k)
  refine congrArg _ (funext fun a => Fin.ext ?_)
  match a with
  | ⟨0, _⟩ => show win5_0.index t (0 : Fin 2) * 5000 + 1 * p.val = t.val * 5000 + p.val; rw [e0a]; omega
  | ⟨1, _⟩ => show win5_0.index t (1 : Fin 2) * 32 + 1 * k.val = k.val; rw [e0b]; omega

/-- Window 1's block at point `t` is rows `5000 t … 5000 t + 4999` of its array. -/
theorem rows5_1 (c : Dev nD) (t : Fin cfg5.N) (p : Fin 5000) (k : Fin 32) :
    blk5_1 V c t (ix2 p k) = arr5_1 V c (ix2 (arow5 t p) k) := by
  obtain ⟨e0a, e0b, e1a, e1b, e2a, e2b, e3a, e3b, e4a, e4b, e5a, e5b, e6a, e6b, e7a, e7b, e8a, e8b, e9a, e9b⟩ := idx5 t
  unfold blk5_1 arr5_1 iblk5
  rw [View.read_apply]
  show V c (Pipeline.arrRef spec5 1) (((cfg5.win 1).blk t).view.emb (ix2 p k)) = V c (Pipeline.arrRef spec5 1) (ix2 (arow5 t p) k)
  refine congrArg _ (funext fun a => Fin.ext ?_)
  match a with
  | ⟨0, _⟩ => show win5_1.index t (0 : Fin 2) * 5000 + 1 * p.val = t.val * 5000 + p.val; rw [e1a]; omega
  | ⟨1, _⟩ => show win5_1.index t (1 : Fin 2) * 32 + 1 * k.val = k.val; rw [e1b]; omega

/-- The message network of point `t`'s blocks, at row `p`, is that of the whole arrays at row `5000 t + p`. -/
theorem block_rows5 (c : Dev nD) (t : Fin cfg5.N) (p : Fin 5000) (q : Fin 32) :
    Cert.Gnn.msgK (blk5_0 V c t) (blk5_1 V c t) (blk5_2 V c t) (blk5_3 V c t) (blk5_4 V c t) (blk5_5 V c t) (blk5_6 V c t) (blk5_7 V c t) (blk5_8 V c t) (ix2 p q) = Cert.Gnn.msgK (arr5_0 V c) (arr5_1 V c) (arr5_2 V c) (arr5_3 V c) (arr5_4 V c) (arr5_5 V c) (arr5_6 V c) (arr5_7 V c) (arr5_8 V c) (ix2 (arow5 t p) q) :=
  msgK_block (arr5_0 V c) (arr5_1 V c) (blk5_0 V c t) (blk5_1 V c t) (arr5_2 V c) (arr5_3 V c) (blk5_2 V c t) (blk5_3 V c t)
    (arr5_4 V c) (blk5_4 V c t) (arr5_5 V c) (blk5_5 V c t) (arr5_6 V c) (blk5_6 V c t) (arr5_7 V c) (blk5_7 V c t)
    (arr5_8 V c) (blk5_8 V c t) (arow5 t) (rows5_0 V c t) (rows5_1 V c t)
    (whole5_2 V c t) (whole5_3 V c t) (whole5_4 V c t) (whole5_5 V c t) (whole5_6 V c t) (whole5_7 V c t) (whole5_8 V c t) p q

/-- A 5000-row block written back at point `t` is point `t`'s block of any whole matrix that holds the block's
    row `p` at its row `5000 t + p`. -/
theorem cut_eq_read5 (t : Fin cfg5.N) (X : Cert.Gnn.Mat 5000 32) (Y : Cert.Gnn.Mat 850000 32)
    (h : ∀ (p : Fin 5000) (q : Fin 32), X (ix2 p q) = Y (ix2 (arow5 t p) q)) :
    (cfg5.win 9).cut (grid5.coords t) X = ((cfg5.win 9).blk t).view.read (Elt Ideal) Y := by
  obtain ⟨e0a, e0b, e1a, e1b, e2a, e2b, e3a, e3b, e4a, e4b, e5a, e5b, e6a, e6b, e7a, e7b, e8a, e8b, e9a, e9b⟩ := idx5 t
  funext j
  have hj0 : (j 0).val < 5000 := (j 0).isLt
  have hj1 : (j 1).val < 32 := (j 1).isLt
  have e1 : (cfg5.win 9).xinj (grid5.coords t) j = ix2 (⟨(j 0).val, hj0⟩ : Fin 5000) (⟨(j 1).val, hj1⟩ : Fin 32) :=
    funext fun a => Fin.ext (by
      match a with
      | ⟨0, _⟩ => rfl
      | ⟨1, _⟩ => rfl)
  have e2 : ((cfg5.win 9).blk t).view.emb j = ix2 (arow5 t ⟨(j 0).val, hj0⟩) (⟨(j 1).val, hj1⟩ : Fin 32) :=
    funext fun a => Fin.ext (by
      match a with
      | ⟨0, _⟩ => show win5_9.index t (0 : Fin 2) * 5000 + 1 * (j 0).val = t.val * 5000 + (j 0).val; rw [e9a]; omega
      | ⟨1, _⟩ => show win5_9.index t (1 : Fin 2) * 32 + 1 * (j 1).val = (j 1).val; rw [e9b]; omega)
  show X ((cfg5.win 9).xinj (grid5.coords t) j) = Y (((cfg5.win 9).blk t).view.emb j)
  exact (congrArg X e1).trans ((h _ _).trans (congrArg Y e2.symm))

/-- What point `t` writes back is its block of the message network of the whole arrays. -/
theorem flushed5 (c : Dev nD) (t : Fin cfg5.N) :
    (dat5 (F := Ideal) V c).flushed 9 t = ((cfg5.win 9).blk t).view.read (Elt Ideal) (Cert.Gnn.msgK (arr5_0 V c) (arr5_1 V c) (arr5_2 V c) (arr5_3 V c) (arr5_4 V c) (arr5_5 V c) (arr5_6 V c) (arr5_7 V c) (arr5_8 V c)) := by
  show (cfg5.win 9).cut (grid5.coords t) ((dat5 V c).after 9 t) = _
  rw [after5_9, out5_eq]
  exact cut_eq_read5 t (Cert.Gnn.msgK (blk5_0 V c t) (blk5_1 V c t) (blk5_2 V c t) (blk5_3 V c t) (blk5_4 V c t) (blk5_5 V c t) (blk5_6 V c t) (blk5_7 V c t) (blk5_8 V c t)) (Cert.Gnn.msgK (arr5_0 V c) (arr5_1 V c) (arr5_2 V c) (arr5_3 V c) (arr5_4 V c) (arr5_5 V c) (arr5_6 V c) (arr5_7 V c) (arr5_8 V c)) (block_rows5 V c t)

/-- An index of the output array is in point `t`'s block iff each coordinate is in the block's range on its axis. -/
theorem mem_blk5 (t : Fin cfg5.N) (i : S850000x32.Idx) :
    i ∈ ((cfg5.win 9).blk t).view.set ↔ ∀ a : Fin 2, win5_9.index t a * S5000x32.size a ≤ (i a).val ∧ (i a).val < win5_9.index t a * S5000x32.size a + S5000x32.size a := by
  show i ∈ ((View.whole main_v117).slice (win5_9.rect t)).set ↔ _
  rw [View.set_slice_whole, Rect.mem_set_unit]
  exact Iff.rfl

/-- Every row of the output is in the block of the point that its number divided by 5000 names. -/
theorem cover5 (i : S850000x32.Idx) : ∃ t : Fin cfg5.N, (cfg5.win 9).flush t = true ∧ i ∈ ((cfg5.win 9).blk t).view.set := by
  have hN : cfg5.N = 170 := N_5
  have hi0 : (i 0).val < 850000 := (i 0).isLt
  have hi1 : (i 1).val < 32 := (i 1).isLt
  have ht : (i 0).val / 5000 < cfg5.N := by rw [hN]; omega
  refine ⟨⟨(i 0).val / 5000, ht⟩, flush5_9 _, ?_⟩
  obtain ⟨e0a, e0b, e1a, e1b, e2a, e2b, e3a, e3b, e4a, e4b, e5a, e5b, e6a, e6b, e7a, e7b, e8a, e8b, e9a, e9b⟩ := idx5 ⟨(i 0).val / 5000, ht⟩
  rw [mem_blk5]
  intro a
  match a with
  | ⟨0, _⟩ =>
    show win5_9.index ⟨(i 0).val / 5000, ht⟩ (0 : Fin 2) * 5000 ≤ (i 0).val ∧ (i 0).val < win5_9.index ⟨(i 0).val / 5000, ht⟩ (0 : Fin 2) * 5000 + 5000
    rw [e9a]; show (i 0).val / 5000 * 5000 ≤ (i 0).val ∧ (i 0).val < (i 0).val / 5000 * 5000 + 5000; omega
  | ⟨1, _⟩ =>
    show win5_9.index ⟨(i 0).val / 5000, ht⟩ (1 : Fin 2) * 32 ≤ (i 1).val ∧ (i 1).val < win5_9.index ⟨(i 0).val / 5000, ht⟩ (1 : Fin 2) * 32 + 32
    rw [e9b]; omega

end Msg

/-- What region 5 leaves in its output array: the stage's function of the arrays the region finds. -/
theorem region5_value (c : Dev nD) :
    (dat5 (F := Ideal) V c).arrAt 9 cfg5.N = Cert.Gnn.msgK (V c (Pipeline.arrRef spec5 0)) (V c (Pipeline.arrRef spec5 1)) (V c (Pipeline.arrRef spec5 2)) (V c (Pipeline.arrRef spec5 3)) (V c (Pipeline.arrRef spec5 4)) (V c (Pipeline.arrRef spec5 5)) (V c (Pipeline.arrRef spec5 6)) (V c (Pipeline.arrRef spec5 7)) (V c (Pipeline.arrRef spec5 8)) :=
  (dat5 (F := Ideal) V c).arrAt_eq_of_cover 9 (Cert.Gnn.msgK (Msg.arr5_0 V c) (Msg.arr5_1 V c) (Msg.arr5_2 V c) (Msg.arr5_3 V c) (Msg.arr5_4 V c) (Msg.arr5_5 V c) (Msg.arr5_6 V c) (Msg.arr5_7 V c) (Msg.arr5_8 V c)) (fun t _ => Msg.flushed5 V c t) Msg.cover5

end Cert.KernelIdeal.RegionValue

end
-- ==== Proof.ArrMsg.lean ====
/-
  What the three message regions leave in their output arrays (`region1_value`, `region3_value`, `region5_value`):
  one module per region, over the shared module of the body's arithmetic.
-/
import proofs.«427837_j2834678415534_1_alg».proof.Proof.ArrMsg1
import proofs.«427837_j2834678415534_1_alg».proof.Proof.ArrMsg3
import proofs.«427837_j2834678415534_1_alg».proof.Proof.ArrMsg5
-- ==== Proof.ArrGruPay.lean ====
/-
  The body of the gated recurrent update on one block of 2000 rows, at the extended reals. The body casts the block of
  aggregates, the block of states and the two 32 × 96 weight matrices to the short format (the identity here), multiplies
  each block into a zero accumulator (the exact sum over the 32 shared coordinates), adds the one-row bias laid along
  every row, cuts each 96-column result into three 32-column slices, and forms the reset gate, the update gate and the
  candidate from them. Read entry by entry this is `Cert.Gnn.gruK` of the block: the two dense layers of the entry's
  row, their columns `j`, `32 + j` and `64 + j`, and `(1 - z) n + z h`. The three regions that run this body have
  the same arithmetic term, so one reading serves all three.
-/
import proofs.«427837_j2834678415534_1_alg».proof.Proof.Gen.KernelIdeal.Frame
import proofs.«427837_j2834678415534_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.RegionValue.Gru

open Cert.KernelIdeal Cert.KernelIdeal.Gen Idealize.ShloMosaic Idealize.ShloMosaic.TcCoe Idealize.SL.Sem
open Idealize.ShloMosaic.Pipeline (Dat Cfg Window)
open Idealize.ShloMosaic.ValueIdx

/-! ## The 32-deep contraction of the two gate layers: its operand indices, coordinate by coordinate -/

theorem gruDot_lhs_0 (i : S2000x96.Idx) (q : dot_S2000x32_S32x96_S2000x96_1_0_0_1_n_n.contr.Idx) :
    (dot_S2000x32_S32x96_S2000x96_1_0_0_1_n_n.lhsIdx i q 0).val = (i 0).val := by
  unfold DotDims.lhsIdx
  rw [dif_neg (show ¬(0 : Fin S2000x32.rank) ∈ dot_S2000x32_S32x96_S2000x96_1_0_0_1_n_n.lhsBatch by decide), dif_pos (show (0 : Fin S2000x32.rank) ∈ dot_S2000x32_S32x96_S2000x96_1_0_0_1_n_n.lhsNonContracting by decide)]
  rfl

theorem gruDot_lhs_1 (i : S2000x96.Idx) (q : dot_S2000x32_S32x96_S2000x96_1_0_0_1_n_n.contr.Idx) :
    (dot_S2000x32_S32x96_S2000x96_1_0_0_1_n_n.lhsIdx i q 1).val = (q ⟨0, by decide⟩).val :=
  dot_S2000x32_S32x96_S2000x96_1_0_0_1_n_n.lhsIdx_val_of_single rfl i q

theorem gruDot_rhs_0 (i : S2000x96.Idx) (q : dot_S2000x32_S32x96_S2000x96_1_0_0_1_n_n.contr.Idx) :
    (dot_S2000x32_S32x96_S2000x96_1_0_0_1_n_n.rhsIdx i q 0).val = (q ⟨0, by decide⟩).val :=
  dot_S2000x32_S32x96_S2000x96_1_0_0_1_n_n.rhsIdx_val_of_single rfl i q

theorem gruDot_rhs_1 (i : S2000x96.Idx) (q : dot_S2000x32_S32x96_S2000x96_1_0_0_1_n_n.contr.Idx) :
    (dot_S2000x32_S32x96_S2000x96_1_0_0_1_n_n.rhsIdx i q 1).val = (i 1).val := by
  unfold DotDims.rhsIdx
  rw [dif_neg (show ¬(1 : Fin S32x96.rank) ∈ dot_S2000x32_S32x96_S2000x96_1_0_0_1_n_n.rhsBatch by decide), dif_pos (show (1 : Fin S32x96.rank) ∈ dot_S2000x32_S32x96_S2000x96_1_0_0_1_n_n.rhsNonContracting by decide)]
  rfl

/-- The matrix product into a zero accumulator, at row `p` and column `k`: the sum over the 32 shared coordinates. -/
theorem gruDot_apply (x : FVec Ideal S2000x32 .bf16) (w : FVec Ideal S32x96 .bf16) (p : Fin 2000) (k : Fin 96) :
    matmul dot_S2000x32_S32x96_S2000x96_1_0_0_1_n_n none x w (constant (F := Ideal) S2000x96 .f32 0x00000000#32) (ix2 p k)
      = ∑ a : Fin 32, x (ix2 p a) * w (ix2 a k) := by
  refine (Ideal.matmul_constant_zero_apply dot_S2000x32_S32x96_S2000x96_1_0_0_1_n_n none x w (ix2 p k)).trans ?_
  rw [← Equiv.sum_comp (contrEquiv1 dot_S2000x32_S32x96_S2000x96_1_0_0_1_n_n 32 rfl rfl).symm]
  refine Finset.sum_congr rfl fun a _ => ?_
  have hk := contrEquiv1_symm_val dot_S2000x32_S32x96_S2000x96_1_0_0_1_n_n 32 rfl rfl a
  have el : dot_S2000x32_S32x96_S2000x96_1_0_0_1_n_n.lhsIdx (ix2 p k) ((contrEquiv1 dot_S2000x32_S32x96_S2000x96_1_0_0_1_n_n 32 rfl rfl).symm a) = ix2 p a := funext fun ax => Fin.ext (by
    match ax with
    | ⟨0, _⟩ => exact gruDot_lhs_0 _ _
    | ⟨1, _⟩ => exact (gruDot_lhs_1 _ _).trans hk)
  have er : dot_S2000x32_S32x96_S2000x96_1_0_0_1_n_n.rhsIdx (ix2 p k) ((contrEquiv1 dot_S2000x32_S32x96_S2000x96_1_0_0_1_n_n 32 rfl rfl).symm a) = ix2 a k := funext fun ax => Fin.ext (by
    match ax with
    | ⟨0, _⟩ => exact (gruDot_rhs_0 _ _).trans hk
    | ⟨1, _⟩ => exact gruDot_rhs_1 _ _)
  rw [el, er]

/-- One 96-column gate layer of a block, at row `p` and column `k`: the dense layer of that row. -/
theorem gruLayer_apply (x : FVec Ideal S2000x32 .f32) (w : FVec Ideal S32x96 .f32) (b : FVec Ideal S1x96 .f32) (p : Fin 2000) (k : Fin 96) :
    addf (matmul dot_S2000x32_S32x96_S2000x96_1_0_0_1_n_n none (truncf .bf16 x bitsLt_bf16_f32) (truncf .bf16 w bitsLt_bf16_f32) (constant (F := Ideal) S2000x96 .f32 0x00000000#32))
        (broadcastTo S2000x96 b broadcasts_S1x96_S2000x96) (ix2 p k)
      = Cert.Gnn.dense (Cert.Gnn.row x p) w b k := by
  rw [addf_apply, gruDot_apply, broadcastTo_1b_ab_apply]
  rfl

/-- The logistic of a block, entry by entry. -/
theorem logistic_at {s : Shape} {φ : FTy} (a : FVec Ideal s φ) (i : s.Idx) : logistic a i = Ideal.logistic (a i) := rfl
/-- The hyperbolic tangent of a block, entry by entry. -/
theorem tanh_at {s : Shape} {φ : FTy} (a : FVec Ideal s φ) (i : s.Idx) : tanh a i = Ideal.tanh (a i) := rfl

/-- THE BODY'S ARITHMETIC on a block of 2000 rows is the gated recurrent update of those rows, entry by entry: the two
    96-column layers, their three 32-column slices as the reset gate, the update gate and the candidate. -/
theorem gruPay_apply (x0 x1 : FVec Ideal S2000x32 .f32) (x2 x3 : FVec Ideal S32x96 .f32) (x4 x5 : FVec Ideal S1x96 .f32)
    (p : Fin 2000) (q : Fin 32) :
    k2_pay1 (F := Ideal) x0 x1 x2 x3 x4 x5 (ix2 p q) = Cert.Gnn.gruK x0 x1 x2 x3 x4 x5 (ix2 p q) := by
  unfold k2_pay1
  simp only [shapeCast_self]
  generalize hgi : addf (matmul dot_S2000x32_S32x96_S2000x96_1_0_0_1_n_n none (truncf .bf16 x0 bitsLt_bf16_f32) (truncf .bf16 x2 bitsLt_bf16_f32) (constant (F := Ideal) S2000x96 .f32 0x00000000#32)) (broadcastTo S2000x96 x4 broadcasts_S1x96_S2000x96) = gi
  generalize hgh : addf (matmul dot_S2000x32_S32x96_S2000x96_1_0_0_1_n_n none (truncf .bf16 x1 bitsLt_bf16_f32) (truncf .bf16 x3 bitsLt_bf16_f32) (constant (F := Ideal) S2000x96 .f32 0x00000000#32)) (broadcastTo S2000x96 x5 broadcasts_S1x96_S2000x96) = gh
  simp only [addf_apply, mulf_apply, subf_apply, broadcast_apply, logistic_at, tanh_at, slice2_axis1_eq]
  subst hgi hgh
  simp only [gruLayer_apply]
  rfl

/-- THE BODY'S ARITHMETIC as an equation between whole blocks: the gated recurrent update of the block. -/
theorem gruPay2_eq (x0 x1 : Vec Ideal S2000x32 .f32) (x2 x3 : Vec Ideal S32x96 .f32) (x4 x5 : Vec Ideal S1x96 .f32) :
    k2_pay1 (F := Ideal) x0 x1 x2 x3 x4 x5 = Cert.Gnn.gruK x0 x1 x2 x3 x4 x5 := by
  funext i
  obtain ⟨p, q, rfl⟩ : ∃ (p : Fin 2000) (q : Fin 32), i = ix2 p q := ⟨i 0, i 1, eq_ix2 i⟩
  exact gruPay_apply x0 x1 x2 x3 x4 x5 p q

/-- The second and the third round run the same arithmetic term as the first. -/
theorem k4_pay1_eq : @k4_pay1 = @k2_pay1 := rfl
theorem k6_pay1_eq : @k6_pay1 = @k2_pay1 := rfl

theorem gruPay4_eq (x0 x1 : Vec Ideal S2000x32 .f32) (x2 x3 : Vec Ideal S32x96 .f32) (x4 x5 : Vec Ideal S1x96 .f32) :
    k4_pay1 (F := Ideal) x0 x1 x2 x3 x4 x5 = Cert.Gnn.gruK x0 x1 x2 x3 x4 x5 := by
  rw [k4_pay1_eq]; exact gruPay2_eq x0 x1 x2 x3 x4 x5

theorem gruPay6_eq (x0 x1 : Vec Ideal S2000x32 .f32) (x2 x3 : Vec Ideal S32x96 .f32) (x4 x5 : Vec Ideal S1x96 .f32) :
    k6_pay1 (F := Ideal) x0 x1 x2 x3 x4 x5 = Cert.Gnn.gruK x0 x1 x2 x3 x4 x5 := by
  rw [k6_pay1_eq]; exact gruPay2_eq x0 x1 x2 x3 x4 x5

/-- The update of a block of rows taken from bigger matrices, with the same weights and biases, is the update of the
    bigger matrices at those rows. -/
theorem gruK_block (A0 A1 : Cert.Gnn.Mat 50000 32) (b0 b1 : Cert.Gnn.Mat 2000 32) (W2 W3 w2 w3 : Cert.Gnn.Mat 32 96)
    (B4 B5 b4 b5 : Cert.Gnn.Mat 1 96) (f : Fin 2000 → Fin 50000)
    (h0 : ∀ p k, b0 (ix2 p k) = A0 (ix2 (f p) k)) (h1 : ∀ p k, b1 (ix2 p k) = A1 (ix2 (f p) k))
    (h2 : w2 = W2) (h3 : w3 = W3) (h4 : b4 = B4) (h5 : b5 = B5) (p : Fin 2000) (q : Fin 32) :
    Cert.Gnn.gruK b0 b1 w2 w3 b4 b5 (ix2 p q) = Cert.Gnn.gruK A0 A1 W2 W3 B4 B5 (ix2 (f p) q) := by
  subst h2 h3 h4 h5
  exact Cert.Gnn.gruK_rows A0 A1 b0 b1 w2 w3 b4 b5 f h0 h1 p q

end Cert.KernelIdeal.RegionValue.Gru

end
-- ==== Proof.ArrGru2.lean ====
/-
  Region 2, the gated recurrent update of one round of message passing: from the blocks to the array. The grid has 25 points; point `t`
  stages rows `2000 t … 2000 t + 1999` of the aggregate and of the state, the two weight matrices and the two bias rows
  whole, and writes back rows `2000 t … 2000 t + 1999` of the output. The body's result on a block is the update of the
  block's rows, and the update of a row reads that row only, so what point `t` writes back is block `t` of the update of
  the whole arrays; the 25 blocks cover the output's 50000 rows (row `r` lies in block `r / 2000`), so the output array
  ends holding the update of the arrays the region finds.
-/
import proofs.«427837_j2834678415534_1_alg».proof.Proof.ArrGruPay

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.Pipeline (Dat Cfg Window)
open Idealize.ShloMosaic.ValueIdx

variable (V : (c : Dev nD) → (b : Ref sig .tc) → Buf (Elt Ideal) ((c : Thread nD τ).loc b))

namespace Gru

theorem zeroOff2 : (![0, 0] : Fin 2 → Nat) = fun _ => 0 := funext fun a => by fin_cases a <;> rfl

/-- The index maps over the 25 grid points: the two row-matrix inputs and the output sit at block row `t`, the weights
    and the biases at their one block. -/
theorem gruIdx2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- Row `p` of the aggregate's block at point `t` is row `2000 t + p` of the aggregate. -/
theorem aggBlock2 (c : Dev nD) (t : Fin cfg2.N) (p : Fin 2000) (k : Fin 32) (r : Fin 50000) (hr : r.val = t.val * 2000 + p.val) :
    (iblk2 (F := Ideal) V c 0 t : Vec Ideal S2000x32 .f32) (ix2 p k) = (V c (Pipeline.arrRef spec2 0) : Vec Ideal S50000x32 .f32) (ix2 r k) := by
  obtain ⟨e00, e01, -⟩ := gruIdx2 t
  show V c (Pipeline.arrRef spec2 0) (((cfg2.win 0).blk t).view.emb (ix2 p k)) = V c (Pipeline.arrRef spec2 0) (ix2 r k)
  refine congrArg _ (funext fun a => Fin.ext ?_)
  match a with
  | ⟨0, _⟩ => show win2_0.index t (0 : Fin 2) * 2000 + 1 * p.val = r.val; omega
  | ⟨1, _⟩ => show win2_0.index t (1 : Fin 2) * 32 + 1 * k.val = k.val; omega

/-- Row `p` of the state's block at point `t` is row `2000 t + p` of the state. -/
theorem stateBlock2 (c : Dev nD) (t : Fin cfg2.N) (p : Fin 2000) (k : Fin 32) (r : Fin 50000) (hr : r.val = t.val * 2000 + p.val) :
    (iblk2 (F := Ideal) V c 1 t : Vec Ideal S2000x32 .f32) (ix2 p k) = (V c (Pipeline.arrRef spec2 1) : Vec Ideal S50000x32 .f32) (ix2 r k) := by
  obtain ⟨-, -, e10, e11, -⟩ := gruIdx2 t
  show V c (Pipeline.arrRef spec2 1) (((cfg2.win 1).blk t).view.emb (ix2 p k)) = V c (Pipeline.arrRef spec2 1) (ix2 r k)
  refine congrArg _ (funext fun a => Fin.ext ?_)
  match a with
  | ⟨0, _⟩ => show win2_1.index t (0 : Fin 2) * 2000 + 1 * p.val = r.val; omega
  | ⟨1, _⟩ => show win2_1.index t (1 : Fin 2) * 32 + 1 * k.val = k.val; omega

/-- The aggregate's weight matrix is staged whole: its block at every point is the array. -/
theorem wholeBlock2_2 (c : Dev nD) (t : Fin cfg2.N) :
    (iblk2 (F := Ideal) V c 2 t : Vec Ideal S32x96 .f32) = (V c (Pipeline.arrRef spec2 2) : Vec Ideal S32x96 .f32) := by
  have e := gruIdx2 t
  funext y
  show V c (Pipeline.arrRef spec2 2) (((cfg2.win 2).blk t).view.emb y) = V c (Pipeline.arrRef spec2 2) y
  refine congrArg _ (funext fun a => Fin.ext ?_)
  match a with
  | ⟨0, _⟩ => show win2_2.index t (0 : Fin 2) * 32 + 1 * (y 0).val = (y 0).val; omega
  | ⟨1, _⟩ => show win2_2.index t (1 : Fin 2) * 96 + 1 * (y 1).val = (y 1).val; omega

/-- The state's weight matrix is staged whole: its block at every point is the array. -/
theorem wholeBlock2_3 (c : Dev nD) (t : Fin cfg2.N) :
    (iblk2 (F := Ideal) V c 3 t : Vec Ideal S32x96 .f32) = (V c (Pipeline.arrRef spec2 3) : Vec Ideal S32x96 .f32) := by
  have e := gruIdx2 t
  funext y
  show V c (Pipeline.arrRef spec2 3) (((cfg2.win 3).blk t).view.emb y) = V c (Pipeline.arrRef spec2 3) y
  refine congrArg _ (funext fun a => Fin.ext ?_)
  match a with
  | ⟨0, _⟩ => show win2_3.index t (0 : Fin 2) * 32 + 1 * (y 0).val = (y 0).val; omega
  | ⟨1, _⟩ => show win2_3.index t (1 : Fin 2) * 96 + 1 * (y 1).val = (y 1).val; omega

/-- The aggregate layer's bias row is staged whole: its block at every point is the array. -/
theorem wholeBlock2_4 (c : Dev nD) (t : Fin cfg2.N) :
    (iblk2 (F := Ideal) V c 4 t : Vec Ideal S1x96 .f32) = (V c (Pipeline.arrRef spec2 4) : Vec Ideal S1x96 .f32) := by
  have e := gruIdx2 t
  funext y
  show V c (Pipeline.arrRef spec2 4) (((cfg2.win 4).blk t).view.emb y) = V c (Pipeline.arrRef spec2 4) y
  refine congrArg _ (funext fun a => Fin.ext ?_)
  match a with
  | ⟨0, _⟩ => show win2_4.index t (0 : Fin 2) * 1 + 1 * (y 0).val = (y 0).val; omega
  | ⟨1, _⟩ => show win2_4.index t (1 : Fin 2) * 96 + 1 * (y 1).val = (y 1).val; omega

/-- The state layer's bias row is staged whole: its block at every point is the array. -/
theorem wholeBlock2_5 (c : Dev nD) (t : Fin cfg2.N) :
    (iblk2 (F := Ideal) V c 5 t : Vec Ideal S1x96 .f32) = (V c (Pipeline.arrRef spec2 5) : Vec Ideal S1x96 .f32) := by
  have e := gruIdx2 t
  funext y
  show V c (Pipeline.arrRef spec2 5) (((cfg2.win 5).blk t).view.emb y) = V c (Pipeline.arrRef spec2 5) y
  refine congrArg _ (funext fun a => Fin.ext ?_)
  match a with
  | ⟨0, _⟩ => show win2_5.index t (0 : Fin 2) * 1 + 1 * (y 0).val = (y 0).val; omega
  | ⟨1, _⟩ => show win2_5.index t (1 : Fin 2) * 96 + 1 * (y 1).val = (y 1).val; omega

/-- Row `p` of the output's block at point `t` is row `2000 t + p` of the output array. -/
theorem outBlock2 (t : Fin cfg2.N) (p : Fin 2000) (q : Fin 32) (r : Fin 50000) (hr : r.val = t.val * 2000 + p.val) :
    (((cfg2.win 6).blk t).view.emb (ix2 p q) : S50000x32.Idx) = ix2 r q := by
  obtain ⟨-, -, -, -, -, -, -, -, -, -, -, -, e60, e61⟩ := gruIdx2 t
  refine funext fun a => Fin.ext ?_
  match a with
  | ⟨0, _⟩ => show win2_6.index t (0 : Fin 2) * 2000 + 1 * p.val = r.val; omega
  | ⟨1, _⟩ => show win2_6.index t (1 : Fin 2) * 32 + 1 * q.val = q.val; omega

/-- The output window is never cut: what a write-back takes from a staging buffer holding `X` is `X`. -/
theorem outCut2 (X : Vec Ideal S2000x32 .f32) (t : Fin cfg2.N) (p : Fin 2000) (q : Fin 32) :
    (cfg2.win 6).cut (grid2.coords t) X (ix2 p q) = X (ix2 p q) := rfl

set_option maxHeartbeats 1000000 in
/-- The update of point `t`'s input blocks, at row `p`, is the update of the arrays the region finds at row `2000 t + p`. -/
theorem gruRows2 (c : Dev nD) (t : Fin cfg2.N) (p : Fin 2000) (q : Fin 32) (r : Fin 50000) (hr : r.val = t.val * 2000 + p.val) :
    Cert.Gnn.gruK (iblk2 (F := Ideal) V c 0 t : Vec Ideal S2000x32 .f32) (iblk2 (F := Ideal) V c 1 t : Vec Ideal S2000x32 .f32)
        (iblk2 (F := Ideal) V c 2 t : Vec Ideal S32x96 .f32) (iblk2 (F := Ideal) V c 3 t : Vec Ideal S32x96 .f32)
        (iblk2 (F := Ideal) V c 4 t : Vec Ideal S1x96 .f32) (iblk2 (F := Ideal) V c 5 t : Vec Ideal S1x96 .f32) (ix2 p q)
      = Cert.Gnn.gruK (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (ix2 r q) := by
  have hN : cfg2.N = 25 := N_2
  have hf : ∀ p' : Fin 2000, t.val * 2000 + p'.val < 50000 := fun p' => by have := t.isLt; have := p'.isLt; omega
  obtain rfl : r = ⟨t.val * 2000 + p.val, hf p⟩ := Fin.ext hr
  exact gruK_block _ _ _ _ _ _ _ _ _ _ _ _ (fun p' : Fin 2000 => (⟨t.val * 2000 + p'.val, hf p'⟩ : Fin 50000))
    (fun p' k => aggBlock2 V c t p' k ⟨t.val * 2000 + p'.val, hf p'⟩ (Eq.refl _))
    (fun p' k => stateBlock2 V c t p' k ⟨t.val * 2000 + p'.val, hf p'⟩ (Eq.refl _))
    (wholeBlock2_2 V c t) (wholeBlock2_3 V c t) (wholeBlock2_4 V c t) (wholeBlock2_5 V c t) p q

set_option maxHeartbeats 1000000 in
/-- WHAT POINT `t` WRITES BACK is block `t` of the gated recurrent update of the arrays the region finds. -/
theorem gruFlushed2 (c : Dev nD) (t : Fin cfg2.N) :
    (dat2 (F := Ideal) V c).flushed 6 t = ((cfg2.win 6).blk t).view.read (Elt Ideal)
      (Cert.Gnn.gruK (V c (Pipeline.arrRef spec2 0)) (V c (Pipeline.arrRef spec2 1)) (V c (Pipeline.arrRef spec2 2)) (V c (Pipeline.arrRef spec2 3)) (V c (Pipeline.arrRef spec2 4)) (V c (Pipeline.arrRef spec2 5))) := by
  show (cfg2.win 6).cut (grid2.coords t) ((dat2 (F := Ideal) V c).after 6 t) = _
  rw [after2_6]
  unfold out2_6
  rw [View.canon_unit_zero zeroOff2]
  simp only [View.ld_unit_zero (S := S2000x32) zeroOff2, View.ld_unit_zero (S := S32x96) zeroOff2, View.ld_unit_zero (S := S1x96) zeroOff2]
  rw [gruPay2_eq]
  funext j
  obtain ⟨p, q, rfl⟩ : ∃ (p : Fin 2000) (q : Fin 32), j = ix2 p q := ⟨j 0, j 1, eq_ix2 (n0 := 2000) (n1 := 32) j⟩
  have hN : cfg2.N = 25 := N_2
  have hlt : t.val * 2000 + p.val < 50000 := by have := t.isLt; have := p.isLt; omega
  refine (outCut2 _ t p q).trans ?_
  refine (gruRows2 V c t p q ⟨t.val * 2000 + p.val, hlt⟩ (Eq.refl _)).trans ?_
  exact congrArg (Cert.Gnn.gruK (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)))
    (outBlock2 t p q ⟨t.val * 2000 + p.val, hlt⟩ (Eq.refl _)).symm

/-- An index of the output array is in point `t`'s block iff each coordinate is in the block's range on its axis. -/
theorem outBlockMem2 (t : Fin cfg2.N) (i : S50000x32.Idx) :
    i ∈ ((cfg2.win 6).blk t).view.set ↔ ∀ a : Fin 2, win2_6.index t a * S2000x32.size a ≤ (i a).val ∧ (i a).val < win2_6.index t a * S2000x32.size a + S2000x32.size a := by
  show i ∈ ((View.whole main_v55).slice (win2_6.rect t)).set ↔ _
  rw [View.set_slice_whole, Rect.mem_set_unit]
  exact Iff.rfl

/-- Every row of the output array is written back: row `r` by point `r / 2000`. -/
theorem gruCover2 (i : S50000x32.Idx) :
    ∃ t : Fin cfg2.N, (cfg2.win 6).flush t = true ∧ i ∈ ((cfg2.win 6).blk t).view.set := by
  have hN : cfg2.N = 25 := N_2
  have hi0 : (i 0).val < 50000 := (i 0).isLt
  have hi1 : (i 1).val < 32 := (i 1).isLt
  have ht : (i 0).val / 2000 < cfg2.N := by omega
  obtain ⟨-, -, -, -, -, -, -, -, -, -, -, -, e60, e61⟩ := gruIdx2 ⟨(i 0).val / 2000, ht⟩
  refine ⟨⟨(i 0).val / 2000, ht⟩, flush2_6 _, ?_⟩
  rw [outBlockMem2]
  intro a
  match a with
  | ⟨0, _⟩ =>
    show win2_6.index ⟨(i 0).val / 2000, ht⟩ (0 : Fin 2) * 2000 ≤ (i 0).val ∧ (i 0).val < win2_6.index ⟨(i 0).val / 2000, ht⟩ (0 : Fin 2) * 2000 + 2000
    rw [e60]; show (i 0).val / 2000 * 2000 ≤ (i 0).val ∧ (i 0).val < (i 0).val / 2000 * 2000 + 2000; omega
  | ⟨1, _⟩ =>
    show win2_6.index ⟨(i 0).val / 2000, ht⟩ (1 : Fin 2) * 32 ≤ (i 1).val ∧ (i 1).val < win2_6.index ⟨(i 0).val / 2000, ht⟩ (1 : Fin 2) * 32 + 32
    rw [e61]; omega

end Gru

/-- What region 2 leaves in its output array: the stage's function of the arrays the region finds. -/
theorem region2_value (c : Dev nD) :
    (dat2 (F := Ideal) V c).arrAt 6 cfg2.N = Cert.Gnn.gruK (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) :=
  (dat2 (F := Ideal) V c).arrAt_eq_of_cover 6 _ (fun t _ => Gru.gruFlushed2 V c t) Gru.gruCover2

end Cert.KernelIdeal.RegionValue

end
-- ==== Proof.ArrGru4.lean ====
/-
  Region 4, the gated recurrent update of one round of message passing: from the blocks to the array. The grid has 25 points; point `t`
  stages rows `2000 t … 2000 t + 1999` of the aggregate and of the state, the two weight matrices and the two bias rows
  whole, and writes back rows `2000 t … 2000 t + 1999` of the output. The body's result on a block is the update of the
  block's rows, and the update of a row reads that row only, so what point `t` writes back is block `t` of the update of
  the whole arrays; the 25 blocks cover the output's 50000 rows (row `r` lies in block `r / 2000`), so the output array
  ends holding the update of the arrays the region finds.
-/
import proofs.«427837_j2834678415534_1_alg».proof.Proof.ArrGruPay

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.Pipeline (Dat Cfg Window)
open Idealize.ShloMosaic.ValueIdx

variable (V : (c : Dev nD) → (b : Ref sig .tc) → Buf (Elt Ideal) ((c : Thread nD τ).loc b))

namespace Gru

theorem zeroOff4 : (![0, 0] : Fin 2 → Nat) = fun _ => 0 := funext fun a => by fin_cases a <;> rfl

/-- The index maps over the 25 grid points: the two row-matrix inputs and the output sit at block row `t`, the weights
    and the biases at their one block. -/
theorem gruIdx4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = t.val ∧ win4_6.index t (1 : Fin 2) = 0 :=
  (by decide +kernel : ∀ t : Fin grid4.N, _)

/-- Row `p` of the aggregate's block at point `t` is row `2000 t + p` of the aggregate. -/
theorem aggBlock4 (c : Dev nD) (t : Fin cfg4.N) (p : Fin 2000) (k : Fin 32) (r : Fin 50000) (hr : r.val = t.val * 2000 + p.val) :
    (iblk4 (F := Ideal) V c 0 t : Vec Ideal S2000x32 .f32) (ix2 p k) = (V c (Pipeline.arrRef spec4 0) : Vec Ideal S50000x32 .f32) (ix2 r k) := by
  obtain ⟨e00, e01, -⟩ := gruIdx4 t
  show V c (Pipeline.arrRef spec4 0) (((cfg4.win 0).blk t).view.emb (ix2 p k)) = V c (Pipeline.arrRef spec4 0) (ix2 r k)
  refine congrArg _ (funext fun a => Fin.ext ?_)
  match a with
  | ⟨0, _⟩ => show win4_0.index t (0 : Fin 2) * 2000 + 1 * p.val = r.val; omega
  | ⟨1, _⟩ => show win4_0.index t (1 : Fin 2) * 32 + 1 * k.val = k.val; omega

/-- Row `p` of the state's block at point `t` is row `2000 t + p` of the state. -/
theorem stateBlock4 (c : Dev nD) (t : Fin cfg4.N) (p : Fin 2000) (k : Fin 32) (r : Fin 50000) (hr : r.val = t.val * 2000 + p.val) :
    (iblk4 (F := Ideal) V c 1 t : Vec Ideal S2000x32 .f32) (ix2 p k) = (V c (Pipeline.arrRef spec4 1) : Vec Ideal S50000x32 .f32) (ix2 r k) := by
  obtain ⟨-, -, e10, e11, -⟩ := gruIdx4 t
  show V c (Pipeline.arrRef spec4 1) (((cfg4.win 1).blk t).view.emb (ix2 p k)) = V c (Pipeline.arrRef spec4 1) (ix2 r k)
  refine congrArg _ (funext fun a => Fin.ext ?_)
  match a with
  | ⟨0, _⟩ => show win4_1.index t (0 : Fin 2) * 2000 + 1 * p.val = r.val; omega
  | ⟨1, _⟩ => show win4_1.index t (1 : Fin 2) * 32 + 1 * k.val = k.val; omega

/-- The aggregate's weight matrix is staged whole: its block at every point is the array. -/
theorem wholeBlock4_2 (c : Dev nD) (t : Fin cfg4.N) :
    (iblk4 (F := Ideal) V c 2 t : Vec Ideal S32x96 .f32) = (V c (Pipeline.arrRef spec4 2) : Vec Ideal S32x96 .f32) := by
  have e := gruIdx4 t
  funext y
  show V c (Pipeline.arrRef spec4 2) (((cfg4.win 2).blk t).view.emb y) = V c (Pipeline.arrRef spec4 2) y
  refine congrArg _ (funext fun a => Fin.ext ?_)
  match a with
  | ⟨0, _⟩ => show win4_2.index t (0 : Fin 2) * 32 + 1 * (y 0).val = (y 0).val; omega
  | ⟨1, _⟩ => show win4_2.index t (1 : Fin 2) * 96 + 1 * (y 1).val = (y 1).val; omega

/-- The state's weight matrix is staged whole: its block at every point is the array. -/
theorem wholeBlock4_3 (c : Dev nD) (t : Fin cfg4.N) :
    (iblk4 (F := Ideal) V c 3 t : Vec Ideal S32x96 .f32) = (V c (Pipeline.arrRef spec4 3) : Vec Ideal S32x96 .f32) := by
  have e := gruIdx4 t
  funext y
  show V c (Pipeline.arrRef spec4 3) (((cfg4.win 3).blk t).view.emb y) = V c (Pipeline.arrRef spec4 3) y
  refine congrArg _ (funext fun a => Fin.ext ?_)
  match a with
  | ⟨0, _⟩ => show win4_3.index t (0 : Fin 2) * 32 + 1 * (y 0).val = (y 0).val; omega
  | ⟨1, _⟩ => show win4_3.index t (1 : Fin 2) * 96 + 1 * (y 1).val = (y 1).val; omega

/-- The aggregate layer's bias row is staged whole: its block at every point is the array. -/
theorem wholeBlock4_4 (c : Dev nD) (t : Fin cfg4.N) :
    (iblk4 (F := Ideal) V c 4 t : Vec Ideal S1x96 .f32) = (V c (Pipeline.arrRef spec4 4) : Vec Ideal S1x96 .f32) := by
  have e := gruIdx4 t
  funext y
  show V c (Pipeline.arrRef spec4 4) (((cfg4.win 4).blk t).view.emb y) = V c (Pipeline.arrRef spec4 4) y
  refine congrArg _ (funext fun a => Fin.ext ?_)
  match a with
  | ⟨0, _⟩ => show win4_4.index t (0 : Fin 2) * 1 + 1 * (y 0).val = (y 0).val; omega
  | ⟨1, _⟩ => show win4_4.index t (1 : Fin 2) * 96 + 1 * (y 1).val = (y 1).val; omega

/-- The state layer's bias row is staged whole: its block at every point is the array. -/
theorem wholeBlock4_5 (c : Dev nD) (t : Fin cfg4.N) :
    (iblk4 (F := Ideal) V c 5 t : Vec Ideal S1x96 .f32) = (V c (Pipeline.arrRef spec4 5) : Vec Ideal S1x96 .f32) := by
  have e := gruIdx4 t
  funext y
  show V c (Pipeline.arrRef spec4 5) (((cfg4.win 5).blk t).view.emb y) = V c (Pipeline.arrRef spec4 5) y
  refine congrArg _ (funext fun a => Fin.ext ?_)
  match a with
  | ⟨0, _⟩ => show win4_5.index t (0 : Fin 2) * 1 + 1 * (y 0).val = (y 0).val; omega
  | ⟨1, _⟩ => show win4_5.index t (1 : Fin 2) * 96 + 1 * (y 1).val = (y 1).val; omega

/-- Row `p` of the output's block at point `t` is row `2000 t + p` of the output array. -/
theorem outBlock4 (t : Fin cfg4.N) (p : Fin 2000) (q : Fin 32) (r : Fin 50000) (hr : r.val = t.val * 2000 + p.val) :
    (((cfg4.win 6).blk t).view.emb (ix2 p q) : S50000x32.Idx) = ix2 r q := by
  obtain ⟨-, -, -, -, -, -, -, -, -, -, -, -, e60, e61⟩ := gruIdx4 t
  refine funext fun a => Fin.ext ?_
  match a with
  | ⟨0, _⟩ => show win4_6.index t (0 : Fin 2) * 2000 + 1 * p.val = r.val; omega
  | ⟨1, _⟩ => show win4_6.index t (1 : Fin 2) * 32 + 1 * q.val = q.val; omega

/-- The output window is never cut: what a write-back takes from a staging buffer holding `X` is `X`. -/
theorem outCut4 (X : Vec Ideal S2000x32 .f32) (t : Fin cfg4.N) (p : Fin 2000) (q : Fin 32) :
    (cfg4.win 6).cut (grid4.coords t) X (ix2 p q) = X (ix2 p q) := rfl

set_option maxHeartbeats 1000000 in
/-- The update of point `t`'s input blocks, at row `p`, is the update of the arrays the region finds at row `2000 t + p`. -/
theorem gruRows4 (c : Dev nD) (t : Fin cfg4.N) (p : Fin 2000) (q : Fin 32) (r : Fin 50000) (hr : r.val = t.val * 2000 + p.val) :
    Cert.Gnn.gruK (iblk4 (F := Ideal) V c 0 t : Vec Ideal S2000x32 .f32) (iblk4 (F := Ideal) V c 1 t : Vec Ideal S2000x32 .f32)
        (iblk4 (F := Ideal) V c 2 t : Vec Ideal S32x96 .f32) (iblk4 (F := Ideal) V c 3 t : Vec Ideal S32x96 .f32)
        (iblk4 (F := Ideal) V c 4 t : Vec Ideal S1x96 .f32) (iblk4 (F := Ideal) V c 5 t : Vec Ideal S1x96 .f32) (ix2 p q)
      = Cert.Gnn.gruK (V c (Pipeline.arrRef spec4 0)) (V c (Pipeline.arrRef spec4 1)) (V c (Pipeline.arrRef spec4 2)) (V c (Pipeline.arrRef spec4 3)) (V c (Pipeline.arrRef spec4 4)) (V c (Pipeline.arrRef spec4 5)) (ix2 r q) := by
  have hN : cfg4.N = 25 := N_4
  have hf : ∀ p' : Fin 2000, t.val * 2000 + p'.val < 50000 := fun p' => by have := t.isLt; have := p'.isLt; omega
  obtain rfl : r = ⟨t.val * 2000 + p.val, hf p⟩ := Fin.ext hr
  exact gruK_block _ _ _ _ _ _ _ _ _ _ _ _ (fun p' : Fin 2000 => (⟨t.val * 2000 + p'.val, hf p'⟩ : Fin 50000))
    (fun p' k => aggBlock4 V c t p' k ⟨t.val * 2000 + p'.val, hf p'⟩ (Eq.refl _))
    (fun p' k => stateBlock4 V c t p' k ⟨t.val * 2000 + p'.val, hf p'⟩ (Eq.refl _))
    (wholeBlock4_2 V c t) (wholeBlock4_3 V c t) (wholeBlock4_4 V c t) (wholeBlock4_5 V c t) p q

set_option maxHeartbeats 1000000 in
/-- WHAT POINT `t` WRITES BACK is block `t` of the gated recurrent update of the arrays the region finds. -/
theorem gruFlushed4 (c : Dev nD) (t : Fin cfg4.N) :
    (dat4 (F := Ideal) V c).flushed 6 t = ((cfg4.win 6).blk t).view.read (Elt Ideal)
      (Cert.Gnn.gruK (V c (Pipeline.arrRef spec4 0)) (V c (Pipeline.arrRef spec4 1)) (V c (Pipeline.arrRef spec4 2)) (V c (Pipeline.arrRef spec4 3)) (V c (Pipeline.arrRef spec4 4)) (V c (Pipeline.arrRef spec4 5))) := by
  show (cfg4.win 6).cut (grid4.coords t) ((dat4 (F := Ideal) V c).after 6 t) = _
  rw [after4_6]
  unfold out4_6
  rw [View.canon_unit_zero zeroOff4]
  simp only [View.ld_unit_zero (S := S2000x32) zeroOff4, View.ld_unit_zero (S := S32x96) zeroOff4, View.ld_unit_zero (S := S1x96) zeroOff4]
  rw [gruPay4_eq]
  funext j
  obtain ⟨p, q, rfl⟩ : ∃ (p : Fin 2000) (q : Fin 32), j = ix2 p q := ⟨j 0, j 1, eq_ix2 (n0 := 2000) (n1 := 32) j⟩
  have hN : cfg4.N = 25 := N_4
  have hlt : t.val * 2000 + p.val < 50000 := by have := t.isLt; have := p.isLt; omega
  refine (outCut4 _ t p q).trans ?_
  refine (gruRows4 V c t p q ⟨t.val * 2000 + p.val, hlt⟩ (Eq.refl _)).trans ?_
  exact congrArg (Cert.Gnn.gruK (V c (Pipeline.arrRef spec4 0)) (V c (Pipeline.arrRef spec4 1)) (V c (Pipeline.arrRef spec4 2)) (V c (Pipeline.arrRef spec4 3)) (V c (Pipeline.arrRef spec4 4)) (V c (Pipeline.arrRef spec4 5)))
    (outBlock4 t p q ⟨t.val * 2000 + p.val, hlt⟩ (Eq.refl _)).symm

/-- An index of the output array is in point `t`'s block iff each coordinate is in the block's range on its axis. -/
theorem outBlockMem4 (t : Fin cfg4.N) (i : S50000x32.Idx) :
    i ∈ ((cfg4.win 6).blk t).view.set ↔ ∀ a : Fin 2, win4_6.index t a * S2000x32.size a ≤ (i a).val ∧ (i a).val < win4_6.index t a * S2000x32.size a + S2000x32.size a := by
  show i ∈ ((View.whole main_v95).slice (win4_6.rect t)).set ↔ _
  rw [View.set_slice_whole, Rect.mem_set_unit]
  exact Iff.rfl

/-- Every row of the output array is written back: row `r` by point `r / 2000`. -/
theorem gruCover4 (i : S50000x32.Idx) :
    ∃ t : Fin cfg4.N, (cfg4.win 6).flush t = true ∧ i ∈ ((cfg4.win 6).blk t).view.set := by
  have hN : cfg4.N = 25 := N_4
  have hi0 : (i 0).val < 50000 := (i 0).isLt
  have hi1 : (i 1).val < 32 := (i 1).isLt
  have ht : (i 0).val / 2000 < cfg4.N := by omega
  obtain ⟨-, -, -, -, -, -, -, -, -, -, -, -, e60, e61⟩ := gruIdx4 ⟨(i 0).val / 2000, ht⟩
  refine ⟨⟨(i 0).val / 2000, ht⟩, flush4_6 _, ?_⟩
  rw [outBlockMem4]
  intro a
  match a with
  | ⟨0, _⟩ =>
    show win4_6.index ⟨(i 0).val / 2000, ht⟩ (0 : Fin 2) * 2000 ≤ (i 0).val ∧ (i 0).val < win4_6.index ⟨(i 0).val / 2000, ht⟩ (0 : Fin 2) * 2000 + 2000
    rw [e60]; show (i 0).val / 2000 * 2000 ≤ (i 0).val ∧ (i 0).val < (i 0).val / 2000 * 2000 + 2000; omega
  | ⟨1, _⟩ =>
    show win4_6.index ⟨(i 0).val / 2000, ht⟩ (1 : Fin 2) * 32 ≤ (i 1).val ∧ (i 1).val < win4_6.index ⟨(i 0).val / 2000, ht⟩ (1 : Fin 2) * 32 + 32
    rw [e61]; omega

end Gru

/-- What region 4 leaves in its output array: the stage's function of the arrays the region finds. -/
theorem region4_value (c : Dev nD) :
    (dat4 (F := Ideal) V c).arrAt 6 cfg4.N = Cert.Gnn.gruK (V c (Pipeline.arrRef spec4 0)) (V c (Pipeline.arrRef spec4 1)) (V c (Pipeline.arrRef spec4 2)) (V c (Pipeline.arrRef spec4 3)) (V c (Pipeline.arrRef spec4 4)) (V c (Pipeline.arrRef spec4 5)) :=
  (dat4 (F := Ideal) V c).arrAt_eq_of_cover 6 _ (fun t _ => Gru.gruFlushed4 V c t) Gru.gruCover4

end Cert.KernelIdeal.RegionValue

end
-- ==== Proof.ArrGru6.lean ====
/-
  Region 6, the gated recurrent update of one round of message passing: from the blocks to the array. The grid has 25 points; point `t`
  stages rows `2000 t … 2000 t + 1999` of the aggregate and of the state, the two weight matrices and the two bias rows
  whole, and writes back rows `2000 t … 2000 t + 1999` of the output. The body's result on a block is the update of the
  block's rows, and the update of a row reads that row only, so what point `t` writes back is block `t` of the update of
  the whole arrays; the 25 blocks cover the output's 50000 rows (row `r` lies in block `r / 2000`), so the output array
  ends holding the update of the arrays the region finds.
-/
import proofs.«427837_j2834678415534_1_alg».proof.Proof.ArrGruPay

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.Pipeline (Dat Cfg Window)
open Idealize.ShloMosaic.ValueIdx

variable (V : (c : Dev nD) → (b : Ref sig .tc) → Buf (Elt Ideal) ((c : Thread nD τ).loc b))

namespace Gru

theorem zeroOff6 : (![0, 0] : Fin 2 → Nat) = fun _ => 0 := funext fun a => by fin_cases a <;> rfl

/-- The index maps over the 25 grid points: the two row-matrix inputs and the output sit at block row `t`, the weights
    and the biases at their one block. -/
theorem gruIdx6 : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = 0 ∧ win6_5.index t (1 : Fin 2) = 0
    ∧ win6_6.index t (0 : Fin 2) = t.val ∧ win6_6.index t (1 : Fin 2) = 0 :=
  (by decide +kernel : ∀ t : Fin grid6.N, _)

/-- Row `p` of the aggregate's block at point `t` is row `2000 t + p` of the aggregate. -/
theorem aggBlock6 (c : Dev nD) (t : Fin cfg6.N) (p : Fin 2000) (k : Fin 32) (r : Fin 50000) (hr : r.val = t.val * 2000 + p.val) :
    (iblk6 (F := Ideal) V c 0 t : Vec Ideal S2000x32 .f32) (ix2 p k) = (V c (Pipeline.arrRef spec6 0) : Vec Ideal S50000x32 .f32) (ix2 r k) := by
  obtain ⟨e00, e01, -⟩ := gruIdx6 t
  show V c (Pipeline.arrRef spec6 0) (((cfg6.win 0).blk t).view.emb (ix2 p k)) = V c (Pipeline.arrRef spec6 0) (ix2 r k)
  refine congrArg _ (funext fun a => Fin.ext ?_)
  match a with
  | ⟨0, _⟩ => show win6_0.index t (0 : Fin 2) * 2000 + 1 * p.val = r.val; omega
  | ⟨1, _⟩ => show win6_0.index t (1 : Fin 2) * 32 + 1 * k.val = k.val; omega

/-- Row `p` of the state's block at point `t` is row `2000 t + p` of the state. -/
theorem stateBlock6 (c : Dev nD) (t : Fin cfg6.N) (p : Fin 2000) (k : Fin 32) (r : Fin 50000) (hr : r.val = t.val * 2000 + p.val) :
    (iblk6 (F := Ideal) V c 1 t : Vec Ideal S2000x32 .f32) (ix2 p k) = (V c (Pipeline.arrRef spec6 1) : Vec Ideal S50000x32 .f32) (ix2 r k) := by
  obtain ⟨-, -, e10, e11, -⟩ := gruIdx6 t
  show V c (Pipeline.arrRef spec6 1) (((cfg6.win 1).blk t).view.emb (ix2 p k)) = V c (Pipeline.arrRef spec6 1) (ix2 r k)
  refine congrArg _ (funext fun a => Fin.ext ?_)
  match a with
  | ⟨0, _⟩ => show win6_1.index t (0 : Fin 2) * 2000 + 1 * p.val = r.val; omega
  | ⟨1, _⟩ => show win6_1.index t (1 : Fin 2) * 32 + 1 * k.val = k.val; omega

/-- The aggregate's weight matrix is staged whole: its block at every point is the array. -/
theorem wholeBlock6_2 (c : Dev nD) (t : Fin cfg6.N) :
    (iblk6 (F := Ideal) V c 2 t : Vec Ideal S32x96 .f32) = (V c (Pipeline.arrRef spec6 2) : Vec Ideal S32x96 .f32) := by
  have e := gruIdx6 t
  funext y
  show V c (Pipeline.arrRef spec6 2) (((cfg6.win 2).blk t).view.emb y) = V c (Pipeline.arrRef spec6 2) y
  refine congrArg _ (funext fun a => Fin.ext ?_)
  match a with
  | ⟨0, _⟩ => show win6_2.index t (0 : Fin 2) * 32 + 1 * (y 0).val = (y 0).val; omega
  | ⟨1, _⟩ => show win6_2.index t (1 : Fin 2) * 96 + 1 * (y 1).val = (y 1).val; omega

/-- The state's weight matrix is staged whole: its block at every point is the array. -/
theorem wholeBlock6_3 (c : Dev nD) (t : Fin cfg6.N) :
    (iblk6 (F := Ideal) V c 3 t : Vec Ideal S32x96 .f32) = (V c (Pipeline.arrRef spec6 3) : Vec Ideal S32x96 .f32) := by
  have e := gruIdx6 t
  funext y
  show V c (Pipeline.arrRef spec6 3) (((cfg6.win 3).blk t).view.emb y) = V c (Pipeline.arrRef spec6 3) y
  refine congrArg _ (funext fun a => Fin.ext ?_)
  match a with
  | ⟨0, _⟩ => show win6_3.index t (0 : Fin 2) * 32 + 1 * (y 0).val = (y 0).val; omega
  | ⟨1, _⟩ => show win6_3.index t (1 : Fin 2) * 96 + 1 * (y 1).val = (y 1).val; omega

/-- The aggregate layer's bias row is staged whole: its block at every point is the array. -/
theorem wholeBlock6_4 (c : Dev nD) (t : Fin cfg6.N) :
    (iblk6 (F := Ideal) V c 4 t : Vec Ideal S1x96 .f32) = (V c (Pipeline.arrRef spec6 4) : Vec Ideal S1x96 .f32) := by
  have e := gruIdx6 t
  funext y
  show V c (Pipeline.arrRef spec6 4) (((cfg6.win 4).blk t).view.emb y) = V c (Pipeline.arrRef spec6 4) y
  refine congrArg _ (funext fun a => Fin.ext ?_)
  match a with
  | ⟨0, _⟩ => show win6_4.index t (0 : Fin 2) * 1 + 1 * (y 0).val = (y 0).val; omega
  | ⟨1, _⟩ => show win6_4.index t (1 : Fin 2) * 96 + 1 * (y 1).val = (y 1).val; omega

/-- The state layer's bias row is staged whole: its block at every point is the array. -/
theorem wholeBlock6_5 (c : Dev nD) (t : Fin cfg6.N) :
    (iblk6 (F := Ideal) V c 5 t : Vec Ideal S1x96 .f32) = (V c (Pipeline.arrRef spec6 5) : Vec Ideal S1x96 .f32) := by
  have e := gruIdx6 t
  funext y
  show V c (Pipeline.arrRef spec6 5) (((cfg6.win 5).blk t).view.emb y) = V c (Pipeline.arrRef spec6 5) y
  refine congrArg _ (funext fun a => Fin.ext ?_)
  match a with
  | ⟨0, _⟩ => show win6_5.index t (0 : Fin 2) * 1 + 1 * (y 0).val = (y 0).val; omega
  | ⟨1, _⟩ => show win6_5.index t (1 : Fin 2) * 96 + 1 * (y 1).val = (y 1).val; omega

/-- Row `p` of the output's block at point `t` is row `2000 t + p` of the output array. -/
theorem outBlock6 (t : Fin cfg6.N) (p : Fin 2000) (q : Fin 32) (r : Fin 50000) (hr : r.val = t.val * 2000 + p.val) :
    (((cfg6.win 6).blk t).view.emb (ix2 p q) : S50000x32.Idx) = ix2 r q := by
  obtain ⟨-, -, -, -, -, -, -, -, -, -, -, -, e60, e61⟩ := gruIdx6 t
  refine funext fun a => Fin.ext ?_
  match a with
  | ⟨0, _⟩ => show win6_6.index t (0 : Fin 2) * 2000 + 1 * p.val = r.val; omega
  | ⟨1, _⟩ => show win6_6.index t (1 : Fin 2) * 32 + 1 * q.val = q.val; omega

/-- The output window is never cut: what a write-back takes from a staging buffer holding `X` is `X`. -/
theorem outCut6 (X : Vec Ideal S2000x32 .f32) (t : Fin cfg6.N) (p : Fin 2000) (q : Fin 32) :
    (cfg6.win 6).cut (grid6.coords t) X (ix2 p q) = X (ix2 p q) := rfl

set_option maxHeartbeats 1000000 in
/-- The update of point `t`'s input blocks, at row `p`, is the update of the arrays the region finds at row `2000 t + p`. -/
theorem gruRows6 (c : Dev nD) (t : Fin cfg6.N) (p : Fin 2000) (q : Fin 32) (r : Fin 50000) (hr : r.val = t.val * 2000 + p.val) :
    Cert.Gnn.gruK (iblk6 (F := Ideal) V c 0 t : Vec Ideal S2000x32 .f32) (iblk6 (F := Ideal) V c 1 t : Vec Ideal S2000x32 .f32)
        (iblk6 (F := Ideal) V c 2 t : Vec Ideal S32x96 .f32) (iblk6 (F := Ideal) V c 3 t : Vec Ideal S32x96 .f32)
        (iblk6 (F := Ideal) V c 4 t : Vec Ideal S1x96 .f32) (iblk6 (F := Ideal) V c 5 t : Vec Ideal S1x96 .f32) (ix2 p q)
      = Cert.Gnn.gruK (V c (Pipeline.arrRef spec6 0)) (V c (Pipeline.arrRef spec6 1)) (V c (Pipeline.arrRef spec6 2)) (V c (Pipeline.arrRef spec6 3)) (V c (Pipeline.arrRef spec6 4)) (V c (Pipeline.arrRef spec6 5)) (ix2 r q) := by
  have hN : cfg6.N = 25 := N_6
  have hf : ∀ p' : Fin 2000, t.val * 2000 + p'.val < 50000 := fun p' => by have := t.isLt; have := p'.isLt; omega
  obtain rfl : r = ⟨t.val * 2000 + p.val, hf p⟩ := Fin.ext hr
  exact gruK_block _ _ _ _ _ _ _ _ _ _ _ _ (fun p' : Fin 2000 => (⟨t.val * 2000 + p'.val, hf p'⟩ : Fin 50000))
    (fun p' k => aggBlock6 V c t p' k ⟨t.val * 2000 + p'.val, hf p'⟩ (Eq.refl _))
    (fun p' k => stateBlock6 V c t p' k ⟨t.val * 2000 + p'.val, hf p'⟩ (Eq.refl _))
    (wholeBlock6_2 V c t) (wholeBlock6_3 V c t) (wholeBlock6_4 V c t) (wholeBlock6_5 V c t) p q

set_option maxHeartbeats 1000000 in
/-- WHAT POINT `t` WRITES BACK is block `t` of the gated recurrent update of the arrays the region finds. -/
theorem gruFlushed6 (c : Dev nD) (t : Fin cfg6.N) :
    (dat6 (F := Ideal) V c).flushed 6 t = ((cfg6.win 6).blk t).view.read (Elt Ideal)
      (Cert.Gnn.gruK (V c (Pipeline.arrRef spec6 0)) (V c (Pipeline.arrRef spec6 1)) (V c (Pipeline.arrRef spec6 2)) (V c (Pipeline.arrRef spec6 3)) (V c (Pipeline.arrRef spec6 4)) (V c (Pipeline.arrRef spec6 5))) := by
  show (cfg6.win 6).cut (grid6.coords t) ((dat6 (F := Ideal) V c).after 6 t) = _
  rw [after6_6]
  unfold out6_6
  rw [View.canon_unit_zero zeroOff6]
  simp only [View.ld_unit_zero (S := S2000x32) zeroOff6, View.ld_unit_zero (S := S32x96) zeroOff6, View.ld_unit_zero (S := S1x96) zeroOff6]
  rw [gruPay6_eq]
  funext j
  obtain ⟨p, q, rfl⟩ : ∃ (p : Fin 2000) (q : Fin 32), j = ix2 p q := ⟨j 0, j 1, eq_ix2 (n0 := 2000) (n1 := 32) j⟩
  have hN : cfg6.N = 25 := N_6
  have hlt : t.val * 2000 + p.val < 50000 := by have := t.isLt; have := p.isLt; omega
  refine (outCut6 _ t p q).trans ?_
  refine (gruRows6 V c t p q ⟨t.val * 2000 + p.val, hlt⟩ (Eq.refl _)).trans ?_
  exact congrArg (Cert.Gnn.gruK (V c (Pipeline.arrRef spec6 0)) (V c (Pipeline.arrRef spec6 1)) (V c (Pipeline.arrRef spec6 2)) (V c (Pipeline.arrRef spec6 3)) (V c (Pipeline.arrRef spec6 4)) (V c (Pipeline.arrRef spec6 5)))
    (outBlock6 t p q ⟨t.val * 2000 + p.val, hlt⟩ (Eq.refl _)).symm

/-- An index of the output array is in point `t`'s block iff each coordinate is in the block's range on its axis. -/
theorem outBlockMem6 (t : Fin cfg6.N) (i : S50000x32.Idx) :
    i ∈ ((cfg6.win 6).blk t).view.set ↔ ∀ a : Fin 2, win6_6.index t a * S2000x32.size a ≤ (i a).val ∧ (i a).val < win6_6.index t a * S2000x32.size a + S2000x32.size a := by
  show i ∈ ((View.whole main_v135).slice (win6_6.rect t)).set ↔ _
  rw [View.set_slice_whole, Rect.mem_set_unit]
  exact Iff.rfl

/-- Every row of the output array is written back: row `r` by point `r / 2000`. -/
theorem gruCover6 (i : S50000x32.Idx) :
    ∃ t : Fin cfg6.N, (cfg6.win 6).flush t = true ∧ i ∈ ((cfg6.win 6).blk t).view.set := by
  have hN : cfg6.N = 25 := N_6
  have hi0 : (i 0).val < 50000 := (i 0).isLt
  have hi1 : (i 1).val < 32 := (i 1).isLt
  have ht : (i 0).val / 2000 < cfg6.N := by omega
  obtain ⟨-, -, -, -, -, -, -, -, -, -, -, -, e60, e61⟩ := gruIdx6 ⟨(i 0).val / 2000, ht⟩
  refine ⟨⟨(i 0).val / 2000, ht⟩, flush6_6 _, ?_⟩
  rw [outBlockMem6]
  intro a
  match a with
  | ⟨0, _⟩ =>
    show win6_6.index ⟨(i 0).val / 2000, ht⟩ (0 : Fin 2) * 2000 ≤ (i 0).val ∧ (i 0).val < win6_6.index ⟨(i 0).val / 2000, ht⟩ (0 : Fin 2) * 2000 + 2000
    rw [e60]; show (i 0).val / 2000 * 2000 ≤ (i 0).val ∧ (i 0).val < (i 0).val / 2000 * 2000 + 2000; omega
  | ⟨1, _⟩ =>
    show win6_6.index ⟨(i 0).val / 2000, ht⟩ (1 : Fin 2) * 32 ≤ (i 1).val ∧ (i 1).val < win6_6.index ⟨(i 0).val / 2000, ht⟩ (1 : Fin 2) * 32 + 32
    rw [e61]; omega

end Gru

/-- What region 6 leaves in its output array: the stage's function of the arrays the region finds. -/
theorem region6_value (c : Dev nD) :
    (dat6 (F := Ideal) V c).arrAt 6 cfg6.N = Cert.Gnn.gruK (V c (Pipeline.arrRef spec6 0)) (V c (Pipeline.arrRef spec6 1)) (V c (Pipeline.arrRef spec6 2)) (V c (Pipeline.arrRef spec6 3)) (V c (Pipeline.arrRef spec6 4)) (V c (Pipeline.arrRef spec6 5)) :=
  (dat6 (F := Ideal) V c).arrAt_eq_of_cover 6 _ (fun t _ => Gru.gruFlushed6 V c t) Gru.gruCover6

end Cert.KernelIdeal.RegionValue

end
-- ==== Proof.ArrGru.lean ====
/-
  What the three gated-recurrent-update regions leave in their output arrays, `region2_value`, `region4_value` and
  `region6_value`: each output array ends holding `Cert.Gnn.gruK` of the arrays its region finds. The body's arithmetic
  on a block is read once (ArrGruPay); each region's passage from its 25 blocks to the whole array is in its own module.
-/
import proofs.«427837_j2834678415534_1_alg».proof.Proof.ArrGru2
import proofs.«427837_j2834678415534_1_alg».proof.Proof.ArrGru4
import proofs.«427837_j2834678415534_1_alg».proof.Proof.ArrGru6
-- ==== Proof.KRound0.lean ====
/-
  Round 0 of the kernel program, boundary by boundary: the gathers and weight slices its host stretches prepare,
  the messages its first region leaves, the mean aggregate, and the node states its second region leaves.
-/
import proofs.«427837_j2834678415534_1_alg».proof.Proof.KBase
import proofs.«427837_j2834678415534_1_alg».proof.Proof.ArrMsg
import proofs.«427837_j2834678415534_1_alg».proof.Proof.ArrGru
import proofs.«427837_j2834678415534_1_alg».proof.Proof.KHost0

set_option maxRecDepth 16384

noncomputable section

namespace Cert.KernelIdeal.Value

open Cert.KernelIdeal Cert.KernelIdeal.Gen Cert.KernelIdeal.HostFns Cert.KernelIdeal.HostStages Cert.KernelIdeal.RegionValue
open Idealize.ShloMosaic Idealize.ShloMosaic.TcCoe Idealize.SL.Sem

variable (m : (ℓ : Loc nD τ sig) → Buf (Elt Ideal) ℓ) (ρ : Dev nD → PrngReg) (c : Dev nD)

/-- Round 0: if the boundary before it has the live buffers and the node states `H`, the boundary after it has the
    live buffers and the round's node states. -/
theorem round0_step (H : Cert.Gnn.Mat 50000 32) (hL : Live m ρ c (W2 m ρ c))
    (hH : W2 m ρ c (Proc.devRef .tc main_v15) = H) :
    Live m ρ c (W8 m ρ c)
      ∧ W8 m ρ c (Proc.devRef .tc main_v55)
        = Cert.Gnn.round (paramsOf m ρ c) (gd m ρ c) (gs m ρ c) (ag m ρ c) (⟨0, by decide⟩ : Fin 3) H := by
  -- the boundary at the message network's entry: three host stretches after the round's first boundary
  have e5 : W5 m ρ c = StableHlo.after hostOps1_2 (StableHlo.after hostOps1_1 (StableHlo.after hostOps1 (W2 m ρ c))) := rfl
  have hL5 : Live m ρ c (W5 m ρ c) := by
    rw [e5]; exact hL.step m ρ c (fun r => r ∉ written_r0) (r0_keep (W2 m ρ c)) (by decide)
  have hH5 : W5 m ρ c (Proc.devRef .tc main_v15) = H := by
    rw [e5]; exact (r0_keep (W2 m ρ c) main_v15 (by decide)).trans hH
  have i0 : W5 m ρ c (Proc.devRef .tc main_v16) = gd m ρ c H := by
    rw [e5, r0_hd, hH, hL.dst]; rfl
  have i1 : W5 m ρ c (Proc.devRef .tc main_v17) = gs m ρ c H := by
    rw [e5, r0_hs, hH, hL.src]; rfl
  have i2 : W5 m ρ c (Proc.devRef .tc main_v20) = Cert.Gnn.halfOf (⟨0, by decide⟩ : Fin 3) 0 (by omega) (paramsOf m ρ c).msgW1 := by
    rw [e5, r0_w1d, hL.args main_arg4 (by decide)]; rfl
  have i3 : W5 m ρ c (Proc.devRef .tc main_v23) = Cert.Gnn.halfOf (⟨0, by decide⟩ : Fin 3) 32 (by omega) (paramsOf m ρ c).msgW1 := by
    rw [e5, r0_w1s, hL.args main_arg4 (by decide)]; rfl
  have i4 : W5 m ρ c (Proc.devRef .tc main_v26) = Cert.Gnn.rowOf (⟨0, by decide⟩ : Fin 3) (paramsOf m ρ c).msgB1 := by
    rw [e5, r0_b1, hL.args main_arg5 (by decide)]; rfl
  have i5 : W5 m ρ c (Proc.devRef .tc main_v28) = Cert.Gnn.matOf (⟨0, by decide⟩ : Fin 3) (paramsOf m ρ c).msgW2 := by
    rw [e5, r0_w2, hL.args main_arg6 (by decide)]; rfl
  have i6 : W5 m ρ c (Proc.devRef .tc main_v31) = Cert.Gnn.rowOf (⟨0, by decide⟩ : Fin 3) (paramsOf m ρ c).msgB2 := by
    rw [e5, r0_b2, hL.args main_arg7 (by decide)]; rfl
  have i7 : W5 m ρ c (Proc.devRef .tc main_v33) = Cert.Gnn.matOf (⟨0, by decide⟩ : Fin 3) (paramsOf m ρ c).msgW3 := by
    rw [e5, r0_w3, hL.args main_arg8 (by decide)]; rfl
  have i8 : W5 m ρ c (Proc.devRef .tc main_v36) = Cert.Gnn.rowOf (⟨0, by decide⟩ : Fin 3) (paramsOf m ρ c).msgB3 := by
    rw [e5, r0_b3, hL.args main_arg9 (by decide)]; rfl
  -- the message network's region: its output array, and everything else as it was
  have hM : W6 m ρ c (Proc.devRef .tc main_v37)
      = Cert.Gnn.messages (paramsOf m ρ c) (gd m ρ c) (gs m ρ c) (⟨0, by decide⟩ : Fin 3) H := by
    refine (W6_arr m ρ c 9).trans ?_
    rw [region1_value (V5 m ρ) c]
    show Cert.Gnn.msgK (W5 m ρ c (Proc.devRef .tc main_v16)) (W5 m ρ c (Proc.devRef .tc main_v17))
      (W5 m ρ c (Proc.devRef .tc main_v20)) (W5 m ρ c (Proc.devRef .tc main_v23)) (W5 m ρ c (Proc.devRef .tc main_v26))
      (W5 m ρ c (Proc.devRef .tc main_v28)) (W5 m ρ c (Proc.devRef .tc main_v31)) (W5 m ρ c (Proc.devRef .tc main_v33))
      (W5 m ρ c (Proc.devRef .tc main_v36)) = _
    rw [i0, i1, i2, i3, i4, i5, i6, i7, i8]
    rfl
  have hL6 : Live m ρ c (W6 m ρ c) :=
    hL5.step m ρ c (fun r => ∀ w, Pipeline.arrRef spec1 w ≠ r) (fun r hr => W6_of_ne m ρ c r hr) (by decide)
  have hH6 : W6 m ρ c (Proc.devRef .tc main_v15) = H := (W6_of_ne m ρ c main_v15 (by decide)).trans hH5
  -- the boundary at the gated update's entry: one host stretch
  have e7 : W7 m ρ c = StableHlo.after hostOps2 (W6 m ρ c) := rfl
  have hL7 : Live m ρ c (W7 m ρ c) := by
    rw [e7]; exact hL6.step m ρ c (fun r => r ∉ written_a0) (a0_keep (W6 m ρ c)) (by decide)
  have j0 : W7 m ρ c (Proc.devRef .tc main_v42)
      = ag m ρ c (Cert.Gnn.messages (paramsOf m ρ c) (gd m ρ c) (gs m ρ c) (⟨0, by decide⟩ : Fin 3) H) := by
    rw [e7, a0_agg, hM, hL6.dst, hL6.inv]; rfl
  have j1 : W7 m ρ c (Proc.devRef .tc main_v15) = H := by
    rw [e7]; exact (a0_keep (W6 m ρ c) main_v15 (by decide)).trans hH6
  have j2 : W7 m ρ c (Proc.devRef .tc main_v45) = Cert.Gnn.matOfT (⟨0, by decide⟩ : Fin 3) (paramsOf m ρ c).gruWih := by
    rw [e7, a0_wih, hL6.args main_arg10 (by decide)]; rfl
  have j3 : W7 m ρ c (Proc.devRef .tc main_v48) = Cert.Gnn.matOfT (⟨0, by decide⟩ : Fin 3) (paramsOf m ρ c).gruWhh := by
    rw [e7, a0_whh, hL6.args main_arg11 (by decide)]; rfl
  have j4 : W7 m ρ c (Proc.devRef .tc main_v51) = Cert.Gnn.rowOf (⟨0, by decide⟩ : Fin 3) (paramsOf m ρ c).gruBih := by
    rw [e7, a0_bih, hL6.args main_arg12 (by decide)]; rfl
  have j5 : W7 m ρ c (Proc.devRef .tc main_v54) = Cert.Gnn.rowOf (⟨0, by decide⟩ : Fin 3) (paramsOf m ρ c).gruBhh := by
    rw [e7, a0_bhh, hL6.args main_arg13 (by decide)]; rfl
  -- the gated update's region
  refine ⟨hL7.step m ρ c (fun r => ∀ w, Pipeline.arrRef spec2 w ≠ r) (fun r hr => W8_of_ne m ρ c r hr) (by decide), ?_⟩
  refine (W8_arr m ρ c 6).trans ?_
  rw [region2_value (V7 m ρ) c]
  show Cert.Gnn.gruK (W7 m ρ c (Proc.devRef .tc main_v42)) (W7 m ρ c (Proc.devRef .tc main_v15))
    (W7 m ρ c (Proc.devRef .tc main_v45)) (W7 m ρ c (Proc.devRef .tc main_v48)) (W7 m ρ c (Proc.devRef .tc main_v51))
    (W7 m ρ c (Proc.devRef .tc main_v54)) = _
  rw [j0, j1, j2, j3, j4, j5]
  rfl

end Cert.KernelIdeal.Value

end
-- ==== Proof.KHost1.lean ====
import proofs.«427837_j2834678415534_1_alg».proof.Proof.Gen.KernelIdeal.Launch
import proofs.«427837_j2834678415534_1_alg».proof.Proof.KHostFns
import proofs.«427837_j2834678415534_1_alg».proof.Proof.Chain
import Idealize.ShloMosaic.Lib.StableHlo.Run
import Idealize.ShloMosaic.Lib.ValueLayout

set_option maxRecDepth 16384

noncomputable section

namespace Cert.KernelIdeal.HostStages

open Cert.KernelIdeal Cert.KernelIdeal.Gen Cert.KernelIdeal.HostFns Idealize.ShloMosaic Idealize.ShloMosaic.TcCoe Idealize.SL.Sem
open Cert.Gnn (asRow rowOf matOf matOfT halfOf)

variable (W : Valuation τ sig (Elt Ideal))

namespace R1

/-! ## Round 1's weight plumbing read index by index

Each weight of round 1 is cut out of its stack by a slice at position 1, a reshape that drops (or drops and restores)
the unit axis, and for some a row cut or a transpose. Read at an index, each of these layout operations is its operand
at one index; composed, they are the named functions of the chain. The lemmas are generic in the stack position. -/

section Layout
open Idealize.ShloMosaic.ValueIdx Cert.Gnn

variable {α : Type}

/-- A stack cut to the single matrix at position `o` reads, at `(u, i, j)`, the stack at `(l, i, j)` with `l = o`. -/
theorem r1_slice3_unit0_apply {n r c : Nat} (o : Nat) (X : (⟨3, ![n, r, c]⟩ : Shape).Idx → α)
    (h : (⟨3, ![n, r, c]⟩ : Shape).Slices ![o, 0, 0] ⟨3, ![1, r, c]⟩) (u : Fin 1) (i : Fin r) (j : Fin c) (l : Fin n)
    (hl : l.val = o) : extractStridedSlice ⟨3, ![1, r, c]⟩ ![o, 0, 0] X h (ix3 u i j) = X (ix3 l i j) :=
  extractStridedSlice_apply _ _ _ _ _ (fun ax => by
    match ax with
    | ⟨0, _⟩ => show l.val = o + u.val; omega
    | ⟨1, _⟩ => exact (Nat.zero_add _).symm
    | ⟨2, _⟩ => exact (Nat.zero_add _).symm)

/-- Matrix `l` of a stack: the slice at `l` with its unit axis dropped. -/
theorem r1_matOf_eq {n r c : Nat} (o : Nat) (l : Fin n) (hl : l.val = o) (X : Cert.Gnn.Stack n r c)
    (h1 : (⟨3, ![n, r, c]⟩ : Shape).Slices ![o, 0, 0] ⟨3, ![1, r, c]⟩)
    (h2 : (⟨3, ![1, r, c]⟩ : Shape).ShapeCasts ⟨2, ![r, c]⟩) :
    shapeCast ⟨2, ![r, c]⟩ (extractStridedSlice ⟨3, ![1, r, c]⟩ ![o, 0, 0] X h1) h2 = matOf l X := by
  funext i
  obtain ⟨p, q, rfl⟩ : ∃ (p : Fin r) (q : Fin c), i = ix2 p q := ⟨i 0, i 1, eq_ix2 i⟩
  refine (shapeCast_1ab_ab_apply _ h2 p q).trans ?_
  exact r1_slice3_unit0_apply o X h1 0 p q l hl

/-- Rows `off … off + 31` of matrix `l` of a stack: the slice at `l`, its unit axis dropped, cut along the rows. -/
theorem r1_halfOf_eq {n c : Nat} (o : Nat) (l : Fin n) (hl : l.val = o) (off : Nat) (hoff : off + 32 ≤ 64)
    (X : Cert.Gnn.Stack n 64 c)
    (h1 : (⟨3, ![n, 64, c]⟩ : Shape).Slices ![o, 0, 0] ⟨3, ![1, 64, c]⟩)
    (h2 : (⟨3, ![1, 64, c]⟩ : Shape).ShapeCasts ⟨2, ![64, c]⟩)
    (h3 : (⟨2, ![64, c]⟩ : Shape).Slices ![off, 0] ⟨2, ![32, c]⟩) :
    extractStridedSlice ⟨2, ![32, c]⟩ ![off, 0]
      (shapeCast ⟨2, ![64, c]⟩ (extractStridedSlice ⟨3, ![1, 64, c]⟩ ![o, 0, 0] X h1) h2) h3 = halfOf l off hoff X := by
  funext i
  obtain ⟨p, q, rfl⟩ : ∃ (p : Fin 32) (q : Fin c), i = ix2 p q := ⟨i 0, i 1, eq_ix2 i⟩
  refine (slice2_axis0_apply off _ h3 p q ⟨off + p.val, by have := p.isLt; omega⟩ rfl).trans ?_
  refine (shapeCast_1ab_ab_apply _ h2 _ q).trans ?_
  exact r1_slice3_unit0_apply o X h1 0 _ q l hl

/-- Row `l` of a matrix as a one-row matrix: the slice at `l`, flattened to a vector, then given its unit axis back. -/
theorem r1_rowOf_eq {n c : Nat} (o : Nat) (l : Fin n) (hl : l.val = o) (X : Cert.Gnn.Mat n c)
    (h1 : (⟨2, ![n, c]⟩ : Shape).Slices ![o, 0] ⟨2, ![1, c]⟩)
    (h2 : (⟨2, ![1, c]⟩ : Shape).ShapeCasts ⟨1, ![c]⟩) (h3 : (⟨1, ![c]⟩ : Shape).ShapeCasts ⟨2, ![1, c]⟩) :
    shapeCast ⟨2, ![1, c]⟩ (shapeCast ⟨1, ![c]⟩ (extractStridedSlice ⟨2, ![1, c]⟩ ![o, 0] X h1) h2) h3 = rowOf l X := by
  funext i
  obtain ⟨u, q, rfl⟩ : ∃ (u : Fin 1) (q : Fin c), i = ix2 u q := ⟨i 0, i 1, eq_ix2 i⟩
  refine (shapeCast_a_1a_apply _ h3 u q).trans ?_
  refine (shapeCast_1a_a_apply _ h2 q).trans ?_
  exact slice2_axis0_apply o X h1 0 q l (by show l.val = o + 0; omega)

/-- Matrix `l` of a stack, transposed: the slice at `l`, its unit axis dropped, its two axes swapped. -/
theorem r1_matOfT_eq {n r c : Nat} (o : Nat) (l : Fin n) (hl : l.val = o) (X : Cert.Gnn.Stack n c r)
    (h1 : (⟨3, ![n, c, r]⟩ : Shape).Slices ![o, 0, 0] ⟨3, ![1, c, r]⟩)
    (h2 : (⟨3, ![1, c, r]⟩ : Shape).ShapeCasts ⟨2, ![c, r]⟩)
    (h3 : (⟨2, ![c, r]⟩ : Shape).Transposes [1, 0] ⟨2, ![r, c]⟩) :
    transpose ⟨2, ![r, c]⟩ [1, 0] (shapeCast ⟨2, ![c, r]⟩ (extractStridedSlice ⟨3, ![1, c, r]⟩ ![o, 0, 0] X h1) h2) h3
      = matOfT l X := by
  funext i
  obtain ⟨p, q, rfl⟩ : ∃ (p : Fin r) (q : Fin c), i = ix2 p q := ⟨i 0, i 1, eq_ix2 i⟩
  refine (transpose_ix2_apply _ h3 p q).trans ?_
  refine (shapeCast_1ab_ab_apply _ h2 q p).trans ?_
  exact r1_slice3_unit0_apply o X h1 0 q p l hl

end Layout

/-! ## Typed references at literal buffers

The row gather is a called function, so its operations name their buffers through typed references, and the contents
pass through a transport along the equation "this buffer's type is the tensor type". A value moved to the buffer's type
and back is unchanged; at a literal buffer the transport is the identity. -/

/-- Contents moved to a typed reference's buffer type and back are unchanged. -/
theorem r1_ofBuf_toBuf {T : BufTy} (x : StableHlo.TRef sig T) (v : T.Contents (Elt Ideal)) : x.ofBuf (x.toBuf v) = v := by
  obtain ⟨r, rfl, _, _⟩ := x
  rfl

theorem r1_of_v6 : ((.of main_v6 : StableHlo.TRef sig ⟨S850000, .i32⟩).ofBuf (W (Proc.devRef .tc main_v6)) : IVec S850000 32) = W (Proc.devRef .tc main_v6) := rfl
theorem r1_of_v3 : ((.of main_v3 : StableHlo.TRef sig ⟨S850000, .i32⟩).ofBuf (W (Proc.devRef .tc main_v3)) : IVec S850000 32) = W (Proc.devRef .tc main_v3) := rfl
theorem r1_of_v55 : ((.of main_v55 : StableHlo.TRef sig ⟨S50000x32, .f32⟩).ofBuf (W (Proc.devRef .tc main_v55)) : FVec Ideal S50000x32 .f32) = W (Proc.devRef .tc main_v55) := rfl
theorem r1_to_v56 (v : FVec Ideal S850000x32 .f32) : @Eq (FVec Ideal S850000x32 .f32) (StableHlo.TRef.toBuf (Val := Elt Ideal) (.of main_v56 : StableHlo.TRef sig ⟨S850000x32, .f32⟩) v) v := rfl
theorem r1_to_v57 (v : FVec Ideal S850000x32 .f32) : @Eq (FVec Ideal S850000x32 .f32) (StableHlo.TRef.toBuf (Val := Elt Ideal) (.of main_v57 : StableHlo.TRef sig ⟨S850000x32, .f32⟩) v) v := rfl

/-- A one-buffer write set lies in the buffers of a list that has the reference. -/
theorem r1_single_sub_of_mem {L : List (Ref sig .tc)} {y : Ref sig .tc} (h : y ∈ L) :
    ({Proc.devRef .tc y} : Finset (DevRef τ sig)) ⊆ (L.map (Proc.devRef (τ := τ) .tc)).toFinset :=
  Finset.singleton_subset_iff.mpr (List.mem_toFinset.mpr (List.mem_map_of_mem h))

end R1

open R1

/-! ## Round 1: before the message network (`hostOps3`, `hostOps3_1`, `hostOps3_2`) -/

/-- The references the three stretches write. -/
def written_r1 : List (Ref sig .tc) :=
  [main_call2_c, main_call2_v0, main_call2_v1, main_call2_c_0, main_call2_v2, main_call2_v3, main_call2_v4, main_call2_v5,
   main_call2_c_1, main_call2_c_2, main_call2_v6, main_call2_v7, main_call2_v8, main_call2_v9, main_call2_v10, main_call2_v11,
   main_call2_c_3, main_call2_v12, main_call2_v13, main_call2_v14, main_call2_cst, main_call2_v15, main_v56, main_call3_c,
   main_call3_v0, main_call3_v1, main_call3_c_0, main_call3_v2, main_call3_v3, main_call3_v4, main_call3_v5, main_call3_c_1,
   main_call3_c_2, main_call3_v6, main_call3_v7, main_call3_v8, main_call3_v9, main_call3_v10, main_call3_v11, main_call3_c_3,
   main_call3_v12, main_call3_v13, main_call3_v14, main_call3_cst, main_call3_v15, main_v57, main_v58, main_v59,
   main_v60, main_v61, main_v62, main_v63, main_v64, main_v65, main_v66, main_v67,
   main_v68, main_v69, main_v70, main_v71, main_v72, main_v73, main_v74, main_v75,
   main_v76]

theorem r1_keep (r : Ref sig .tc) (hr : r ∉ written_r1) : StableHlo.after hostOps3_2 (StableHlo.after hostOps3_1 (StableHlo.after hostOps3 W)) (Proc.devRef .tc r) = W (Proc.devRef .tc r) := by
  refine (StableHlo.after_of_writes_sub (W := written_r1) hostOps3_2 _ ?_ hr).trans
    ((StableHlo.after_of_writes_sub (W := written_r1) hostOps3_1 _ ?_ hr).trans
      (StableHlo.after_of_writes_sub (W := written_r1) hostOps3 _ ?_ hr))
  · simp only [hostOps3_2, List.Forall, StableHlo.nullary_writes, StableHlo.unary_writes, StableHlo.binary_writes, StableHlo.ternary_writes, StableHlo.reshape_writes]
    repeat' apply And.intro
    all_goals exact r1_single_sub_of_mem (by decide)
  · simp only [hostOps3_1, List.Forall, StableHlo.nullary_writes, StableHlo.unary_writes, StableHlo.binary_writes, StableHlo.ternary_writes, StableHlo.reshape_writes]
    repeat' apply And.intro
    all_goals exact r1_single_sub_of_mem (by decide)
  · simp only [hostOps3, List.Forall, StableHlo.nullary_writes, StableHlo.unary_writes, StableHlo.binary_writes, StableHlo.ternary_writes, StableHlo.reshape_writes]
    repeat' apply And.intro
    all_goals exact r1_single_sub_of_mem (by decide)
set_option maxHeartbeats 1000000 in
theorem r1_hd : StableHlo.after hostOps3_2 (StableHlo.after hostOps3_1 (StableHlo.after hostOps3 W)) (Proc.devRef .tc main_v56) = takeRows (W (Proc.devRef .tc main_v55)) (W (Proc.devRef .tc main_v6)) := by
  after_results_simp
  simp only [r1_ofBuf_toBuf, r1_of_v6 W, r1_of_v55 W, r1_to_v56]
  unfold takeRows inRows wrapIdx
  exact rfl
set_option maxHeartbeats 1000000 in
theorem r1_hs : StableHlo.after hostOps3_2 (StableHlo.after hostOps3_1 (StableHlo.after hostOps3 W)) (Proc.devRef .tc main_v57) = takeRows (W (Proc.devRef .tc main_v55)) (W (Proc.devRef .tc main_v3)) := by
  after_results_simp
  simp only [r1_ofBuf_toBuf, r1_of_v3 W, r1_of_v55 W, r1_to_v57]
  unfold takeRows inRows wrapIdx
  exact rfl
theorem r1_w1d : StableHlo.after hostOps3_2 (StableHlo.after hostOps3_1 (StableHlo.after hostOps3 W)) (Proc.devRef .tc main_v60) = halfOf (⟨1, by decide⟩ : Fin 3) 0 (by omega) (W (Proc.devRef .tc main_arg4)) := by
  after_results_simp
  exact r1_halfOf_eq 1 ⟨1, by decide⟩ rfl 0 (by omega) _ _ _ _
theorem r1_w1s : StableHlo.after hostOps3_2 (StableHlo.after hostOps3_1 (StableHlo.after hostOps3 W)) (Proc.devRef .tc main_v63) = halfOf (⟨1, by decide⟩ : Fin 3) 32 (by omega) (W (Proc.devRef .tc main_arg4)) := by
  after_results_simp
  exact r1_halfOf_eq 1 ⟨1, by decide⟩ rfl 32 (by omega) _ _ _ _
theorem r1_b1 : StableHlo.after hostOps3_2 (StableHlo.after hostOps3_1 (StableHlo.after hostOps3 W)) (Proc.devRef .tc main_v66) = rowOf (⟨1, by decide⟩ : Fin 3) (W (Proc.devRef .tc main_arg5)) := by
  after_results_simp
  exact r1_rowOf_eq 1 ⟨1, by decide⟩ rfl _ _ _ _
theorem r1_w2 : StableHlo.after hostOps3_2 (StableHlo.after hostOps3_1 (StableHlo.after hostOps3 W)) (Proc.devRef .tc main_v68) = matOf (⟨1, by decide⟩ : Fin 3) (W (Proc.devRef .tc main_arg6)) := by
  after_results_simp
  exact r1_matOf_eq 1 ⟨1, by decide⟩ rfl _ _ _
theorem r1_b2 : StableHlo.after hostOps3_2 (StableHlo.after hostOps3_1 (StableHlo.after hostOps3 W)) (Proc.devRef .tc main_v71) = rowOf (⟨1, by decide⟩ : Fin 3) (W (Proc.devRef .tc main_arg7)) := by
  after_results_simp
  exact r1_rowOf_eq 1 ⟨1, by decide⟩ rfl _ _ _ _
theorem r1_w3 : StableHlo.after hostOps3_2 (StableHlo.after hostOps3_1 (StableHlo.after hostOps3 W)) (Proc.devRef .tc main_v73) = matOf (⟨1, by decide⟩ : Fin 3) (W (Proc.devRef .tc main_arg8)) := by
  after_results_simp
  exact r1_matOf_eq 1 ⟨1, by decide⟩ rfl _ _ _
theorem r1_b3 : StableHlo.after hostOps3_2 (StableHlo.after hostOps3_1 (StableHlo.after hostOps3 W)) (Proc.devRef .tc main_v76) = rowOf (⟨1, by decide⟩ : Fin 3) (W (Proc.devRef .tc main_arg9)) := by
  after_results_simp
  exact r1_rowOf_eq 1 ⟨1, by decide⟩ rfl _ _ _ _

/-! ## Round 1: before the gated update (`hostOps4`) -/

def written_a1 : List (Ref sig .tc) :=
  [main_cst_3, main_v78, main_v79, main_v80, main_v81, main_v82, main_v83, main_v84,
   main_v85, main_v86, main_v87, main_v88, main_v89, main_v90, main_v91, main_v92,
   main_v93, main_v94]

theorem a1_keep (r : Ref sig .tc) (hr : r ∉ written_a1) : StableHlo.after hostOps4 W (Proc.devRef .tc r) = W (Proc.devRef .tc r) := by
  refine StableHlo.after_of_writes_sub (W := written_a1) hostOps4 _ ?_ hr
  simp only [hostOps4, List.Forall, StableHlo.nullary_writes, StableHlo.unary_writes, StableHlo.binary_writes, StableHlo.ternary_writes, StableHlo.reshape_writes]
  repeat' apply And.intro
  all_goals exact r1_single_sub_of_mem (by decide)
theorem a1_agg : StableHlo.after hostOps4 W (Proc.devRef .tc main_v82) = aggOf (W (Proc.devRef .tc main_v77)) (W (Proc.devRef .tc main_v6)) (W (Proc.devRef .tc main_v13)) := by
  after_results_simp
  unfold aggOf
  exact rfl
theorem a1_wih : StableHlo.after hostOps4 W (Proc.devRef .tc main_v85) = matOfT (⟨1, by decide⟩ : Fin 3) (W (Proc.devRef .tc main_arg10)) := by
  after_results_simp
  exact r1_matOfT_eq 1 ⟨1, by decide⟩ rfl _ _ _ _
theorem a1_whh : StableHlo.after hostOps4 W (Proc.devRef .tc main_v88) = matOfT (⟨1, by decide⟩ : Fin 3) (W (Proc.devRef .tc main_arg11)) := by
  after_results_simp
  exact r1_matOfT_eq 1 ⟨1, by decide⟩ rfl _ _ _ _
theorem a1_bih : StableHlo.after hostOps4 W (Proc.devRef .tc main_v91) = rowOf (⟨1, by decide⟩ : Fin 3) (W (Proc.devRef .tc main_arg12)) := by
  after_results_simp
  exact r1_rowOf_eq 1 ⟨1, by decide⟩ rfl _ _ _ _
theorem a1_bhh : StableHlo.after hostOps4 W (Proc.devRef .tc main_v94) = rowOf (⟨1, by decide⟩ : Fin 3) (W (Proc.devRef .tc main_arg13)) := by
  after_results_simp
  exact r1_rowOf_eq 1 ⟨1, by decide⟩ rfl _ _ _ _

end Cert.KernelIdeal.HostStages

end
-- ==== Proof.KRound1.lean ====
/-
  Round 1 of the kernel program, boundary by boundary: the gathers and weight slices its host stretches prepare,
  the messages its first region leaves, the mean aggregate, and the node states its second region leaves.
-/
import proofs.«427837_j2834678415534_1_alg».proof.Proof.KBase
import proofs.«427837_j2834678415534_1_alg».proof.Proof.ArrMsg
import proofs.«427837_j2834678415534_1_alg».proof.Proof.ArrGru
import proofs.«427837_j2834678415534_1_alg».proof.Proof.KHost1

set_option maxRecDepth 16384

noncomputable section

namespace Cert.KernelIdeal.Value

open Cert.KernelIdeal Cert.KernelIdeal.Gen Cert.KernelIdeal.HostFns Cert.KernelIdeal.HostStages Cert.KernelIdeal.RegionValue
open Idealize.ShloMosaic Idealize.ShloMosaic.TcCoe Idealize.SL.Sem

variable (m : (ℓ : Loc nD τ sig) → Buf (Elt Ideal) ℓ) (ρ : Dev nD → PrngReg) (c : Dev nD)

/-- Round 1: if the boundary before it has the live buffers and the node states `H`, the boundary after it has the
    live buffers and the round's node states. -/
theorem round1_step (H : Cert.Gnn.Mat 50000 32) (hL : Live m ρ c (W8 m ρ c))
    (hH : W8 m ρ c (Proc.devRef .tc main_v55) = H) :
    Live m ρ c (W14 m ρ c)
      ∧ W14 m ρ c (Proc.devRef .tc main_v95)
        = Cert.Gnn.round (paramsOf m ρ c) (gd m ρ c) (gs m ρ c) (ag m ρ c) (⟨1, by decide⟩ : Fin 3) H := by
  -- the boundary at the message network's entry: three host stretches after the round's first boundary
  have e5 : W11 m ρ c = StableHlo.after hostOps3_2 (StableHlo.after hostOps3_1 (StableHlo.after hostOps3 (W8 m ρ c))) := rfl
  have hL5 : Live m ρ c (W11 m ρ c) := by
    rw [e5]; exact hL.step m ρ c (fun r => r ∉ written_r1) (r1_keep (W8 m ρ c)) (by decide)
  have hH5 : W11 m ρ c (Proc.devRef .tc main_v55) = H := by
    rw [e5]; exact (r1_keep (W8 m ρ c) main_v55 (by decide)).trans hH
  have i0 : W11 m ρ c (Proc.devRef .tc main_v56) = gd m ρ c H := by
    rw [e5, r1_hd, hH, hL.dst]; rfl
  have i1 : W11 m ρ c (Proc.devRef .tc main_v57) = gs m ρ c H := by
    rw [e5, r1_hs, hH, hL.src]; rfl
  have i2 : W11 m ρ c (Proc.devRef .tc main_v60) = Cert.Gnn.halfOf (⟨1, by decide⟩ : Fin 3) 0 (by omega) (paramsOf m ρ c).msgW1 := by
    rw [e5, r1_w1d, hL.args main_arg4 (by decide)]; rfl
  have i3 : W11 m ρ c (Proc.devRef .tc main_v63) = Cert.Gnn.halfOf (⟨1, by decide⟩ : Fin 3) 32 (by omega) (paramsOf m ρ c).msgW1 := by
    rw [e5, r1_w1s, hL.args main_arg4 (by decide)]; rfl
  have i4 : W11 m ρ c (Proc.devRef .tc main_v66) = Cert.Gnn.rowOf (⟨1, by decide⟩ : Fin 3) (paramsOf m ρ c).msgB1 := by
    rw [e5, r1_b1, hL.args main_arg5 (by decide)]; rfl
  have i5 : W11 m ρ c (Proc.devRef .tc main_v68) = Cert.Gnn.matOf (⟨1, by decide⟩ : Fin 3) (paramsOf m ρ c).msgW2 := by
    rw [e5, r1_w2, hL.args main_arg6 (by decide)]; rfl
  have i6 : W11 m ρ c (Proc.devRef .tc main_v71) = Cert.Gnn.rowOf (⟨1, by decide⟩ : Fin 3) (paramsOf m ρ c).msgB2 := by
    rw [e5, r1_b2, hL.args main_arg7 (by decide)]; rfl
  have i7 : W11 m ρ c (Proc.devRef .tc main_v73) = Cert.Gnn.matOf (⟨1, by decide⟩ : Fin 3) (paramsOf m ρ c).msgW3 := by
    rw [e5, r1_w3, hL.args main_arg8 (by decide)]; rfl
  have i8 : W11 m ρ c (Proc.devRef .tc main_v76) = Cert.Gnn.rowOf (⟨1, by decide⟩ : Fin 3) (paramsOf m ρ c).msgB3 := by
    rw [e5, r1_b3, hL.args main_arg9 (by decide)]; rfl
  -- the message network's region: its output array, and everything else as it was
  have hM : W12 m ρ c (Proc.devRef .tc main_v77)
      = Cert.Gnn.messages (paramsOf m ρ c) (gd m ρ c) (gs m ρ c) (⟨1, by decide⟩ : Fin 3) H := by
    refine (W12_arr m ρ c 9).trans ?_
    rw [region3_value (V11 m ρ) c]
    show Cert.Gnn.msgK (W11 m ρ c (Proc.devRef .tc main_v56)) (W11 m ρ c (Proc.devRef .tc main_v57))
      (W11 m ρ c (Proc.devRef .tc main_v60)) (W11 m ρ c (Proc.devRef .tc main_v63)) (W11 m ρ c (Proc.devRef .tc main_v66))
      (W11 m ρ c (Proc.devRef .tc main_v68)) (W11 m ρ c (Proc.devRef .tc main_v71)) (W11 m ρ c (Proc.devRef .tc main_v73))
      (W11 m ρ c (Proc.devRef .tc main_v76)) = _
    rw [i0, i1, i2, i3, i4, i5, i6, i7, i8]
    rfl
  have hL6 : Live m ρ c (W12 m ρ c) :=
    hL5.step m ρ c (fun r => ∀ w, Pipeline.arrRef spec3 w ≠ r) (fun r hr => W12_of_ne m ρ c r hr) (by decide)
  have hH6 : W12 m ρ c (Proc.devRef .tc main_v55) = H := (W12_of_ne m ρ c main_v55 (by decide)).trans hH5
  -- the boundary at the gated update's entry: one host stretch
  have e7 : W13 m ρ c = StableHlo.after hostOps4 (W12 m ρ c) := rfl
  have hL7 : Live m ρ c (W13 m ρ c) := by
    rw [e7]; exact hL6.step m ρ c (fun r => r ∉ written_a1) (a1_keep (W12 m ρ c)) (by decide)
  have j0 : W13 m ρ c (Proc.devRef .tc main_v82)
      = ag m ρ c (Cert.Gnn.messages (paramsOf m ρ c) (gd m ρ c) (gs m ρ c) (⟨1, by decide⟩ : Fin 3) H) := by
    rw [e7, a1_agg, hM, hL6.dst, hL6.inv]; rfl
  have j1 : W13 m ρ c (Proc.devRef .tc main_v55) = H := by
    rw [e7]; exact (a1_keep (W12 m ρ c) main_v55 (by decide)).trans hH6
  have j2 : W13 m ρ c (Proc.devRef .tc main_v85) = Cert.Gnn.matOfT (⟨1, by decide⟩ : Fin 3) (paramsOf m ρ c).gruWih := by
    rw [e7, a1_wih, hL6.args main_arg10 (by decide)]; rfl
  have j3 : W13 m ρ c (Proc.devRef .tc main_v88) = Cert.Gnn.matOfT (⟨1, by decide⟩ : Fin 3) (paramsOf m ρ c).gruWhh := by
    rw [e7, a1_whh, hL6.args main_arg11 (by decide)]; rfl
  have j4 : W13 m ρ c (Proc.devRef .tc main_v91) = Cert.Gnn.rowOf (⟨1, by decide⟩ : Fin 3) (paramsOf m ρ c).gruBih := by
    rw [e7, a1_bih, hL6.args main_arg12 (by decide)]; rfl
  have j5 : W13 m ρ c (Proc.devRef .tc main_v94) = Cert.Gnn.rowOf (⟨1, by decide⟩ : Fin 3) (paramsOf m ρ c).gruBhh := by
    rw [e7, a1_bhh, hL6.args main_arg13 (by decide)]; rfl
  -- the gated update's region
  refine ⟨hL7.step m ρ c (fun r => ∀ w, Pipeline.arrRef spec4 w ≠ r) (fun r hr => W14_of_ne m ρ c r hr) (by decide), ?_⟩
  refine (W14_arr m ρ c 6).trans ?_
  rw [region4_value (V13 m ρ) c]
  show Cert.Gnn.gruK (W13 m ρ c (Proc.devRef .tc main_v82)) (W13 m ρ c (Proc.devRef .tc main_v55))
    (W13 m ρ c (Proc.devRef .tc main_v85)) (W13 m ρ c (Proc.devRef .tc main_v88)) (W13 m ρ c (Proc.devRef .tc main_v91))
    (W13 m ρ c (Proc.devRef .tc main_v94)) = _
  rw [j0, j1, j2, j3, j4, j5]
  rfl

end Cert.KernelIdeal.Value

end
-- ==== Proof.KHost2.lean ====
import proofs.«427837_j2834678415534_1_alg».proof.Proof.Gen.KernelIdeal.Launch
import proofs.«427837_j2834678415534_1_alg».proof.Proof.KHostFns
import proofs.«427837_j2834678415534_1_alg».proof.Proof.Chain
import Idealize.ShloMosaic.Lib.StableHlo.Run
import Idealize.ShloMosaic.Lib.ValueLayout

set_option maxRecDepth 16384

noncomputable section

namespace Cert.KernelIdeal.HostStages

open Cert.KernelIdeal Cert.KernelIdeal.Gen Cert.KernelIdeal.HostFns Idealize.ShloMosaic Idealize.ShloMosaic.TcCoe Idealize.SL.Sem
open Cert.Gnn (asRow rowOf matOf matOfT halfOf)

variable (W : Valuation τ sig (Elt Ideal))

/-! ## Reading the weight plumbing at an index

Round `l`'s weights are cut out of the stacked arguments by a slice along the leading axis, a reshape that drops the
unit axis, and for some a further slice of rows, a transpose, or a second reshape. Each composite is read at an index
`(p, q)`, operation by operation, down to one entry of the stacked argument. -/

namespace R2

open Idealize.ShloMosaic.ValueIdx
open Cert.Gnn (Mat Stack Vec1)

variable {α : Type}

/-- One matrix cut out of a stack along the leading axis reads, at `(u, i, j)`, the stack at `(k, i, j)` with `k = l`. -/
theorem slice3_axis0_apply {n r c : Nat} (l : Nat) (X : (⟨3, ![n, r, c]⟩ : Shape).Idx → α)
    (h : (⟨3, ![n, r, c]⟩ : Shape).Slices ![l, 0, 0] ⟨3, ![1, r, c]⟩)
    (u : Fin 1) (i : Fin r) (j : Fin c) (k : Fin n) (hk : k.val = l) :
    extractStridedSlice ⟨3, ![1, r, c]⟩ ![l, 0, 0] X h (ix3 u i j) = X (ix3 k i j) :=
  extractStridedSlice_apply _ _ _ _ _ (fun ax => by
    match ax with
    | ⟨0, _⟩ => have := u.isLt; show k.val = l + u.val; omega
    | ⟨1, _⟩ => exact (Nat.zero_add _).symm
    | ⟨2, _⟩ => exact (Nat.zero_add _).symm)

/-- Matrix `l` of a stack: the leading-axis slice at `l` with its unit axis dropped. -/
theorem stackMat_eq {n r c : Nat} (l : Fin n) (a : Stack n r c)
    (h1 : (⟨3, ![n, r, c]⟩ : Shape).Slices ![l.val, 0, 0] ⟨3, ![1, r, c]⟩)
    (h2 : (⟨3, ![1, r, c]⟩ : Shape).ShapeCasts ⟨2, ![r, c]⟩) :
    shapeCast ⟨2, ![r, c]⟩ (extractStridedSlice ⟨3, ![1, r, c]⟩ ![l.val, 0, 0] a h1) h2 = matOf l a := by
  funext i
  obtain ⟨p, q, rfl⟩ : ∃ (p : Fin r) (q : Fin c), i = ix2 p q := ⟨_, _, eq_ix2 i⟩
  refine (shapeCast_1ab_ab_apply _ h2 p q).trans ?_
  exact slice3_axis0_apply l.val a h1 0 p q l rfl

/-- Matrix `l` of a stack, transposed: the slice, the unit axis dropped, then the two axes swapped. -/
theorem stackMatT_eq {n r c : Nat} (l : Fin n) (a : Stack n c r)
    (h1 : (⟨3, ![n, c, r]⟩ : Shape).Slices ![l.val, 0, 0] ⟨3, ![1, c, r]⟩)
    (h2 : (⟨3, ![1, c, r]⟩ : Shape).ShapeCasts ⟨2, ![c, r]⟩)
    (h3 : (⟨2, ![c, r]⟩ : Shape).Transposes [1, 0] ⟨2, ![r, c]⟩) :
    transpose ⟨2, ![r, c]⟩ [1, 0] (shapeCast ⟨2, ![c, r]⟩ (extractStridedSlice ⟨3, ![1, c, r]⟩ ![l.val, 0, 0] a h1) h2) h3
      = matOfT l a := by
  funext i
  obtain ⟨p, q, rfl⟩ : ∃ (p : Fin r) (q : Fin c), i = ix2 p q := ⟨_, _, eq_ix2 i⟩
  refine (transpose_ix2_apply _ h3 p q).trans ?_
  refine (shapeCast_1ab_ab_apply _ h2 q p).trans ?_
  exact slice3_axis0_apply l.val a h1 0 q p l rfl

/-- Rows `off … off + 31` of matrix `l` of a stack of 64-row matrices: the slice, the unit axis dropped, then a slice of rows. -/
theorem stackHalf_eq {n c : Nat} (l : Fin n) (off : Nat) (hoff : off + 32 ≤ 64) (a : Stack n 64 c)
    (h1 : (⟨3, ![n, 64, c]⟩ : Shape).Slices ![l.val, 0, 0] ⟨3, ![1, 64, c]⟩)
    (h2 : (⟨3, ![1, 64, c]⟩ : Shape).ShapeCasts ⟨2, ![64, c]⟩)
    (h3 : (⟨2, ![64, c]⟩ : Shape).Slices ![off, 0] ⟨2, ![32, c]⟩) :
    extractStridedSlice ⟨2, ![32, c]⟩ ![off, 0]
        (shapeCast ⟨2, ![64, c]⟩ (extractStridedSlice ⟨3, ![1, 64, c]⟩ ![l.val, 0, 0] a h1) h2) h3
      = halfOf l off hoff a := by
  funext i
  obtain ⟨p, q, rfl⟩ : ∃ (p : Fin 32) (q : Fin c), i = ix2 p q := ⟨_, _, eq_ix2 i⟩
  refine (slice2_axis0_apply off _ h3 p q ⟨off + p.val, by have := p.isLt; omega⟩ rfl).trans ?_
  refine (shapeCast_1ab_ab_apply _ h2 _ q).trans ?_
  exact slice3_axis0_apply l.val a h1 0 _ q l rfl

/-- Row `l` of a matrix as a one-row matrix: the row slice, flattened to a vector, then given its unit axis back. -/
theorem stackRow_eq {n c : Nat} (l : Fin n) (b : Mat n c)
    (h1 : (⟨2, ![n, c]⟩ : Shape).Slices ![l.val, 0] ⟨2, ![1, c]⟩)
    (h2 : (⟨2, ![1, c]⟩ : Shape).ShapeCasts ⟨1, ![c]⟩) (h3 : (⟨1, ![c]⟩ : Shape).ShapeCasts ⟨2, ![1, c]⟩) :
    shapeCast ⟨2, ![1, c]⟩ (shapeCast ⟨1, ![c]⟩ (extractStridedSlice ⟨2, ![1, c]⟩ ![l.val, 0] b h1) h2) h3 = rowOf l b := by
  funext i
  obtain ⟨p, q, rfl⟩ : ∃ (p : Fin 1) (q : Fin c), i = ix2 p q := ⟨_, _, eq_ix2 i⟩
  refine (shapeCast_a_1a_apply _ h3 p q).trans ?_
  refine (shapeCast_1a_a_apply _ h2 q).trans ?_
  exact slice2_axis0_apply l.val b h1 0 q l rfl

/-! ## Typed references

A callee's operations are stated over typed references: their functions are moved to the buffers' own types along the
equation between the two types. Moving a value there and back is the identity, and moving it once is the identity up
to that equation. -/

theorem ofBuf_toBuf {sg : RefSig} {T : BufTy} {Val : EltTy → Type} (x : StableHlo.TRef sg T) (v : T.Contents Val) :
    x.ofBuf (x.toBuf v) = v := by
  obtain ⟨r, rfl, d, u⟩ := x
  rfl

theorem toBuf_eq_of {sg : RefSig} {T : BufTy} {Val : EltTy → Type} (x : StableHlo.TRef sg T) (v : T.Contents Val)
    (w : x.ref.ty.Contents Val) (h : HEq v w) : x.toBuf v = w :=
  eq_of_heq ((cast_heq _ _).trans h)

/-! ## What each stretch writes -/

def w5 : List (Ref sig .tc) := [
   main_call4_c, main_call4_v0, main_call4_v1, main_call4_c_0, main_call4_v2, main_call4_v3, main_call4_v4, main_call4_v5,
   main_call4_c_1, main_call4_c_2, main_call4_v6, main_call4_v7, main_call4_v8, main_call4_v9, main_call4_v10, main_call4_v11,
   main_call4_c_3, main_call4_v12, main_call4_v13, main_call4_v14, main_call4_cst, main_call4_v15, main_v96 ]
def w5_1 : List (Ref sig .tc) := [
   main_call5_c, main_call5_v0, main_call5_v1, main_call5_c_0, main_call5_v2, main_call5_v3, main_call5_v4, main_call5_v5,
   main_call5_c_1, main_call5_c_2, main_call5_v6, main_call5_v7, main_call5_v8, main_call5_v9, main_call5_v10, main_call5_v11,
   main_call5_c_3, main_call5_v12, main_call5_v13, main_call5_v14, main_call5_cst, main_call5_v15, main_v97 ]
def w5_2 : List (Ref sig .tc) := [
   main_v98, main_v99, main_v100, main_v101, main_v102, main_v103, main_v104, main_v105,
   main_v106, main_v107, main_v108, main_v109, main_v110, main_v111, main_v112, main_v113,
   main_v114, main_v115, main_v116 ]

variable (V : Valuation τ sig (Elt Ideal))

theorem sub5 : (hostOps5 : List (HloOp τ sig (Elt Ideal))).Forall fun op => op.writes ⊆ (w5.map (Proc.devRef (τ := τ) .tc)).toFinset := by
  simp only [hostOps5, List.Forall, StableHlo.nullary_writes, StableHlo.unary_writes, StableHlo.binary_writes, StableHlo.ternary_writes, StableHlo.reshape_writes, Finset.singleton_subset_iff]
  repeat' apply And.intro
  all_goals exact List.mem_toFinset.mpr (List.mem_map_of_mem (by decide))

theorem sub5_1 : (hostOps5_1 : List (HloOp τ sig (Elt Ideal))).Forall fun op => op.writes ⊆ (w5_1.map (Proc.devRef (τ := τ) .tc)).toFinset := by
  simp only [hostOps5_1, List.Forall, StableHlo.nullary_writes, StableHlo.unary_writes, StableHlo.binary_writes, StableHlo.ternary_writes, StableHlo.reshape_writes, Finset.singleton_subset_iff]
  repeat' apply And.intro
  all_goals exact List.mem_toFinset.mpr (List.mem_map_of_mem (by decide))

theorem sub5_2 : (hostOps5_2 : List (HloOp τ sig (Elt Ideal))).Forall fun op => op.writes ⊆ (w5_2.map (Proc.devRef (τ := τ) .tc)).toFinset := by
  simp only [hostOps5_2, List.Forall, StableHlo.nullary_writes, StableHlo.unary_writes, StableHlo.binary_writes, StableHlo.ternary_writes, StableHlo.reshape_writes, Finset.singleton_subset_iff]
  repeat' apply And.intro
  all_goals exact List.mem_toFinset.mpr (List.mem_map_of_mem (by decide))

theorem keep5 (r : Ref sig .tc) (hr : r ∉ w5) : StableHlo.after hostOps5 V (Proc.devRef .tc r) = V (Proc.devRef .tc r) :=
  StableHlo.after_of_writes_sub hostOps5 V sub5 hr
theorem keep5_1 (r : Ref sig .tc) (hr : r ∉ w5_1) : StableHlo.after hostOps5_1 V (Proc.devRef .tc r) = V (Proc.devRef .tc r) :=
  StableHlo.after_of_writes_sub hostOps5_1 V sub5_1 hr
theorem keep5_2 (r : Ref sig .tc) (hr : r ∉ w5_2) : StableHlo.after hostOps5_2 V (Proc.devRef .tc r) = V (Proc.devRef .tc r) :=
  StableHlo.after_of_writes_sub hostOps5_2 V sub5_2 hr

end R2

namespace R2

variable (V : Valuation τ sig (Elt Ideal))

/-! ## What each stretch leaves in the buffers the dense stages read, from any valuation -/

set_option maxHeartbeats 4000000 in
theorem hd_of : StableHlo.after hostOps5 V (Proc.devRef .tc main_v96) = takeRows (V (Proc.devRef .tc main_v95)) (V (Proc.devRef .tc main_v6)) := by
  have e6 : (StableHlo.TRef.of main_v6 : StableHlo.TRef sig ⟨S850000, .i32⟩).ofBuf (V (Proc.devRef .tc main_v6)) = V (Proc.devRef .tc main_v6) := rfl
  have e95 : (StableHlo.TRef.of main_v95 : StableHlo.TRef sig ⟨S50000x32, .f32⟩).ofBuf (V (Proc.devRef .tc main_v95)) = V (Proc.devRef .tc main_v95) := rfl
  after_results_simp
  simp only [ofBuf_toBuf, e6, e95]
  refine toBuf_eq_of _ _ _ (heq_of_eq ?_)
  unfold takeRows inRows wrapIdx
  rfl

set_option maxHeartbeats 4000000 in
theorem hs_of : StableHlo.after hostOps5_1 V (Proc.devRef .tc main_v97) = takeRows (V (Proc.devRef .tc main_v95)) (V (Proc.devRef .tc main_v3)) := by
  have e3 : (StableHlo.TRef.of main_v3 : StableHlo.TRef sig ⟨S850000, .i32⟩).ofBuf (V (Proc.devRef .tc main_v3)) = V (Proc.devRef .tc main_v3) := rfl
  have e95 : (StableHlo.TRef.of main_v95 : StableHlo.TRef sig ⟨S50000x32, .f32⟩).ofBuf (V (Proc.devRef .tc main_v95)) = V (Proc.devRef .tc main_v95) := rfl
  after_results_simp
  simp only [ofBuf_toBuf, e3, e95]
  refine toBuf_eq_of _ _ _ (heq_of_eq ?_)
  unfold takeRows inRows wrapIdx
  rfl

theorem w1d_of : StableHlo.after hostOps5_2 V (Proc.devRef .tc main_v100) = halfOf (⟨2, by decide⟩ : Fin 3) 0 (by omega) (V (Proc.devRef .tc main_arg4)) := by
  after_results
  exact stackHalf_eq (⟨2, by decide⟩ : Fin 3) 0 (by omega) (V (Proc.devRef .tc main_arg4)) _ _ _
theorem w1s_of : StableHlo.after hostOps5_2 V (Proc.devRef .tc main_v103) = halfOf (⟨2, by decide⟩ : Fin 3) 32 (by omega) (V (Proc.devRef .tc main_arg4)) := by
  after_results
  exact stackHalf_eq (⟨2, by decide⟩ : Fin 3) 32 (by omega) (V (Proc.devRef .tc main_arg4)) _ _ _
theorem b1_of : StableHlo.after hostOps5_2 V (Proc.devRef .tc main_v106) = rowOf (⟨2, by decide⟩ : Fin 3) (V (Proc.devRef .tc main_arg5)) := by
  after_results
  exact stackRow_eq (⟨2, by decide⟩ : Fin 3) (V (Proc.devRef .tc main_arg5)) _ _ _
theorem w2_of : StableHlo.after hostOps5_2 V (Proc.devRef .tc main_v108) = matOf (⟨2, by decide⟩ : Fin 3) (V (Proc.devRef .tc main_arg6)) := by
  after_results
  exact stackMat_eq (⟨2, by decide⟩ : Fin 3) (V (Proc.devRef .tc main_arg6)) _ _
theorem b2_of : StableHlo.after hostOps5_2 V (Proc.devRef .tc main_v111) = rowOf (⟨2, by decide⟩ : Fin 3) (V (Proc.devRef .tc main_arg7)) := by
  after_results
  exact stackRow_eq (⟨2, by decide⟩ : Fin 3) (V (Proc.devRef .tc main_arg7)) _ _ _
theorem w3_of : StableHlo.after hostOps5_2 V (Proc.devRef .tc main_v113) = matOf (⟨2, by decide⟩ : Fin 3) (V (Proc.devRef .tc main_arg8)) := by
  after_results
  exact stackMat_eq (⟨2, by decide⟩ : Fin 3) (V (Proc.devRef .tc main_arg8)) _ _
theorem b3_of : StableHlo.after hostOps5_2 V (Proc.devRef .tc main_v116) = rowOf (⟨2, by decide⟩ : Fin 3) (V (Proc.devRef .tc main_arg9)) := by
  after_results
  exact stackRow_eq (⟨2, by decide⟩ : Fin 3) (V (Proc.devRef .tc main_arg9)) _ _ _

end R2

/-! ## Round 2: before the message network (`hostOps5`, `hostOps5_1`, `hostOps5_2`) -/

/-- The references the three stretches write. -/
def written_r2 : List (Ref sig .tc) := [
   main_call4_c, main_call4_v0, main_call4_v1, main_call4_c_0, main_call4_v2, main_call4_v3, main_call4_v4, main_call4_v5,
   main_call4_c_1, main_call4_c_2, main_call4_v6, main_call4_v7, main_call4_v8, main_call4_v9, main_call4_v10, main_call4_v11,
   main_call4_c_3, main_call4_v12, main_call4_v13, main_call4_v14, main_call4_cst, main_call4_v15, main_v96, main_call5_c,
   main_call5_v0, main_call5_v1, main_call5_c_0, main_call5_v2, main_call5_v3, main_call5_v4, main_call5_v5, main_call5_c_1,
   main_call5_c_2, main_call5_v6, main_call5_v7, main_call5_v8, main_call5_v9, main_call5_v10, main_call5_v11, main_call5_c_3,
   main_call5_v12, main_call5_v13, main_call5_v14, main_call5_cst, main_call5_v15, main_v97, main_v98, main_v99,
   main_v100, main_v101, main_v102, main_v103, main_v104, main_v105, main_v106, main_v107,
   main_v108, main_v109, main_v110, main_v111, main_v112, main_v113, main_v114, main_v115,
   main_v116 ]

theorem r2_keep (r : Ref sig .tc) (hr : r ∉ written_r2) : StableHlo.after hostOps5_2 (StableHlo.after hostOps5_1 (StableHlo.after hostOps5 W)) (Proc.devRef .tc r) = W (Proc.devRef .tc r) := by
  have e : written_r2 = R2.w5 ++ (R2.w5_1 ++ R2.w5_2) := rfl
  rw [e, List.mem_append, List.mem_append, not_or, not_or] at hr
  rw [R2.keep5_2 _ r hr.2.2, R2.keep5_1 _ r hr.2.1, R2.keep5 _ r hr.1]
theorem r2_hd : StableHlo.after hostOps5_2 (StableHlo.after hostOps5_1 (StableHlo.after hostOps5 W)) (Proc.devRef .tc main_v96) = takeRows (W (Proc.devRef .tc main_v95)) (W (Proc.devRef .tc main_v6)) := by
  rw [R2.keep5_2 _ main_v96 (by decide), R2.keep5_1 _ main_v96 (by decide)]
  exact R2.hd_of W
theorem r2_hs : StableHlo.after hostOps5_2 (StableHlo.after hostOps5_1 (StableHlo.after hostOps5 W)) (Proc.devRef .tc main_v97) = takeRows (W (Proc.devRef .tc main_v95)) (W (Proc.devRef .tc main_v3)) := by
  rw [R2.keep5_2 _ main_v97 (by decide), R2.hs_of, R2.keep5 _ main_v95 (by decide), R2.keep5 _ main_v3 (by decide)]
theorem r2_w1d : StableHlo.after hostOps5_2 (StableHlo.after hostOps5_1 (StableHlo.after hostOps5 W)) (Proc.devRef .tc main_v100) = halfOf (⟨2, by decide⟩ : Fin 3) 0 (by omega) (W (Proc.devRef .tc main_arg4)) := by
  rw [R2.w1d_of, R2.keep5_1 _ main_arg4 (by decide), R2.keep5 _ main_arg4 (by decide)]
theorem r2_w1s : StableHlo.after hostOps5_2 (StableHlo.after hostOps5_1 (StableHlo.after hostOps5 W)) (Proc.devRef .tc main_v103) = halfOf (⟨2, by decide⟩ : Fin 3) 32 (by omega) (W (Proc.devRef .tc main_arg4)) := by
  rw [R2.w1s_of, R2.keep5_1 _ main_arg4 (by decide), R2.keep5 _ main_arg4 (by decide)]
theorem r2_b1 : StableHlo.after hostOps5_2 (StableHlo.after hostOps5_1 (StableHlo.after hostOps5 W)) (Proc.devRef .tc main_v106) = rowOf (⟨2, by decide⟩ : Fin 3) (W (Proc.devRef .tc main_arg5)) := by
  rw [R2.b1_of, R2.keep5_1 _ main_arg5 (by decide), R2.keep5 _ main_arg5 (by decide)]
theorem r2_w2 : StableHlo.after hostOps5_2 (StableHlo.after hostOps5_1 (StableHlo.after hostOps5 W)) (Proc.devRef .tc main_v108) = matOf (⟨2, by decide⟩ : Fin 3) (W (Proc.devRef .tc main_arg6)) := by
  rw [R2.w2_of, R2.keep5_1 _ main_arg6 (by decide), R2.keep5 _ main_arg6 (by decide)]
theorem r2_b2 : StableHlo.after hostOps5_2 (StableHlo.after hostOps5_1 (StableHlo.after hostOps5 W)) (Proc.devRef .tc main_v111) = rowOf (⟨2, by decide⟩ : Fin 3) (W (Proc.devRef .tc main_arg7)) := by
  rw [R2.b2_of, R2.keep5_1 _ main_arg7 (by decide), R2.keep5 _ main_arg7 (by decide)]
theorem r2_w3 : StableHlo.after hostOps5_2 (StableHlo.after hostOps5_1 (StableHlo.after hostOps5 W)) (Proc.devRef .tc main_v113) = matOf (⟨2, by decide⟩ : Fin 3) (W (Proc.devRef .tc main_arg8)) := by
  rw [R2.w3_of, R2.keep5_1 _ main_arg8 (by decide), R2.keep5 _ main_arg8 (by decide)]
theorem r2_b3 : StableHlo.after hostOps5_2 (StableHlo.after hostOps5_1 (StableHlo.after hostOps5 W)) (Proc.devRef .tc main_v116) = rowOf (⟨2, by decide⟩ : Fin 3) (W (Proc.devRef .tc main_arg9)) := by
  rw [R2.b3_of, R2.keep5_1 _ main_arg9 (by decide), R2.keep5 _ main_arg9 (by decide)]

/-! ## Round 2: before the gated update (`hostOps6`) -/

def written_a2 : List (Ref sig .tc) := [
   main_cst_4, main_v118, main_v119, main_v120, main_v121, main_v122, main_v123, main_v124,
   main_v125, main_v126, main_v127, main_v128, main_v129, main_v130, main_v131, main_v132,
   main_v133, main_v134 ]

theorem a2_keep (r : Ref sig .tc) (hr : r ∉ written_a2) : StableHlo.after hostOps6 W (Proc.devRef .tc r) = W (Proc.devRef .tc r) :=
  StableHlo.after_of_writes_sub hostOps6 W (by
    simp only [hostOps6, List.Forall, StableHlo.nullary_writes, StableHlo.unary_writes, StableHlo.binary_writes, StableHlo.ternary_writes, StableHlo.reshape_writes, Finset.singleton_subset_iff]
    repeat' apply And.intro
    all_goals exact List.mem_toFinset.mpr (List.mem_map_of_mem (by decide))) hr
theorem a2_agg : StableHlo.after hostOps6 W (Proc.devRef .tc main_v122) = aggOf (W (Proc.devRef .tc main_v117)) (W (Proc.devRef .tc main_v6)) (W (Proc.devRef .tc main_v13)) := by
  after_results
  unfold aggOf
  rfl
theorem a2_wih : StableHlo.after hostOps6 W (Proc.devRef .tc main_v125) = matOfT (⟨2, by decide⟩ : Fin 3) (W (Proc.devRef .tc main_arg10)) := by
  after_results
  exact R2.stackMatT_eq (⟨2, by decide⟩ : Fin 3) (W (Proc.devRef .tc main_arg10)) _ _ _
theorem a2_whh : StableHlo.after hostOps6 W (Proc.devRef .tc main_v128) = matOfT (⟨2, by decide⟩ : Fin 3) (W (Proc.devRef .tc main_arg11)) := by
  after_results
  exact R2.stackMatT_eq (⟨2, by decide⟩ : Fin 3) (W (Proc.devRef .tc main_arg11)) _ _ _
theorem a2_bih : StableHlo.after hostOps6 W (Proc.devRef .tc main_v131) = rowOf (⟨2, by decide⟩ : Fin 3) (W (Proc.devRef .tc main_arg12)) := by
  after_results
  exact R2.stackRow_eq (⟨2, by decide⟩ : Fin 3) (W (Proc.devRef .tc main_arg12)) _ _ _
theorem a2_bhh : StableHlo.after hostOps6 W (Proc.devRef .tc main_v134) = rowOf (⟨2, by decide⟩ : Fin 3) (W (Proc.devRef .tc main_arg13)) := by
  after_results
  exact R2.stackRow_eq (⟨2, by decide⟩ : Fin 3) (W (Proc.devRef .tc main_arg13)) _ _ _

end Cert.KernelIdeal.HostStages

end
-- ==== Proof.KRound2.lean ====
/-
  Round 2 of the kernel program, boundary by boundary: the gathers and weight slices its host stretches prepare,
  the messages its first region leaves, the mean aggregate, and the node states its second region leaves.
-/
import proofs.«427837_j2834678415534_1_alg».proof.Proof.KBase
import proofs.«427837_j2834678415534_1_alg».proof.Proof.ArrMsg
import proofs.«427837_j2834678415534_1_alg».proof.Proof.ArrGru
import proofs.«427837_j2834678415534_1_alg».proof.Proof.KHost2

set_option maxRecDepth 16384

noncomputable section

namespace Cert.KernelIdeal.Value

open Cert.KernelIdeal Cert.KernelIdeal.Gen Cert.KernelIdeal.HostFns Cert.KernelIdeal.HostStages Cert.KernelIdeal.RegionValue
open Idealize.ShloMosaic Idealize.ShloMosaic.TcCoe Idealize.SL.Sem

variable (m : (ℓ : Loc nD τ sig) → Buf (Elt Ideal) ℓ) (ρ : Dev nD → PrngReg) (c : Dev nD)

/-- Round 2: if the boundary before it has the live buffers and the node states `H`, the boundary after it has the
    live buffers and the round's node states. -/
theorem round2_step (H : Cert.Gnn.Mat 50000 32) (hL : Live m ρ c (W14 m ρ c))
    (hH : W14 m ρ c (Proc.devRef .tc main_v95) = H) :
    Live m ρ c (W20 m ρ c)
      ∧ W20 m ρ c (Proc.devRef .tc main_v135)
        = Cert.Gnn.round (paramsOf m ρ c) (gd m ρ c) (gs m ρ c) (ag m ρ c) (⟨2, by decide⟩ : Fin 3) H := by
  -- the boundary at the message network's entry: three host stretches after the round's first boundary
  have e5 : W17 m ρ c = StableHlo.after hostOps5_2 (StableHlo.after hostOps5_1 (StableHlo.after hostOps5 (W14 m ρ c))) := rfl
  have hL5 : Live m ρ c (W17 m ρ c) := by
    rw [e5]; exact hL.step m ρ c (fun r => r ∉ written_r2) (r2_keep (W14 m ρ c)) (by decide)
  have hH5 : W17 m ρ c (Proc.devRef .tc main_v95) = H := by
    rw [e5]; exact (r2_keep (W14 m ρ c) main_v95 (by decide)).trans hH
  have i0 : W17 m ρ c (Proc.devRef .tc main_v96) = gd m ρ c H := by
    rw [e5, r2_hd, hH, hL.dst]; rfl
  have i1 : W17 m ρ c (Proc.devRef .tc main_v97) = gs m ρ c H := by
    rw [e5, r2_hs, hH, hL.src]; rfl
  have i2 : W17 m ρ c (Proc.devRef .tc main_v100) = Cert.Gnn.halfOf (⟨2, by decide⟩ : Fin 3) 0 (by omega) (paramsOf m ρ c).msgW1 := by
    rw [e5, r2_w1d, hL.args main_arg4 (by decide)]; rfl
  have i3 : W17 m ρ c (Proc.devRef .tc main_v103) = Cert.Gnn.halfOf (⟨2, by decide⟩ : Fin 3) 32 (by omega) (paramsOf m ρ c).msgW1 := by
    rw [e5, r2_w1s, hL.args main_arg4 (by decide)]; rfl
  have i4 : W17 m ρ c (Proc.devRef .tc main_v106) = Cert.Gnn.rowOf (⟨2, by decide⟩ : Fin 3) (paramsOf m ρ c).msgB1 := by
    rw [e5, r2_b1, hL.args main_arg5 (by decide)]; rfl
  have i5 : W17 m ρ c (Proc.devRef .tc main_v108) = Cert.Gnn.matOf (⟨2, by decide⟩ : Fin 3) (paramsOf m ρ c).msgW2 := by
    rw [e5, r2_w2, hL.args main_arg6 (by decide)]; rfl
  have i6 : W17 m ρ c (Proc.devRef .tc main_v111) = Cert.Gnn.rowOf (⟨2, by decide⟩ : Fin 3) (paramsOf m ρ c).msgB2 := by
    rw [e5, r2_b2, hL.args main_arg7 (by decide)]; rfl
  have i7 : W17 m ρ c (Proc.devRef .tc main_v113) = Cert.Gnn.matOf (⟨2, by decide⟩ : Fin 3) (paramsOf m ρ c).msgW3 := by
    rw [e5, r2_w3, hL.args main_arg8 (by decide)]; rfl
  have i8 : W17 m ρ c (Proc.devRef .tc main_v116) = Cert.Gnn.rowOf (⟨2, by decide⟩ : Fin 3) (paramsOf m ρ c).msgB3 := by
    rw [e5, r2_b3, hL.args main_arg9 (by decide)]; rfl
  -- the message network's region: its output array, and everything else as it was
  have hM : W18 m ρ c (Proc.devRef .tc main_v117)
      = Cert.Gnn.messages (paramsOf m ρ c) (gd m ρ c) (gs m ρ c) (⟨2, by decide⟩ : Fin 3) H := by
    refine (W18_arr m ρ c 9).trans ?_
    rw [region5_value (V17 m ρ) c]
    show Cert.Gnn.msgK (W17 m ρ c (Proc.devRef .tc main_v96)) (W17 m ρ c (Proc.devRef .tc main_v97))
      (W17 m ρ c (Proc.devRef .tc main_v100)) (W17 m ρ c (Proc.devRef .tc main_v103)) (W17 m ρ c (Proc.devRef .tc main_v106))
      (W17 m ρ c (Proc.devRef .tc main_v108)) (W17 m ρ c (Proc.devRef .tc main_v111)) (W17 m ρ c (Proc.devRef .tc main_v113))
      (W17 m ρ c (Proc.devRef .tc main_v116)) = _
    rw [i0, i1, i2, i3, i4, i5, i6, i7, i8]
    rfl
  have hL6 : Live m ρ c (W18 m ρ c) :=
    hL5.step m ρ c (fun r => ∀ w, Pipeline.arrRef spec5 w ≠ r) (fun r hr => W18_of_ne m ρ c r hr) (by decide)
  have hH6 : W18 m ρ c (Proc.devRef .tc main_v95) = H := (W18_of_ne m ρ c main_v95 (by decide)).trans hH5
  -- the boundary at the gated update's entry: one host stretch
  have e7 : W19 m ρ c = StableHlo.after hostOps6 (W18 m ρ c) := rfl
  have hL7 : Live m ρ c (W19 m ρ c) := by
    rw [e7]; exact hL6.step m ρ c (fun r => r ∉ written_a2) (a2_keep (W18 m ρ c)) (by decide)
  have j0 : W19 m ρ c (Proc.devRef .tc main_v122)
      = ag m ρ c (Cert.Gnn.messages (paramsOf m ρ c) (gd m ρ c) (gs m ρ c) (⟨2, by decide⟩ : Fin 3) H) := by
    rw [e7, a2_agg, hM, hL6.dst, hL6.inv]; rfl
  have j1 : W19 m ρ c (Proc.devRef .tc main_v95) = H := by
    rw [e7]; exact (a2_keep (W18 m ρ c) main_v95 (by decide)).trans hH6
  have j2 : W19 m ρ c (Proc.devRef .tc main_v125) = Cert.Gnn.matOfT (⟨2, by decide⟩ : Fin 3) (paramsOf m ρ c).gruWih := by
    rw [e7, a2_wih, hL6.args main_arg10 (by decide)]; rfl
  have j3 : W19 m ρ c (Proc.devRef .tc main_v128) = Cert.Gnn.matOfT (⟨2, by decide⟩ : Fin 3) (paramsOf m ρ c).gruWhh := by
    rw [e7, a2_whh, hL6.args main_arg11 (by decide)]; rfl
  have j4 : W19 m ρ c (Proc.devRef .tc main_v131) = Cert.Gnn.rowOf (⟨2, by decide⟩ : Fin 3) (paramsOf m ρ c).gruBih := by
    rw [e7, a2_bih, hL6.args main_arg12 (by decide)]; rfl
  have j5 : W19 m ρ c (Proc.devRef .tc main_v134) = Cert.Gnn.rowOf (⟨2, by decide⟩ : Fin 3) (paramsOf m ρ c).gruBhh := by
    rw [e7, a2_bhh, hL6.args main_arg13 (by decide)]; rfl
  -- the gated update's region
  refine ⟨hL7.step m ρ c (fun r => ∀ w, Pipeline.arrRef spec6 w ≠ r) (fun r hr => W20_of_ne m ρ c r hr) (by decide), ?_⟩
  refine (W20_arr m ρ c 6).trans ?_
  rw [region6_value (V19 m ρ) c]
  show Cert.Gnn.gruK (W19 m ρ c (Proc.devRef .tc main_v122)) (W19 m ρ c (Proc.devRef .tc main_v95))
    (W19 m ρ c (Proc.devRef .tc main_v125)) (W19 m ρ c (Proc.devRef .tc main_v128)) (W19 m ρ c (Proc.devRef .tc main_v131))
    (W19 m ρ c (Proc.devRef .tc main_v134)) = _
  rw [j0, j1, j2, j3, j4, j5]
  rfl

end Cert.KernelIdeal.Value

end
-- ==== Proof.ArrDec.lean ====
/-
  The decoder region: its output array after all ten grid points is the decoder `Cert.Gnn.decK` of the arrays the
  region finds.
  Two steps. (1) On one block of 5000 rows the body's arithmetic is the decoder of that block: each of its three
  matrix products into a zero accumulator is, entry by entry, the sum over the shared coordinate of the products of
  the entries; the bias row is repeated down the rows; the changes of number format are the identity on extended
  reals. (2) The ten grid points tile the rows: point `t` reads rows `5000 t … 5000 t + 4999` of the node states
  and writes the same rows of the output, while every weight and bias window is its whole array at every point.
  Since each output row depends on its own input row only, what point `t` writes is rows `5000 t …` of the decoder
  of the whole arrays, and the ten blocks cover the output.
-/
import proofs.«427837_j2834678415534_1_alg».proof.Proof.Gen.KernelIdeal.Frame
import proofs.«427837_j2834678415534_1_alg».proof.Proof.Spec
import Idealize.ShloMosaic.Lib.ValueLayout
import Idealize.ShloMosaic.Lib.Pipeline.Value
import Idealize.ShloMosaic.PureOps.Ideal.Laws

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.Pipeline (Dat Cfg Window)
open Idealize.ShloMosaic.ValueIdx

namespace Dec

/-! ## The body's arithmetic on one block -/

/-! The product `S5000x32 · S32x64` read at an entry: the contraction index is the one shared coordinate. -/

theorem prodIn_lhs_0 (i : S5000x64.Idx) (q : dot_S5000x32_S32x64_S5000x64_1_0_0_1_n_n.contr.Idx) :
    (dot_S5000x32_S32x64_S5000x64_1_0_0_1_n_n.lhsIdx i q 0).val = (i 0).val := by
  unfold DotDims.lhsIdx
  rw [dif_neg (show ¬(0 : Fin S5000x32.rank) ∈ dot_S5000x32_S32x64_S5000x64_1_0_0_1_n_n.lhsBatch by decide), dif_pos (show (0 : Fin S5000x32.rank) ∈ dot_S5000x32_S32x64_S5000x64_1_0_0_1_n_n.lhsNonContracting by decide)]
  rfl
theorem prodIn_lhs_1 (i : S5000x64.Idx) (q : dot_S5000x32_S32x64_S5000x64_1_0_0_1_n_n.contr.Idx) :
    (dot_S5000x32_S32x64_S5000x64_1_0_0_1_n_n.lhsIdx i q 1).val = (q ⟨0, by decide⟩).val :=
  dot_S5000x32_S32x64_S5000x64_1_0_0_1_n_n.lhsIdx_val_of_single rfl i q
theorem prodIn_rhs_0 (i : S5000x64.Idx) (q : dot_S5000x32_S32x64_S5000x64_1_0_0_1_n_n.contr.Idx) :
    (dot_S5000x32_S32x64_S5000x64_1_0_0_1_n_n.rhsIdx i q 0).val = (q ⟨0, by decide⟩).val :=
  dot_S5000x32_S32x64_S5000x64_1_0_0_1_n_n.rhsIdx_val_of_single rfl i q
theorem prodIn_rhs_1 (i : S5000x64.Idx) (q : dot_S5000x32_S32x64_S5000x64_1_0_0_1_n_n.contr.Idx) :
    (dot_S5000x32_S32x64_S5000x64_1_0_0_1_n_n.rhsIdx i q 1).val = (i 1).val := by
  unfold DotDims.rhsIdx
  rw [dif_neg (show ¬(1 : Fin S32x64.rank) ∈ dot_S5000x32_S32x64_S5000x64_1_0_0_1_n_n.rhsBatch by decide), dif_pos (show (1 : Fin S32x64.rank) ∈ dot_S5000x32_S32x64_S5000x64_1_0_0_1_n_n.rhsNonContracting by decide)]
  rfl

/-- Into a zero accumulator the product at `(p, q)` is `∑ k, y (p, k) * w (k, q)`. -/
theorem prodIn_apply {φ₁ φ₂ : FTy} (y : FVec Ideal S5000x32 φ₁) (w : FVec Ideal S32x64 φ₂) (p : Fin 5000) (q : Fin 64) :
    matmul dot_S5000x32_S32x64_S5000x64_1_0_0_1_n_n none y w (constant S5000x64 .f32 0x00000000#32) (ix2 p q)
      = ∑ k : Fin 32, y (ix2 p k) * w (ix2 k q) := by
  simp only [matmul]
  rw [Ideal.matmul_constant_zero_apply, ← Equiv.sum_comp (contrEquiv1 dot_S5000x32_S32x64_S5000x64_1_0_0_1_n_n 32 rfl rfl).symm]
  refine Finset.sum_congr rfl fun k _ => ?_
  have hk := contrEquiv1_symm_val dot_S5000x32_S32x64_S5000x64_1_0_0_1_n_n 32 rfl rfl k
  have el : dot_S5000x32_S32x64_S5000x64_1_0_0_1_n_n.lhsIdx (ix2 p q) ((contrEquiv1 dot_S5000x32_S32x64_S5000x64_1_0_0_1_n_n 32 rfl rfl).symm k) = ix2 p k := funext fun a => Fin.ext (by
    match a with
    | ⟨0, _⟩ => exact prodIn_lhs_0 _ _
    | ⟨1, _⟩ => exact (prodIn_lhs_1 _ _).trans hk)
  have er : dot_S5000x32_S32x64_S5000x64_1_0_0_1_n_n.rhsIdx (ix2 p q) ((contrEquiv1 dot_S5000x32_S32x64_S5000x64_1_0_0_1_n_n 32 rfl rfl).symm k) = ix2 k q := funext fun a => Fin.ext (by
    match a with
    | ⟨0, _⟩ => exact (prodIn_rhs_0 _ _).trans hk
    | ⟨1, _⟩ => exact prodIn_rhs_1 _ _)
  rw [el, er]

/-! The product `S5000x64 · S64x64` read at an entry: the contraction index is the one shared coordinate. -/

theorem prodMid_lhs_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem prodMid_lhs_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem prodMid_rhs_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem prodMid_rhs_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- Into a zero accumulator the product at `(p, q)` is `∑ k, y (p, k) * w (k, q)`. -/
theorem prodMid_apply {φ₁ φ₂ : FTy} (y : FVec Ideal S5000x64 φ₁) (w : FVec Ideal S64x64 φ₂) (p : Fin 5000) (q : Fin 64) :
    matmul dot_S5000x64_S64x64_S5000x64_1_0_0_1_n_n none y w (constant S5000x64 .f32 0x00000000#32) (ix2 p q)
      = ∑ k : Fin 64, y (ix2 p k) * w (ix2 k q) := by
  simp only [matmul]
  rw [Ideal.matmul_constant_zero_apply, ← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q) ((contrEquiv1 dot_S5000x64_S64x64_S5000x64_1_0_0_1_n_n 64 rfl rfl).symm k) = ix2 p k := funext fun a => Fin.ext (by
    match a with
    | ⟨0, _⟩ => exact prodMid_lhs_0 _ _
    | ⟨1, _⟩ => exact (prodMid_lhs_1 _ _).trans hk)
  have er : dot_S5000x64_S64x64_S5000x64_1_0_0_1_n_n.rhsIdx (ix2 p q) ((contrEquiv1 dot_S5000x64_S64x64_S5000x64_1_0_0_1_n_n 64 rfl rfl).symm k) = ix2 k q := funext fun a => Fin.ext (by
    match a with
    | ⟨0, _⟩ => exact (prodMid_rhs_0 _ _).trans hk
    | ⟨1, _⟩ => exact prodMid_rhs_1 _ _)
  rw [el, er]

/-! The product `S5000x64 · S64x8` read at an entry: the contraction index is the one shared coordinate. -/

theorem prodOut_lhs_0 (i : S5000x8.Idx) (q : dot_S5000x64_S64x8_S5000x8_1_0_0_1_n_n.contr.Idx) :
    (dot_S5000x64_S64x8_S5000x8_1_0_0_1_n_n.lhsIdx i q 0).val = (i 0).val := by
  unfold DotDims.lhsIdx
  rw [dif_neg (show ¬(0 : Fin S5000x64.rank) ∈ dot_S5000x64_S64x8_S5000x8_1_0_0_1_n_n.lhsBatch by decide), dif_pos (show (0 : Fin S5000x64.rank) ∈ dot_S5000x64_S64x8_S5000x8_1_0_0_1_n_n.lhsNonContracting by decide)]
  rfl
theorem prodOut_lhs_1 (i : S5000x8.Idx) (q : dot_S5000x64_S64x8_S5000x8_1_0_0_1_n_n.contr.Idx) :
    (dot_S5000x64_S64x8_S5000x8_1_0_0_1_n_n.lhsIdx i q 1).val = (q ⟨0, by decide⟩).val :=
  dot_S5000x64_S64x8_S5000x8_1_0_0_1_n_n.lhsIdx_val_of_single rfl i q
theorem prodOut_rhs_0 (i : S5000x8.Idx) (q : dot_S5000x64_S64x8_S5000x8_1_0_0_1_n_n.contr.Idx) :
    (dot_S5000x64_S64x8_S5000x8_1_0_0_1_n_n.rhsIdx i q 0).val = (q ⟨0, by decide⟩).val :=
  dot_S5000x64_S64x8_S5000x8_1_0_0_1_n_n.rhsIdx_val_of_single rfl i q
theorem prodOut_rhs_1 (i : S5000x8.Idx) (q : dot_S5000x64_S64x8_S5000x8_1_0_0_1_n_n.contr.Idx) :
    (dot_S5000x64_S64x8_S5000x8_1_0_0_1_n_n.rhsIdx i q 1).val = (i 1).val := by
  unfold DotDims.rhsIdx
  rw [dif_neg (show ¬(1 : Fin S64x8.rank) ∈ dot_S5000x64_S64x8_S5000x8_1_0_0_1_n_n.rhsBatch by decide), dif_pos (show (1 : Fin S64x8.rank) ∈ dot_S5000x64_S64x8_S5000x8_1_0_0_1_n_n.rhsNonContracting by decide)]
  rfl

/-- Into a zero accumulator the product at `(p, q)` is `∑ k, y (p, k) * w (k, q)`. -/
theorem prodOut_apply {φ₁ φ₂ : FTy} (y : FVec Ideal S5000x64 φ₁) (w : FVec Ideal S64x8 φ₂) (p : Fin 5000) (q : Fin 8) :
    matmul dot_S5000x64_S64x8_S5000x8_1_0_0_1_n_n none y w (constant S5000x8 .f32 0x00000000#32) (ix2 p q)
      = ∑ k : Fin 64, y (ix2 p k) * w (ix2 k q) := by
  simp only [matmul]
  rw [Ideal.matmul_constant_zero_apply, ← Equiv.sum_comp (contrEquiv1 dot_S5000x64_S64x8_S5000x8_1_0_0_1_n_n 64 rfl rfl).symm]
  refine Finset.sum_congr rfl fun k _ => ?_
  have hk := contrEquiv1_symm_val dot_S5000x64_S64x8_S5000x8_1_0_0_1_n_n 64 rfl rfl k
  have el : dot_S5000x64_S64x8_S5000x8_1_0_0_1_n_n.lhsIdx (ix2 p q) ((contrEquiv1 dot_S5000x64_S64x8_S5000x8_1_0_0_1_n_n 64 rfl rfl).symm k) = ix2 p k := funext fun a => Fin.ext (by
    match a with
    | ⟨0, _⟩ => exact prodOut_lhs_0 _ _
    | ⟨1, _⟩ => exact (prodOut_lhs_1 _ _).trans hk)
  have er : dot_S5000x64_S64x8_S5000x8_1_0_0_1_n_n.rhsIdx (ix2 p q) ((contrEquiv1 dot_S5000x64_S64x8_S5000x8_1_0_0_1_n_n 64 rfl rfl).symm k) = ix2 k q := funext fun a => Fin.ext (by
    match a with
    | ⟨0, _⟩ => exact (prodOut_rhs_0 _ _).trans hk
    | ⟨1, _⟩ => exact prodOut_rhs_1 _ _)
  rw [el, er]

/-! ## The three layers of the block computation, each read at an entry -/

/-- First hidden layer on a block of rows: `tanh (x · W1 + b1)`, the bias row repeated down the rows. -/
def hidIn (x : FVec Ideal S5000x32 .f32) (w : FVec Ideal S32x64 .f32) (b : FVec Ideal S1x64 .f32) : FVec Ideal S5000x64 .f32 :=
  tanh (addf (matmul dot_S5000x32_S32x64_S5000x64_1_0_0_1_n_n none (truncf .bf16 (shapeCast S5000x32 x shapeCasts_S5000x32_S5000x32) bitsLt_bf16_f32)
      (truncf .bf16 w bitsLt_bf16_f32) (constant S5000x64 .f32 0x00000000#32))
    (broadcastTo S5000x64 (shapeCast S1x64 b shapeCasts_S1x64_S1x64) broadcasts_S1x64_S5000x64))

/-- Second hidden layer: `tanh (h · W2 + b2)`. -/
def hidMid (h : FVec Ideal S5000x64 .f32) (w : FVec Ideal S64x64 .f32) (b : FVec Ideal S1x64 .f32) : FVec Ideal S5000x64 .f32 :=
  tanh (addf (matmul dot_S5000x64_S64x64_S5000x64_1_0_0_1_n_n none (truncf .bf16 h bitsLt_bf16_f32)
      (truncf .bf16 w bitsLt_bf16_f32) (constant S5000x64 .f32 0x00000000#32))
    (broadcastTo S5000x64 (shapeCast S1x64 b shapeCasts_S1x64_S1x64) broadcasts_S1x64_S5000x64))

/-- Output layer: `h · W3 + b3`. -/
def layOut (h : FVec Ideal S5000x64 .f32) (w : FVec Ideal S64x8 .f32) (b : FVec Ideal S1x8 .f32) : FVec Ideal S5000x8 .f32 :=
  addf (matmul dot_S5000x64_S64x8_S5000x8_1_0_0_1_n_n none (truncf .bf16 h bitsLt_bf16_f32)
      (truncf .bf16 w bitsLt_bf16_f32) (constant S5000x8 .f32 0x00000000#32))
    (broadcastTo S5000x8 (shapeCast S1x8 b shapeCasts_S1x8_S1x8) broadcasts_S1x8_S5000x8)

theorem hidIn_apply (x : FVec Ideal S5000x32 .f32) (w : FVec Ideal S32x64 .f32) (b : FVec Ideal S1x64 .f32) (p : Fin 5000) (k : Fin 64) :
    hidIn x w b (ix2 p k) = Ideal.tanh (Cert.Gnn.dense (Cert.Gnn.row x p) w b k) := by
  show Ideal.tanh (matmul dot_S5000x32_S32x64_S5000x64_1_0_0_1_n_n none (truncf .bf16 (shapeCast S5000x32 x _) _) (truncf .bf16 w _) (constant S5000x64 .f32 0x00000000#32) (ix2 p k)
      + broadcastTo S5000x64 (shapeCast S1x64 b _) _ (ix2 p k)) = _
  rw [prodIn_apply, shapeCast_self, shapeCast_self, broadcastTo_1b_ab_apply]
  rfl

theorem hidMid_apply (h : FVec Ideal S5000x64 .f32) (w : FVec Ideal S64x64 .f32) (b : FVec Ideal S1x64 .f32) (p : Fin 5000) (k : Fin 64) :
    hidMid h w b (ix2 p k) = Ideal.tanh (Cert.Gnn.dense (Cert.Gnn.row h p) w b k) := by
  show Ideal.tanh (matmul dot_S5000x64_S64x64_S5000x64_1_0_0_1_n_n none (truncf .bf16 h _) (truncf .bf16 w _) (constant S5000x64 .f32 0x00000000#32) (ix2 p k)
      + broadcastTo S5000x64 (shapeCast S1x64 b _) _ (ix2 p k)) = _
  rw [prodMid_apply, shapeCast_self, broadcastTo_1b_ab_apply]
  rfl

theorem layOut_apply (h : FVec Ideal S5000x64 .f32) (w : FVec Ideal S64x8 .f32) (b : FVec Ideal S1x8 .f32) (p : Fin 5000) (q : Fin 8) :
    layOut h w b (ix2 p q) = Cert.Gnn.dense (Cert.Gnn.row h p) w b q := by
  show matmul dot_S5000x64_S64x8_S5000x8_1_0_0_1_n_n none (truncf .bf16 h _) (truncf .bf16 w _) (constant S5000x8 .f32 0x00000000#32) (ix2 p q)
      + broadcastTo S5000x8 (shapeCast S1x8 b _) _ (ix2 p q) = _
  rw [prodOut_apply, shapeCast_self, broadcastTo_1b_ab_apply]
  rfl

/-- The body's arithmetic is the three layers composed. -/
theorem pay_layers (x0 : Vec Ideal S5000x32 .f32) (x1 : Vec Ideal S32x64 .f32) (x2 : Vec Ideal S1x64 .f32) (x3 : Vec Ideal S64x64 .f32)
    (x4 : Vec Ideal S1x64 .f32) (x5 : Vec Ideal S64x8 .f32) (x6 : Vec Ideal S1x8 .f32) :
    k7_pay1 x0 x1 x2 x3 x4 x5 x6 = layOut (hidMid (hidIn x0 x1 x2) x3 x4) x5 x6 := rfl

/-- On a block of 5000 rows the body computes the decoder of that block. -/
theorem pay_eq (x0 : Vec Ideal S5000x32 .f32) (x1 : Vec Ideal S32x64 .f32) (x2 : Vec Ideal S1x64 .f32) (x3 : Vec Ideal S64x64 .f32)
    (x4 : Vec Ideal S1x64 .f32) (x5 : Vec Ideal S64x8 .f32) (x6 : Vec Ideal S1x8 .f32) :
    k7_pay1 x0 x1 x2 x3 x4 x5 x6 = Cert.Gnn.decK x0 x1 x2 x3 x4 x5 x6 := by
  rw [pay_layers]
  funext i
  obtain ⟨p, q, rfl⟩ : ∃ (p : Fin 5000) (q : Fin 8), i = ix2 p q := ⟨i 0, i 1, eq_ix2 i⟩
  have e1 : Cert.Gnn.row (hidIn x0 x1 x2) p = fun k' => Ideal.tanh (Cert.Gnn.dense (Cert.Gnn.row x0 p) x1 x2 k') :=
    funext fun k' => hidIn_apply x0 x1 x2 p k'
  have e2 : Cert.Gnn.row (hidMid (hidIn x0 x1 x2) x3 x4) p
      = fun k => Ideal.tanh (Cert.Gnn.dense (fun k' => Ideal.tanh (Cert.Gnn.dense (Cert.Gnn.row x0 p) x1 x2 k')) x3 x4 k) :=
    funext fun k => (hidMid_apply (hidIn x0 x1 x2) x3 x4 p k).trans (by rw [e1])
  rw [layOut_apply, e2]
  rfl

variable (V : (c : Dev nD) → (b : Ref sig .tc) → Buf (Elt Ideal) ((c : Thread nD τ).loc b))

/-! ## From blocks to the array

The grid's ten points tile the rows: point `t` reads rows `5000 t … 5000 t + 4999` of the node states and writes the same
rows of the output; every weight and bias window is its whole array at every point. -/

theorem hz : (![0, 0] : Fin 2 → Nat) = fun _ => 0 := funext fun a => by fin_cases a <;> rfl

/-! The index maps, decided over the ten points: the two row-tiled windows sit at block `(t, 0)`, the others at `(0, 0)`. -/

theorem idx_w0 : ∀ t : Fin cfg7.N, win7_0.index t (0 : Fin 2) = t.val ∧ win7_0.index t (1 : Fin 2) = 0 :=
  (by decide +kernel : ∀ t : Fin grid7.N, win7_0.index t (0 : Fin 2) = t.val ∧ win7_0.index t (1 : Fin 2) = 0)

theorem idx_w1 : ∀ t : Fin cfg7.N, win7_1.index t (0 : Fin 2) = 0 ∧ win7_1.index t (1 : Fin 2) = 0 :=
  (by decide +kernel : ∀ t : Fin grid7.N, win7_1.index t (0 : Fin 2) = 0 ∧ win7_1.index t (1 : Fin 2) = 0)

theorem idx_w2 : ∀ t : Fin cfg7.N, win7_2.index t (0 : Fin 2) = 0 ∧ win7_2.index t (1 : Fin 2) = 0 :=
  (by decide +kernel : ∀ t : Fin grid7.N, win7_2.index t (0 : Fin 2) = 0 ∧ win7_2.index t (1 : Fin 2) = 0)

theorem idx_w3 : ∀ t : Fin cfg7.N, win7_3.index t (0 : Fin 2) = 0 ∧ win7_3.index t (1 : Fin 2) = 0 :=
  (by decide +kernel : ∀ t : Fin grid7.N, win7_3.index t (0 : Fin 2) = 0 ∧ win7_3.index t (1 : Fin 2) = 0)

theorem idx_w4 : ∀ t : Fin cfg7.N, win7_4.index t (0 : Fin 2) = 0 ∧ win7_4.index t (1 : Fin 2) = 0 :=
  (by decide +kernel : ∀ t : Fin grid7.N, win7_4.index t (0 : Fin 2) = 0 ∧ win7_4.index t (1 : Fin 2) = 0)

theorem idx_w5 : ∀ t : Fin cfg7.N, win7_5.index t (0 : Fin 2) = 0 ∧ win7_5.index t (1 : Fin 2) = 0 :=
  (by decide +kernel : ∀ t : Fin grid7.N, win7_5.index t (0 : Fin 2) = 0 ∧ win7_5.index t (1 : Fin 2) = 0)

theorem idx_w6 : ∀ t : Fin cfg7.N, win7_6.index t (0 : Fin 2) = 0 ∧ win7_6.index t (1 : Fin 2) = 0 :=
  (by decide +kernel : ∀ t : Fin grid7.N, win7_6.index t (0 : Fin 2) = 0 ∧ win7_6.index t (1 : Fin 2) = 0)

theorem idx_w7 : ∀ t : Fin cfg7.N, win7_7.index t (0 : Fin 2) = t.val ∧ win7_7.index t (1 : Fin 2) = 0 :=
  (by decide +kernel : ∀ t : Fin grid7.N, win7_7.index t (0 : Fin 2) = t.val ∧ win7_7.index t (1 : Fin 2) = 0)

/-- Row `p` of the node-state block at point `t` is row `5000 t + p` of the array. -/
theorem rows_blk (c : Dev nD) (t : Fin cfg7.N) (y : S5000x32.Idx) (i : S50000x32.Idx)
    (h0 : (i 0).val = t.val * 5000 + (y 0).val) (h1 : (i 1).val = (y 1).val) :
    (iblk7 (F := Ideal) V c 0 t : Vec Ideal S5000x32 .f32) y = (V c main_v135 : S50000x32.Idx → Elt Ideal .f32) i := by
  obtain ⟨e0, e1⟩ := idx_w0 t
  show V c main_v135 (((cfg7.win 0).blk t).view.emb y) = V c main_v135 i
  refine congrArg _ (funext fun a => Fin.ext ?_)
  match a with
  | ⟨0, _⟩ => show win7_0.index t (0 : Fin 2) * 5000 + 1 * (y 0).val = (i 0).val; omega
  | ⟨1, _⟩ => show win7_0.index t (1 : Fin 2) * 32 + 1 * (y 1).val = (i 1).val; omega

/-- The first weight matrix's block is the matrix. -/
theorem w1_blk (c : Dev nD) (t : Fin cfg7.N) :
    (iblk7 (F := Ideal) V c 1 t : Vec Ideal S32x64 .f32) = (V c main_arg14 : S32x64.Idx → Elt Ideal .f32) := by
  obtain ⟨e0, e1⟩ := idx_w1 t
  funext y
  show V c main_arg14 (((cfg7.win 1).blk t).view.emb y) = V c main_arg14 y
  refine congrArg _ (funext fun a => Fin.ext ?_)
  match a with
  | ⟨0, _⟩ => show win7_1.index t (0 : Fin 2) * 32 + 1 * (y 0).val = (y 0).val; omega
  | ⟨1, _⟩ => show win7_1.index t (1 : Fin 2) * 64 + 1 * (y 1).val = (y 1).val; omega

/-- The first bias row's block is the row. -/
theorem b1_blk (c : Dev nD) (t : Fin cfg7.N) :
    (iblk7 (F := Ideal) V c 2 t : Vec Ideal S1x64 .f32) = (V c main_v136 : S1x64.Idx → Elt Ideal .f32) := by
  obtain ⟨e0, e1⟩ := idx_w2 t
  funext y
  show V c main_v136 (((cfg7.win 2).blk t).view.emb y) = V c main_v136 y
  refine congrArg _ (funext fun a => Fin.ext ?_)
  match a with
  | ⟨0, _⟩ => show win7_2.index t (0 : Fin 2) * 1 + 1 * (y 0).val = (y 0).val; omega
  | ⟨1, _⟩ => show win7_2.index t (1 : Fin 2) * 64 + 1 * (y 1).val = (y 1).val; omega

/-- The second weight matrix's block is the matrix. -/
theorem w2_blk (c : Dev nD) (t : Fin cfg7.N) :
    (iblk7 (F := Ideal) V c 3 t : Vec Ideal S64x64 .f32) = (V c main_arg16 : S64x64.Idx → Elt Ideal .f32) := by
  obtain ⟨e0, e1⟩ := idx_w3 t
  funext y
  show V c main_arg16 (((cfg7.win 3).blk t).view.emb y) = V c main_arg16 y
  refine congrArg _ (funext fun a => Fin.ext ?_)
  match a with
  | ⟨0, _⟩ => show win7_3.index t (0 : Fin 2) * 64 + 1 * (y 0).val = (y 0).val; omega
  | ⟨1, _⟩ => show win7_3.index t (1 : Fin 2) * 64 + 1 * (y 1).val = (y 1).val; omega

/-- The second bias row's block is the row. -/
theorem b2_blk (c : Dev nD) (t : Fin cfg7.N) :
    (iblk7 (F := Ideal) V c 4 t : Vec Ideal S1x64 .f32) = (V c main_v137 : S1x64.Idx → Elt Ideal .f32) := by
  obtain ⟨e0, e1⟩ := idx_w4 t
  funext y
  show V c main_v137 (((cfg7.win 4).blk t).view.emb y) = V c main_v137 y
  refine congrArg _ (funext fun a => Fin.ext ?_)
  match a with
  | ⟨0, _⟩ => show win7_4.index t (0 : Fin 2) * 1 + 1 * (y 0).val = (y 0).val; omega
  | ⟨1, _⟩ => show win7_4.index t (1 : Fin 2) * 64 + 1 * (y 1).val = (y 1).val; omega

/-- The third weight matrix's block is the matrix. -/
theorem w3_blk (c : Dev nD) (t : Fin cfg7.N) :
    (iblk7 (F := Ideal) V c 5 t : Vec Ideal S64x8 .f32) = (V c main_arg18 : S64x8.Idx → Elt Ideal .f32) := by
  obtain ⟨e0, e1⟩ := idx_w5 t
  funext y
  show V c main_arg18 (((cfg7.win 5).blk t).view.emb y) = V c main_arg18 y
  refine congrArg _ (funext fun a => Fin.ext ?_)
  match a with
  | ⟨0, _⟩ => show win7_5.index t (0 : Fin 2) * 64 + 1 * (y 0).val = (y 0).val; omega
  | ⟨1, _⟩ => show win7_5.index t (1 : Fin 2) * 8 + 1 * (y 1).val = (y 1).val; omega

/-- The third bias row's block is the row. -/
theorem b3_blk (c : Dev nD) (t : Fin cfg7.N) :
    (iblk7 (F := Ideal) V c 6 t : Vec Ideal S1x8 .f32) = (V c main_v138 : S1x8.Idx → Elt Ideal .f32) := by
  obtain ⟨e0, e1⟩ := idx_w6 t
  funext y
  show V c main_v138 (((cfg7.win 6).blk t).view.emb y) = V c main_v138 y
  refine congrArg _ (funext fun a => Fin.ext ?_)
  match a with
  | ⟨0, _⟩ => show win7_6.index t (0 : Fin 2) * 1 + 1 * (y 0).val = (y 0).val; omega
  | ⟨1, _⟩ => show win7_6.index t (1 : Fin 2) * 8 + 1 * (y 1).val = (y 1).val; omega

/-- The decoder of a block of 5000 consecutive rows starting at row `5000 t`, with the same weights, at block entry `y`
    is the decoder of the whole matrix at the matching entry: rows are independent. -/
theorem decK_block (h' : Cert.Gnn.Mat 5000 32) (h : Cert.Gnn.Mat 50000 32) (w1' w1 : Cert.Gnn.Mat 32 64) (b1' b1 : Cert.Gnn.Mat 1 64)
    (w2' w2 : Cert.Gnn.Mat 64 64) (b2' b2 : Cert.Gnn.Mat 1 64) (w3' w3 : Cert.Gnn.Mat 64 8) (b3' b3 : Cert.Gnn.Mat 1 8)
    (hw1 : w1' = w1) (hb1 : b1' = b1) (hw2 : w2' = w2) (hb2 : b2' = b2) (hw3 : w3' = w3) (hb3 : b3' = b3)
    (t : Nat) (ht : t < 10)
    (hh : ∀ (y : S5000x32.Idx) (i : S50000x32.Idx), (i 0).val = t * 5000 + (y 0).val → (i 1).val = (y 1).val → h' y = h i)
    (y : S5000x8.Idx) (i : S50000x8.Idx) (h0 : (i 0).val = t * 5000 + (y 0).val) (h1 : (i 1).val = (y 1).val) :
    Cert.Gnn.decK h' w1' b1' w2' b2' w3' b3' y = Cert.Gnn.decK h w1 b1 w2 b2 w3 b3 i := by
  subst hw1 hb1 hw2 hb2 hw3 hb3
  obtain ⟨p, q, rfl⟩ : ∃ (p : Fin 5000) (q : Fin 8), y = ix2 p q := ⟨y 0, y 1, eq_ix2 y⟩
  have hf : ∀ p : Fin 5000, t * 5000 + p.val < 50000 := fun p => by have := p.isLt; omega
  have hi : i = ix2 (⟨t * 5000 + p.val, hf p⟩ : Fin 50000) q := by
    funext a
    match a with
    | ⟨0, _⟩ => exact Fin.ext h0
    | ⟨1, _⟩ => exact Fin.ext h1
  rw [hi]
  exact Cert.Gnn.decK_rows h h' w1' b1' w2' b2' w3' b3' (fun p => ⟨t * 5000 + p.val, hf p⟩)
    (fun p k => hh (ix2 p k) (ix2 (⟨t * 5000 + p.val, hf p⟩ : Fin 50000) k) rfl rfl) p q

/-- What the output array ends holding: the decoder of the arrays the region finds. -/
abbrev decArr (c : Dev nD) : Cert.Gnn.Mat 50000 8 :=
  Cert.Gnn.decK (V c main_v135) (V c main_arg14) (V c main_v136) (V c main_arg16) (V c main_v137) (V c main_arg18) (V c main_v138)

/-- What point `t` writes back is block `t` of the decoder of the whole arrays. -/
theorem flushed_eq (c : Dev nD) (t : Fin cfg7.N) :
    (dat7 (F := Ideal) V c).flushed 7 t = ((cfg7.win 7).blk t).view.read (Elt Ideal) (decArr V c) := by
  show (cfg7.win 7).cut (grid7.coords t) ((dat7 (F := Ideal) V c).after 7 t) = _
  rw [after7_7]
  unfold out7_7
  rw [View.canon_unit_zero hz]
  simp only [View.ld_unit_zero (S := S5000x32) hz, View.ld_unit_zero (S := S32x64) hz, View.ld_unit_zero (S := S1x64) hz,
    View.ld_unit_zero (S := S64x64) hz, View.ld_unit_zero (S := S64x8) hz, View.ld_unit_zero (S := S1x8) hz]
  rw [pay_eq]
  have hN : cfg7.N = 10 := N_7
  obtain ⟨e0, e1⟩ := idx_w7 t
  funext j
  refine decK_block (iblk7 (F := Ideal) V c 0 t) (V c main_v135) (iblk7 (F := Ideal) V c 1 t) (V c main_arg14)
    (iblk7 (F := Ideal) V c 2 t) (V c main_v136) (iblk7 (F := Ideal) V c 3 t) (V c main_arg16)
    (iblk7 (F := Ideal) V c 4 t) (V c main_v137) (iblk7 (F := Ideal) V c 5 t) (V c main_arg18)
    (iblk7 (F := Ideal) V c 6 t) (V c main_v138)
    (w1_blk V c t) (b1_blk V c t) (w2_blk V c t) (b2_blk V c t) (w3_blk V c t) (b3_blk V c t)
    t.val (by have := t.isLt; omega) (fun y i h0 h1 => rows_blk V c t y i h0 h1) j (((cfg7.win 7).blk t).view.emb j) ?_ ?_
  · show win7_7.index t (0 : Fin 2) * 5000 + 1 * (j 0).val = t.val * 5000 + (j 0).val; omega
  · show win7_7.index t (1 : Fin 2) * 8 + 1 * (j 1).val = (j 1).val; omega

/-- An index of the output array is in point `t`'s block iff each coordinate is in the block's range on its axis. -/
theorem mem_blk (t : Fin cfg7.N) (i : S50000x8.Idx) :
    i ∈ ((cfg7.win 7).blk t).view.set ↔ ∀ a : Fin 2, win7_7.index t a * S5000x8.size a ≤ (i a).val ∧ (i a).val < win7_7.index t a * S5000x8.size a + S5000x8.size a := by
  show i ∈ ((View.whole main_v139).slice (win7_7.rect t)).set ↔ _
  rw [View.set_slice_whole, Rect.mem_set_unit]
  exact Iff.rfl

/-- Row `r` of the output is written by point `r / 5000`. -/
theorem cover (i : S50000x8.Idx) : ∃ t : Fin cfg7.N, (cfg7.win 7).flush t = true ∧ i ∈ ((cfg7.win 7).blk t).view.set := by
  have hi0 : (i 0).val < 50000 := (i 0).isLt
  have hi1 : (i 1).val < 8 := (i 1).isLt
  have hN : cfg7.N = 10 := N_7
  have ht : (i 0).val / 5000 < cfg7.N := by rw [hN]; omega
  obtain ⟨e0, e1⟩ := idx_w7 ⟨(i 0).val / 5000, ht⟩
  refine ⟨⟨(i 0).val / 5000, ht⟩, flush7_7 _, ?_⟩
  rw [mem_blk]
  intro a
  match a with
  | ⟨0, _⟩ =>
    show win7_7.index ⟨(i 0).val / 5000, ht⟩ (0 : Fin 2) * 5000 ≤ (i 0).val ∧ (i 0).val < win7_7.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win7_7.index ⟨(i 0).val / 5000, ht⟩ (1 : Fin 2) * 8 ≤ (i 1).val ∧ (i 1).val < win7_7.index ⟨(i 0).val / 5000, ht⟩ (1 : Fin 2) * 8 + 8
    rw [e1]; omega

end Dec

variable (V : (c : Dev nD) → (b : Ref sig .tc) → Buf (Elt Ideal) ((c : Thread nD τ).loc b))

/-- What region 7 leaves in its output array: the stage's function of the arrays the region finds. -/
theorem region7_value (c : Dev nD) :
    (dat7 (F := Ideal) V c).arrAt 7 cfg7.N = Cert.Gnn.decK (V c (Pipeline.arrRef spec7 0)) (V c (Pipeline.arrRef spec7 1)) (V c (Pipeline.arrRef spec7 2)) (V c (Pipeline.arrRef spec7 3)) (V c (Pipeline.arrRef spec7 4)) (V c (Pipeline.arrRef spec7 5)) (V c (Pipeline.arrRef spec7 6)) :=
  (dat7 (F := Ideal) V c).arrAt_eq_of_cover 7 (Dec.decArr V c) (fun t _ => Dec.flushed_eq V c t) Dec.cover

end Cert.KernelIdeal.RegionValue

end
-- ==== Proof.KChain.lean ====
/-
  The kernel program's result array at the last boundary: the network of the launch contents. The encoder's node
  states go through the three rounds; one more host stretch turns the decoder's biases into one-row matrices, and the
  last region leaves the decoder of the final node states.
-/
import proofs.«427837_j2834678415534_1_alg».proof.Proof.KRound0
import proofs.«427837_j2834678415534_1_alg».proof.Proof.KRound1
import proofs.«427837_j2834678415534_1_alg».proof.Proof.KRound2
import proofs.«427837_j2834678415534_1_alg».proof.Proof.ArrDec

set_option maxRecDepth 16384

noncomputable section

namespace Cert.KernelIdeal.Value

open Cert.KernelIdeal Cert.KernelIdeal.Gen Cert.KernelIdeal.HostFns Cert.KernelIdeal.HostStages Cert.KernelIdeal.RegionValue
open Idealize.ShloMosaic Idealize.ShloMosaic.TcCoe Idealize.SL.Sem

variable (m : (ℓ : Loc nD τ sig) → Buf (Elt Ideal) ℓ) (ρ : Dev nD → PrngReg) (c : Dev nD)

/-- The decoder: from the boundary after the last round to the result array. -/
theorem decoder_step (H : Cert.Gnn.Mat 50000 32) (hL : Live m ρ c (W20 m ρ c))
    (hH : W20 m ρ c (Proc.devRef .tc main_v135) = H) :
    W22 m ρ c (Proc.devRef .tc main_v139) = Cert.Gnn.decode (paramsOf m ρ c) H := by
  have e21 : W21 m ρ c = StableHlo.after hostOps7 (W20 m ρ c) := rfl
  have k0 : W21 m ρ c (Proc.devRef .tc main_v135) = H := by
    rw [e21]; exact (dec_keep (W20 m ρ c) main_v135 (by decide)).trans hH
  have k1 : W21 m ρ c (Proc.devRef .tc main_arg14) = (paramsOf m ρ c).decW1 := by
    rw [e21]; exact (dec_keep (W20 m ρ c) main_arg14 (by decide)).trans (hL.args main_arg14 (by decide))
  have k2 : W21 m ρ c (Proc.devRef .tc main_v136) = Cert.Gnn.asRow (paramsOf m ρ c).decB1 := by
    rw [e21, dec_b1, hL.args main_arg15 (by decide)]; rfl
  have k3 : W21 m ρ c (Proc.devRef .tc main_arg16) = (paramsOf m ρ c).decW2 := by
    rw [e21]; exact (dec_keep (W20 m ρ c) main_arg16 (by decide)).trans (hL.args main_arg16 (by decide))
  have k4 : W21 m ρ c (Proc.devRef .tc main_v137) = Cert.Gnn.asRow (paramsOf m ρ c).decB2 := by
    rw [e21, dec_b2, hL.args main_arg17 (by decide)]; rfl
  have k5 : W21 m ρ c (Proc.devRef .tc main_arg18) = (paramsOf m ρ c).decW3 := by
    rw [e21]; exact (dec_keep (W20 m ρ c) main_arg18 (by decide)).trans (hL.args main_arg18 (by decide))
  have k6 : W21 m ρ c (Proc.devRef .tc main_v138) = Cert.Gnn.asRow (paramsOf m ρ c).decB3 := by
    rw [e21, dec_b3, hL.args main_arg19 (by decide)]; rfl
  refine (W22_arr m ρ c 7).trans ?_
  rw [region7_value (V21 m ρ) c]
  show Cert.Gnn.decK (W21 m ρ c (Proc.devRef .tc main_v135)) (W21 m ρ c (Proc.devRef .tc main_arg14))
    (W21 m ρ c (Proc.devRef .tc main_v136)) (W21 m ρ c (Proc.devRef .tc main_arg16)) (W21 m ρ c (Proc.devRef .tc main_v137))
    (W21 m ρ c (Proc.devRef .tc main_arg18)) (W21 m ρ c (Proc.devRef .tc main_v138)) = _
  rw [k0, k1, k2, k3, k4, k5, k6]
  rfl

theorem kernel_value : W22 m ρ c (Proc.devRef .tc main_v139)
    = Cert.Gnn.network (paramsOf m ρ c) (gd m ρ c) (gs m ρ c) (ag m ρ c) (L0 m ρ c (Proc.devRef .tc main_arg0)) := by
  obtain ⟨l8, h8⟩ := round0_step m ρ c _ (live2 m ρ c) (states0 m ρ c)
  obtain ⟨l14, h14⟩ := round1_step m ρ c _ l8 h8
  obtain ⟨l20, h20⟩ := round2_step m ρ c _ l14 h14
  rw [decoder_step m ρ c _ l20 h20]
  rfl

end Cert.KernelIdeal.Value

end
-- ==== Proof.KValue.lean ====
/-
  The kernel program's run, read as a value: every weakly fair execution terminates with the result array at the
  network of the launch contents of the argument arrays, and the argument arrays unchanged.
-/
import proofs.«427837_j2834678415534_1_alg».proof.Proof.KRun
import proofs.«427837_j2834678415534_1_alg».proof.Proof.KChain

set_option maxRecDepth 16384

noncomputable section

namespace Cert.KernelIdeal.Value

open Cert.KernelIdeal Cert.KernelIdeal.Gen Idealize.ShloMosaic Idealize.ShloMosaic.TcCoe Idealize.SL.Sem

theorem run_value (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v139)
        = Cert.Gnn.network (paramsOf m ρ c) (gd m ρ c) (gs m ρ c) (ag m ρ c) (L0 m ρ c (Proc.devRef .tc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun r h c => ⟨(h c).1.trans (kernel_value m ρ c), (h c).2⟩) (Cert.KernelIdeal.Named.run_named m ρ)

end Cert.KernelIdeal.Value

end
-- ==== Proof.RefOps.lean ====
/- The host operations of the reference program, stage by stage: the edge lists and degree reciprocals, the encoder, and for each round
   the two row gathers, the message network, the mean aggregation and the gated update; then the decoder. -/
import proofs.«427837_j2834678415534_1_alg».proof.Proof.Gen.ReferenceIdeal
import Idealize.ShloMosaic.Lib.StableHlo.Run

noncomputable section

namespace Cert.ReferenceIdeal.Stages

open Cert.ReferenceIdeal Cert.ReferenceIdeal.Gen Idealize.ShloMosaic Idealize.ShloMosaic.TcCoe Idealize.SL.Sem Idealize.ShloMosaic.StableHlo

variable {F : FTy → Type} [FloatOps F]

/-- Operations 0 … 16 of @main. -/
abbrev opsPre : List (HloOp τ sig (Elt F)) :=
  [ nullary main_v0 (iotaInDim S50000 32 0),
    unary main_arg1 main_v1 ((extractStridedSlice S1x800000 ![0, 0] · slices_S2x800000_S1x800000_0_0) : (⟨S2x800000, .i32⟩ : BufTy).Contents (Elt F) → (⟨S1x800000, .i32⟩ : BufTy).Contents (Elt F)),
    reshape main_v1 main_v2 rfl shapeCasts_S1x800000_S800000,
    binary main_v2 main_v0 main_v3 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    unary main_arg1 main_v4 ((extractStridedSlice S1x800000 ![1, 0] · slices_S2x800000_S1x800000_1_0) : (⟨S2x800000, .i32⟩ : BufTy).Contents (Elt F) → (⟨S1x800000, .i32⟩ : BufTy).Contents (Elt F)),
    reshape main_v4 main_v5 rfl shapeCasts_S1x800000_S800000,
    binary main_v5 main_v0 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    nullary main_cst (constant S_ .f32 0x3F800000#32),
    unary main_cst main_v7 (broadcastInDim S850000 ![] bcast_S_S850000 : (⟨S_, .f32⟩ : BufTy).Contents (Elt F) → (⟨S850000, .f32⟩ : BufTy).Contents (Elt F)),
    nullary main_cst_0 (constant S_ .f32 0x00000000#32),
    unary main_cst_0 main_v8 (broadcastInDim S50000 ![] bcast_S_S50000 : (⟨S_, .f32⟩ : BufTy).Contents (Elt F) → (⟨S50000, .f32⟩ : BufTy).Contents (Elt F)),
    unary main_v6 main_v9 (broadcastInDim S850000x1 ![0] bcast_S850000_S850000x1_0 : (⟨S850000, .i32⟩ : BufTy).Contents (Elt F) → (⟨S850000x1, .i32⟩ : BufTy).Contents (Elt F)),
    ternary main_v8 main_v9 main_v7 main_v10 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_1 (constant S_ .f32 0x3F800000#32),
    unary main_cst_1 main_v11 (broadcastInDim S50000 ![] bcast_S_S50000 : (⟨S_, .f32⟩ : BufTy).Contents (Elt F) → (⟨S50000, .f32⟩ : BufTy).Contents (Elt F)),
    binary main_v11 main_v10 main_v12 (Host.divf : (⟨S50000, .f32⟩ : BufTy).Contents (Elt F) → (⟨S50000, .f32⟩ : BufTy).Contents (Elt F) → (⟨S50000, .f32⟩ : BufTy).Contents (Elt F)),
    unary main_v12 main_v13 (broadcastInDim S50000x1 ![0] bcast_S50000_S50000x1_0 : (⟨S50000, .f32⟩ : BufTy).Contents (Elt F) → (⟨S50000x1, .f32⟩ : BufTy).Contents (Elt F)) ]

/-- Operations 17 … 23 of @main. -/
abbrev opsEnc : List (HloOp τ sig (Elt F)) :=
  [ binary main_arg0 main_arg2 main_v14 ((fun l r => Host.dotGeneral dot_S50000x64_S64x32_S50000x32_1_0_0_1_n_n none l r) : (⟨S50000x64, .f32⟩ : BufTy).Contents (Elt F) → (⟨S64x32, .f32⟩ : BufTy).Contents (Elt F) → (⟨S50000x32, .f32⟩ : BufTy).Contents (Elt F)),
    unary main_arg3 main_v15 (broadcastInDim S1x32 ![1] bcast_S32_S1x32_1 : (⟨S32, .f32⟩ : BufTy).Contents (Elt F) → (⟨S1x32, .f32⟩ : BufTy).Contents (Elt F)),
    unary main_v15 main_v16 (broadcastInDim S50000x32 ![0, 1] bcast_S1x32_S50000x32_0_1 : (⟨S1x32, .f32⟩ : BufTy).Contents (Elt F) → (⟨S50000x32, .f32⟩ : BufTy).Contents (Elt F)),
    binary main_v14 main_v16 main_v17 (addf : (⟨S50000x32, .f32⟩ : BufTy).Contents (Elt F) → (⟨S50000x32, .f32⟩ : BufTy).Contents (Elt F) → (⟨S50000x32, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S50000x32, .f32⟩) main_call0_v0) (broadcastInDim S50000x32 ![] bcast_S_S50000x32),
    TRef.binary (TRef.of (T := ⟨S50000x32, .f32⟩) main_v17) (TRef.of (T := ⟨S50000x32, .f32⟩) main_call0_v0) (TRef.of (T := ⟨S50000x32, .f32⟩) main_v18) maximumf ]

/-- Operations 24 … 41 of @main. -/
abbrev opsGat0 : List (HloOp τ sig (Elt F)) :=
  [ nullary main_c (constantI S_ 32 0#32),
    unary main_c main_v19 (broadcastInDim S850000 ![] bcast_S_S850000 : (⟨S_, .i32⟩ : BufTy).Contents (Elt F) → (⟨S850000, .i32⟩ : BufTy).Contents (Elt F)),
    binary main_v6 main_v19 main_v20 (cmpi .slt : (⟨S850000, .i32⟩ : BufTy).Contents (Elt F) → (⟨S850000, .i32⟩ : BufTy).Contents (Elt F) → (⟨S850000, .i1⟩ : BufTy).Contents (Elt F)),
    nullary main_c_2 (constantI S_ 32 50000#32),
    unary main_c_2 main_v21 (broadcastInDim S850000 ![] bcast_S_S850000 : (⟨S_, .i32⟩ : BufTy).Contents (Elt F) → (⟨S850000, .i32⟩ : BufTy).Contents (Elt F)),
    binary main_v6 main_v21 main_v22 (addi : (⟨S850000, .i32⟩ : BufTy).Contents (Elt F) → (⟨S850000, .i32⟩ : BufTy).Contents (Elt F) → (⟨S850000, .i32⟩ : BufTy).Contents (Elt F)),
    ternary main_v20 main_v22 main_v6 main_v23 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v23 main_v24 (broadcastInDim S850000x1 ![0] bcast_S850000_S850000x1_0 : (⟨S850000, .i32⟩ : BufTy).Contents (Elt F) → (⟨S850000x1, .i32⟩ : BufTy).Contents (Elt F)),
    binary main_v18 main_v24 main_v25 ((fun x i => Host.gather gather_S50000x32_S850000x1_S850000x32_1_0_n_n_0_1_132 x i) : (⟨S50000x32, .f32⟩ : BufTy).Contents (Elt F) → (⟨S850000x1, .i32⟩ : BufTy).Contents (Elt F) → (⟨S850000x32, .f32⟩ : BufTy).Contents (Elt F)),
    nullary main_c_3 (constantI S_ 32 0#32),
    unary main_c_3 main_v26 (broadcastInDim S850000 ![] bcast_S_S850000 : (⟨S_, .i32⟩ : BufTy).Contents (Elt F) → (⟨S850000, .i32⟩ : BufTy).Contents (Elt F)),
    binary main_v3 main_v26 main_v27 (cmpi .slt : (⟨S850000, .i32⟩ : BufTy).Contents (Elt F) → (⟨S850000, .i32⟩ : BufTy).Contents (Elt F) → (⟨S850000, .i1⟩ : BufTy).Contents (Elt F)),
    nullary main_c_4 (constantI S_ 32 50000#32),
    unary main_c_4 main_v28 (broadcastInDim S850000 ![] bcast_S_S850000 : (⟨S_, .i32⟩ : BufTy).Contents (Elt F) → (⟨S850000, .i32⟩ : BufTy).Contents (Elt F)),
    binary main_v3 main_v28 main_v29 (addi : (⟨S850000, .i32⟩ : BufTy).Contents (Elt F) → (⟨S850000, .i32⟩ : BufTy).Contents (Elt F) → (⟨S850000, .i32⟩ : BufTy).Contents (Elt F)),
    ternary main_v27 main_v29 main_v3 main_v30 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v30 main_v31 (broadcastInDim S850000x1 ![0] bcast_S850000_S850000x1_0 : (⟨S850000, .i32⟩ : BufTy).Contents (Elt F) → (⟨S850000x1, .i32⟩ : BufTy).Contents (Elt F)),
    binary main_v18 main_v31 main_v32 ((fun x i => Host.gather gather_S50000x32_S850000x1_S850000x32_1_0_n_n_0_1_132 x i) : (⟨S50000x32, .f32⟩ : BufTy).Contents (Elt F) → (⟨S850000x1, .i32⟩ : BufTy).Contents (Elt F) → (⟨S850000x32, .f32⟩ : BufTy).Contents (Elt F)) ]

/-- Operations 42 … 68 of @main. -/
abbrev opsMsg0 : List (HloOp τ sig (Elt F)) :=
  [ binary main_v25 main_v32 main_v33 ((fun a b => concatenate S850000x64 1 [⟨S850000x32, a⟩, ⟨S850000x32, b⟩] concatenates_S850000x32_S850000x32_S850000x64_d1) : (⟨S850000x32, .f32⟩ : BufTy).Contents (Elt F) → (⟨S850000x32, .f32⟩ : BufTy).Contents (Elt F) → (⟨S850000x64, .f32⟩ : BufTy).Contents (Elt F)),
    unary main_arg4 main_v34 ((extractStridedSlice S1x64x64 ![0, 0, 0] · slices_S3x64x64_S1x64x64_0_0_0) : (⟨S3x64x64, .f32⟩ : BufTy).Contents (Elt F) → (⟨S1x64x64, .f32⟩ : BufTy).Contents (Elt F)),
    reshape main_v34 main_v35 rfl shapeCasts_S1x64x64_S64x64,
    binary main_v33 main_v35 main_v36 ((fun l r => Host.dotGeneral dot_S850000x64_S64x64_S850000x64_1_0_0_1_n_n none l r) : (⟨S850000x64, .f32⟩ : BufTy).Contents (Elt F) → (⟨S64x64, .f32⟩ : BufTy).Contents (Elt F) → (⟨S850000x64, .f32⟩ : BufTy).Contents (Elt F)),
    unary main_arg5 main_v37 ((extractStridedSlice S1x64 ![0, 0] · slices_S3x64_S1x64_0_0) : (⟨S3x64, .f32⟩ : BufTy).Contents (Elt F) → (⟨S1x64, .f32⟩ : BufTy).Contents (Elt F)),
    reshape main_v37 main_v38 rfl shapeCasts_S1x64_S64,
    unary main_v38 main_v39 (broadcastInDim S1x64 ![1] bcast_S64_S1x64_1 : (⟨S64, .f32⟩ : BufTy).Contents (Elt F) → (⟨S1x64, .f32⟩ : BufTy).Contents (Elt F)),
    unary main_v39 main_v40 (broadcastInDim S850000x64 ![0, 1] bcast_S1x64_S850000x64_0_1 : (⟨S1x64, .f32⟩ : BufTy).Contents (Elt F) → (⟨S850000x64, .f32⟩ : BufTy).Contents (Elt F)),
    binary main_v36 main_v40 main_v41 (addf : (⟨S850000x64, .f32⟩ : BufTy).Contents (Elt F) → (⟨S850000x64, .f32⟩ : BufTy).Contents (Elt F) → (⟨S850000x64, .f32⟩ : BufTy).Contents (Elt F)),
    unary main_v41 main_v42 (Host.tanh : (⟨S850000x64, .f32⟩ : BufTy).Contents (Elt F) → (⟨S850000x64, .f32⟩ : BufTy).Contents (Elt F)),
    unary main_arg6 main_v43 ((extractStridedSlice S1x64x64 ![0, 0, 0] · slices_S3x64x64_S1x64x64_0_0_0) : (⟨S3x64x64, .f32⟩ : BufTy).Contents (Elt F) → (⟨S1x64x64, .f32⟩ : BufTy).Contents (Elt F)),
    reshape main_v43 main_v44 rfl shapeCasts_S1x64x64_S64x64,
    binary main_v42 main_v44 main_v45 ((fun l r => Host.dotGeneral dot_S850000x64_S64x64_S850000x64_1_0_0_1_n_n none l r) : (⟨S850000x64, .f32⟩ : BufTy).Contents (Elt F) → (⟨S64x64, .f32⟩ : BufTy).Contents (Elt F) → (⟨S850000x64, .f32⟩ : BufTy).Contents (Elt F)),
    unary main_arg7 main_v46 ((extractStridedSlice S1x64 ![0, 0] · slices_S3x64_S1x64_0_0) : (⟨S3x64, .f32⟩ : BufTy).Contents (Elt F) → (⟨S1x64, .f32⟩ : BufTy).Contents (Elt F)),
    reshape main_v46 main_v47 rfl shapeCasts_S1x64_S64,
    unary main_v47 main_v48 (broadcastInDim S1x64 ![1] bcast_S64_S1x64_1 : (⟨S64, .f32⟩ : BufTy).Contents (Elt F) → (⟨S1x64, .f32⟩ : BufTy).Contents (Elt F)),
    unary main_v48 main_v49 (broadcastInDim S850000x64 ![0, 1] bcast_S1x64_S850000x64_0_1 : (⟨S1x64, .f32⟩ : BufTy).Contents (Elt F) → (⟨S850000x64, .f32⟩ : BufTy).Contents (Elt F)),
    binary main_v45 main_v49 main_v50 (addf : (⟨S850000x64, .f32⟩ : BufTy).Contents (Elt F) → (⟨S850000x64, .f32⟩ : BufTy).Contents (Elt F) → (⟨S850000x64, .f32⟩ : BufTy).Contents (Elt F)),
    unary main_v50 main_v51 (Host.tanh : (⟨S850000x64, .f32⟩ : BufTy).Contents (Elt F) → (⟨S850000x64, .f32⟩ : BufTy).Contents (Elt F)),
    unary main_arg8 main_v52 ((extractStridedSlice S1x64x32 ![0, 0, 0] · slices_S3x64x32_S1x64x32_0_0_0) : (⟨S3x64x32, .f32⟩ : BufTy).Contents (Elt F) → (⟨S1x64x32, .f32⟩ : BufTy).Contents (Elt F)),
    reshape main_v52 main_v53 rfl shapeCasts_S1x64x32_S64x32,
    binary main_v51 main_v53 main_v54 ((fun l r => Host.dotGeneral dot_S850000x64_S64x32_S850000x32_1_0_0_1_n_n none l r) : (⟨S850000x64, .f32⟩ : BufTy).Contents (Elt F) → (⟨S64x32, .f32⟩ : BufTy).Contents (Elt F) → (⟨S850000x32, .f32⟩ : BufTy).Contents (Elt F)),
    unary main_arg9 main_v55 ((extractStridedSlice S1x32 ![0, 0] · slices_S3x32_S1x32_0_0) : (⟨S3x32, .f32⟩ : BufTy).Contents (Elt F) → (⟨S1x32, .f32⟩ : BufTy).Contents (Elt F)),
    reshape main_v55 main_v56 rfl shapeCasts_S1x32_S32,
    unary main_v56 main_v57 (broadcastInDim S1x32 ![1] bcast_S32_S1x32_1 : (⟨S32, .f32⟩ : BufTy).Contents (Elt F) → (⟨S1x32, .f32⟩ : BufTy).Contents (Elt F)),
    unary main_v57 main_v58 (broadcastInDim S850000x32 ![0, 1] bcast_S1x32_S850000x32_0_1 : (⟨S1x32, .f32⟩ : BufTy).Contents (Elt F) → (⟨S850000x32, .f32⟩ : BufTy).Contents (Elt F)),
    binary main_v54 main_v58 main_v59 (addf : (⟨S850000x32, .f32⟩ : BufTy).Contents (Elt F) → (⟨S850000x32, .f32⟩ : BufTy).Contents (Elt F) → (⟨S850000x32, .f32⟩ : BufTy).Contents (Elt F)) ]

/-- Operations 69 … 74 of @main. -/
abbrev opsAgg0 : List (HloOp τ sig (Elt F)) :=
  [ nullary main_cst_5 (constant S_ .f32 0x00000000#32),
    unary main_cst_5 main_v60 (broadcastInDim S50000x32 ![] bcast_S_S50000x32 : (⟨S_, .f32⟩ : BufTy).Contents (Elt F) → (⟨S50000x32, .f32⟩ : BufTy).Contents (Elt F)),
    unary main_v6 main_v61 (broadcastInDim S850000x1 ![0] bcast_S850000_S850000x1_0 : (⟨S850000, .i32⟩ : BufTy).Contents (Elt F) → (⟨S850000x1, .i32⟩ : BufTy).Contents (Elt F)),
    ternary main_v60 main_v61 main_v59 main_v62 ((fun x i u => Host.scatterAdd scatter_S50000x32_S850000x1_S850000x32_1_0_0_1 x i u) : (⟨S50000x32, .f32⟩ : BufTy).Contents (Elt F) → (⟨S850000x1, .i32⟩ : BufTy).Contents (Elt F) → (⟨S850000x32, .f32⟩ : BufTy).Contents (Elt F) → (⟨S50000x32, .f32⟩ : BufTy).Contents (Elt F)),
    unary main_v13 main_v63 (broadcastInDim S50000x32 ![0, 1] bcast_S50000x1_S50000x32_0_1 : (⟨S50000x1, .f32⟩ : BufTy).Contents (Elt F) → (⟨S50000x32, .f32⟩ : BufTy).Contents (Elt F)),
    binary main_v62 main_v63 main_v64 (mulf : (⟨S50000x32, .f32⟩ : BufTy).Contents (Elt F) → (⟨S50000x32, .f32⟩ : BufTy).Contents (Elt F) → (⟨S50000x32, .f32⟩ : BufTy).Contents (Elt F)) ]

/-- Operations 75 … 125 of @main. -/
abbrev opsGru0 : List (HloOp τ sig (Elt F)) :=
  [ unary main_arg10 main_v65 ((extractStridedSlice S1x96x32 ![0, 0, 0] · slices_S3x96x32_S1x96x32_0_0_0) : (⟨S3x96x32, .f32⟩ : BufTy).Contents (Elt F) → (⟨S1x96x32, .f32⟩ : BufTy).Contents (Elt F)),
    reshape main_v65 main_v66 rfl shapeCasts_S1x96x32_S96x32,
    unary main_v66 main_v67 ((transpose S32x96 [1, 0] · transposes_S96x32_S32x96_1_0) : (⟨S96x32, .f32⟩ : BufTy).Contents (Elt F) → (⟨S32x96, .f32⟩ : BufTy).Contents (Elt F)),
    binary main_v64 main_v67 main_v68 ((fun l r => Host.dotGeneral dot_S50000x32_S32x96_S50000x96_1_0_0_1_n_n none l r) : (⟨S50000x32, .f32⟩ : BufTy).Contents (Elt F) → (⟨S32x96, .f32⟩ : BufTy).Contents (Elt F) → (⟨S50000x96, .f32⟩ : BufTy).Contents (Elt F)),
    unary main_arg12 main_v69 ((extractStridedSlice S1x96 ![0, 0] · slices_S3x96_S1x96_0_0) : (⟨S3x96, .f32⟩ : BufTy).Contents (Elt F) → (⟨S1x96, .f32⟩ : BufTy).Contents (Elt F)),
    reshape main_v69 main_v70 rfl shapeCasts_S1x96_S96,
    unary main_v70 main_v71 (broadcastInDim S1x96 ![1] bcast_S96_S1x96_1 : (⟨S96, .f32⟩ : BufTy).Contents (Elt F) → (⟨S1x96, .f32⟩ : BufTy).Contents (Elt F)),
    unary main_v71 main_v72 (broadcastInDim S50000x96 ![0, 1] bcast_S1x96_S50000x96_0_1 : (⟨S1x96, .f32⟩ : BufTy).Contents (Elt F) → (⟨S50000x96, .f32⟩ : BufTy).Contents (Elt F)),
    binary main_v68 main_v72 main_v73 (addf : (⟨S50000x96, .f32⟩ : BufTy).Contents (Elt F) → (⟨S50000x96, .f32⟩ : BufTy).Contents (Elt F) → (⟨S50000x96, .f32⟩ : BufTy).Contents (Elt F)),
    unary main_arg11 main_v74 ((extractStridedSlice S1x96x32 ![0, 0, 0] · slices_S3x96x32_S1x96x32_0_0_0) : (⟨S3x96x32, .f32⟩ : BufTy).Contents (Elt F) → (⟨S1x96x32, .f32⟩ : BufTy).Contents (Elt F)),
    reshape main_v74 main_v75 rfl shapeCasts_S1x96x32_S96x32,
    unary main_v75 main_v76 ((transpose S32x96 [1, 0] · transposes_S96x32_S32x96_1_0) : (⟨S96x32, .f32⟩ : BufTy).Contents (Elt F) → (⟨S32x96, .f32⟩ : BufTy).Contents (Elt F)),
    binary main_v18 main_v76 main_v77 ((fun l r => Host.dotGeneral dot_S50000x32_S32x96_S50000x96_1_0_0_1_n_n none l r) : (⟨S50000x32, .f32⟩ : BufTy).Contents (Elt F) → (⟨S32x96, .f32⟩ : BufTy).Contents (Elt F) → (⟨S50000x96, .f32⟩ : BufTy).Contents (Elt F)),
    unary main_arg13 main_v78 ((extractStridedSlice S1x96 ![0, 0] · slices_S3x96_S1x96_0_0) : (⟨S3x96, .f32⟩ : BufTy).Contents (Elt F) → (⟨S1x96, .f32⟩ : BufTy).Contents (Elt F)),
    reshape main_v78 main_v79 rfl shapeCasts_S1x96_S96,
    unary main_v79 main_v80 (broadcastInDim S1x96 ![1] bcast_S96_S1x96_1 : (⟨S96, .f32⟩ : BufTy).Contents (Elt F) → (⟨S1x96, .f32⟩ : BufTy).Contents (Elt F)),
    unary main_v80 main_v81 (broadcastInDim S50000x96 ![0, 1] bcast_S1x96_S50000x96_0_1 : (⟨S1x96, .f32⟩ : BufTy).Contents (Elt F) → (⟨S50000x96, .f32⟩ : BufTy).Contents (Elt F)),
    binary main_v77 main_v81 main_v82 (addf : (⟨S50000x96, .f32⟩ : BufTy).Contents (Elt F) → (⟨S50000x96, .f32⟩ : BufTy).Contents (Elt F) → (⟨S50000x96, .f32⟩ : BufTy).Contents (Elt F)),
    unary main_v73 main_v83 ((extractStridedSlice S50000x32 ![0, 0] · slices_S50000x96_S50000x32_0_0) : (⟨S50000x96, .f32⟩ : BufTy).Contents (Elt F) → (⟨S50000x32, .f32⟩ : BufTy).Contents (Elt F)),
    unary main_v73 main_v84 ((extractStridedSlice S50000x32 ![0, 32] · slices_S50000x96_S50000x32_0_32) : (⟨S50000x96, .f32⟩ : BufTy).Contents (Elt F) → (⟨S50000x32, .f32⟩ : BufTy).Contents (Elt F)),
    unary main_v73 main_v85 ((extractStridedSlice S50000x32 ![0, 64] · slices_S50000x96_S50000x32_0_64) : (⟨S50000x96, .f32⟩ : BufTy).Contents (Elt F) → (⟨S50000x32, .f32⟩ : BufTy).Contents (Elt F)),
    unary main_v82 main_v86 ((extractStridedSlice S50000x32 ![0, 0] · slices_S50000x96_S50000x32_0_0) : (⟨S50000x96, .f32⟩ : BufTy).Contents (Elt F) → (⟨S50000x32, .f32⟩ : BufTy).Contents (Elt F)),
    unary main_v82 main_v87 ((extractStridedSlice S50000x32 ![0, 32] · slices_S50000x96_S50000x32_0_32) : (⟨S50000x96, .f32⟩ : BufTy).Contents (Elt F) → (⟨S50000x32, .f32⟩ : BufTy).Contents (Elt F)),
    unary main_v82 main_v88 ((extractStridedSlice S50000x32 ![0, 64] · slices_S50000x96_S50000x32_0_64) : (⟨S50000x96, .f32⟩ : BufTy).Contents (Elt F) → (⟨S50000x32, .f32⟩ : BufTy).Contents (Elt F)),
    binary main_v83 main_v86 main_v89 (addf : (⟨S50000x32, .f32⟩ : BufTy).Contents (Elt F) → (⟨S50000x32, .f32⟩ : BufTy).Contents (Elt F) → (⟨S50000x32, .f32⟩ : BufTy).Contents (Elt F)),
    unary main_v89 main_v90 (Host.negf : (⟨S50000x32, .f32⟩ : BufTy).Contents (Elt F) → (⟨S50000x32, .f32⟩ : BufTy).Contents (Elt F)),
    unary main_v90 main_v91 (Host.exp : (⟨S50000x32, .f32⟩ : BufTy).Contents (Elt F) → (⟨S50000x32, .f32⟩ : BufTy).Contents (Elt F)),
    nullary main_cst_6 (constant S_ .f32 0x3F800000#32),
    unary main_cst_6 main_v92 (broadcastInDim S50000x32 ![] bcast_S_S50000x32 : (⟨S_, .f32⟩ : BufTy).Contents (Elt F) → (⟨S50000x32, .f32⟩ : BufTy).Contents (Elt F)),
    binary main_v92 main_v91 main_v93 (addf : (⟨S50000x32, .f32⟩ : BufTy).Contents (Elt F) → (⟨S50000x32, .f32⟩ : BufTy).Contents (Elt F) → (⟨S50000x32, .f32⟩ : BufTy).Contents (Elt F)),
    nullary main_cst_7 (constant S_ .f32 0x3F800000#32),
    unary main_cst_7 main_v94 (broadcastInDim S50000x32 ![] bcast_S_S50000x32 : (⟨S_, .f32⟩ : BufTy).Contents (Elt F) → (⟨S50000x32, .f32⟩ : BufTy).Contents (Elt F)),
    binary main_v94 main_v93 main_v95 (Host.divf : (⟨S50000x32, .f32⟩ : BufTy).Contents (Elt F) → (⟨S50000x32, .f32⟩ : BufTy).Contents (Elt F) → (⟨S50000x32, .f32⟩ : BufTy).Contents (Elt F)),
    binary main_v84 main_v87 main_v96 (addf : (⟨S50000x32, .f32⟩ : BufTy).Contents (Elt F) → (⟨S50000x32, .f32⟩ : BufTy).Contents (Elt F) → (⟨S50000x32, .f32⟩ : BufTy).Contents (Elt F)),
    unary main_v96 main_v97 (Host.negf : (⟨S50000x32, .f32⟩ : BufTy).Contents (Elt F) → (⟨S50000x32, .f32⟩ : BufTy).Contents (Elt F)),
    unary main_v97 main_v98 (Host.exp : (⟨S50000x32, .f32⟩ : BufTy).Contents (Elt F) → (⟨S50000x32, .f32⟩ : BufTy).Contents (Elt F)),
    nullary main_cst_8 (constant S_ .f32 0x3F800000#32),
    unary main_cst_8 main_v99 (broadcastInDim S50000x32 ![] bcast_S_S50000x32 : (⟨S_, .f32⟩ : BufTy).Contents (Elt F) → (⟨S50000x32, .f32⟩ : BufTy).Contents (Elt F)),
    binary main_v99 main_v98 main_v100 (addf : (⟨S50000x32, .f32⟩ : BufTy).Contents (Elt F) → (⟨S50000x32, .f32⟩ : BufTy).Contents (Elt F) → (⟨S50000x32, .f32⟩ : BufTy).Contents (Elt F)),
    nullary main_cst_9 (constant S_ .f32 0x3F800000#32),
    unary main_cst_9 main_v101 (broadcastInDim S50000x32 ![] bcast_S_S50000x32 : (⟨S_, .f32⟩ : BufTy).Contents (Elt F) → (⟨S50000x32, .f32⟩ : BufTy).Contents (Elt F)),
    binary main_v101 main_v100 main_v102 (Host.divf : (⟨S50000x32, .f32⟩ : BufTy).Contents (Elt F) → (⟨S50000x32, .f32⟩ : BufTy).Contents (Elt F) → (⟨S50000x32, .f32⟩ : BufTy).Contents (Elt F)),
    binary main_v95 main_v88 main_v103 (mulf : (⟨S50000x32, .f32⟩ : BufTy).Contents (Elt F) → (⟨S50000x32, .f32⟩ : BufTy).Contents (Elt F) → (⟨S50000x32, .f32⟩ : BufTy).Contents (Elt F)),
    binary main_v85 main_v103 main_v104 (addf : (⟨S50000x32, .f32⟩ : BufTy).Contents (Elt F) → (⟨S50000x32, .f32⟩ : BufTy).Contents (Elt F) → (⟨S50000x32, .f32⟩ : BufTy).Contents (Elt F)),
    unary main_v104 main_v105 (Host.tanh : (⟨S50000x32, .f32⟩ : BufTy).Contents (Elt F) → (⟨S50000x32, .f32⟩ : BufTy).Contents (Elt F)),
    nullary main_cst_10 (constant S_ .f32 0x3F800000#32),
    unary main_cst_10 main_v106 (broadcastInDim S50000x32 ![] bcast_S_S50000x32 : (⟨S_, .f32⟩ : BufTy).Contents (Elt F) → (⟨S50000x32, .f32⟩ : BufTy).Contents (Elt F)),
    binary main_v106 main_v102 main_v107 (subf : (⟨S50000x32, .f32⟩ : BufTy).Contents (Elt F) → (⟨S50000x32, .f32⟩ : BufTy).Contents (Elt F) → (⟨S50000x32, .f32⟩ : BufTy).Contents (Elt F)),
    binary main_v107 main_v105 main_v108 (mulf : (⟨S50000x32, .f32⟩ : BufTy).Contents (Elt F) → (⟨S50000x32, .f32⟩ : BufTy).Contents (Elt F) → (⟨S50000x32, .f32⟩ : BufTy).Contents (Elt F)),
    binary main_v102 main_v18 main_v109 (mulf : (⟨S50000x32, .f32⟩ : BufTy).Contents (Elt F) → (⟨S50000x32, .f32⟩ : BufTy).Contents (Elt F) → (⟨S50000x32, .f32⟩ : BufTy).Contents (Elt F)),
    binary main_v108 main_v109 main_v110 (addf : (⟨S50000x32, .f32⟩ : BufTy).Contents (Elt F) → (⟨S50000x32, .f32⟩ : BufTy).Contents (Elt F) → (⟨S50000x32, .f32⟩ : BufTy).Contents (Elt F)) ]

/-- Operations 126 … 143 of @main. -/
abbrev opsGat1 : List (HloOp τ sig (Elt F)) :=
  [ nullary main_c_11 (constantI S_ 32 0#32),
    unary main_c_11 main_v111 (broadcastInDim S850000 ![] bcast_S_S850000 : (⟨S_, .i32⟩ : BufTy).Contents (Elt F) → (⟨S850000, .i32⟩ : BufTy).Contents (Elt F)),
    binary main_v6 main_v111 main_v112 (cmpi .slt : (⟨S850000, .i32⟩ : BufTy).Contents (Elt F) → (⟨S850000, .i32⟩ : BufTy).Contents (Elt F) → (⟨S850000, .i1⟩ : BufTy).Contents (Elt F)),
    nullary main_c_12 (constantI S_ 32 50000#32),
    unary main_c_12 main_v113 (broadcastInDim S850000 ![] bcast_S_S850000 : (⟨S_, .i32⟩ : BufTy).Contents (Elt F) → (⟨S850000, .i32⟩ : BufTy).Contents (Elt F)),
    binary main_v6 main_v113 main_v114 (addi : (⟨S850000, .i32⟩ : BufTy).Contents (Elt F) → (⟨S850000, .i32⟩ : BufTy).Contents (Elt F) → (⟨S850000, .i32⟩ : BufTy).Contents (Elt F)),
    ternary main_v112 main_v114 main_v6 main_v115 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v115 main_v116 (broadcastInDim S850000x1 ![0] bcast_S850000_S850000x1_0 : (⟨S850000, .i32⟩ : BufTy).Contents (Elt F) → (⟨S850000x1, .i32⟩ : BufTy).Contents (Elt F)),
    binary main_v110 main_v116 main_v117 ((fun x i => Host.gather gather_S50000x32_S850000x1_S850000x32_1_0_n_n_0_1_132 x i) : (⟨S50000x32, .f32⟩ : BufTy).Contents (Elt F) → (⟨S850000x1, .i32⟩ : BufTy).Contents (Elt F) → (⟨S850000x32, .f32⟩ : BufTy).Contents (Elt F)),
    nullary main_c_13 (constantI S_ 32 0#32),
    unary main_c_13 main_v118 (broadcastInDim S850000 ![] bcast_S_S850000 : (⟨S_, .i32⟩ : BufTy).Contents (Elt F) → (⟨S850000, .i32⟩ : BufTy).Contents (Elt F)),
    binary main_v3 main_v118 main_v119 (cmpi .slt : (⟨S850000, .i32⟩ : BufTy).Contents (Elt F) → (⟨S850000, .i32⟩ : BufTy).Contents (Elt F) → (⟨S850000, .i1⟩ : BufTy).Contents (Elt F)),
    nullary main_c_14 (constantI S_ 32 50000#32),
    unary main_c_14 main_v120 (broadcastInDim S850000 ![] bcast_S_S850000 : (⟨S_, .i32⟩ : BufTy).Contents (Elt F) → (⟨S850000, .i32⟩ : BufTy).Contents (Elt F)),
    binary main_v3 main_v120 main_v121 (addi : (⟨S850000, .i32⟩ : BufTy).Contents (Elt F) → (⟨S850000, .i32⟩ : BufTy).Contents (Elt F) → (⟨S850000, .i32⟩ : BufTy).Contents (Elt F)),
    ternary main_v119 main_v121 main_v3 main_v122 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v122 main_v123 (broadcastInDim S850000x1 ![0] bcast_S850000_S850000x1_0 : (⟨S850000, .i32⟩ : BufTy).Contents (Elt F) → (⟨S850000x1, .i32⟩ : BufTy).Contents (Elt F)),
    binary main_v110 main_v123 main_v124 ((fun x i => Host.gather gather_S50000x32_S850000x1_S850000x32_1_0_n_n_0_1_132 x i) : (⟨S50000x32, .f32⟩ : BufTy).Contents (Elt F) → (⟨S850000x1, .i32⟩ : BufTy).Contents (Elt F) → (⟨S850000x32, .f32⟩ : BufTy).Contents (Elt F)) ]

/-- Operations 144 … 170 of @main. -/
abbrev opsMsg1 : List (HloOp τ sig (Elt F)) :=
  [ binary main_v117 main_v124 main_v125 ((fun a b => concatenate S850000x64 1 [⟨S850000x32, a⟩, ⟨S850000x32, b⟩] concatenates_S850000x32_S850000x32_S850000x64_d1) : (⟨S850000x32, .f32⟩ : BufTy).Contents (Elt F) → (⟨S850000x32, .f32⟩ : BufTy).Contents (Elt F) → (⟨S850000x64, .f32⟩ : BufTy).Contents (Elt F)),
    unary main_arg4 main_v126 ((extractStridedSlice S1x64x64 ![1, 0, 0] · slices_S3x64x64_S1x64x64_1_0_0) : (⟨S3x64x64, .f32⟩ : BufTy).Contents (Elt F) → (⟨S1x64x64, .f32⟩ : BufTy).Contents (Elt F)),
    reshape main_v126 main_v127 rfl shapeCasts_S1x64x64_S64x64,
    binary main_v125 main_v127 main_v128 ((fun l r => Host.dotGeneral dot_S850000x64_S64x64_S850000x64_1_0_0_1_n_n none l r) : (⟨S850000x64, .f32⟩ : BufTy).Contents (Elt F) → (⟨S64x64, .f32⟩ : BufTy).Contents (Elt F) → (⟨S850000x64, .f32⟩ : BufTy).Contents (Elt F)),
    unary main_arg5 main_v129 ((extractStridedSlice S1x64 ![1, 0] · slices_S3x64_S1x64_1_0) : (⟨S3x64, .f32⟩ : BufTy).Contents (Elt F) → (⟨S1x64, .f32⟩ : BufTy).Contents (Elt F)),
    reshape main_v129 main_v130 rfl shapeCasts_S1x64_S64,
    unary main_v130 main_v131 (broadcastInDim S1x64 ![1] bcast_S64_S1x64_1 : (⟨S64, .f32⟩ : BufTy).Contents (Elt F) → (⟨S1x64, .f32⟩ : BufTy).Contents (Elt F)),
    unary main_v131 main_v132 (broadcastInDim S850000x64 ![0, 1] bcast_S1x64_S850000x64_0_1 : (⟨S1x64, .f32⟩ : BufTy).Contents (Elt F) → (⟨S850000x64, .f32⟩ : BufTy).Contents (Elt F)),
    binary main_v128 main_v132 main_v133 (addf : (⟨S850000x64, .f32⟩ : BufTy).Contents (Elt F) → (⟨S850000x64, .f32⟩ : BufTy).Contents (Elt F) → (⟨S850000x64, .f32⟩ : BufTy).Contents (Elt F)),
    unary main_v133 main_v134 (Host.tanh : (⟨S850000x64, .f32⟩ : BufTy).Contents (Elt F) → (⟨S850000x64, .f32⟩ : BufTy).Contents (Elt F)),
    unary main_arg6 main_v135 ((extractStridedSlice S1x64x64 ![1, 0, 0] · slices_S3x64x64_S1x64x64_1_0_0) : (⟨S3x64x64, .f32⟩ : BufTy).Contents (Elt F) → (⟨S1x64x64, .f32⟩ : BufTy).Contents (Elt F)),
    reshape main_v135 main_v136 rfl shapeCasts_S1x64x64_S64x64,
    binary main_v134 main_v136 main_v137 ((fun l r => Host.dotGeneral dot_S850000x64_S64x64_S850000x64_1_0_0_1_n_n none l r) : (⟨S850000x64, .f32⟩ : BufTy).Contents (Elt F) → (⟨S64x64, .f32⟩ : BufTy).Contents (Elt F) → (⟨S850000x64, .f32⟩ : BufTy).Contents (Elt F)),
    unary main_arg7 main_v138 ((extractStridedSlice S1x64 ![1, 0] · slices_S3x64_S1x64_1_0) : (⟨S3x64, .f32⟩ : BufTy).Contents (Elt F) → (⟨S1x64, .f32⟩ : BufTy).Contents (Elt F)),
    reshape main_v138 main_v139 rfl shapeCasts_S1x64_S64,
    unary main_v139 main_v140 (broadcastInDim S1x64 ![1] bcast_S64_S1x64_1 : (⟨S64, .f32⟩ : BufTy).Contents (Elt F) → (⟨S1x64, .f32⟩ : BufTy).Contents (Elt F)),
    unary main_v140 main_v141 (broadcastInDim S850000x64 ![0, 1] bcast_S1x64_S850000x64_0_1 : (⟨S1x64, .f32⟩ : BufTy).Contents (Elt F) → (⟨S850000x64, .f32⟩ : BufTy).Contents (Elt F)),
    binary main_v137 main_v141 main_v142 (addf : (⟨S850000x64, .f32⟩ : BufTy).Contents (Elt F) → (⟨S850000x64, .f32⟩ : BufTy).Contents (Elt F) → (⟨S850000x64, .f32⟩ : BufTy).Contents (Elt F)),
    unary main_v142 main_v143 (Host.tanh : (⟨S850000x64, .f32⟩ : BufTy).Contents (Elt F) → (⟨S850000x64, .f32⟩ : BufTy).Contents (Elt F)),
    unary main_arg8 main_v144 ((extractStridedSlice S1x64x32 ![1, 0, 0] · slices_S3x64x32_S1x64x32_1_0_0) : (⟨S3x64x32, .f32⟩ : BufTy).Contents (Elt F) → (⟨S1x64x32, .f32⟩ : BufTy).Contents (Elt F)),
    reshape main_v144 main_v145 rfl shapeCasts_S1x64x32_S64x32,
    binary main_v143 main_v145 main_v146 ((fun l r => Host.dotGeneral dot_S850000x64_S64x32_S850000x32_1_0_0_1_n_n none l r) : (⟨S850000x64, .f32⟩ : BufTy).Contents (Elt F) → (⟨S64x32, .f32⟩ : BufTy).Contents (Elt F) → (⟨S850000x32, .f32⟩ : BufTy).Contents (Elt F)),
    unary main_arg9 main_v147 ((extractStridedSlice S1x32 ![1, 0] · slices_S3x32_S1x32_1_0) : (⟨S3x32, .f32⟩ : BufTy).Contents (Elt F) → (⟨S1x32, .f32⟩ : BufTy).Contents (Elt F)),
    reshape main_v147 main_v148 rfl shapeCasts_S1x32_S32,
    unary main_v148 main_v149 (broadcastInDim S1x32 ![1] bcast_S32_S1x32_1 : (⟨S32, .f32⟩ : BufTy).Contents (Elt F) → (⟨S1x32, .f32⟩ : BufTy).Contents (Elt F)),
    unary main_v149 main_v150 (broadcastInDim S850000x32 ![0, 1] bcast_S1x32_S850000x32_0_1 : (⟨S1x32, .f32⟩ : BufTy).Contents (Elt F) → (⟨S850000x32, .f32⟩ : BufTy).Contents (Elt F)),
    binary main_v146 main_v150 main_v151 (addf : (⟨S850000x32, .f32⟩ : BufTy).Contents (Elt F) → (⟨S850000x32, .f32⟩ : BufTy).Contents (Elt F) → (⟨S850000x32, .f32⟩ : BufTy).Contents (Elt F)) ]

/-- Operations 171 … 176 of @main. -/
abbrev opsAgg1 : List (HloOp τ sig (Elt F)) :=
  [ nullary main_cst_15 (constant S_ .f32 0x00000000#32),
    unary main_cst_15 main_v152 (broadcastInDim S50000x32 ![] bcast_S_S50000x32 : (⟨S_, .f32⟩ : BufTy).Contents (Elt F) → (⟨S50000x32, .f32⟩ : BufTy).Contents (Elt F)),
    unary main_v6 main_v153 (broadcastInDim S850000x1 ![0] bcast_S850000_S850000x1_0 : (⟨S850000, .i32⟩ : BufTy).Contents (Elt F) → (⟨S850000x1, .i32⟩ : BufTy).Contents (Elt F)),
    ternary main_v152 main_v153 main_v151 main_v154 ((fun x i u => Host.scatterAdd scatter_S50000x32_S850000x1_S850000x32_1_0_0_1 x i u) : (⟨S50000x32, .f32⟩ : BufTy).Contents (Elt F) → (⟨S850000x1, .i32⟩ : BufTy).Contents (Elt F) → (⟨S850000x32, .f32⟩ : BufTy).Contents (Elt F) → (⟨S50000x32, .f32⟩ : BufTy).Contents (Elt F)),
    unary main_v13 main_v155 (broadcastInDim S50000x32 ![0, 1] bcast_S50000x1_S50000x32_0_1 : (⟨S50000x1, .f32⟩ : BufTy).Contents (Elt F) → (⟨S50000x32, .f32⟩ : BufTy).Contents (Elt F)),
    binary main_v154 main_v155 main_v156 (mulf : (⟨S50000x32, .f32⟩ : BufTy).Contents (Elt F) → (⟨S50000x32, .f32⟩ : BufTy).Contents (Elt F) → (⟨S50000x32, .f32⟩ : BufTy).Contents (Elt F)) ]

/-- Operations 177 … 227 of @main. -/
abbrev opsGru1 : List (HloOp τ sig (Elt F)) :=
  [ unary main_arg10 main_v157 ((extractStridedSlice S1x96x32 ![1, 0, 0] · slices_S3x96x32_S1x96x32_1_0_0) : (⟨S3x96x32, .f32⟩ : BufTy).Contents (Elt F) → (⟨S1x96x32, .f32⟩ : BufTy).Contents (Elt F)),
    reshape main_v157 main_v158 rfl shapeCasts_S1x96x32_S96x32,
    unary main_v158 main_v159 ((transpose S32x96 [1, 0] · transposes_S96x32_S32x96_1_0) : (⟨S96x32, .f32⟩ : BufTy).Contents (Elt F) → (⟨S32x96, .f32⟩ : BufTy).Contents (Elt F)),
    binary main_v156 main_v159 main_v160 ((fun l r => Host.dotGeneral dot_S50000x32_S32x96_S50000x96_1_0_0_1_n_n none l r) : (⟨S50000x32, .f32⟩ : BufTy).Contents (Elt F) → (⟨S32x96, .f32⟩ : BufTy).Contents (Elt F) → (⟨S50000x96, .f32⟩ : BufTy).Contents (Elt F)),
    unary main_arg12 main_v161 ((extractStridedSlice S1x96 ![1, 0] · slices_S3x96_S1x96_1_0) : (⟨S3x96, .f32⟩ : BufTy).Contents (Elt F) → (⟨S1x96, .f32⟩ : BufTy).Contents (Elt F)),
    reshape main_v161 main_v162 rfl shapeCasts_S1x96_S96,
    unary main_v162 main_v163 (broadcastInDim S1x96 ![1] bcast_S96_S1x96_1 : (⟨S96, .f32⟩ : BufTy).Contents (Elt F) → (⟨S1x96, .f32⟩ : BufTy).Contents (Elt F)),
    unary main_v163 main_v164 (broadcastInDim S50000x96 ![0, 1] bcast_S1x96_S50000x96_0_1 : (⟨S1x96, .f32⟩ : BufTy).Contents (Elt F) → (⟨S50000x96, .f32⟩ : BufTy).Contents (Elt F)),
    binary main_v160 main_v164 main_v165 (addf : (⟨S50000x96, .f32⟩ : BufTy).Contents (Elt F) → (⟨S50000x96, .f32⟩ : BufTy).Contents (Elt F) → (⟨S50000x96, .f32⟩ : BufTy).Contents (Elt F)),
    unary main_arg11 main_v166 ((extractStridedSlice S1x96x32 ![1, 0, 0] · slices_S3x96x32_S1x96x32_1_0_0) : (⟨S3x96x32, .f32⟩ : BufTy).Contents (Elt F) → (⟨S1x96x32, .f32⟩ : BufTy).Contents (Elt F)),
    reshape main_v166 main_v167 rfl shapeCasts_S1x96x32_S96x32,
    unary main_v167 main_v168 ((transpose S32x96 [1, 0] · transposes_S96x32_S32x96_1_0) : (⟨S96x32, .f32⟩ : BufTy).Contents (Elt F) → (⟨S32x96, .f32⟩ : BufTy).Contents (Elt F)),
    binary main_v110 main_v168 main_v169 ((fun l r => Host.dotGeneral dot_S50000x32_S32x96_S50000x96_1_0_0_1_n_n none l r) : (⟨S50000x32, .f32⟩ : BufTy).Contents (Elt F) → (⟨S32x96, .f32⟩ : BufTy).Contents (Elt F) → (⟨S50000x96, .f32⟩ : BufTy).Contents (Elt F)),
    unary main_arg13 main_v170 ((extractStridedSlice S1x96 ![1, 0] · slices_S3x96_S1x96_1_0) : (⟨S3x96, .f32⟩ : BufTy).Contents (Elt F) → (⟨S1x96, .f32⟩ : BufTy).Contents (Elt F)),
    reshape main_v170 main_v171 rfl shapeCasts_S1x96_S96,
    unary main_v171 main_v172 (broadcastInDim S1x96 ![1] bcast_S96_S1x96_1 : (⟨S96, .f32⟩ : BufTy).Contents (Elt F) → (⟨S1x96, .f32⟩ : BufTy).Contents (Elt F)),
    unary main_v172 main_v173 (broadcastInDim S50000x96 ![0, 1] bcast_S1x96_S50000x96_0_1 : (⟨S1x96, .f32⟩ : BufTy).Contents (Elt F) → (⟨S50000x96, .f32⟩ : BufTy).Contents (Elt F)),
    binary main_v169 main_v173 main_v174 (addf : (⟨S50000x96, .f32⟩ : BufTy).Contents (Elt F) → (⟨S50000x96, .f32⟩ : BufTy).Contents (Elt F) → (⟨S50000x96, .f32⟩ : BufTy).Contents (Elt F)),
    unary main_v165 main_v175 ((extractStridedSlice S50000x32 ![0, 0] · slices_S50000x96_S50000x32_0_0) : (⟨S50000x96, .f32⟩ : BufTy).Contents (Elt F) → (⟨S50000x32, .f32⟩ : BufTy).Contents (Elt F)),
    unary main_v165 main_v176 ((extractStridedSlice S50000x32 ![0, 32] · slices_S50000x96_S50000x32_0_32) : (⟨S50000x96, .f32⟩ : BufTy).Contents (Elt F) → (⟨S50000x32, .f32⟩ : BufTy).Contents (Elt F)),
    unary main_v165 main_v177 ((extractStridedSlice S50000x32 ![0, 64] · slices_S50000x96_S50000x32_0_64) : (⟨S50000x96, .f32⟩ : BufTy).Contents (Elt F) → (⟨S50000x32, .f32⟩ : BufTy).Contents (Elt F)),
    unary main_v174 main_v178 ((extractStridedSlice S50000x32 ![0, 0] · slices_S50000x96_S50000x32_0_0) : (⟨S50000x96, .f32⟩ : BufTy).Contents (Elt F) → (⟨S50000x32, .f32⟩ : BufTy).Contents (Elt F)),
    unary main_v174 main_v179 ((extractStridedSlice S50000x32 ![0, 32] · slices_S50000x96_S50000x32_0_32) : (⟨S50000x96, .f32⟩ : BufTy).Contents (Elt F) → (⟨S50000x32, .f32⟩ : BufTy).Contents (Elt F)),
    unary main_v174 main_v180 ((extractStridedSlice S50000x32 ![0, 64] · slices_S50000x96_S50000x32_0_64) : (⟨S50000x96, .f32⟩ : BufTy).Contents (Elt F) → (⟨S50000x32, .f32⟩ : BufTy).Contents (Elt F)),
    binary main_v175 main_v178 main_v181 (addf : (⟨S50000x32, .f32⟩ : BufTy).Contents (Elt F) → (⟨S50000x32, .f32⟩ : BufTy).Contents (Elt F) → (⟨S50000x32, .f32⟩ : BufTy).Contents (Elt F)),
    unary main_v181 main_v182 (Host.negf : (⟨S50000x32, .f32⟩ : BufTy).Contents (Elt F) → (⟨S50000x32, .f32⟩ : BufTy).Contents (Elt F)),
    unary main_v182 main_v183 (Host.exp : (⟨S50000x32, .f32⟩ : BufTy).Contents (Elt F) → (⟨S50000x32, .f32⟩ : BufTy).Contents (Elt F)),
    nullary main_cst_16 (constant S_ .f32 0x3F800000#32),
    unary main_cst_16 main_v184 (broadcastInDim S50000x32 ![] bcast_S_S50000x32 : (⟨S_, .f32⟩ : BufTy).Contents (Elt F) → (⟨S50000x32, .f32⟩ : BufTy).Contents (Elt F)),
    binary main_v184 main_v183 main_v185 (addf : (⟨S50000x32, .f32⟩ : BufTy).Contents (Elt F) → (⟨S50000x32, .f32⟩ : BufTy).Contents (Elt F) → (⟨S50000x32, .f32⟩ : BufTy).Contents (Elt F)),
    nullary main_cst_17 (constant S_ .f32 0x3F800000#32),
    unary main_cst_17 main_v186 (broadcastInDim S50000x32 ![] bcast_S_S50000x32 : (⟨S_, .f32⟩ : BufTy).Contents (Elt F) → (⟨S50000x32, .f32⟩ : BufTy).Contents (Elt F)),
    binary main_v186 main_v185 main_v187 (Host.divf : (⟨S50000x32, .f32⟩ : BufTy).Contents (Elt F) → (⟨S50000x32, .f32⟩ : BufTy).Contents (Elt F) → (⟨S50000x32, .f32⟩ : BufTy).Contents (Elt F)),
    binary main_v176 main_v179 main_v188 (addf : (⟨S50000x32, .f32⟩ : BufTy).Contents (Elt F) → (⟨S50000x32, .f32⟩ : BufTy).Contents (Elt F) → (⟨S50000x32, .f32⟩ : BufTy).Contents (Elt F)),
    unary main_v188 main_v189 (Host.negf : (⟨S50000x32, .f32⟩ : BufTy).Contents (Elt F) → (⟨S50000x32, .f32⟩ : BufTy).Contents (Elt F)),
    unary main_v189 main_v190 (Host.exp : (⟨S50000x32, .f32⟩ : BufTy).Contents (Elt F) → (⟨S50000x32, .f32⟩ : BufTy).Contents (Elt F)),
    nullary main_cst_18 (constant S_ .f32 0x3F800000#32),
    unary main_cst_18 main_v191 (broadcastInDim S50000x32 ![] bcast_S_S50000x32 : (⟨S_, .f32⟩ : BufTy).Contents (Elt F) → (⟨S50000x32, .f32⟩ : BufTy).Contents (Elt F)),
    binary main_v191 main_v190 main_v192 (addf : (⟨S50000x32, .f32⟩ : BufTy).Contents (Elt F) → (⟨S50000x32, .f32⟩ : BufTy).Contents (Elt F) → (⟨S50000x32, .f32⟩ : BufTy).Contents (Elt F)),
    nullary main_cst_19 (constant S_ .f32 0x3F800000#32),
    unary main_cst_19 main_v193 (broadcastInDim S50000x32 ![] bcast_S_S50000x32 : (⟨S_, .f32⟩ : BufTy).Contents (Elt F) → (⟨S50000x32, .f32⟩ : BufTy).Contents (Elt F)),
    binary main_v193 main_v192 main_v194 (Host.divf : (⟨S50000x32, .f32⟩ : BufTy).Contents (Elt F) → (⟨S50000x32, .f32⟩ : BufTy).Contents (Elt F) → (⟨S50000x32, .f32⟩ : BufTy).Contents (Elt F)),
    binary main_v187 main_v180 main_v195 (mulf : (⟨S50000x32, .f32⟩ : BufTy).Contents (Elt F) → (⟨S50000x32, .f32⟩ : BufTy).Contents (Elt F) → (⟨S50000x32, .f32⟩ : BufTy).Contents (Elt F)),
    binary main_v177 main_v195 main_v196 (addf : (⟨S50000x32, .f32⟩ : BufTy).Contents (Elt F) → (⟨S50000x32, .f32⟩ : BufTy).Contents (Elt F) → (⟨S50000x32, .f32⟩ : BufTy).Contents (Elt F)),
    unary main_v196 main_v197 (Host.tanh : (⟨S50000x32, .f32⟩ : BufTy).Contents (Elt F) → (⟨S50000x32, .f32⟩ : BufTy).Contents (Elt F)),
    nullary main_cst_20 (constant S_ .f32 0x3F800000#32),
    unary main_cst_20 main_v198 (broadcastInDim S50000x32 ![] bcast_S_S50000x32 : (⟨S_, .f32⟩ : BufTy).Contents (Elt F) → (⟨S50000x32, .f32⟩ : BufTy).Contents (Elt F)),
    binary main_v198 main_v194 main_v199 (subf : (⟨S50000x32, .f32⟩ : BufTy).Contents (Elt F) → (⟨S50000x32, .f32⟩ : BufTy).Contents (Elt F) → (⟨S50000x32, .f32⟩ : BufTy).Contents (Elt F)),
    binary main_v199 main_v197 main_v200 (mulf : (⟨S50000x32, .f32⟩ : BufTy).Contents (Elt F) → (⟨S50000x32, .f32⟩ : BufTy).Contents (Elt F) → (⟨S50000x32, .f32⟩ : BufTy).Contents (Elt F)),
    binary main_v194 main_v110 main_v201 (mulf : (⟨S50000x32, .f32⟩ : BufTy).Contents (Elt F) → (⟨S50000x32, .f32⟩ : BufTy).Contents (Elt F) → (⟨S50000x32, .f32⟩ : BufTy).Contents (Elt F)),
    binary main_v200 main_v201 main_v202 (addf : (⟨S50000x32, .f32⟩ : BufTy).Contents (Elt F) → (⟨S50000x32, .f32⟩ : BufTy).Contents (Elt F) → (⟨S50000x32, .f32⟩ : BufTy).Contents (Elt F)) ]

/-- Operations 228 … 245 of @main. -/
abbrev opsGat2 : List (HloOp τ sig (Elt F)) :=
  [ nullary main_c_21 (constantI S_ 32 0#32),
    unary main_c_21 main_v203 (broadcastInDim S850000 ![] bcast_S_S850000 : (⟨S_, .i32⟩ : BufTy).Contents (Elt F) → (⟨S850000, .i32⟩ : BufTy).Contents (Elt F)),
    binary main_v6 main_v203 main_v204 (cmpi .slt : (⟨S850000, .i32⟩ : BufTy).Contents (Elt F) → (⟨S850000, .i32⟩ : BufTy).Contents (Elt F) → (⟨S850000, .i1⟩ : BufTy).Contents (Elt F)),
    nullary main_c_22 (constantI S_ 32 50000#32),
    unary main_c_22 main_v205 (broadcastInDim S850000 ![] bcast_S_S850000 : (⟨S_, .i32⟩ : BufTy).Contents (Elt F) → (⟨S850000, .i32⟩ : BufTy).Contents (Elt F)),
    binary main_v6 main_v205 main_v206 (addi : (⟨S850000, .i32⟩ : BufTy).Contents (Elt F) → (⟨S850000, .i32⟩ : BufTy).Contents (Elt F) → (⟨S850000, .i32⟩ : BufTy).Contents (Elt F)),
    ternary main_v204 main_v206 main_v6 main_v207 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v207 main_v208 (broadcastInDim S850000x1 ![0] bcast_S850000_S850000x1_0 : (⟨S850000, .i32⟩ : BufTy).Contents (Elt F) → (⟨S850000x1, .i32⟩ : BufTy).Contents (Elt F)),
    binary main_v202 main_v208 main_v209 ((fun x i => Host.gather gather_S50000x32_S850000x1_S850000x32_1_0_n_n_0_1_132 x i) : (⟨S50000x32, .f32⟩ : BufTy).Contents (Elt F) → (⟨S850000x1, .i32⟩ : BufTy).Contents (Elt F) → (⟨S850000x32, .f32⟩ : BufTy).Contents (Elt F)),
    nullary main_c_23 (constantI S_ 32 0#32),
    unary main_c_23 main_v210 (broadcastInDim S850000 ![] bcast_S_S850000 : (⟨S_, .i32⟩ : BufTy).Contents (Elt F) → (⟨S850000, .i32⟩ : BufTy).Contents (Elt F)),
    binary main_v3 main_v210 main_v211 (cmpi .slt : (⟨S850000, .i32⟩ : BufTy).Contents (Elt F) → (⟨S850000, .i32⟩ : BufTy).Contents (Elt F) → (⟨S850000, .i1⟩ : BufTy).Contents (Elt F)),
    nullary main_c_24 (constantI S_ 32 50000#32),
    unary main_c_24 main_v212 (broadcastInDim S850000 ![] bcast_S_S850000 : (⟨S_, .i32⟩ : BufTy).Contents (Elt F) → (⟨S850000, .i32⟩ : BufTy).Contents (Elt F)),
    binary main_v3 main_v212 main_v213 (addi : (⟨S850000, .i32⟩ : BufTy).Contents (Elt F) → (⟨S850000, .i32⟩ : BufTy).Contents (Elt F) → (⟨S850000, .i32⟩ : BufTy).Contents (Elt F)),
    ternary main_v211 main_v213 main_v3 main_v214 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v214 main_v215 (broadcastInDim S850000x1 ![0] bcast_S850000_S850000x1_0 : (⟨S850000, .i32⟩ : BufTy).Contents (Elt F) → (⟨S850000x1, .i32⟩ : BufTy).Contents (Elt F)),
    binary main_v202 main_v215 main_v216 ((fun x i => Host.gather gather_S50000x32_S850000x1_S850000x32_1_0_n_n_0_1_132 x i) : (⟨S50000x32, .f32⟩ : BufTy).Contents (Elt F) → (⟨S850000x1, .i32⟩ : BufTy).Contents (Elt F) → (⟨S850000x32, .f32⟩ : BufTy).Contents (Elt F)) ]

/-- Operations 246 … 272 of @main. -/
abbrev opsMsg2 : List (HloOp τ sig (Elt F)) :=
  [ binary main_v209 main_v216 main_v217 ((fun a b => concatenate S850000x64 1 [⟨S850000x32, a⟩, ⟨S850000x32, b⟩] concatenates_S850000x32_S850000x32_S850000x64_d1) : (⟨S850000x32, .f32⟩ : BufTy).Contents (Elt F) → (⟨S850000x32, .f32⟩ : BufTy).Contents (Elt F) → (⟨S850000x64, .f32⟩ : BufTy).Contents (Elt F)),
    unary main_arg4 main_v218 ((extractStridedSlice S1x64x64 ![2, 0, 0] · slices_S3x64x64_S1x64x64_2_0_0) : (⟨S3x64x64, .f32⟩ : BufTy).Contents (Elt F) → (⟨S1x64x64, .f32⟩ : BufTy).Contents (Elt F)),
    reshape main_v218 main_v219 rfl shapeCasts_S1x64x64_S64x64,
    binary main_v217 main_v219 main_v220 ((fun l r => Host.dotGeneral dot_S850000x64_S64x64_S850000x64_1_0_0_1_n_n none l r) : (⟨S850000x64, .f32⟩ : BufTy).Contents (Elt F) → (⟨S64x64, .f32⟩ : BufTy).Contents (Elt F) → (⟨S850000x64, .f32⟩ : BufTy).Contents (Elt F)),
    unary main_arg5 main_v221 ((extractStridedSlice S1x64 ![2, 0] · slices_S3x64_S1x64_2_0) : (⟨S3x64, .f32⟩ : BufTy).Contents (Elt F) → (⟨S1x64, .f32⟩ : BufTy).Contents (Elt F)),
    reshape main_v221 main_v222 rfl shapeCasts_S1x64_S64,
    unary main_v222 main_v223 (broadcastInDim S1x64 ![1] bcast_S64_S1x64_1 : (⟨S64, .f32⟩ : BufTy).Contents (Elt F) → (⟨S1x64, .f32⟩ : BufTy).Contents (Elt F)),
    unary main_v223 main_v224 (broadcastInDim S850000x64 ![0, 1] bcast_S1x64_S850000x64_0_1 : (⟨S1x64, .f32⟩ : BufTy).Contents (Elt F) → (⟨S850000x64, .f32⟩ : BufTy).Contents (Elt F)),
    binary main_v220 main_v224 main_v225 (addf : (⟨S850000x64, .f32⟩ : BufTy).Contents (Elt F) → (⟨S850000x64, .f32⟩ : BufTy).Contents (Elt F) → (⟨S850000x64, .f32⟩ : BufTy).Contents (Elt F)),
    unary main_v225 main_v226 (Host.tanh : (⟨S850000x64, .f32⟩ : BufTy).Contents (Elt F) → (⟨S850000x64, .f32⟩ : BufTy).Contents (Elt F)),
    unary main_arg6 main_v227 ((extractStridedSlice S1x64x64 ![2, 0, 0] · slices_S3x64x64_S1x64x64_2_0_0) : (⟨S3x64x64, .f32⟩ : BufTy).Contents (Elt F) → (⟨S1x64x64, .f32⟩ : BufTy).Contents (Elt F)),
    reshape main_v227 main_v228 rfl shapeCasts_S1x64x64_S64x64,
    binary main_v226 main_v228 main_v229 ((fun l r => Host.dotGeneral dot_S850000x64_S64x64_S850000x64_1_0_0_1_n_n none l r) : (⟨S850000x64, .f32⟩ : BufTy).Contents (Elt F) → (⟨S64x64, .f32⟩ : BufTy).Contents (Elt F) → (⟨S850000x64, .f32⟩ : BufTy).Contents (Elt F)),
    unary main_arg7 main_v230 ((extractStridedSlice S1x64 ![2, 0] · slices_S3x64_S1x64_2_0) : (⟨S3x64, .f32⟩ : BufTy).Contents (Elt F) → (⟨S1x64, .f32⟩ : BufTy).Contents (Elt F)),
    reshape main_v230 main_v231 rfl shapeCasts_S1x64_S64,
    unary main_v231 main_v232 (broadcastInDim S1x64 ![1] bcast_S64_S1x64_1 : (⟨S64, .f32⟩ : BufTy).Contents (Elt F) → (⟨S1x64, .f32⟩ : BufTy).Contents (Elt F)),
    unary main_v232 main_v233 (broadcastInDim S850000x64 ![0, 1] bcast_S1x64_S850000x64_0_1 : (⟨S1x64, .f32⟩ : BufTy).Contents (Elt F) → (⟨S850000x64, .f32⟩ : BufTy).Contents (Elt F)),
    binary main_v229 main_v233 main_v234 (addf : (⟨S850000x64, .f32⟩ : BufTy).Contents (Elt F) → (⟨S850000x64, .f32⟩ : BufTy).Contents (Elt F) → (⟨S850000x64, .f32⟩ : BufTy).Contents (Elt F)),
    unary main_v234 main_v235 (Host.tanh : (⟨S850000x64, .f32⟩ : BufTy).Contents (Elt F) → (⟨S850000x64, .f32⟩ : BufTy).Contents (Elt F)),
    unary main_arg8 main_v236 ((extractStridedSlice S1x64x32 ![2, 0, 0] · slices_S3x64x32_S1x64x32_2_0_0) : (⟨S3x64x32, .f32⟩ : BufTy).Contents (Elt F) → (⟨S1x64x32, .f32⟩ : BufTy).Contents (Elt F)),
    reshape main_v236 main_v237 rfl shapeCasts_S1x64x32_S64x32,
    binary main_v235 main_v237 main_v238 ((fun l r => Host.dotGeneral dot_S850000x64_S64x32_S850000x32_1_0_0_1_n_n none l r) : (⟨S850000x64, .f32⟩ : BufTy).Contents (Elt F) → (⟨S64x32, .f32⟩ : BufTy).Contents (Elt F) → (⟨S850000x32, .f32⟩ : BufTy).Contents (Elt F)),
    unary main_arg9 main_v239 ((extractStridedSlice S1x32 ![2, 0] · slices_S3x32_S1x32_2_0) : (⟨S3x32, .f32⟩ : BufTy).Contents (Elt F) → (⟨S1x32, .f32⟩ : BufTy).Contents (Elt F)),
    reshape main_v239 main_v240 rfl shapeCasts_S1x32_S32,
    unary main_v240 main_v241 (broadcastInDim S1x32 ![1] bcast_S32_S1x32_1 : (⟨S32, .f32⟩ : BufTy).Contents (Elt F) → (⟨S1x32, .f32⟩ : BufTy).Contents (Elt F)),
    unary main_v241 main_v242 (broadcastInDim S850000x32 ![0, 1] bcast_S1x32_S850000x32_0_1 : (⟨S1x32, .f32⟩ : BufTy).Contents (Elt F) → (⟨S850000x32, .f32⟩ : BufTy).Contents (Elt F)),
    binary main_v238 main_v242 main_v243 (addf : (⟨S850000x32, .f32⟩ : BufTy).Contents (Elt F) → (⟨S850000x32, .f32⟩ : BufTy).Contents (Elt F) → (⟨S850000x32, .f32⟩ : BufTy).Contents (Elt F)) ]

/-- Operations 273 … 278 of @main. -/
abbrev opsAgg2 : List (HloOp τ sig (Elt F)) :=
  [ nullary main_cst_25 (constant S_ .f32 0x00000000#32),
    unary main_cst_25 main_v244 (broadcastInDim S50000x32 ![] bcast_S_S50000x32 : (⟨S_, .f32⟩ : BufTy).Contents (Elt F) → (⟨S50000x32, .f32⟩ : BufTy).Contents (Elt F)),
    unary main_v6 main_v245 (broadcastInDim S850000x1 ![0] bcast_S850000_S850000x1_0 : (⟨S850000, .i32⟩ : BufTy).Contents (Elt F) → (⟨S850000x1, .i32⟩ : BufTy).Contents (Elt F)),
    ternary main_v244 main_v245 main_v243 main_v246 ((fun x i u => Host.scatterAdd scatter_S50000x32_S850000x1_S850000x32_1_0_0_1 x i u) : (⟨S50000x32, .f32⟩ : BufTy).Contents (Elt F) → (⟨S850000x1, .i32⟩ : BufTy).Contents (Elt F) → (⟨S850000x32, .f32⟩ : BufTy).Contents (Elt F) → (⟨S50000x32, .f32⟩ : BufTy).Contents (Elt F)),
    unary main_v13 main_v247 (broadcastInDim S50000x32 ![0, 1] bcast_S50000x1_S50000x32_0_1 : (⟨S50000x1, .f32⟩ : BufTy).Contents (Elt F) → (⟨S50000x32, .f32⟩ : BufTy).Contents (Elt F)),
    binary main_v246 main_v247 main_v248 (mulf : (⟨S50000x32, .f32⟩ : BufTy).Contents (Elt F) → (⟨S50000x32, .f32⟩ : BufTy).Contents (Elt F) → (⟨S50000x32, .f32⟩ : BufTy).Contents (Elt F)) ]

/-- Operations 279 … 329 of @main. -/
abbrev opsGru2 : List (HloOp τ sig (Elt F)) :=
  [ unary main_arg10 main_v249 ((extractStridedSlice S1x96x32 ![2, 0, 0] · slices_S3x96x32_S1x96x32_2_0_0) : (⟨S3x96x32, .f32⟩ : BufTy).Contents (Elt F) → (⟨S1x96x32, .f32⟩ : BufTy).Contents (Elt F)),
    reshape main_v249 main_v250 rfl shapeCasts_S1x96x32_S96x32,
    unary main_v250 main_v251 ((transpose S32x96 [1, 0] · transposes_S96x32_S32x96_1_0) : (⟨S96x32, .f32⟩ : BufTy).Contents (Elt F) → (⟨S32x96, .f32⟩ : BufTy).Contents (Elt F)),
    binary main_v248 main_v251 main_v252 ((fun l r => Host.dotGeneral dot_S50000x32_S32x96_S50000x96_1_0_0_1_n_n none l r) : (⟨S50000x32, .f32⟩ : BufTy).Contents (Elt F) → (⟨S32x96, .f32⟩ : BufTy).Contents (Elt F) → (⟨S50000x96, .f32⟩ : BufTy).Contents (Elt F)),
    unary main_arg12 main_v253 ((extractStridedSlice S1x96 ![2, 0] · slices_S3x96_S1x96_2_0) : (⟨S3x96, .f32⟩ : BufTy).Contents (Elt F) → (⟨S1x96, .f32⟩ : BufTy).Contents (Elt F)),
    reshape main_v253 main_v254 rfl shapeCasts_S1x96_S96,
    unary main_v254 main_v255 (broadcastInDim S1x96 ![1] bcast_S96_S1x96_1 : (⟨S96, .f32⟩ : BufTy).Contents (Elt F) → (⟨S1x96, .f32⟩ : BufTy).Contents (Elt F)),
    unary main_v255 main_v256 (broadcastInDim S50000x96 ![0, 1] bcast_S1x96_S50000x96_0_1 : (⟨S1x96, .f32⟩ : BufTy).Contents (Elt F) → (⟨S50000x96, .f32⟩ : BufTy).Contents (Elt F)),
    binary main_v252 main_v256 main_v257 (addf : (⟨S50000x96, .f32⟩ : BufTy).Contents (Elt F) → (⟨S50000x96, .f32⟩ : BufTy).Contents (Elt F) → (⟨S50000x96, .f32⟩ : BufTy).Contents (Elt F)),
    unary main_arg11 main_v258 ((extractStridedSlice S1x96x32 ![2, 0, 0] · slices_S3x96x32_S1x96x32_2_0_0) : (⟨S3x96x32, .f32⟩ : BufTy).Contents (Elt F) → (⟨S1x96x32, .f32⟩ : BufTy).Contents (Elt F)),
    reshape main_v258 main_v259 rfl shapeCasts_S1x96x32_S96x32,
    unary main_v259 main_v260 ((transpose S32x96 [1, 0] · transposes_S96x32_S32x96_1_0) : (⟨S96x32, .f32⟩ : BufTy).Contents (Elt F) → (⟨S32x96, .f32⟩ : BufTy).Contents (Elt F)),
    binary main_v202 main_v260 main_v261 ((fun l r => Host.dotGeneral dot_S50000x32_S32x96_S50000x96_1_0_0_1_n_n none l r) : (⟨S50000x32, .f32⟩ : BufTy).Contents (Elt F) → (⟨S32x96, .f32⟩ : BufTy).Contents (Elt F) → (⟨S50000x96, .f32⟩ : BufTy).Contents (Elt F)),
    unary main_arg13 main_v262 ((extractStridedSlice S1x96 ![2, 0] · slices_S3x96_S1x96_2_0) : (⟨S3x96, .f32⟩ : BufTy).Contents (Elt F) → (⟨S1x96, .f32⟩ : BufTy).Contents (Elt F)),
    reshape main_v262 main_v263 rfl shapeCasts_S1x96_S96,
    unary main_v263 main_v264 (broadcastInDim S1x96 ![1] bcast_S96_S1x96_1 : (⟨S96, .f32⟩ : BufTy).Contents (Elt F) → (⟨S1x96, .f32⟩ : BufTy).Contents (Elt F)),
    unary main_v264 main_v265 (broadcastInDim S50000x96 ![0, 1] bcast_S1x96_S50000x96_0_1 : (⟨S1x96, .f32⟩ : BufTy).Contents (Elt F) → (⟨S50000x96, .f32⟩ : BufTy).Contents (Elt F)),
    binary main_v261 main_v265 main_v266 (addf : (⟨S50000x96, .f32⟩ : BufTy).Contents (Elt F) → (⟨S50000x96, .f32⟩ : BufTy).Contents (Elt F) → (⟨S50000x96, .f32⟩ : BufTy).Contents (Elt F)),
    unary main_v257 main_v267 ((extractStridedSlice S50000x32 ![0, 0] · slices_S50000x96_S50000x32_0_0) : (⟨S50000x96, .f32⟩ : BufTy).Contents (Elt F) → (⟨S50000x32, .f32⟩ : BufTy).Contents (Elt F)),
    unary main_v257 main_v268 ((extractStridedSlice S50000x32 ![0, 32] · slices_S50000x96_S50000x32_0_32) : (⟨S50000x96, .f32⟩ : BufTy).Contents (Elt F) → (⟨S50000x32, .f32⟩ : BufTy).Contents (Elt F)),
    unary main_v257 main_v269 ((extractStridedSlice S50000x32 ![0, 64] · slices_S50000x96_S50000x32_0_64) : (⟨S50000x96, .f32⟩ : BufTy).Contents (Elt F) → (⟨S50000x32, .f32⟩ : BufTy).Contents (Elt F)),
    unary main_v266 main_v270 ((extractStridedSlice S50000x32 ![0, 0] · slices_S50000x96_S50000x32_0_0) : (⟨S50000x96, .f32⟩ : BufTy).Contents (Elt F) → (⟨S50000x32, .f32⟩ : BufTy).Contents (Elt F)),
    unary main_v266 main_v271 ((extractStridedSlice S50000x32 ![0, 32] · slices_S50000x96_S50000x32_0_32) : (⟨S50000x96, .f32⟩ : BufTy).Contents (Elt F) → (⟨S50000x32, .f32⟩ : BufTy).Contents (Elt F)),
    unary main_v266 main_v272 ((extractStridedSlice S50000x32 ![0, 64] · slices_S50000x96_S50000x32_0_64) : (⟨S50000x96, .f32⟩ : BufTy).Contents (Elt F) → (⟨S50000x32, .f32⟩ : BufTy).Contents (Elt F)),
    binary main_v267 main_v270 main_v273 (addf : (⟨S50000x32, .f32⟩ : BufTy).Contents (Elt F) → (⟨S50000x32, .f32⟩ : BufTy).Contents (Elt F) → (⟨S50000x32, .f32⟩ : BufTy).Contents (Elt F)),
    unary main_v273 main_v274 (Host.negf : (⟨S50000x32, .f32⟩ : BufTy).Contents (Elt F) → (⟨S50000x32, .f32⟩ : BufTy).Contents (Elt F)),
    unary main_v274 main_v275 (Host.exp : (⟨S50000x32, .f32⟩ : BufTy).Contents (Elt F) → (⟨S50000x32, .f32⟩ : BufTy).Contents (Elt F)),
    nullary main_cst_26 (constant S_ .f32 0x3F800000#32),
    unary main_cst_26 main_v276 (broadcastInDim S50000x32 ![] bcast_S_S50000x32 : (⟨S_, .f32⟩ : BufTy).Contents (Elt F) → (⟨S50000x32, .f32⟩ : BufTy).Contents (Elt F)),
    binary main_v276 main_v275 main_v277 (addf : (⟨S50000x32, .f32⟩ : BufTy).Contents (Elt F) → (⟨S50000x32, .f32⟩ : BufTy).Contents (Elt F) → (⟨S50000x32, .f32⟩ : BufTy).Contents (Elt F)),
    nullary main_cst_27 (constant S_ .f32 0x3F800000#32),
    unary main_cst_27 main_v278 (broadcastInDim S50000x32 ![] bcast_S_S50000x32 : (⟨S_, .f32⟩ : BufTy).Contents (Elt F) → (⟨S50000x32, .f32⟩ : BufTy).Contents (Elt F)),
    binary main_v278 main_v277 main_v279 (Host.divf : (⟨S50000x32, .f32⟩ : BufTy).Contents (Elt F) → (⟨S50000x32, .f32⟩ : BufTy).Contents (Elt F) → (⟨S50000x32, .f32⟩ : BufTy).Contents (Elt F)),
    binary main_v268 main_v271 main_v280 (addf : (⟨S50000x32, .f32⟩ : BufTy).Contents (Elt F) → (⟨S50000x32, .f32⟩ : BufTy).Contents (Elt F) → (⟨S50000x32, .f32⟩ : BufTy).Contents (Elt F)),
    unary main_v280 main_v281 (Host.negf : (⟨S50000x32, .f32⟩ : BufTy).Contents (Elt F) → (⟨S50000x32, .f32⟩ : BufTy).Contents (Elt F)),
    unary main_v281 main_v282 (Host.exp : (⟨S50000x32, .f32⟩ : BufTy).Contents (Elt F) → (⟨S50000x32, .f32⟩ : BufTy).Contents (Elt F)),
    nullary main_cst_28 (constant S_ .f32 0x3F800000#32),
    unary main_cst_28 main_v283 (broadcastInDim S50000x32 ![] bcast_S_S50000x32 : (⟨S_, .f32⟩ : BufTy).Contents (Elt F) → (⟨S50000x32, .f32⟩ : BufTy).Contents (Elt F)),
    binary main_v283 main_v282 main_v284 (addf : (⟨S50000x32, .f32⟩ : BufTy).Contents (Elt F) → (⟨S50000x32, .f32⟩ : BufTy).Contents (Elt F) → (⟨S50000x32, .f32⟩ : BufTy).Contents (Elt F)),
    nullary main_cst_29 (constant S_ .f32 0x3F800000#32),
    unary main_cst_29 main_v285 (broadcastInDim S50000x32 ![] bcast_S_S50000x32 : (⟨S_, .f32⟩ : BufTy).Contents (Elt F) → (⟨S50000x32, .f32⟩ : BufTy).Contents (Elt F)),
    binary main_v285 main_v284 main_v286 (Host.divf : (⟨S50000x32, .f32⟩ : BufTy).Contents (Elt F) → (⟨S50000x32, .f32⟩ : BufTy).Contents (Elt F) → (⟨S50000x32, .f32⟩ : BufTy).Contents (Elt F)),
    binary main_v279 main_v272 main_v287 (mulf : (⟨S50000x32, .f32⟩ : BufTy).Contents (Elt F) → (⟨S50000x32, .f32⟩ : BufTy).Contents (Elt F) → (⟨S50000x32, .f32⟩ : BufTy).Contents (Elt F)),
    binary main_v269 main_v287 main_v288 (addf : (⟨S50000x32, .f32⟩ : BufTy).Contents (Elt F) → (⟨S50000x32, .f32⟩ : BufTy).Contents (Elt F) → (⟨S50000x32, .f32⟩ : BufTy).Contents (Elt F)),
    unary main_v288 main_v289 (Host.tanh : (⟨S50000x32, .f32⟩ : BufTy).Contents (Elt F) → (⟨S50000x32, .f32⟩ : BufTy).Contents (Elt F)),
    nullary main_cst_30 (constant S_ .f32 0x3F800000#32),
    unary main_cst_30 main_v290 (broadcastInDim S50000x32 ![] bcast_S_S50000x32 : (⟨S_, .f32⟩ : BufTy).Contents (Elt F) → (⟨S50000x32, .f32⟩ : BufTy).Contents (Elt F)),
    binary main_v290 main_v286 main_v291 (subf : (⟨S50000x32, .f32⟩ : BufTy).Contents (Elt F) → (⟨S50000x32, .f32⟩ : BufTy).Contents (Elt F) → (⟨S50000x32, .f32⟩ : BufTy).Contents (Elt F)),
    binary main_v291 main_v289 main_v292 (mulf : (⟨S50000x32, .f32⟩ : BufTy).Contents (Elt F) → (⟨S50000x32, .f32⟩ : BufTy).Contents (Elt F) → (⟨S50000x32, .f32⟩ : BufTy).Contents (Elt F)),
    binary main_v286 main_v202 main_v293 (mulf : (⟨S50000x32, .f32⟩ : BufTy).Contents (Elt F) → (⟨S50000x32, .f32⟩ : BufTy).Contents (Elt F) → (⟨S50000x32, .f32⟩ : BufTy).Contents (Elt F)),
    binary main_v292 main_v293 main_v294 (addf : (⟨S50000x32, .f32⟩ : BufTy).Contents (Elt F) → (⟨S50000x32, .f32⟩ : BufTy).Contents (Elt F) → (⟨S50000x32, .f32⟩ : BufTy).Contents (Elt F)) ]

/-- Operations 330 … 343 of @main. -/
abbrev opsDec : List (HloOp τ sig (Elt F)) :=
  [ binary main_v294 main_arg14 main_v295 ((fun l r => Host.dotGeneral dot_S50000x32_S32x64_S50000x64_1_0_0_1_n_n none l r) : (⟨S50000x32, .f32⟩ : BufTy).Contents (Elt F) → (⟨S32x64, .f32⟩ : BufTy).Contents (Elt F) → (⟨S50000x64, .f32⟩ : BufTy).Contents (Elt F)),
    unary main_arg15 main_v296 (broadcastInDim S1x64 ![1] bcast_S64_S1x64_1 : (⟨S64, .f32⟩ : BufTy).Contents (Elt F) → (⟨S1x64, .f32⟩ : BufTy).Contents (Elt F)),
    unary main_v296 main_v297 (broadcastInDim S50000x64 ![0, 1] bcast_S1x64_S50000x64_0_1 : (⟨S1x64, .f32⟩ : BufTy).Contents (Elt F) → (⟨S50000x64, .f32⟩ : BufTy).Contents (Elt F)),
    binary main_v295 main_v297 main_v298 (addf : (⟨S50000x64, .f32⟩ : BufTy).Contents (Elt F) → (⟨S50000x64, .f32⟩ : BufTy).Contents (Elt F) → (⟨S50000x64, .f32⟩ : BufTy).Contents (Elt F)),
    unary main_v298 main_v299 (Host.tanh : (⟨S50000x64, .f32⟩ : BufTy).Contents (Elt F) → (⟨S50000x64, .f32⟩ : BufTy).Contents (Elt F)),
    binary main_v299 main_arg16 main_v300 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    unary main_arg17 main_v301 (broadcastInDim S1x64 ![1] bcast_S64_S1x64_1 : (⟨S64, .f32⟩ : BufTy).Contents (Elt F) → (⟨S1x64, .f32⟩ : BufTy).Contents (Elt F)),
    unary main_v301 main_v302 (broadcastInDim S50000x64 ![0, 1] bcast_S1x64_S50000x64_0_1 : (⟨S1x64, .f32⟩ : BufTy).Contents (Elt F) → (⟨S50000x64, .f32⟩ : BufTy).Contents (Elt F)),
    binary main_v300 main_v302 main_v303 (addf : (⟨S50000x64, .f32⟩ : BufTy).Contents (Elt F) → (⟨S50000x64, .f32⟩ : BufTy).Contents (Elt F) → (⟨S50000x64, .f32⟩ : BufTy).Contents (Elt F)),
    unary main_v303 main_v304 (Host.tanh : (⟨S50000x64, .f32⟩ : BufTy).Contents (Elt F) → (⟨S50000x64, .f32⟩ : BufTy).Contents (Elt F)),
    binary main_v304 main_arg18 main_v305 ((fun l r => Host.dotGeneral dot_S50000x64_S64x8_S50000x8_1_0_0_1_n_n none l r) : (⟨S50000x64, .f32⟩ : BufTy).Contents (Elt F) → (⟨S64x8, .f32⟩ : BufTy).Contents (Elt F) → (⟨S50000x8, .f32⟩ : BufTy).Contents (Elt F)),
    unary main_arg19 main_v306 (broadcastInDim S1x8 ![1] bcast_S8_S1x8_1 : (⟨S8, .f32⟩ : BufTy).Contents (Elt F) → (⟨S1x8, .f32⟩ : BufTy).Contents (Elt F)),
    unary main_v306 main_v307 (broadcastInDim S50000x8 ![0, 1] bcast_S1x8_S50000x8_0_1 : (⟨S1x8, .f32⟩ : BufTy).Contents (Elt F) → (⟨S50000x8, .f32⟩ : BufTy).Contents (Elt F)),
    binary main_v305 main_v307 main_v308 (addf : (⟨S50000x8, .f32⟩ : BufTy).Contents (Elt F) → (⟨S50000x8, .f32⟩ : BufTy).Contents (Elt F) → (⟨S50000x8, .f32⟩ : BufTy).Contents (Elt F)) ]

/-- All of the operations of @main, in order. -/
abbrev opsAll : List (HloOp τ sig (Elt F)) :=
  opsPre ++ opsEnc ++ opsGat0 ++ opsMsg0 ++ opsAgg0 ++ opsGru0 ++ opsGat1 ++ opsMsg1 ++ opsAgg1 ++ opsGru1 ++ opsGat2 ++ opsMsg2 ++ opsAgg2 ++ opsGru2 ++ opsDec

end Cert.ReferenceIdeal.Stages

end
-- ==== Proof.RHostFns.lean ====
/-
  The host-side functions both programs apply between the dense stages, each as the composite of the printed
  host operations: the source and target node of every message (the edge list followed by one self loop per node),
  the reciprocal in-degree, the row gather by (wrapped) node index, and the mean aggregation of the messages.
-/
import proofs.«427837_j2834678415534_1_alg».proof.Proof.Gen.ReferenceIdeal
import Idealize.ShloMosaic.PureOps.Ideal

noncomputable section

namespace Cert.ReferenceIdeal.HostFns

open Cert.ReferenceIdeal Idealize.ShloMosaic
open Cert.ReferenceIdeal.Facts₀ Cert.ReferenceIdeal.Facts

/-- The source node of each message: row 0 of the edge list, then node `i` for its self loop. -/
def srcOf (ei : IVec S2x800000 32) : IVec S850000 32 :=
  concatenate S850000 0 [⟨S800000, shapeCast S800000 (extractStridedSlice S1x800000 ![0, 0] ei slices_S2x800000_S1x800000_0_0) shapeCasts_S1x800000_S800000⟩, ⟨S50000, iotaInDim S50000 32 0⟩] concatenates_S800000_S50000_S850000_d0

/-- The target node of each message: row 1 of the edge list, then node `i` for its self loop. -/
def dstOf (ei : IVec S2x800000 32) : IVec S850000 32 :=
  concatenate S850000 0 [⟨S800000, shapeCast S800000 (extractStridedSlice S1x800000 ![1, 0] ei slices_S2x800000_S1x800000_1_0) shapeCasts_S1x800000_S800000⟩, ⟨S50000, iotaInDim S50000 32 0⟩] concatenates_S800000_S50000_S850000_d0

/-- One over the number of messages each node receives, as a column. -/
def invDeg (dst : IVec S850000 32) : FVec Ideal S50000x1 .f32 :=
  broadcastInDim S50000x1 ![0] bcast_S50000_S50000x1_0
    (Host.divf (broadcastInDim S50000 ![] bcast_S_S50000 (constant S_ .f32 0x3F800000#32))
      (Host.scatterAdd scatter_S50000_S850000x1_S850000_n_0_0_1 (broadcastInDim S50000 ![] bcast_S_S50000 (constant S_ .f32 0x00000000#32))
        (broadcastInDim S850000x1 ![0] bcast_S850000_S850000x1_0 dst)
        (broadcastInDim S850000 ![] bcast_S_S850000 (constant S_ .f32 0x3F800000#32))))

/-- A node index with a negative value counted from the end. -/
def wrapIdx (idx : IVec S850000 32) : IVec S850000 32 :=
  select (cmpi .slt idx (broadcastInDim S850000 ![] bcast_S_S850000 (constantI S_ 32 0#32)))
    (addi idx (broadcastInDim S850000 ![] bcast_S_S850000 (constantI S_ 32 50000#32))) idx

/-- The rows of `h` at the wrapped indices (an index outside the rows is clamped by the gather). -/
def gatherRows (h : FVec Ideal S50000x32 .f32) (idx : IVec S850000 32) : FVec Ideal S850000x32 .f32 :=
  Host.gather gather_S50000x32_S850000x1_S850000x32_1_0_n_n_0_1_132 h (broadcastInDim S850000x1 ![0] bcast_S850000_S850000x1_0 (wrapIdx idx))

/-- The messages summed into their target nodes, times the reciprocal in-degree: the mean message. -/
def aggOf (M : FVec Ideal S850000x32 .f32) (dst : IVec S850000 32) (invc : FVec Ideal S50000x1 .f32) : FVec Ideal S50000x32 .f32 :=
  mulf (Host.scatterAdd scatter_S50000x32_S850000x1_S850000x32_1_0_0_1 (broadcastInDim S50000x32 ![] bcast_S_S50000x32 (constant S_ .f32 0x00000000#32))
      (broadcastInDim S850000x1 ![0] bcast_S850000_S850000x1_0 dst) M)
    (broadcastInDim S50000x32 ![0, 1] bcast_S50000x1_S50000x32_0_1 invc)

end Cert.ReferenceIdeal.HostFns

end
-- ==== Proof.RefRun.lean ====
import proofs.«427837_j2834678415534_1_alg».proof.Proof.RefOps
import proofs.«427837_j2834678415534_1_alg».proof.Proof.RHostFns
import proofs.«427837_j2834678415534_1_alg».proof.Proof.Chain

set_option maxRecDepth 16384

noncomputable section

namespace Cert.ReferenceIdeal.Stages

open Cert.ReferenceIdeal Cert.ReferenceIdeal.HostFns Idealize.ShloMosaic Idealize.ShloMosaic.TcCoe Idealize.SL.Sem
open Cert.Gnn (asRow rowOf matOf matOfT halfOf)

variable (X : Valuation τ sig (Elt Ideal))

/-! ## The run: every buffer ends at the fold of all the operations over the launch contents -/

set_option maxHeartbeats 4000000 in
/-- The program's @main is its operations in order: both sides unfold to the same sequence of steps. -/
theorem main_eq (c : Dev nD) : main (F := Ideal) c = StableHlo.seq opsAll := rfl

/-! Each operation touches TensorCore references only, and determines its results: stretch by stretch, one fact
    per operation in order, then joined along the concatenation. -/

theorem opsPre_sub : (opsPre : List (HloOp τ sig (Elt Ideal))).Forall fun op => op.bufs ⊆ StableHlo.tcRefs τ sig :=
  ⟨StableHlo.nullary_bufs_sub .., StableHlo.unary_bufs_sub .., StableHlo.reshape_bufs_sub .., StableHlo.binary_bufs_sub .., StableHlo.unary_bufs_sub ..,
   StableHlo.reshape_bufs_sub .., StableHlo.binary_bufs_sub .., StableHlo.nullary_bufs_sub .., StableHlo.unary_bufs_sub ..,
   StableHlo.nullary_bufs_sub .., StableHlo.unary_bufs_sub .., StableHlo.unary_bufs_sub .., StableHlo.ternary_bufs_sub .., StableHlo.nullary_bufs_sub ..,
   StableHlo.unary_bufs_sub .., StableHlo.binary_bufs_sub .., StableHlo.unary_bufs_sub ..⟩
theorem opsPre_fresh : (opsPre : List (HloOp τ sig (Elt Ideal))).Forall fun op => op.fresh = ∅ :=
  ⟨rfl, rfl, rfl, rfl, rfl, rfl, rfl, rfl, rfl, rfl, rfl, rfl, rfl, rfl, rfl, rfl, rfl⟩

theorem opsEnc_sub : (opsEnc : List (HloOp τ sig (Elt Ideal))).Forall fun op => op.bufs ⊆ StableHlo.tcRefs τ sig :=
  ⟨StableHlo.binary_bufs_sub .., StableHlo.unary_bufs_sub .., StableHlo.unary_bufs_sub .., StableHlo.binary_bufs_sub .., StableHlo.nullary_bufs_sub ..,
   StableHlo.unary_bufs_sub .., StableHlo.binary_bufs_sub ..⟩
theorem opsEnc_fresh : (opsEnc : List (HloOp τ sig (Elt Ideal))).Forall fun op => op.fresh = ∅ :=
  ⟨rfl, rfl, rfl, rfl, rfl, rfl, rfl⟩

theorem opsGat0_sub : (opsGat0 : List (HloOp τ sig (Elt Ideal))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub ..,
   StableHlo.binary_bufs_sub .., StableHlo.ternary_bufs_sub .., StableHlo.unary_bufs_sub .., StableHlo.binary_bufs_sub .., StableHlo.nullary_bufs_sub ..,
   StableHlo.unary_bufs_sub .., StableHlo.binary_bufs_sub .., StableHlo.nullary_bufs_sub .., StableHlo.unary_bufs_sub .., StableHlo.binary_bufs_sub ..,
   StableHlo.ternary_bufs_sub .., StableHlo.unary_bufs_sub .., StableHlo.binary_bufs_sub ..⟩
theorem opsGat0_fresh : (opsGat0 : List (HloOp τ sig (Elt Ideal))).Forall fun op => op.fresh = ∅ :=
  ⟨rfl, rfl, rfl, rfl, rfl, rfl, rfl, rfl, rfl, rfl, rfl, rfl, rfl, rfl, rfl, rfl, rfl, rfl⟩

theorem opsMsg0_sub : (opsMsg0 : List (HloOp τ sig (Elt Ideal))).Forall fun op => op.bufs ⊆ StableHlo.tcRefs τ sig :=
  ⟨StableHlo.binary_bufs_sub .., StableHlo.unary_bufs_sub .., StableHlo.reshape_bufs_sub .., StableHlo.binary_bufs_sub .., StableHlo.unary_bufs_sub ..,
   StableHlo.reshape_bufs_sub .., StableHlo.unary_bufs_sub .., StableHlo.unary_bufs_sub .., StableHlo.binary_bufs_sub .., StableHlo.unary_bufs_sub ..,
   StableHlo.unary_bufs_sub .., StableHlo.reshape_bufs_sub .., StableHlo.binary_bufs_sub .., StableHlo.unary_bufs_sub .., StableHlo.reshape_bufs_sub ..,
   StableHlo.unary_bufs_sub .., StableHlo.unary_bufs_sub .., StableHlo.binary_bufs_sub .., StableHlo.unary_bufs_sub .., StableHlo.unary_bufs_sub ..,
   StableHlo.reshape_bufs_sub .., StableHlo.binary_bufs_sub .., StableHlo.unary_bufs_sub .., StableHlo.reshape_bufs_sub .., StableHlo.unary_bufs_sub ..,
   StableHlo.unary_bufs_sub .., StableHlo.binary_bufs_sub ..⟩
theorem opsMsg0_fresh : (opsMsg0 : List (HloOp τ sig (Elt Ideal))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl⟩

theorem opsAgg0_sub : (opsAgg0 : List (HloOp τ sig (Elt Ideal))).Forall fun op => op.bufs ⊆ StableHlo.tcRefs τ sig :=
  ⟨StableHlo.nullary_bufs_sub .., StableHlo.unary_bufs_sub .., StableHlo.unary_bufs_sub .., StableHlo.ternary_bufs_sub .., StableHlo.unary_bufs_sub ..,
   StableHlo.binary_bufs_sub ..⟩
theorem opsAgg0_fresh : (opsAgg0 : List (HloOp τ sig (Elt Ideal))).Forall fun op => op.fresh = ∅ :=
  ⟨rfl, rfl, rfl, rfl, rfl, rfl⟩

theorem opsGru0_sub : (opsGru0 : List (HloOp τ sig (Elt Ideal))).Forall fun op => op.bufs ⊆ StableHlo.tcRefs τ sig :=
  ⟨StableHlo.unary_bufs_sub .., StableHlo.reshape_bufs_sub .., StableHlo.unary_bufs_sub .., StableHlo.binary_bufs_sub .., StableHlo.unary_bufs_sub ..,
   StableHlo.reshape_bufs_sub .., StableHlo.unary_bufs_sub .., StableHlo.unary_bufs_sub .., StableHlo.binary_bufs_sub .., StableHlo.unary_bufs_sub ..,
   StableHlo.reshape_bufs_sub .., StableHlo.unary_bufs_sub .., StableHlo.binary_bufs_sub .., StableHlo.unary_bufs_sub .., StableHlo.reshape_bufs_sub ..,
   StableHlo.unary_bufs_sub .., StableHlo.unary_bufs_sub .., StableHlo.binary_bufs_sub .., StableHlo.unary_bufs_sub .., StableHlo.unary_bufs_sub ..,
   StableHlo.unary_bufs_sub .., StableHlo.unary_bufs_sub .., StableHlo.unary_bufs_sub .., StableHlo.unary_bufs_sub .., StableHlo.binary_bufs_sub ..,
   StableHlo.unary_bufs_sub .., StableHlo.unary_bufs_sub .., StableHlo.nullary_bufs_sub .., StableHlo.unary_bufs_sub .., StableHlo.binary_bufs_sub ..,
   StableHlo.nullary_bufs_sub .., StableHlo.unary_bufs_sub .., StableHlo.binary_bufs_sub .., StableHlo.binary_bufs_sub .., StableHlo.unary_bufs_sub ..,
   StableHlo.unary_bufs_sub .., StableHlo.nullary_bufs_sub .., StableHlo.unary_bufs_sub .., StableHlo.binary_bufs_sub .., StableHlo.nullary_bufs_sub ..,
   StableHlo.unary_bufs_sub .., StableHlo.binary_bufs_sub .., StableHlo.binary_bufs_sub .., StableHlo.binary_bufs_sub .., StableHlo.unary_bufs_sub ..,
   StableHlo.nullary_bufs_sub .., StableHlo.unary_bufs_sub .., StableHlo.binary_bufs_sub .., StableHlo.binary_bufs_sub .., StableHlo.binary_bufs_sub ..,
   StableHlo.binary_bufs_sub ..⟩
theorem opsGru0_fresh : (opsGru0 : List (HloOp τ sig (Elt Ideal))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
   rfl, rfl, rfl, rfl, rfl, rfl, rfl, rfl, rfl, rfl, rfl, rfl, rfl, rfl, rfl, rfl, rfl, rfl, rfl, rfl, rfl⟩

theorem opsGat1_sub : (opsGat1 : List (HloOp τ sig (Elt Ideal))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub ..,
   StableHlo.binary_bufs_sub .., StableHlo.ternary_bufs_sub .., StableHlo.unary_bufs_sub .., StableHlo.binary_bufs_sub .., StableHlo.nullary_bufs_sub ..,
   StableHlo.unary_bufs_sub .., StableHlo.binary_bufs_sub .., StableHlo.nullary_bufs_sub .., StableHlo.unary_bufs_sub .., StableHlo.binary_bufs_sub ..,
   StableHlo.ternary_bufs_sub .., StableHlo.unary_bufs_sub .., StableHlo.binary_bufs_sub ..⟩
theorem opsGat1_fresh : (opsGat1 : List (HloOp τ sig (Elt Ideal))).Forall fun op => op.fresh = ∅ :=
  ⟨rfl, rfl, rfl, rfl, rfl, rfl, rfl, rfl, rfl, rfl, rfl, rfl, rfl, rfl, rfl, rfl, rfl, rfl⟩

theorem opsMsg1_sub : (opsMsg1 : List (HloOp τ sig (Elt Ideal))).Forall fun op => op.bufs ⊆ StableHlo.tcRefs τ sig :=
  ⟨StableHlo.binary_bufs_sub .., StableHlo.unary_bufs_sub .., StableHlo.reshape_bufs_sub .., StableHlo.binary_bufs_sub .., StableHlo.unary_bufs_sub ..,
   StableHlo.reshape_bufs_sub .., StableHlo.unary_bufs_sub .., StableHlo.unary_bufs_sub .., StableHlo.binary_bufs_sub .., StableHlo.unary_bufs_sub ..,
   StableHlo.unary_bufs_sub .., StableHlo.reshape_bufs_sub .., StableHlo.binary_bufs_sub .., StableHlo.unary_bufs_sub .., StableHlo.reshape_bufs_sub ..,
   StableHlo.unary_bufs_sub .., StableHlo.unary_bufs_sub .., StableHlo.binary_bufs_sub .., StableHlo.unary_bufs_sub .., StableHlo.unary_bufs_sub ..,
   StableHlo.reshape_bufs_sub .., StableHlo.binary_bufs_sub .., StableHlo.unary_bufs_sub .., StableHlo.reshape_bufs_sub .., StableHlo.unary_bufs_sub ..,
   StableHlo.unary_bufs_sub .., StableHlo.binary_bufs_sub ..⟩
theorem opsMsg1_fresh : (opsMsg1 : List (HloOp τ sig (Elt Ideal))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl⟩

theorem opsAgg1_sub : (opsAgg1 : List (HloOp τ sig (Elt Ideal))).Forall fun op => op.bufs ⊆ StableHlo.tcRefs τ sig :=
  ⟨StableHlo.nullary_bufs_sub .., StableHlo.unary_bufs_sub .., StableHlo.unary_bufs_sub .., StableHlo.ternary_bufs_sub .., StableHlo.unary_bufs_sub ..,
   StableHlo.binary_bufs_sub ..⟩
theorem opsAgg1_fresh : (opsAgg1 : List (HloOp τ sig (Elt Ideal))).Forall fun op => op.fresh = ∅ :=
  ⟨rfl, rfl, rfl, rfl, rfl, rfl⟩

theorem opsGru1_sub : (opsGru1 : List (HloOp τ sig (Elt Ideal))).Forall fun op => op.bufs ⊆ StableHlo.tcRefs τ sig :=
  ⟨StableHlo.unary_bufs_sub .., StableHlo.reshape_bufs_sub .., StableHlo.unary_bufs_sub .., StableHlo.binary_bufs_sub .., StableHlo.unary_bufs_sub ..,
   StableHlo.reshape_bufs_sub .., StableHlo.unary_bufs_sub .., StableHlo.unary_bufs_sub .., StableHlo.binary_bufs_sub .., StableHlo.unary_bufs_sub ..,
   StableHlo.reshape_bufs_sub .., StableHlo.unary_bufs_sub .., StableHlo.binary_bufs_sub .., StableHlo.unary_bufs_sub .., StableHlo.reshape_bufs_sub ..,
   StableHlo.unary_bufs_sub .., StableHlo.unary_bufs_sub .., StableHlo.binary_bufs_sub .., StableHlo.unary_bufs_sub .., StableHlo.unary_bufs_sub ..,
   StableHlo.unary_bufs_sub .., StableHlo.unary_bufs_sub .., StableHlo.unary_bufs_sub .., StableHlo.unary_bufs_sub .., StableHlo.binary_bufs_sub ..,
   StableHlo.unary_bufs_sub .., StableHlo.unary_bufs_sub .., StableHlo.nullary_bufs_sub .., StableHlo.unary_bufs_sub .., StableHlo.binary_bufs_sub ..,
   StableHlo.nullary_bufs_sub .., StableHlo.unary_bufs_sub .., StableHlo.binary_bufs_sub .., StableHlo.binary_bufs_sub .., StableHlo.unary_bufs_sub ..,
   StableHlo.unary_bufs_sub .., StableHlo.nullary_bufs_sub .., StableHlo.unary_bufs_sub .., StableHlo.binary_bufs_sub .., StableHlo.nullary_bufs_sub ..,
   StableHlo.unary_bufs_sub .., StableHlo.binary_bufs_sub .., StableHlo.binary_bufs_sub .., StableHlo.binary_bufs_sub .., StableHlo.unary_bufs_sub ..,
   StableHlo.nullary_bufs_sub .., StableHlo.unary_bufs_sub .., StableHlo.binary_bufs_sub .., StableHlo.binary_bufs_sub .., StableHlo.binary_bufs_sub ..,
   StableHlo.binary_bufs_sub ..⟩
theorem opsGru1_fresh : (opsGru1 : List (HloOp τ sig (Elt Ideal))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
   rfl, rfl, rfl, rfl, rfl, rfl, rfl, rfl, rfl, rfl, rfl, rfl, rfl, rfl, rfl, rfl, rfl, rfl, rfl, rfl, rfl⟩

theorem opsGat2_sub : (opsGat2 : List (HloOp τ sig (Elt Ideal))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub ..,
   StableHlo.binary_bufs_sub .., StableHlo.ternary_bufs_sub .., StableHlo.unary_bufs_sub .., StableHlo.binary_bufs_sub .., StableHlo.nullary_bufs_sub ..,
   StableHlo.unary_bufs_sub .., StableHlo.binary_bufs_sub .., StableHlo.nullary_bufs_sub .., StableHlo.unary_bufs_sub .., StableHlo.binary_bufs_sub ..,
   StableHlo.ternary_bufs_sub .., StableHlo.unary_bufs_sub .., StableHlo.binary_bufs_sub ..⟩
theorem opsGat2_fresh : (opsGat2 : List (HloOp τ sig (Elt Ideal))).Forall fun op => op.fresh = ∅ :=
  ⟨rfl, rfl, rfl, rfl, rfl, rfl, rfl, rfl, rfl, rfl, rfl, rfl, rfl, rfl, rfl, rfl, rfl, rfl⟩

theorem opsMsg2_sub : (opsMsg2 : List (HloOp τ sig (Elt Ideal))).Forall fun op => op.bufs ⊆ StableHlo.tcRefs τ sig :=
  ⟨StableHlo.binary_bufs_sub .., StableHlo.unary_bufs_sub .., StableHlo.reshape_bufs_sub .., StableHlo.binary_bufs_sub .., StableHlo.unary_bufs_sub ..,
   StableHlo.reshape_bufs_sub .., StableHlo.unary_bufs_sub .., StableHlo.unary_bufs_sub .., StableHlo.binary_bufs_sub .., StableHlo.unary_bufs_sub ..,
   StableHlo.unary_bufs_sub .., StableHlo.reshape_bufs_sub .., StableHlo.binary_bufs_sub .., StableHlo.unary_bufs_sub .., StableHlo.reshape_bufs_sub ..,
   StableHlo.unary_bufs_sub .., StableHlo.unary_bufs_sub .., StableHlo.binary_bufs_sub .., StableHlo.unary_bufs_sub .., StableHlo.unary_bufs_sub ..,
   StableHlo.reshape_bufs_sub .., StableHlo.binary_bufs_sub .., StableHlo.unary_bufs_sub .., StableHlo.reshape_bufs_sub .., StableHlo.unary_bufs_sub ..,
   StableHlo.unary_bufs_sub .., StableHlo.binary_bufs_sub ..⟩
theorem opsMsg2_fresh : (opsMsg2 : List (HloOp τ sig (Elt Ideal))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl⟩

theorem opsAgg2_sub : (opsAgg2 : List (HloOp τ sig (Elt Ideal))).Forall fun op => op.bufs ⊆ StableHlo.tcRefs τ sig :=
  ⟨StableHlo.nullary_bufs_sub .., StableHlo.unary_bufs_sub .., StableHlo.unary_bufs_sub .., StableHlo.ternary_bufs_sub .., StableHlo.unary_bufs_sub ..,
   StableHlo.binary_bufs_sub ..⟩
theorem opsAgg2_fresh : (opsAgg2 : List (HloOp τ sig (Elt Ideal))).Forall fun op => op.fresh = ∅ :=
  ⟨rfl, rfl, rfl, rfl, rfl, rfl⟩

theorem opsGru2_sub : (opsGru2 : List (HloOp τ sig (Elt Ideal))).Forall fun op => op.bufs ⊆ StableHlo.tcRefs τ sig :=
  ⟨StableHlo.unary_bufs_sub .., StableHlo.reshape_bufs_sub .., StableHlo.unary_bufs_sub .., StableHlo.binary_bufs_sub .., StableHlo.unary_bufs_sub ..,
   StableHlo.reshape_bufs_sub .., StableHlo.unary_bufs_sub .., StableHlo.unary_bufs_sub .., StableHlo.binary_bufs_sub .., StableHlo.unary_bufs_sub ..,
   StableHlo.reshape_bufs_sub .., StableHlo.unary_bufs_sub .., StableHlo.binary_bufs_sub .., StableHlo.unary_bufs_sub .., StableHlo.reshape_bufs_sub ..,
   StableHlo.unary_bufs_sub .., StableHlo.unary_bufs_sub .., StableHlo.binary_bufs_sub .., StableHlo.unary_bufs_sub .., StableHlo.unary_bufs_sub ..,
   StableHlo.unary_bufs_sub .., StableHlo.unary_bufs_sub .., StableHlo.unary_bufs_sub .., StableHlo.unary_bufs_sub .., StableHlo.binary_bufs_sub ..,
   StableHlo.unary_bufs_sub .., StableHlo.unary_bufs_sub .., StableHlo.nullary_bufs_sub .., StableHlo.unary_bufs_sub .., StableHlo.binary_bufs_sub ..,
   StableHlo.nullary_bufs_sub .., StableHlo.unary_bufs_sub .., StableHlo.binary_bufs_sub .., StableHlo.binary_bufs_sub .., StableHlo.unary_bufs_sub ..,
   StableHlo.unary_bufs_sub .., StableHlo.nullary_bufs_sub .., StableHlo.unary_bufs_sub .., StableHlo.binary_bufs_sub .., StableHlo.nullary_bufs_sub ..,
   StableHlo.unary_bufs_sub .., StableHlo.binary_bufs_sub .., StableHlo.binary_bufs_sub .., StableHlo.binary_bufs_sub .., StableHlo.unary_bufs_sub ..,
   StableHlo.nullary_bufs_sub .., StableHlo.unary_bufs_sub .., StableHlo.binary_bufs_sub .., StableHlo.binary_bufs_sub .., StableHlo.binary_bufs_sub ..,
   StableHlo.binary_bufs_sub ..⟩
theorem opsGru2_fresh : (opsGru2 : List (HloOp τ sig (Elt Ideal))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
   rfl, rfl, rfl, rfl, rfl, rfl, rfl, rfl, rfl, rfl, rfl, rfl, rfl, rfl, rfl, rfl, rfl, rfl, rfl, rfl, rfl⟩

theorem opsDec_sub : (opsDec : List (HloOp τ sig (Elt Ideal))).Forall fun op => op.bufs ⊆ StableHlo.tcRefs τ sig :=
  ⟨StableHlo.binary_bufs_sub .., StableHlo.unary_bufs_sub .., StableHlo.unary_bufs_sub .., StableHlo.binary_bufs_sub .., StableHlo.unary_bufs_sub ..,
   StableHlo.binary_bufs_sub .., StableHlo.unary_bufs_sub .., StableHlo.unary_bufs_sub .., StableHlo.binary_bufs_sub .., StableHlo.unary_bufs_sub ..,
   StableHlo.binary_bufs_sub .., StableHlo.unary_bufs_sub .., StableHlo.unary_bufs_sub .., StableHlo.binary_bufs_sub ..⟩
theorem opsDec_fresh : (opsDec : List (HloOp τ sig (Elt Ideal))).Forall fun op => op.fresh = ∅ :=
  ⟨rfl, rfl, rfl, rfl, rfl, rfl, rfl, rfl, rfl, rfl, rfl, rfl, rfl, rfl⟩

theorem opsAll_sub : (opsAll : List (HloOp τ sig (Elt Ideal))).Forall fun op => op.bufs ⊆ StableHlo.tcRefs τ sig :=
  (List.forall_append.mpr ⟨(List.forall_append.mpr ⟨(List.forall_append.mpr ⟨(List.forall_append.mpr ⟨(List.forall_append.mpr ⟨(List.forall_append.mpr ⟨(List.forall_append.mpr ⟨(List.forall_append.mpr ⟨(List.forall_append.mpr ⟨(List.forall_append.mpr ⟨(List.forall_append.mpr ⟨(List.forall_append.mpr ⟨(List.forall_append.mpr ⟨(List.forall_append.mpr ⟨opsPre_sub, opsEnc_sub⟩), opsGat0_sub⟩), opsMsg0_sub⟩), opsAgg0_sub⟩), opsGru0_sub⟩), opsGat1_sub⟩), opsMsg1_sub⟩), opsAgg1_sub⟩), opsGru1_sub⟩), opsGat2_sub⟩), opsMsg2_sub⟩), opsAgg2_sub⟩), opsGru2_sub⟩), opsDec_sub⟩)

theorem opsAll_fresh : (opsAll : List (HloOp τ sig (Elt Ideal))).Forall fun op => op.fresh = ∅ :=
  (List.forall_append.mpr ⟨(List.forall_append.mpr ⟨(List.forall_append.mpr ⟨(List.forall_append.mpr ⟨(List.forall_append.mpr ⟨(List.forall_append.mpr ⟨(List.forall_append.mpr ⟨(List.forall_append.mpr ⟨(List.forall_append.mpr ⟨(List.forall_append.mpr ⟨(List.forall_append.mpr ⟨(List.forall_append.mpr ⟨(List.forall_append.mpr ⟨(List.forall_append.mpr ⟨opsPre_fresh, opsEnc_fresh⟩), opsGat0_fresh⟩), opsMsg0_fresh⟩), opsAgg0_fresh⟩), opsGru0_fresh⟩), opsGat1_fresh⟩), opsMsg1_fresh⟩), opsAgg1_fresh⟩), opsGru1_fresh⟩), opsGat2_fresh⟩), opsMsg2_fresh⟩), opsAgg2_fresh⟩), opsGru2_fresh⟩), opsDec_fresh⟩)

theorem scopedRefs_eq : (Finset.univ.filter fun b : Ref sig .tc => b.isScoped) = ∅ := by decide
theorem scopedSems_eq : (Finset.univ.filter fun sm : SemLoc sig => sm.isScoped .tc) = ∅ := by decide

theorem run_fold (m : (ℓ : Loc nD τ sig) → Buf (Elt Ideal) ℓ) (ρ : Dev nD → PrngReg) :
    θ_run defs (onTc (τ := τ) (main (F := Ideal))) ⟨m, fun _ => 0, ρ⟩ fun r =>
      ∀ (d : Dev nD) (b : Ref sig .tc), r.2.mem ((d.tc : Thread nD τ).loc b)
        = StableHlo.after (opsAll (F := Ideal)) (StableHlo.launchContents m d) (Proc.devRef .tc b) :=
  StableHlo.run_seq scopedRefs_eq scopedSems_eq defs main (fun _ => opsAll) main_eq (fun _ => opsAll_sub) m ρ
    (fun _ => List.forall_iff_forall_mem.mp opsAll_fresh)

/-! ## The edge lists and the degree reciprocals (`opsPre`) -/

/-- The references the stretch writes. -/
def written_pre : List (Ref sig .tc) :=
  [main_v0, main_v1, main_v2, main_v3, main_v4, main_v5, main_v6, main_cst, main_v7, main_cst_0, main_v8, main_v9, main_v10, main_cst_1, main_v11,
   main_v12, main_v13]

theorem pre_keep (r : Ref sig .tc) (hr : r ∉ written_pre) : StableHlo.after (opsPre (F := Ideal)) X (Proc.devRef .tc r) = X (Proc.devRef .tc r) := by
  refine StableHlo.after_of_writes_sub (W := written_pre) _ X ?_ hr
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)

theorem pre_src : StableHlo.after (opsPre (F := Ideal)) X (Proc.devRef .tc main_v3) = srcOf (X (Proc.devRef .tc main_arg1)) := by
  after_results
  rfl
theorem pre_dst : StableHlo.after (opsPre (F := Ideal)) X (Proc.devRef .tc main_v6) = dstOf (X (Proc.devRef .tc main_arg1)) := by
  after_results
  rfl
theorem pre_invDeg : StableHlo.after (opsPre (F := Ideal)) X (Proc.devRef .tc main_v13) = invDeg (dstOf (X (Proc.devRef .tc main_arg1))) := by
  after_results
  rfl

/-! ## Round 0: the two row gathers (`opsGat0`) and the mean aggregation (`opsAgg0`) -/

/-- The references the stretch writes. -/
def written_gat0 : List (Ref sig .tc) :=
  [main_c, main_v19, main_v20, main_c_2, main_v21, main_v22, main_v23, main_v24, main_v25, main_c_3, main_v26, main_v27, main_c_4, main_v28, main_v29,
   main_v30, main_v31, main_v32]

theorem gat0_keep (r : Ref sig .tc) (hr : r ∉ written_gat0) : StableHlo.after (opsGat0 (F := Ideal)) X (Proc.devRef .tc r) = X (Proc.devRef .tc r) := by
  refine StableHlo.after_of_writes_sub (W := written_gat0) _ X ?_ hr
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)

theorem gat0_hd : StableHlo.after (opsGat0 (F := Ideal)) X (Proc.devRef .tc main_v25) = gatherRows (X (Proc.devRef .tc main_v18)) (X (Proc.devRef .tc main_v6)) := by
  after_results
  rfl
theorem gat0_hs : StableHlo.after (opsGat0 (F := Ideal)) X (Proc.devRef .tc main_v32) = gatherRows (X (Proc.devRef .tc main_v18)) (X (Proc.devRef .tc main_v3)) := by
  after_results
  rfl

/-- The references the stretch writes. -/
def written_agg0 : List (Ref sig .tc) :=
  [main_cst_5, main_v60, main_v61, main_v62, main_v63, main_v64]

theorem agg0_keep (r : Ref sig .tc) (hr : r ∉ written_agg0) : StableHlo.after (opsAgg0 (F := Ideal)) X (Proc.devRef .tc r) = X (Proc.devRef .tc r) := by
  refine StableHlo.after_of_writes_sub (W := written_agg0) _ X ?_ hr
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)

theorem agg0_val : StableHlo.after (opsAgg0 (F := Ideal)) X (Proc.devRef .tc main_v64) = aggOf (X (Proc.devRef .tc main_v59)) (X (Proc.devRef .tc main_v6)) (X (Proc.devRef .tc main_v13)) := by
  after_results
  rfl

/-! ## Round 1: the two row gathers (`opsGat1`) and the mean aggregation (`opsAgg1`) -/

/-- The references the stretch writes. -/
def written_gat1 : List (Ref sig .tc) :=
  [main_c_11, main_v111, main_v112, main_c_12, main_v113, main_v114, main_v115, main_v116, main_v117, main_c_13, main_v118, main_v119, main_c_14,
   main_v120, main_v121, main_v122, main_v123, main_v124]

theorem gat1_keep (r : Ref sig .tc) (hr : r ∉ written_gat1) : StableHlo.after (opsGat1 (F := Ideal)) X (Proc.devRef .tc r) = X (Proc.devRef .tc r) := by
  refine StableHlo.after_of_writes_sub (W := written_gat1) _ X ?_ hr
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)

theorem gat1_hd : StableHlo.after (opsGat1 (F := Ideal)) X (Proc.devRef .tc main_v117) = gatherRows (X (Proc.devRef .tc main_v110)) (X (Proc.devRef .tc main_v6)) := by
  after_results
  rfl
theorem gat1_hs : StableHlo.after (opsGat1 (F := Ideal)) X (Proc.devRef .tc main_v124) = gatherRows (X (Proc.devRef .tc main_v110)) (X (Proc.devRef .tc main_v3)) := by
  after_results
  rfl

/-- The references the stretch writes. -/
def written_agg1 : List (Ref sig .tc) :=
  [main_cst_15, main_v152, main_v153, main_v154, main_v155, main_v156]

theorem agg1_keep (r : Ref sig .tc) (hr : r ∉ written_agg1) : StableHlo.after (opsAgg1 (F := Ideal)) X (Proc.devRef .tc r) = X (Proc.devRef .tc r) := by
  refine StableHlo.after_of_writes_sub (W := written_agg1) _ X ?_ hr
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)

theorem agg1_val : StableHlo.after (opsAgg1 (F := Ideal)) X (Proc.devRef .tc main_v156) = aggOf (X (Proc.devRef .tc main_v151)) (X (Proc.devRef .tc main_v6)) (X (Proc.devRef .tc main_v13)) := by
  after_results
  rfl

/-! ## Round 2: the two row gathers (`opsGat2`) and the mean aggregation (`opsAgg2`) -/

/-- The references the stretch writes. -/
def written_gat2 : List (Ref sig .tc) :=
  [main_c_21, main_v203, main_v204, main_c_22, main_v205, main_v206, main_v207, main_v208, main_v209, main_c_23, main_v210, main_v211, main_c_24,
   main_v212, main_v213, main_v214, main_v215, main_v216]

theorem gat2_keep (r : Ref sig .tc) (hr : r ∉ written_gat2) : StableHlo.after (opsGat2 (F := Ideal)) X (Proc.devRef .tc r) = X (Proc.devRef .tc r) := by
  refine StableHlo.after_of_writes_sub (W := written_gat2) _ X ?_ hr
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)

theorem gat2_hd : StableHlo.after (opsGat2 (F := Ideal)) X (Proc.devRef .tc main_v209) = gatherRows (X (Proc.devRef .tc main_v202)) (X (Proc.devRef .tc main_v6)) := by
  after_results
  rfl
theorem gat2_hs : StableHlo.after (opsGat2 (F := Ideal)) X (Proc.devRef .tc main_v216) = gatherRows (X (Proc.devRef .tc main_v202)) (X (Proc.devRef .tc main_v3)) := by
  after_results
  rfl

/-- The references the stretch writes. -/
def written_agg2 : List (Ref sig .tc) :=
  [main_cst_25, main_v244, main_v245, main_v246, main_v247, main_v248]

theorem agg2_keep (r : Ref sig .tc) (hr : r ∉ written_agg2) : StableHlo.after (opsAgg2 (F := Ideal)) X (Proc.devRef .tc r) = X (Proc.devRef .tc r) := by
  refine StableHlo.after_of_writes_sub (W := written_agg2) _ X ?_ hr
  simp only [List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)

theorem agg2_val : StableHlo.after (opsAgg2 (F := Ideal)) X (Proc.devRef .tc main_v248) = aggOf (X (Proc.devRef .tc main_v243)) (X (Proc.devRef .tc main_v6)) (X (Proc.devRef .tc main_v13)) := by
  after_results
  rfl

end Cert.ReferenceIdeal.Stages

end
-- ==== Proof.RefEncDec.lean ====
import proofs.«427837_j2834678415534_1_alg».proof.Proof.RefOps
import proofs.«427837_j2834678415534_1_alg».proof.Proof.RHostFns
import proofs.«427837_j2834678415534_1_alg».proof.Proof.Chain
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StackMember

set_option maxRecDepth 16384

noncomputable section

namespace Cert.ReferenceIdeal.Stages

open Cert.ReferenceIdeal Cert.ReferenceIdeal.HostFns Idealize.ShloMosaic Idealize.ShloMosaic.TcCoe Idealize.SL.Sem
open Idealize.ShloMosaic.ValueIdx Idealize.ShloMosaic.StableHlo
open Cert.Gnn (asRow rowOf matOf matOfT halfOf)

variable (X : Valuation τ sig (Elt Ideal))

/-! ## One dense layer of the reference, read at an entry -/

/-- A one-row bias laid along every row, read at an entry: the bias at the entry's column. -/
theorem encDec_biasRows_apply {R N : Nat} (b : FVec Ideal (⟨1, ![N]⟩ : Shape) .f32)
    (h1 : (⟨1, ![N]⟩ : Shape).BroadcastsInDim ⟨2, ![1, N]⟩ ![1]) (h2 : (⟨2, ![1, N]⟩ : Shape).BroadcastsInDim ⟨2, ![R, N]⟩ ![0, 1])
    (p : Fin R) (q : Fin N) :
    broadcastInDim (⟨2, ![R, N]⟩ : Shape) ![0, 1] h2 (broadcastInDim (⟨2, ![1, N]⟩ : Shape) ![1] h1 b) (ix2 p q) = b (ix1 q) := by
  have hq : q.val = if N = 1 then 0 else q.val := by
    split
    · have := q.isLt; omega
    · rfl
  refine (broadcastInDim_apply ![0, 1] h2 _ (ix2 p q) (ix2 (0 : Fin 1) q) fun a => ?_).trans
    (broadcastInDim_apply ![1] h1 b (ix2 (0 : Fin 1) q) (ix1 q) fun a => ?_)
  · match a with
    | ⟨0, _⟩ => rfl
    | ⟨1, _⟩ => exact hq
  · match a with
    | ⟨0, _⟩ => exact hq

/-- The plain product of a matrix by a weight matrix plus the bias laid along the rows, read at an entry, is the dense
    layer of the entry's row. -/
theorem encDec_dense_apply {R K N : Nat} (D : DotDims (⟨2, ![R, K]⟩ : Shape) ⟨2, ![K, N]⟩ ⟨2, ![R, N]⟩) (hD : D = DotDims.plain R K N)
    (x : FVec Ideal (⟨2, ![R, K]⟩ : Shape) .f32) (W : FVec Ideal (⟨2, ![K, N]⟩ : Shape) .f32) (b : FVec Ideal (⟨1, ![N]⟩ : Shape) .f32)
    (h1 : (⟨1, ![N]⟩ : Shape).BroadcastsInDim ⟨2, ![1, N]⟩ ![1]) (h2 : (⟨2, ![1, N]⟩ : Shape).BroadcastsInDim ⟨2, ![R, N]⟩ ![0, 1])
    (p : Fin R) (q : Fin N) :
    addf (Host.dotGeneral D none x W)
        (broadcastInDim (⟨2, ![R, N]⟩ : Shape) ![0, 1] h2 (broadcastInDim (⟨2, ![1, N]⟩ : Shape) ![1] h1 b)) (ix2 p q)
      = Cert.Gnn.dense (Cert.Gnn.row x p) W (asRow b) q := by
  subst hD
  rw [addf_apply, encDec_biasRows_apply, StackMember.dotGeneral_plain_apply]
  rfl

/-! ## The encoder (`opsEnc`) -/

/-- The references the stretch writes. -/
def written_enc : List (Ref sig .tc) := [main_v14, main_v15, main_v16, main_v17, main_call0_cst, main_call0_v0, main_v18]

theorem enc_keep (r : Ref sig .tc) (hr : r ∉ written_enc) : StableHlo.after (opsEnc (F := Ideal)) X (Proc.devRef .tc r) = X (Proc.devRef .tc r) := by
  refine StableHlo.after_of_writes_sub _ X ?_ hr
  simp only [opsEnc, written_enc, List.Forall, StableHlo.nullary_writes, StableHlo.unary_writes, StableHlo.binary_writes,
    List.map_cons, List.map_nil, List.toFinset_cons, List.toFinset_nil, Finset.singleton_subset_iff, Finset.mem_insert,
    true_or, or_true, and_self]

/-- The encoder's composite of host operations is the encoder stage. -/
theorem encDec_encRef (x : FVec Ideal S50000x64 .f32) (W : FVec Ideal S64x32 .f32) (b : FVec Ideal S32 .f32) :
    maximumf (addf (Host.dotGeneral dot_S50000x64_S64x32_S50000x32_1_0_0_1_n_n none x W)
        (broadcastInDim S50000x32 ![0, 1] Gen.bcast_S1x32_S50000x32_0_1 (broadcastInDim S1x32 ![1] Gen.bcast_S32_S1x32_1 b)))
      (broadcastInDim S50000x32 ![] Gen.bcast_S_S50000x32 (constant (F := Ideal) S_ .f32 0x00000000#32))
    = Cert.Gnn.encK x W (asRow b) := by
  funext i
  obtain ⟨p, q, rfl⟩ : ∃ (p : Fin 50000) (q : Fin 32), i = ix2 p q := ⟨i 0, i 1, eq_ix2 i⟩
  refine (maximumf_apply _ _ _).trans ?_
  refine (congrArg (max · _) (encDec_dense_apply dot_S50000x64_S64x32_S50000x32_1_0_0_1_n_n rfl x W b _ _ p q)).trans ?_
  show max _ (Ideal.ofBits .f32 0x00000000#32) = _
  rw [Ideal.ofBits_zero_f32]
  rfl

theorem enc_val : StableHlo.after (opsEnc (F := Ideal)) X (Proc.devRef .tc main_v18)
    = Cert.Gnn.encK (X (Proc.devRef .tc main_arg0)) (X (Proc.devRef .tc main_arg2)) (asRow (X (Proc.devRef .tc main_arg3))) := by
  after_results
  exact encDec_encRef (X (Proc.devRef .tc main_arg0)) (X (Proc.devRef .tc main_arg2)) (X (Proc.devRef .tc main_arg3))

/-! ## The decoder (`opsDec`) -/

/-- The references the stretch writes. -/
def written_dec : List (Ref sig .tc) := [main_v295, main_v296, main_v297, main_v298, main_v299, main_v300, main_v301, main_v302,
  main_v303, main_v304, main_v305, main_v306, main_v307, main_v308]

theorem dec_keep (r : Ref sig .tc) (hr : r ∉ written_dec) : StableHlo.after (opsDec (F := Ideal)) X (Proc.devRef .tc r) = X (Proc.devRef .tc r) := by
  refine StableHlo.after_of_writes_sub _ X ?_ hr
  simp only [opsDec, written_dec, List.Forall, StableHlo.nullary_writes, StableHlo.unary_writes, StableHlo.binary_writes,
    List.map_cons, List.map_nil, List.toFinset_cons, List.toFinset_nil, Finset.singleton_subset_iff, Finset.mem_insert,
    true_or, or_true, and_self]

/-- A row of the hyperbolic tangent of a matrix is the hyperbolic tangent of the row's entries. -/
theorem encDec_row_tanh {R K : Nat} (Y : FVec Ideal (⟨2, ![R, K]⟩ : Shape) .f32) (p : Fin R) :
    Cert.Gnn.row (Host.tanh Y) p = fun k => Ideal.tanh (Y (ix2 p k)) := rfl

/-- The decoder's composite of host operations is the decoder stage. -/
theorem encDec_decRef (h : FVec Ideal S50000x32 .f32) (w1 : FVec Ideal S32x64 .f32) (b1 : FVec Ideal S64 .f32) (w2 : FVec Ideal S64x64 .f32)
    (b2 : FVec Ideal S64 .f32) (w3 : FVec Ideal S64x8 .f32) (b3 : FVec Ideal S8 .f32) :
    addf (Host.dotGeneral dot_S50000x64_S64x8_S50000x8_1_0_0_1_n_n none
          (Host.tanh (addf (Host.dotGeneral dot_S50000x64_S64x64_S50000x64_1_0_0_1_n_n none
              (Host.tanh (addf (Host.dotGeneral dot_S50000x32_S32x64_S50000x64_1_0_0_1_n_n none h w1)
                (broadcastInDim S50000x64 ![0, 1] Gen.bcast_S1x64_S50000x64_0_1 (broadcastInDim S1x64 ![1] Gen.bcast_S64_S1x64_1 b1))))
              w2)
            (broadcastInDim S50000x64 ![0, 1] Gen.bcast_S1x64_S50000x64_0_1 (broadcastInDim S1x64 ![1] Gen.bcast_S64_S1x64_1 b2))))
          w3)
        (broadcastInDim S50000x8 ![0, 1] Gen.bcast_S1x8_S50000x8_0_1 (broadcastInDim S1x8 ![1] Gen.bcast_S8_S1x8_1 b3))
      = Cert.Gnn.decK h w1 (asRow b1) w2 (asRow b2) w3 (asRow b3) := by
  funext i
  obtain ⟨p, q, rfl⟩ : ∃ (p : Fin 50000) (q : Fin 8), i = ix2 p q := ⟨i 0, i 1, eq_ix2 i⟩
  refine (encDec_dense_apply dot_S50000x64_S64x8_S50000x8_1_0_0_1_n_n rfl _ w3 b3 _ _ p q).trans ?_
  rw [encDec_row_tanh]
  refine congrArg (fun v => Cert.Gnn.dense v w3 (asRow b3) q) (funext fun k => congrArg Ideal.tanh ?_)
  refine (encDec_dense_apply dot_S50000x64_S64x64_S50000x64_1_0_0_1_n_n rfl _ w2 b2 _ _ p k).trans ?_
  rw [encDec_row_tanh]
  refine congrArg (fun v => Cert.Gnn.dense v w2 (asRow b2) k) (funext fun k' => congrArg Ideal.tanh ?_)
  exact encDec_dense_apply dot_S50000x32_S32x64_S50000x64_1_0_0_1_n_n rfl h w1 b1 _ _ p k'

theorem dec_val : StableHlo.after (opsDec (F := Ideal)) X (Proc.devRef .tc main_v308)
    = Cert.Gnn.decK (X (Proc.devRef .tc main_v294)) (X (Proc.devRef .tc main_arg14)) (asRow (X (Proc.devRef .tc main_arg15))) (X (Proc.devRef .tc main_arg16)) (asRow (X (Proc.devRef .tc main_arg17)))
        (X (Proc.devRef .tc main_arg18)) (asRow (X (Proc.devRef .tc main_arg19))) := by
  after_results_simp
  exact encDec_decRef (X (Proc.devRef .tc main_v294)) (X (Proc.devRef .tc main_arg14)) (X (Proc.devRef .tc main_arg15)) (X (Proc.devRef .tc main_arg16))
    (X (Proc.devRef .tc main_arg17)) (X (Proc.devRef .tc main_arg18)) (X (Proc.devRef .tc main_arg19))

end Cert.ReferenceIdeal.Stages
end
-- ==== Proof.RefMsg.lean ====
/-
  The message network's stretch of the reference, round by round: the target rows and the source rows joined side by
  side, three matrix products with their row biases, `tanh` after the first two. The product of the joined row with the
  whole 64-row first weight matrix is the sum of the target row's product with the upper 32 rows and the source row's
  product with the lower 32 rows, which is how the stage's function is written. The reading at an entry is done once, for
  any stack index, and used for the three rounds.
-/
import proofs.«427837_j2834678415534_1_alg».proof.Proof.RefOps
import proofs.«427837_j2834678415534_1_alg».proof.Proof.RHostFns
import proofs.«427837_j2834678415534_1_alg».proof.Proof.Chain
import Idealize.ShloMosaic.Lib.ValueIdx
import Idealize.ShloMosaic.Lib.ValueLayout
import Idealize.ShloMosaic.Lib.Pipeline.Value
import Idealize.ShloMosaic.PureOps.Ideal.Laws
import Mathlib.Algebra.BigOperators.Fin

set_option maxRecDepth 16384

noncomputable section

namespace Cert.ReferenceIdeal.Stages

open Cert.ReferenceIdeal Cert.ReferenceIdeal.HostFns Idealize.ShloMosaic Idealize.ShloMosaic.TcCoe Idealize.SL.Sem
open Cert.Gnn (asRow rowOf matOf matOfT halfOf)

open Cert.ReferenceIdeal.Gen Idealize.ShloMosaic.ValueIdx

namespace Msg

/-! ## The two matrix products of the message network: which entries of the factors meet at an output entry -/

theorem msgDotA_lhs_0 (j : S850000x64.Idx) (k : dot_S850000x64_S64x64_S850000x64_1_0_0_1_n_n.contr.Idx) :
    (dot_S850000x64_S64x64_S850000x64_1_0_0_1_n_n.lhsIdx j k 0).val = (j 0).val := by
  unfold DotDims.lhsIdx
  rw [dif_neg (show ¬(0 : Fin S850000x64.rank) ∈ dot_S850000x64_S64x64_S850000x64_1_0_0_1_n_n.lhsBatch by decide), dif_pos (show (0 : Fin S850000x64.rank) ∈ dot_S850000x64_S64x64_S850000x64_1_0_0_1_n_n.lhsNonContracting by decide)]
  rfl
theorem msgDotA_lhs_1 (j : S850000x64.Idx) (k : dot_S850000x64_S64x64_S850000x64_1_0_0_1_n_n.contr.Idx) :
    (dot_S850000x64_S64x64_S850000x64_1_0_0_1_n_n.lhsIdx j k 1).val = (k ⟨0, by decide⟩).val :=
  dot_S850000x64_S64x64_S850000x64_1_0_0_1_n_n.lhsIdx_val_of_single rfl j k
theorem msgDotA_rhs_0 (j : S850000x64.Idx) (k : dot_S850000x64_S64x64_S850000x64_1_0_0_1_n_n.contr.Idx) :
    (dot_S850000x64_S64x64_S850000x64_1_0_0_1_n_n.rhsIdx j k 0).val = (k ⟨0, by decide⟩).val :=
  dot_S850000x64_S64x64_S850000x64_1_0_0_1_n_n.rhsIdx_val_of_single rfl j k
theorem msgDotA_rhs_1 (j : S850000x64.Idx) (k : dot_S850000x64_S64x64_S850000x64_1_0_0_1_n_n.contr.Idx) :
    (dot_S850000x64_S64x64_S850000x64_1_0_0_1_n_n.rhsIdx j k 1).val = (j 1).val := by
  unfold DotDims.rhsIdx
  rw [dif_neg (show ¬(1 : Fin S64x64.rank) ∈ dot_S850000x64_S64x64_S850000x64_1_0_0_1_n_n.rhsBatch by decide), dif_pos (show (1 : Fin S64x64.rank) ∈ dot_S850000x64_S64x64_S850000x64_1_0_0_1_n_n.rhsNonContracting by decide)]
  rfl

/-- The 64-column product, entry by entry: row `p` of the left factor against column `q` of the right. -/
theorem msgDotA_apply (a : FVec Ideal S850000x64 .f32) (b : FVec Ideal S64x64 .f32) (p : Fin 850000) (q : Fin 64) :
    Host.dotGeneral dot_S850000x64_S64x64_S850000x64_1_0_0_1_n_n none a b (ix2 p q) = ∑ k : Fin 64, a (ix2 p k) * b (ix2 k q) := by
  show FloatOps.dotGeneral dot_S850000x64_S64x64_S850000x64_1_0_0_1_n_n none .single a b (ix2 p q) = _
  rw [Ideal.dotGeneral_apply, ← Equiv.sum_comp (contrEquiv1 dot_S850000x64_S64x64_S850000x64_1_0_0_1_n_n 64 rfl rfl).symm]
  refine Finset.sum_congr rfl fun c _ => ?_
  have hc := contrEquiv1_symm_val dot_S850000x64_S64x64_S850000x64_1_0_0_1_n_n 64 rfl rfl c
  have hl : dot_S850000x64_S64x64_S850000x64_1_0_0_1_n_n.lhsIdx (ix2 p q)
      ((contrEquiv1 dot_S850000x64_S64x64_S850000x64_1_0_0_1_n_n 64 rfl rfl).symm c) = ix2 p c := by
    funext ax; apply Fin.ext
    match ax with
    | ⟨0, _⟩ => exact msgDotA_lhs_0 _ _
    | ⟨1, _⟩ => exact (msgDotA_lhs_1 _ _).trans hc
  have hr : dot_S850000x64_S64x64_S850000x64_1_0_0_1_n_n.rhsIdx (ix2 p q)
      ((contrEquiv1 dot_S850000x64_S64x64_S850000x64_1_0_0_1_n_n 64 rfl rfl).symm c) = ix2 c q := by
    funext ax; apply Fin.ext
    match ax with
    | ⟨0, _⟩ => exact (msgDotA_rhs_0 _ _).trans hc
    | ⟨1, _⟩ => exact msgDotA_rhs_1 _ _
  rw [hl, hr]

theorem msgDotB_lhs_0 (j : S850000x32.Idx) (k : dot_S850000x64_S64x32_S850000x32_1_0_0_1_n_n.contr.Idx) :
    (dot_S850000x64_S64x32_S850000x32_1_0_0_1_n_n.lhsIdx j k 0).val = (j 0).val := by
  unfold DotDims.lhsIdx
  rw [dif_neg (show ¬(0 : Fin S850000x64.rank) ∈ dot_S850000x64_S64x32_S850000x32_1_0_0_1_n_n.lhsBatch by decide), dif_pos (show (0 : Fin S850000x64.rank) ∈ dot_S850000x64_S64x32_S850000x32_1_0_0_1_n_n.lhsNonContracting by decide)]
  rfl
theorem msgDotB_lhs_1 (j : S850000x32.Idx) (k : dot_S850000x64_S64x32_S850000x32_1_0_0_1_n_n.contr.Idx) :
    (dot_S850000x64_S64x32_S850000x32_1_0_0_1_n_n.lhsIdx j k 1).val = (k ⟨0, by decide⟩).val :=
  dot_S850000x64_S64x32_S850000x32_1_0_0_1_n_n.lhsIdx_val_of_single rfl j k
theorem msgDotB_rhs_0 (j : S850000x32.Idx) (k : dot_S850000x64_S64x32_S850000x32_1_0_0_1_n_n.contr.Idx) :
    (dot_S850000x64_S64x32_S850000x32_1_0_0_1_n_n.rhsIdx j k 0).val = (k ⟨0, by decide⟩).val :=
  dot_S850000x64_S64x32_S850000x32_1_0_0_1_n_n.rhsIdx_val_of_single rfl j k
theorem msgDotB_rhs_1 (j : S850000x32.Idx) (k : dot_S850000x64_S64x32_S850000x32_1_0_0_1_n_n.contr.Idx) :
    (dot_S850000x64_S64x32_S850000x32_1_0_0_1_n_n.rhsIdx j k 1).val = (j 1).val := by
  unfold DotDims.rhsIdx
  rw [dif_neg (show ¬(1 : Fin S64x32.rank) ∈ dot_S850000x64_S64x32_S850000x32_1_0_0_1_n_n.rhsBatch by decide), dif_pos (show (1 : Fin S64x32.rank) ∈ dot_S850000x64_S64x32_S850000x32_1_0_0_1_n_n.rhsNonContracting by decide)]
  rfl

/-- The 32-column product, entry by entry. -/
theorem msgDotB_apply (a : FVec Ideal S850000x64 .f32) (b : FVec Ideal S64x32 .f32) (p : Fin 850000) (q : Fin 32) :
    Host.dotGeneral dot_S850000x64_S64x32_S850000x32_1_0_0_1_n_n none a b (ix2 p q) = ∑ k : Fin 64, a (ix2 p k) * b (ix2 k q) := by
  show FloatOps.dotGeneral dot_S850000x64_S64x32_S850000x32_1_0_0_1_n_n none .single a b (ix2 p q) = _
  rw [Ideal.dotGeneral_apply, ← Equiv.sum_comp (contrEquiv1 dot_S850000x64_S64x32_S850000x32_1_0_0_1_n_n 64 rfl rfl).symm]
  refine Finset.sum_congr rfl fun c _ => ?_
  have hc := contrEquiv1_symm_val dot_S850000x64_S64x32_S850000x32_1_0_0_1_n_n 64 rfl rfl c
  have hl : dot_S850000x64_S64x32_S850000x32_1_0_0_1_n_n.lhsIdx (ix2 p q)
      ((contrEquiv1 dot_S850000x64_S64x32_S850000x32_1_0_0_1_n_n 64 rfl rfl).symm c) = ix2 p c := by
    funext ax; apply Fin.ext
    match ax with
    | ⟨0, _⟩ => exact msgDotB_lhs_0 _ _
    | ⟨1, _⟩ => exact (msgDotB_lhs_1 _ _).trans hc
  have hr : dot_S850000x64_S64x32_S850000x32_1_0_0_1_n_n.rhsIdx (ix2 p q)
      ((contrEquiv1 dot_S850000x64_S64x32_S850000x32_1_0_0_1_n_n 64 rfl rfl).symm c) = ix2 c q := by
    funext ax; apply Fin.ext
    match ax with
    | ⟨0, _⟩ => exact (msgDotB_rhs_0 _ _).trans hc
    | ⟨1, _⟩ => exact msgDotB_rhs_1 _ _
  rw [hl, hr]

/-! ## The round's weights and biases cut out of their stacks -/

/-- Matrix `o` of a stack of 64 × 64 matrices, sliced out and with the unit axis dropped, entry by entry. -/
theorem msgMatA_apply (o : Nat) (ho : o < 3) (W : FVec Ideal S3x64x64 .f32) (h : S3x64x64.Slices ![o, 0, 0] S1x64x64) (k j : Fin 64) :
    shapeCast S64x64 (extractStridedSlice S1x64x64 ![o, 0, 0] W h) shapeCasts_S1x64x64_S64x64 (ix2 k j) = W (ix3 (⟨o, ho⟩ : Fin 3) k j) := by
  refine (shapeCast_1ab_ab_apply _ shapeCasts_S1x64x64_S64x64 k j).trans ?_
  exact extractStridedSlice_apply ![o, 0, 0] W h (ix3 (0 : Fin 1) k j) (ix3 (⟨o, ho⟩ : Fin 3) k j) fun a => by
    match a with
    | ⟨0, _⟩ => show o = o + 0; rfl
    | ⟨1, _⟩ => show k.val = 0 + k.val; omega
    | ⟨2, _⟩ => show j.val = 0 + j.val; omega

/-- Matrix `o` of a stack of 64 × 32 matrices, likewise. -/
theorem msgMatB_apply (o : Nat) (ho : o < 3) (W : FVec Ideal S3x64x32 .f32) (h : S3x64x32.Slices ![o, 0, 0] S1x64x32) (k : Fin 64) (j : Fin 32) :
    shapeCast S64x32 (extractStridedSlice S1x64x32 ![o, 0, 0] W h) shapeCasts_S1x64x32_S64x32 (ix2 k j) = W (ix3 (⟨o, ho⟩ : Fin 3) k j) := by
  refine (shapeCast_1ab_ab_apply _ shapeCasts_S1x64x32_S64x32 k j).trans ?_
  exact extractStridedSlice_apply ![o, 0, 0] W h (ix3 (0 : Fin 1) k j) (ix3 (⟨o, ho⟩ : Fin 3) k j) fun a => by
    match a with
    | ⟨0, _⟩ => show o = o + 0; rfl
    | ⟨1, _⟩ => show k.val = 0 + k.val; omega
    | ⟨2, _⟩ => show j.val = 0 + j.val; omega

/-- Row `o` of a three-row bias matrix laid along every row of an 850000 × 64 matrix. -/
theorem msgBiasA_apply (o : Nat) (ho : o < 3) (B : FVec Ideal S3x64 .f32) (h : S3x64.Slices ![o, 0] S1x64) (p : Fin 850000) (q : Fin 64) :
    broadcastInDim S850000x64 ![0, 1] bcast_S1x64_S850000x64_0_1
        (broadcastInDim S1x64 ![1] bcast_S64_S1x64_1 (shapeCast S64 (extractStridedSlice S1x64 ![o, 0] B h) shapeCasts_S1x64_S64)) (ix2 p q)
      = B (ix2 (⟨o, ho⟩ : Fin 3) q) := by
  refine (broadcastInDim_apply _ bcast_S1x64_S850000x64_0_1 _ (ix2 p q) (ix2 (0 : Fin 1) q) fun a => ?_).trans ?_
  · match a with
    | ⟨0, _⟩ => show 0 = if (1 : Nat) = 1 then 0 else p.val; rw [if_pos rfl]
    | ⟨1, _⟩ => show q.val = if (64 : Nat) = 1 then 0 else q.val; rw [if_neg (by decide)]
  refine (broadcastInDim_apply _ bcast_S64_S1x64_1 _ (ix2 (0 : Fin 1) q) (ix1 q) fun a => ?_).trans ?_
  · match a with
    | ⟨0, _⟩ => show q.val = if (64 : Nat) = 1 then 0 else q.val; rw [if_neg (by decide)]
  refine (shapeCast_1a_a_apply _ shapeCasts_S1x64_S64 q).trans ?_
  exact extractStridedSlice_apply ![o, 0] B h (ix2 (0 : Fin 1) q) (ix2 (⟨o, ho⟩ : Fin 3) q) fun a => by
    match a with
    | ⟨0, _⟩ => show o = o + 0; rfl
    | ⟨1, _⟩ => show q.val = 0 + q.val; omega

/-- Row `o` of a three-row bias matrix laid along every row of an 850000 × 32 matrix. -/
theorem msgBiasB_apply (o : Nat) (ho : o < 3) (B : FVec Ideal S3x32 .f32) (h : S3x32.Slices ![o, 0] S1x32) (p : Fin 850000) (q : Fin 32) :
    broadcastInDim S850000x32 ![0, 1] bcast_S1x32_S850000x32_0_1
        (broadcastInDim S1x32 ![1] bcast_S32_S1x32_1 (shapeCast S32 (extractStridedSlice S1x32 ![o, 0] B h) shapeCasts_S1x32_S32)) (ix2 p q)
      = B (ix2 (⟨o, ho⟩ : Fin 3) q) := by
  refine (broadcastInDim_apply _ bcast_S1x32_S850000x32_0_1 _ (ix2 p q) (ix2 (0 : Fin 1) q) fun a => ?_).trans ?_
  · match a with
    | ⟨0, _⟩ => show 0 = if (1 : Nat) = 1 then 0 else p.val; rw [if_pos rfl]
    | ⟨1, _⟩ => show q.val = if (32 : Nat) = 1 then 0 else q.val; rw [if_neg (by decide)]
  refine (broadcastInDim_apply _ bcast_S32_S1x32_1 _ (ix2 (0 : Fin 1) q) (ix1 q) fun a => ?_).trans ?_
  · match a with
    | ⟨0, _⟩ => show q.val = if (32 : Nat) = 1 then 0 else q.val; rw [if_neg (by decide)]
  refine (shapeCast_1a_a_apply _ shapeCasts_S1x32_S32 q).trans ?_
  exact extractStridedSlice_apply ![o, 0] B h (ix2 (0 : Fin 1) q) (ix2 (⟨o, ho⟩ : Fin 3) q) fun a => by
    match a with
    | ⟨0, _⟩ => show o = o + 0; rfl
    | ⟨1, _⟩ => show q.val = 0 + q.val; omega

/-! ## The target row and the source row side by side -/

/-- The first 32 columns of the joined matrix are the first matrix. -/
theorem msgCat_left (hd hs : FVec Ideal S850000x32 .f32) (p : Fin 850000) (a : Fin 32) :
    concatenate S850000x64 1 [⟨S850000x32, hd⟩, ⟨S850000x32, hs⟩] concatenates_S850000x32_S850000x32_S850000x64_d1 (ix2 p (Fin.castAdd 32 a))
      = hd (ix2 p a) := by
  refine concatenate_pair_apply_left (1 : Fin S850000x64.rank) hd hs concatenates_S850000x32_S850000x32_S850000x64_d1
    (ix2 p (Fin.castAdd 32 a)) rfl (ix2 p a) fun b => ?_
  match b with
  | ⟨0, _⟩ => rfl
  | ⟨1, _⟩ => rfl

/-- The last 32 columns of the joined matrix are the second matrix. -/
theorem msgCat_right (hd hs : FVec Ideal S850000x32 .f32) (p : Fin 850000) (a : Fin 32) :
    concatenate S850000x64 1 [⟨S850000x32, hd⟩, ⟨S850000x32, hs⟩] concatenates_S850000x32_S850000x32_S850000x64_d1 (ix2 p (Fin.natAdd 32 a))
      = hs (ix2 p a) := by
  refine concatenate_pair_apply_right (1 : Fin S850000x64.rank) hd hs concatenates_S850000x32_S850000x32_S850000x64_d1
    (ix2 p (Fin.natAdd 32 a)) rfl rfl (ix2 p a) (fun b hb => ?_) ?_
  · match b with
    | ⟨0, _⟩ => rfl
    | ⟨1, _⟩ => exact absurd rfl hb
  · show a.val + 32 = 32 + a.val
    omega

/-! ## The whole stretch, for any round -/

/-- The host's `tanh` of an array, entry by entry. -/
theorem hostTanh_apply {s : Shape} {φ : FTy} (x : FVec Ideal s φ) (i : s.Idx) : Host.tanh x i = Ideal.tanh (x i) := rfl

/-- The message network as the reference spells it, round `o`'s weights cut out of their stacks: the two rows joined,
    three products with their biases, `tanh` after the first two. -/
def msgRef (o : Nat) (h1 : S3x64x64.Slices ![o, 0, 0] S1x64x64) (h2 : S3x64.Slices ![o, 0] S1x64)
    (h3 : S3x64x32.Slices ![o, 0, 0] S1x64x32) (h4 : S3x32.Slices ![o, 0] S1x32)
    (hd hs : FVec Ideal S850000x32 .f32) (W1 : FVec Ideal S3x64x64 .f32) (B1 : FVec Ideal S3x64 .f32)
    (W2 : FVec Ideal S3x64x64 .f32) (B2 : FVec Ideal S3x64 .f32) (W3 : FVec Ideal S3x64x32 .f32) (B3 : FVec Ideal S3x32 .f32) :
    FVec Ideal S850000x32 .f32 :=
  addf (Host.dotGeneral dot_S850000x64_S64x32_S850000x32_1_0_0_1_n_n none
      (Host.tanh (addf (Host.dotGeneral dot_S850000x64_S64x64_S850000x64_1_0_0_1_n_n none
          (Host.tanh (addf (Host.dotGeneral dot_S850000x64_S64x64_S850000x64_1_0_0_1_n_n none
              (concatenate S850000x64 1 [⟨S850000x32, hd⟩, ⟨S850000x32, hs⟩] concatenates_S850000x32_S850000x32_S850000x64_d1)
              (shapeCast S64x64 (extractStridedSlice S1x64x64 ![o, 0, 0] W1 h1) shapeCasts_S1x64x64_S64x64))
            (broadcastInDim S850000x64 ![0, 1] bcast_S1x64_S850000x64_0_1
              (broadcastInDim S1x64 ![1] bcast_S64_S1x64_1 (shapeCast S64 (extractStridedSlice S1x64 ![o, 0] B1 h2) shapeCasts_S1x64_S64)))))
          (shapeCast S64x64 (extractStridedSlice S1x64x64 ![o, 0, 0] W2 h1) shapeCasts_S1x64x64_S64x64))
        (broadcastInDim S850000x64 ![0, 1] bcast_S1x64_S850000x64_0_1
          (broadcastInDim S1x64 ![1] bcast_S64_S1x64_1 (shapeCast S64 (extractStridedSlice S1x64 ![o, 0] B2 h2) shapeCasts_S1x64_S64)))))
      (shapeCast S64x32 (extractStridedSlice S1x64x32 ![o, 0, 0] W3 h3) shapeCasts_S1x64x32_S64x32))
    (broadcastInDim S850000x32 ![0, 1] bcast_S1x32_S850000x32_0_1
      (broadcastInDim S1x32 ![1] bcast_S32_S1x32_1 (shapeCast S32 (extractStridedSlice S1x32 ![o, 0] B3 h4) shapeCasts_S1x32_S32)))

/-- The first hidden layer at an entry: the product of the joined row with the whole 64-row weight matrix is the sum of
    the target row's product with its upper half and the source row's product with its lower half. -/
theorem msgHid1_read (o : Nat) (ho : o < 3) (h1 : S3x64x64.Slices ![o, 0, 0] S1x64x64) (h2 : S3x64.Slices ![o, 0] S1x64)
    (hd hs : FVec Ideal S850000x32 .f32) (W1 : FVec Ideal S3x64x64 .f32) (B1 : FVec Ideal S3x64 .f32) (p : Fin 850000) (k : Fin 64) :
    Host.tanh (addf (Host.dotGeneral dot_S850000x64_S64x64_S850000x64_1_0_0_1_n_n none
          (concatenate S850000x64 1 [⟨S850000x32, hd⟩, ⟨S850000x32, hs⟩] concatenates_S850000x32_S850000x32_S850000x64_d1)
          (shapeCast S64x64 (extractStridedSlice S1x64x64 ![o, 0, 0] W1 h1) shapeCasts_S1x64x64_S64x64))
        (broadcastInDim S850000x64 ![0, 1] bcast_S1x64_S850000x64_0_1
          (broadcastInDim S1x64 ![1] bcast_S64_S1x64_1 (shapeCast S64 (extractStridedSlice S1x64 ![o, 0] B1 h2) shapeCasts_S1x64_S64)))) (ix2 p k)
      = Cert.Gnn.msgHid1 (Cert.Gnn.row hd p) (Cert.Gnn.row hs p) (halfOf (⟨o, ho⟩ : Fin 3) 0 (by omega) W1)
          (halfOf (⟨o, ho⟩ : Fin 3) 32 (by omega) W1) (rowOf (⟨o, ho⟩ : Fin 3) B1) k := by
  rw [hostTanh_apply, addf_apply, msgDotA_apply, msgBiasA_apply o ho]
  unfold Cert.Gnn.msgHid1
  refine congrArg Ideal.tanh (congrArg₂ (· + ·) ?_ rfl)
  refine (Fin.sum_univ_add (a := 32) (b := 32) _).trans ?_
  refine congrArg₂ (· + ·) (Finset.sum_congr rfl fun a _ => ?_) (Finset.sum_congr rfl fun a _ => ?_)
  · rw [msgCat_left, msgMatA_apply o ho]
    refine congrArg₂ (· * ·) rfl (congrArg W1 ?_)
    funext d
    match d with
    | ⟨0, _⟩ => rfl
    | ⟨1, _⟩ => exact Fin.ext (Nat.zero_add _).symm
    | ⟨2, _⟩ => rfl
  · rw [msgCat_right, msgMatA_apply o ho]
    rfl

/-- The reference's message network is the stage's function of the joined rows and round `o`'s weights. -/
theorem msgRef_eq (o : Nat) (ho : o < 3) (h1 : S3x64x64.Slices ![o, 0, 0] S1x64x64) (h2 : S3x64.Slices ![o, 0] S1x64)
    (h3 : S3x64x32.Slices ![o, 0, 0] S1x64x32) (h4 : S3x32.Slices ![o, 0] S1x32)
    (hd hs : FVec Ideal S850000x32 .f32) (W1 : FVec Ideal S3x64x64 .f32) (B1 : FVec Ideal S3x64 .f32)
    (W2 : FVec Ideal S3x64x64 .f32) (B2 : FVec Ideal S3x64 .f32) (W3 : FVec Ideal S3x64x32 .f32) (B3 : FVec Ideal S3x32 .f32) :
    msgRef o h1 h2 h3 h4 hd hs W1 B1 W2 B2 W3 B3
      = Cert.Gnn.msgK hd hs (halfOf (⟨o, ho⟩ : Fin 3) 0 (by omega) W1) (halfOf (⟨o, ho⟩ : Fin 3) 32 (by omega) W1)
          (rowOf (⟨o, ho⟩ : Fin 3) B1) (matOf (⟨o, ho⟩ : Fin 3) W2) (rowOf (⟨o, ho⟩ : Fin 3) B2) (matOf (⟨o, ho⟩ : Fin 3) W3)
          (rowOf (⟨o, ho⟩ : Fin 3) B3) := by
  funext i
  obtain ⟨p, q, rfl⟩ : ∃ (p : Fin 850000) (q : Fin 32), i = ix2 p q := ⟨i 0, i 1, eq_ix2 i⟩
  unfold msgRef
  rw [addf_apply, msgDotB_apply, msgBiasB_apply o ho]
  simp only [Cert.Gnn.msgK, Cert.Gnn.r0_ix2, Cert.Gnn.c1_ix2]
  unfold Cert.Gnn.dense
  refine congrArg₂ (· + ·) (Finset.sum_congr rfl fun k _ => ?_) rfl
  refine congrArg₂ (· * ·) ?_ (msgMatB_apply o ho W3 h3 k q)
  rw [hostTanh_apply, addf_apply, msgDotA_apply, msgBiasA_apply o ho]
  refine congrArg Ideal.tanh (congrArg₂ (· + ·) (Finset.sum_congr rfl fun k' _ => ?_) rfl)
  exact congrArg₂ (· * ·) (msgHid1_read o ho h1 h2 hd hs W1 B1 p k') (msgMatA_apply o ho W2 h1 k' k)

end Msg

open Msg

variable (X : Valuation τ sig (Elt Ideal))

/-! ## Round 0: the message network (`opsMsg0`) -/

/-- The references the stretch writes. -/
def written_msg0 : List (Ref sig .tc) :=
  [ main_v33, main_v34, main_v35, main_v36, main_v37, main_v38, main_v39, main_v40, main_v41,
    main_v42, main_v43, main_v44, main_v45, main_v46, main_v47, main_v48, main_v49, main_v50,
    main_v51, main_v52, main_v53, main_v54, main_v55, main_v56, main_v57, main_v58, main_v59 ]

theorem Msg.opsMsg0_writes : (opsMsg0 (F := Ideal)).Forall fun op => op.writes ⊆ (written_msg0.map (Proc.devRef (τ := τ) .tc)).toFinset := by
  simp only [List.Forall, StableHlo.unary_writes, StableHlo.binary_writes, StableHlo.reshape_writes, Finset.singleton_subset_iff, List.mem_toFinset]
  repeat' apply And.intro
  all_goals exact List.mem_map_of_mem (by decide)

theorem msg0_keep (r : Ref sig .tc) (hr : r ∉ written_msg0) : StableHlo.after (opsMsg0 (F := Ideal)) X (Proc.devRef .tc r) = X (Proc.devRef .tc r) := by
  exact StableHlo.after_of_writes_sub (opsMsg0 (F := Ideal)) X Msg.opsMsg0_writes hr

theorem msg0_val : StableHlo.after (opsMsg0 (F := Ideal)) X (Proc.devRef .tc main_v59)
    = Cert.Gnn.msgK (X (Proc.devRef .tc main_v25)) (X (Proc.devRef .tc main_v32)) (halfOf (⟨0, by decide⟩ : Fin 3) 0 (by omega) (X (Proc.devRef .tc main_arg4))) (halfOf (⟨0, by decide⟩ : Fin 3) 32 (by omega) (X (Proc.devRef .tc main_arg4)))
        (rowOf (⟨0, by decide⟩ : Fin 3) (X (Proc.devRef .tc main_arg5))) (matOf (⟨0, by decide⟩ : Fin 3) (X (Proc.devRef .tc main_arg6))) (rowOf (⟨0, by decide⟩ : Fin 3) (X (Proc.devRef .tc main_arg7))) (matOf (⟨0, by decide⟩ : Fin 3) (X (Proc.devRef .tc main_arg8))) (rowOf (⟨0, by decide⟩ : Fin 3) (X (Proc.devRef .tc main_arg9))) := by
  refine Eq.trans ?_ (msgRef_eq 0 (by decide) slices_S3x64x64_S1x64x64_0_0_0 slices_S3x64_S1x64_0_0 slices_S3x64x32_S1x64x32_0_0_0 slices_S3x32_S1x32_0_0
    (X (Proc.devRef .tc main_v25)) (X (Proc.devRef .tc main_v32)) (X (Proc.devRef .tc main_arg4)) (X (Proc.devRef .tc main_arg5)) (X (Proc.devRef .tc main_arg6))
    (X (Proc.devRef .tc main_arg7)) (X (Proc.devRef .tc main_arg8)) (X (Proc.devRef .tc main_arg9)))
  after_results_simp
  rfl

/-! ## Round 1: the message network (`opsMsg1`) -/

/-- The references the stretch writes. -/
def written_msg1 : List (Ref sig .tc) :=
  [ main_v125, main_v126, main_v127, main_v128, main_v129, main_v130, main_v131, main_v132, main_v133,
    main_v134, main_v135, main_v136, main_v137, main_v138, main_v139, main_v140, main_v141, main_v142,
    main_v143, main_v144, main_v145, main_v146, main_v147, main_v148, main_v149, main_v150, main_v151 ]

theorem Msg.opsMsg1_writes : (opsMsg1 (F := Ideal)).Forall fun op => op.writes ⊆ (written_msg1.map (Proc.devRef (τ := τ) .tc)).toFinset := by
  simp only [List.Forall, StableHlo.unary_writes, StableHlo.binary_writes, StableHlo.reshape_writes, Finset.singleton_subset_iff, List.mem_toFinset]
  repeat' apply And.intro
  all_goals exact List.mem_map_of_mem (by decide)

theorem msg1_keep (r : Ref sig .tc) (hr : r ∉ written_msg1) : StableHlo.after (opsMsg1 (F := Ideal)) X (Proc.devRef .tc r) = X (Proc.devRef .tc r) := by
  exact StableHlo.after_of_writes_sub (opsMsg1 (F := Ideal)) X Msg.opsMsg1_writes hr

theorem msg1_val : StableHlo.after (opsMsg1 (F := Ideal)) X (Proc.devRef .tc main_v151)
    = Cert.Gnn.msgK (X (Proc.devRef .tc main_v117)) (X (Proc.devRef .tc main_v124)) (halfOf (⟨1, by decide⟩ : Fin 3) 0 (by omega) (X (Proc.devRef .tc main_arg4))) (halfOf (⟨1, by decide⟩ : Fin 3) 32 (by omega) (X (Proc.devRef .tc main_arg4)))
        (rowOf (⟨1, by decide⟩ : Fin 3) (X (Proc.devRef .tc main_arg5))) (matOf (⟨1, by decide⟩ : Fin 3) (X (Proc.devRef .tc main_arg6))) (rowOf (⟨1, by decide⟩ : Fin 3) (X (Proc.devRef .tc main_arg7))) (matOf (⟨1, by decide⟩ : Fin 3) (X (Proc.devRef .tc main_arg8))) (rowOf (⟨1, by decide⟩ : Fin 3) (X (Proc.devRef .tc main_arg9))) := by
  refine Eq.trans ?_ (msgRef_eq 1 (by decide) slices_S3x64x64_S1x64x64_1_0_0 slices_S3x64_S1x64_1_0 slices_S3x64x32_S1x64x32_1_0_0 slices_S3x32_S1x32_1_0
    (X (Proc.devRef .tc main_v117)) (X (Proc.devRef .tc main_v124)) (X (Proc.devRef .tc main_arg4)) (X (Proc.devRef .tc main_arg5)) (X (Proc.devRef .tc main_arg6))
    (X (Proc.devRef .tc main_arg7)) (X (Proc.devRef .tc main_arg8)) (X (Proc.devRef .tc main_arg9)))
  after_results_simp
  rfl

/-! ## Round 2: the message network (`opsMsg2`) -/

/-- The references the stretch writes. -/
def written_msg2 : List (Ref sig .tc) :=
  [ main_v217, main_v218, main_v219, main_v220, main_v221, main_v222, main_v223, main_v224, main_v225,
    main_v226, main_v227, main_v228, main_v229, main_v230, main_v231, main_v232, main_v233, main_v234,
    main_v235, main_v236, main_v237, main_v238, main_v239, main_v240, main_v241, main_v242, main_v243 ]

theorem Msg.opsMsg2_writes : (opsMsg2 (F := Ideal)).Forall fun op => op.writes ⊆ (written_msg2.map (Proc.devRef (τ := τ) .tc)).toFinset := by
  simp only [List.Forall, StableHlo.unary_writes, StableHlo.binary_writes, StableHlo.reshape_writes, Finset.singleton_subset_iff, List.mem_toFinset]
  repeat' apply And.intro
  all_goals exact List.mem_map_of_mem (by decide)

theorem msg2_keep (r : Ref sig .tc) (hr : r ∉ written_msg2) : StableHlo.after (opsMsg2 (F := Ideal)) X (Proc.devRef .tc r) = X (Proc.devRef .tc r) := by
  exact StableHlo.after_of_writes_sub (opsMsg2 (F := Ideal)) X Msg.opsMsg2_writes hr

theorem msg2_val : StableHlo.after (opsMsg2 (F := Ideal)) X (Proc.devRef .tc main_v243)
    = Cert.Gnn.msgK (X (Proc.devRef .tc main_v209)) (X (Proc.devRef .tc main_v216)) (halfOf (⟨2, by decide⟩ : Fin 3) 0 (by omega) (X (Proc.devRef .tc main_arg4))) (halfOf (⟨2, by decide⟩ : Fin 3) 32 (by omega) (X (Proc.devRef .tc main_arg4)))
        (rowOf (⟨2, by decide⟩ : Fin 3) (X (Proc.devRef .tc main_arg5))) (matOf (⟨2, by decide⟩ : Fin 3) (X (Proc.devRef .tc main_arg6))) (rowOf (⟨2, by decide⟩ : Fin 3) (X (Proc.devRef .tc main_arg7))) (matOf (⟨2, by decide⟩ : Fin 3) (X (Proc.devRef .tc main_arg8))) (rowOf (⟨2, by decide⟩ : Fin 3) (X (Proc.devRef .tc main_arg9))) := by
  refine Eq.trans ?_ (msgRef_eq 2 (by decide) slices_S3x64x64_S1x64x64_2_0_0 slices_S3x64_S1x64_2_0 slices_S3x64x32_S1x64x32_2_0_0 slices_S3x32_S1x32_2_0
    (X (Proc.devRef .tc main_v209)) (X (Proc.devRef .tc main_v216)) (X (Proc.devRef .tc main_arg4)) (X (Proc.devRef .tc main_arg5)) (X (Proc.devRef .tc main_arg6))
    (X (Proc.devRef .tc main_arg7)) (X (Proc.devRef .tc main_arg8)) (X (Proc.devRef .tc main_arg9)))
  after_results_simp
  rfl

end Cert.ReferenceIdeal.Stages

end
-- ==== Proof.RefGru.lean ====
/-
  The gated recurrent update of each of the three rounds, as the reference program computes it on the host, is the
  specification's `gruK` on the round's slice of the four weight arrays. The index reading is done once, over arbitrary
  arrays of the literal shapes and a slice number `l`; each round instantiates it.
-/
import proofs.«427837_j2834678415534_1_alg».proof.Proof.RefOps
import proofs.«427837_j2834678415534_1_alg».proof.Proof.RHostFns
import proofs.«427837_j2834678415534_1_alg».proof.Proof.Chain
import Idealize.ShloMosaic.Lib.Pipeline.Value
import Idealize.ShloMosaic.Lib.ValueIdx
import Idealize.ShloMosaic.PureOps.Ideal.Laws

set_option maxRecDepth 16384

noncomputable section

namespace Cert.ReferenceIdeal.Stages

open Cert.ReferenceIdeal Cert.ReferenceIdeal.HostFns Idealize.ShloMosaic Idealize.ShloMosaic.TcCoe Idealize.SL.Sem
open Cert.Gnn (asRow rowOf matOf matOfT halfOf)

variable (X : Valuation τ sig (Elt Ideal))

namespace Gru

open Idealize.ShloMosaic.ValueIdx
open Cert.Gnn (Mat r0 c1 row dense col96 gruK r0_ix2 c1_ix2)

/-! ## The pieces of the gated update read at an index -/

/-- The float word of the gates is the number one. -/
theorem one_word : Ideal.ofBits .f32 0x3F800000#32 = (1 : EReal) := by
  simp [Ideal.ofBits, Ideal.ieee, -EReal.coe_mul]; norm_num

/-- Matrix `l` of a stack of three `96 × 32` matrices, transposed: entry `(k, c)` is entry `(l, c, k)` of the stack. -/
theorem wT_apply (l : Fin 3) (hs : S3x96x32.Slices ![l.val, 0, 0] S1x96x32) (W : FVec Ideal S3x96x32 .f32)
    (k : Fin 32) (c : Fin 96) :
    transpose S32x96 [1, 0]
        (fun i => shapeCast S96x32 (extractStridedSlice S1x96x32 ![l.val, 0, 0] W hs) Gen.shapeCasts_S1x96x32_S96x32 i)
        Gen.transposes_S96x32_S32x96_1_0 (ix2 k c)
      = W (ix3 l c k) := by
  refine (transpose_apply [1, 0] _ Gen.transposes_S96x32_S32x96_1_0 (ix2 k c) (ix2 c k) (fun b => match b with
    | ⟨0, _⟩ => rfl
    | ⟨1, _⟩ => rfl)).trans ?_
  show shapeCast S96x32 (extractStridedSlice S1x96x32 ![l.val, 0, 0] W hs) Gen.shapeCasts_S1x96x32_S96x32 (ix2 c k) = _
  refine (shapeCast_apply _ Gen.shapeCasts_S1x96x32_S96x32 (ix2 c k) (ix3 (0 : Fin 1) c k) (by
    rewrite [Shape.rowMajor_val_three, Shape.rowMajor_val_two]
    show (0 * 96 + c.val) * 32 + k.val = c.val * 32 + k.val
    omega)).trans ?_
  exact extractStridedSlice_apply ![l.val, 0, 0] W hs (ix3 (0 : Fin 1) c k) (ix3 l c k) (fun a => match a with
    | ⟨0, _⟩ => by show l.val = l.val + 0; omega
    | ⟨1, _⟩ => by show c.val = 0 + c.val; omega
    | ⟨2, _⟩ => by show k.val = 0 + k.val; omega)

/-- Row `l` of a three-row matrix, spread over the rows of a `50000 × 96` matrix. -/
theorem bias_apply (l : Fin 3) (hs : S3x96.Slices ![l.val, 0] S1x96) (b : FVec Ideal S3x96 .f32)
    (p : Fin 50000) (c : Fin 96) :
    broadcastInDim S50000x96 ![0, 1] Gen.bcast_S1x96_S50000x96_0_1
        (broadcastInDim S1x96 ![1] Gen.bcast_S96_S1x96_1
          (fun i => shapeCast S96 (extractStridedSlice S1x96 ![l.val, 0] b hs) Gen.shapeCasts_S1x96_S96 i)) (ix2 p c)
      = b (ix2 l c) := by
  refine (broadcastInDim_apply _ Gen.bcast_S1x96_S50000x96_0_1 _ (ix2 p c) (ix2 (0 : Fin 1) c) (fun a => match a with
    | ⟨0, _⟩ => by show 0 = if (1 : Nat) = 1 then 0 else p.val; rw [if_pos rfl]
    | ⟨1, _⟩ => by show c.val = if (96 : Nat) = 1 then 0 else c.val; rw [if_neg (by decide)])).trans ?_
  refine (broadcastInDim_apply _ Gen.bcast_S96_S1x96_1 _ (ix2 (0 : Fin 1) c) (ix1 c) (fun a => match a with
    | ⟨0, _⟩ => by show c.val = if (96 : Nat) = 1 then 0 else c.val; rw [if_neg (by decide)])).trans ?_
  show shapeCast S96 (extractStridedSlice S1x96 ![l.val, 0] b hs) Gen.shapeCasts_S1x96_S96 (ix1 c) = _
  refine (shapeCast_apply _ Gen.shapeCasts_S1x96_S96 (ix1 c) (ix2 (0 : Fin 1) c) (by
    rewrite [Shape.rowMajor_val_two, Shape.rowMajor_val_one]
    show 0 * 96 + c.val = c.val
    omega)).trans ?_
  exact extractStridedSlice_apply ![l.val, 0] b hs (ix2 (0 : Fin 1) c) (ix2 l c) (fun a => match a with
    | ⟨0, _⟩ => by show l.val = l.val + 0; omega
    | ⟨1, _⟩ => by show c.val = 0 + c.val; omega)

/-- Columns `off … off + 31` of a 96-column matrix. -/
theorem cols_apply (off : Nat) (hoff : off + 32 ≤ 96) (hs : S50000x96.Slices ![0, off] S50000x32) (g : FVec Ideal S50000x96 .f32)
    (p : Fin 50000) (j : Fin 32) :
    extractStridedSlice S50000x32 ![0, off] g hs (ix2 p j) = g (ix2 p (col96 off hoff j)) :=
  extractStridedSlice_apply ![0, off] g hs (ix2 p j) (ix2 p (col96 off hoff j)) (fun a => match a with
    | ⟨0, _⟩ => by show p.val = 0 + p.val; omega
    | ⟨1, _⟩ => rfl)

/-! The operand indices of the `50000 × 32` by `32 × 96` product, axis by axis. -/

theorem lhs_0 (i : S50000x96.Idx) (q : dot_S50000x32_S32x96_S50000x96_1_0_0_1_n_n.contr.Idx) :
    (dot_S50000x32_S32x96_S50000x96_1_0_0_1_n_n.lhsIdx i q 0).val = (i 0).val := by
  unfold DotDims.lhsIdx
  rw [dif_neg (show ¬(0 : Fin S50000x32.rank) ∈ dot_S50000x32_S32x96_S50000x96_1_0_0_1_n_n.lhsBatch by decide), dif_pos (show (0 : Fin S50000x32.rank) ∈ dot_S50000x32_S32x96_S50000x96_1_0_0_1_n_n.lhsNonContracting by decide)]
  rfl
theorem lhs_1 (i : S50000x96.Idx) (q : dot_S50000x32_S32x96_S50000x96_1_0_0_1_n_n.contr.Idx) :
    (dot_S50000x32_S32x96_S50000x96_1_0_0_1_n_n.lhsIdx i q 1).val = (q ⟨0, by decide⟩).val :=
  dot_S50000x32_S32x96_S50000x96_1_0_0_1_n_n.lhsIdx_val_of_single rfl i q
theorem rhs_0 (i : S50000x96.Idx) (q : dot_S50000x32_S32x96_S50000x96_1_0_0_1_n_n.contr.Idx) :
    (dot_S50000x32_S32x96_S50000x96_1_0_0_1_n_n.rhsIdx i q 0).val = (q ⟨0, by decide⟩).val :=
  dot_S50000x32_S32x96_S50000x96_1_0_0_1_n_n.rhsIdx_val_of_single rfl i q
theorem rhs_1 (i : S50000x96.Idx) (q : dot_S50000x32_S32x96_S50000x96_1_0_0_1_n_n.contr.Idx) :
    (dot_S50000x32_S32x96_S50000x96_1_0_0_1_n_n.rhsIdx i q 1).val = (i 1).val := by
  unfold DotDims.rhsIdx
  rw [dif_neg (show ¬(1 : Fin S32x96.rank) ∈ dot_S50000x32_S32x96_S50000x96_1_0_0_1_n_n.rhsBatch by decide), dif_pos (show (1 : Fin S32x96.rank) ∈ dot_S50000x32_S32x96_S50000x96_1_0_0_1_n_n.rhsNonContracting by decide)]
  rfl

/-- The product of a `50000 × 32` matrix with a `32 × 96` matrix, entry by entry. -/
theorem dot_apply (a : FVec Ideal S50000x32 .f32) (w : FVec Ideal S32x96 .f32) (p : Fin 50000) (c : Fin 96) :
    Host.dotGeneral dot_S50000x32_S32x96_S50000x96_1_0_0_1_n_n none a w (ix2 p c) = ∑ k : Fin 32, a (ix2 p k) * w (ix2 k c) := by
  simp only [Host.dotGeneral]
  rw [Ideal.dotGeneral_apply, ← Equiv.sum_comp (contrEquiv1 dot_S50000x32_S32x96_S50000x96_1_0_0_1_n_n 32 rfl rfl).symm]
  refine Finset.sum_congr rfl fun k _ => ?_
  have hk := contrEquiv1_symm_val dot_S50000x32_S32x96_S50000x96_1_0_0_1_n_n 32 rfl rfl k
  have el : dot_S50000x32_S32x96_S50000x96_1_0_0_1_n_n.lhsIdx (ix2 p c) ((contrEquiv1 dot_S50000x32_S32x96_S50000x96_1_0_0_1_n_n 32 rfl rfl).symm k) = ix2 p k := funext fun a => Fin.ext (by
    match a with
    | ⟨0, _⟩ => exact lhs_0 _ _
    | ⟨1, _⟩ => exact (lhs_1 _ _).trans hk)
  have er : dot_S50000x32_S32x96_S50000x96_1_0_0_1_n_n.rhsIdx (ix2 p c) ((contrEquiv1 dot_S50000x32_S32x96_S50000x96_1_0_0_1_n_n 32 rfl rfl).symm k) = ix2 k c := funext fun a => Fin.ext (by
    match a with
    | ⟨0, _⟩ => exact (rhs_0 _ _).trans hk
    | ⟨1, _⟩ => exact rhs_1 _ _)
  rw [el, er]

/-! ## The update as the host computes it -/

/-- One 96-column dense layer of the update: the rows times matrix `l` of the weight stack, transposed, plus row `l` of the biases. -/
def linH (l : Fin 3) (hsW : S3x96x32.Slices ![l.val, 0, 0] S1x96x32) (hsB : S3x96.Slices ![l.val, 0] S1x96)
    (a : FVec Ideal S50000x32 .f32) (W : FVec Ideal S3x96x32 .f32) (b : FVec Ideal S3x96 .f32) : FVec Ideal S50000x96 .f32 :=
  addf
    (Host.dotGeneral dot_S50000x32_S32x96_S50000x96_1_0_0_1_n_n none a
      (transpose S32x96 [1, 0]
        (fun i => shapeCast S96x32 (extractStridedSlice S1x96x32 ![l.val, 0, 0] W hsW) Gen.shapeCasts_S1x96x32_S96x32 i)
        Gen.transposes_S96x32_S32x96_1_0))
    (broadcastInDim S50000x96 ![0, 1] Gen.bcast_S1x96_S50000x96_0_1
      (broadcastInDim S1x96 ![1] Gen.bcast_S96_S1x96_1
        (fun i => shapeCast S96 (extractStridedSlice S1x96 ![l.val, 0] b hsB) Gen.shapeCasts_S1x96_S96 i)))

theorem linH_apply (l : Fin 3) (hsW : S3x96x32.Slices ![l.val, 0, 0] S1x96x32) (hsB : S3x96.Slices ![l.val, 0] S1x96)
    (a : FVec Ideal S50000x32 .f32) (W : FVec Ideal S3x96x32 .f32) (b : FVec Ideal S3x96 .f32) (p : Fin 50000) (c : Fin 96) :
    linH l hsW hsB a W b (ix2 p c) = dense (row a p) (matOfT l W) (rowOf l b) c := by
  unfold linH
  rw [addf_apply, dot_apply, bias_apply]
  show _ = (∑ k : Fin 32, a (ix2 p k) * W (ix3 l c k)) + b (ix2 l c)
  refine congrArg (· + _) (Finset.sum_congr rfl fun k _ => ?_)
  rw [wT_apply]

/-- A logistic gate as the host spells it: `1 / (1 + exp (-(x + y)))`. -/
def gateH (x y : FVec Ideal S50000x32 .f32) : FVec Ideal S50000x32 .f32 :=
  Host.divf (broadcastInDim S50000x32 ![] Gen.bcast_S_S50000x32 (constant S_ .f32 0x3F800000#32))
    (addf (broadcastInDim S50000x32 ![] Gen.bcast_S_S50000x32 (constant S_ .f32 0x3F800000#32)) (Host.exp (Host.negf (addf x y))))

theorem gateH_apply (x y : FVec Ideal S50000x32 .f32) (i : S50000x32.Idx) : gateH x y i = Ideal.logistic (x i + y i) := by
  show Ideal.div (Ideal.ofBits .f32 0x3F800000#32) (Ideal.ofBits .f32 0x3F800000#32 + Ideal.exp (-(x i + y i))) = _
  rw [one_word]
  rfl

/-- The gated update as the host computes it from the aggregate rows `agg`, the state rows `h` and slice `l` of the four weight arrays. -/
def gruH (l : Fin 3) (hsW : S3x96x32.Slices ![l.val, 0, 0] S1x96x32) (hsB : S3x96.Slices ![l.val, 0] S1x96)
    (agg h : FVec Ideal S50000x32 .f32) (W10 W11 : FVec Ideal S3x96x32 .f32) (b12 b13 : FVec Ideal S3x96 .f32) :
    FVec Ideal S50000x32 .f32 :=
  addf
    (mulf
      (subf (broadcastInDim S50000x32 ![] Gen.bcast_S_S50000x32 (constant S_ .f32 0x3F800000#32))
        (gateH (extractStridedSlice S50000x32 ![0, 32] (linH l hsW hsB agg W10 b12) Gen.slices_S50000x96_S50000x32_0_32)
          (extractStridedSlice S50000x32 ![0, 32] (linH l hsW hsB h W11 b13) Gen.slices_S50000x96_S50000x32_0_32)))
      (Host.tanh
        (addf (extractStridedSlice S50000x32 ![0, 64] (linH l hsW hsB agg W10 b12) Gen.slices_S50000x96_S50000x32_0_64)
          (mulf
            (gateH (extractStridedSlice S50000x32 ![0, 0] (linH l hsW hsB agg W10 b12) Gen.slices_S50000x96_S50000x32_0_0)
              (extractStridedSlice S50000x32 ![0, 0] (linH l hsW hsB h W11 b13) Gen.slices_S50000x96_S50000x32_0_0))
            (extractStridedSlice S50000x32 ![0, 64] (linH l hsW hsB h W11 b13) Gen.slices_S50000x96_S50000x32_0_64)))))
    (mulf
      (gateH (extractStridedSlice S50000x32 ![0, 32] (linH l hsW hsB agg W10 b12) Gen.slices_S50000x96_S50000x32_0_32)
        (extractStridedSlice S50000x32 ![0, 32] (linH l hsW hsB h W11 b13) Gen.slices_S50000x96_S50000x32_0_32))
      h)

/-- The host's composite is the gated update of the specification on matrix `l` of each weight stack, transposed, and row `l` of each bias matrix. -/
theorem gruH_eq (l : Fin 3) (hsW : S3x96x32.Slices ![l.val, 0, 0] S1x96x32) (hsB : S3x96.Slices ![l.val, 0] S1x96)
    (agg h : FVec Ideal S50000x32 .f32) (W10 W11 : FVec Ideal S3x96x32 .f32) (b12 b13 : FVec Ideal S3x96 .f32) :
    gruH l hsW hsB agg h W10 W11 b12 b13 = gruK agg h (matOfT l W10) (matOfT l W11) (rowOf l b12) (rowOf l b13) := by
  funext i
  obtain ⟨p, j, rfl⟩ : ∃ (p : Fin 50000) (j : Fin 32), i = ix2 p j := ⟨i 0, i 1, eq_ix2 i⟩
  show (Ideal.ofBits .f32 0x3F800000#32
          - gateH (extractStridedSlice S50000x32 ![0, 32] (linH l hsW hsB agg W10 b12) Gen.slices_S50000x96_S50000x32_0_32)
              (extractStridedSlice S50000x32 ![0, 32] (linH l hsW hsB h W11 b13) Gen.slices_S50000x96_S50000x32_0_32) (ix2 p j))
        * Ideal.tanh
            (extractStridedSlice S50000x32 ![0, 64] (linH l hsW hsB agg W10 b12) Gen.slices_S50000x96_S50000x32_0_64 (ix2 p j)
              + gateH (extractStridedSlice S50000x32 ![0, 0] (linH l hsW hsB agg W10 b12) Gen.slices_S50000x96_S50000x32_0_0)
                    (extractStridedSlice S50000x32 ![0, 0] (linH l hsW hsB h W11 b13) Gen.slices_S50000x96_S50000x32_0_0) (ix2 p j)
                * extractStridedSlice S50000x32 ![0, 64] (linH l hsW hsB h W11 b13) Gen.slices_S50000x96_S50000x32_0_64 (ix2 p j))
      + gateH (extractStridedSlice S50000x32 ![0, 32] (linH l hsW hsB agg W10 b12) Gen.slices_S50000x96_S50000x32_0_32)
            (extractStridedSlice S50000x32 ![0, 32] (linH l hsW hsB h W11 b13) Gen.slices_S50000x96_S50000x32_0_32) (ix2 p j)
          * h (ix2 p j) = _
  rw [gateH_apply, gateH_apply,
    cols_apply 0 (by omega) Gen.slices_S50000x96_S50000x32_0_0, cols_apply 0 (by omega) Gen.slices_S50000x96_S50000x32_0_0,
    cols_apply 32 (by omega) Gen.slices_S50000x96_S50000x32_0_32, cols_apply 32 (by omega) Gen.slices_S50000x96_S50000x32_0_32,
    cols_apply 64 (by omega) Gen.slices_S50000x96_S50000x32_0_64, cols_apply 64 (by omega) Gen.slices_S50000x96_S50000x32_0_64]
  simp only [linH_apply]
  rfl

end Gru

/-! ## Round 0: the gated update (`opsGru0`) -/

/-- The references the stretch writes. -/
def written_gru0 : List (Ref sig .tc) :=
  [main_v65, main_v66, main_v67, main_v68, main_v69, main_v70, main_v71, main_v72, main_v73, main_v74, main_v75, main_v76, main_v77, main_v78, main_v79, main_v80, main_v81, main_v82, main_v83, main_v84, main_v85, main_v86, main_v87, main_v88, main_v89, main_v90, main_v91, main_cst_6, main_v92, main_v93, main_cst_7, main_v94, main_v95, main_v96, main_v97, main_v98, main_cst_8, main_v99, main_v100, main_cst_9, main_v101, main_v102, main_v103, main_v104, main_v105, main_cst_10, main_v106, main_v107, main_v108, main_v109, main_v110]

theorem gru0_keep (r : Ref sig .tc) (hr : r ∉ written_gru0) : StableHlo.after (opsGru0 (F := Ideal)) X (Proc.devRef .tc r) = X (Proc.devRef .tc r) := by
  refine StableHlo.after_of_writes_sub _ X ?_ hr
  simp only [opsGru0, List.Forall, StableHlo.nullary_writes, StableHlo.unary_writes, StableHlo.binary_writes, StableHlo.reshape_writes,
    Finset.singleton_subset_iff, List.mem_toFinset]
  repeat' apply And.intro
  all_goals exact List.mem_map.mpr ⟨_, by decide, rfl⟩

theorem gru0_val : StableHlo.after (opsGru0 (F := Ideal)) X (Proc.devRef .tc main_v110)
    = Cert.Gnn.gruK (X (Proc.devRef .tc main_v64)) (X (Proc.devRef .tc main_v18)) (matOfT (⟨0, by decide⟩ : Fin 3) (X (Proc.devRef .tc main_arg10))) (matOfT (⟨0, by decide⟩ : Fin 3) (X (Proc.devRef .tc main_arg11)))
        (rowOf (⟨0, by decide⟩ : Fin 3) (X (Proc.devRef .tc main_arg12))) (rowOf (⟨0, by decide⟩ : Fin 3) (X (Proc.devRef .tc main_arg13))) := by
  after_results_simp
  exact Gru.gruH_eq (⟨0, by decide⟩ : Fin 3) Gen.slices_S3x96x32_S1x96x32_0_0_0 Gen.slices_S3x96_S1x96_0_0 _ _ _ _ _ _

/-! ## Round 1: the gated update (`opsGru1`) -/

/-- The references the stretch writes. -/
def written_gru1 : List (Ref sig .tc) :=
  [main_v157, main_v158, main_v159, main_v160, main_v161, main_v162, main_v163, main_v164, main_v165, main_v166, main_v167, main_v168, main_v169, main_v170, main_v171, main_v172, main_v173, main_v174, main_v175, main_v176, main_v177, main_v178, main_v179, main_v180, main_v181, main_v182, main_v183, main_cst_16, main_v184, main_v185, main_cst_17, main_v186, main_v187, main_v188, main_v189, main_v190, main_cst_18, main_v191, main_v192, main_cst_19, main_v193, main_v194, main_v195, main_v196, main_v197, main_cst_20, main_v198, main_v199, main_v200, main_v201, main_v202]

theorem gru1_keep (r : Ref sig .tc) (hr : r ∉ written_gru1) : StableHlo.after (opsGru1 (F := Ideal)) X (Proc.devRef .tc r) = X (Proc.devRef .tc r) := by
  refine StableHlo.after_of_writes_sub _ X ?_ hr
  simp only [opsGru1, List.Forall, StableHlo.nullary_writes, StableHlo.unary_writes, StableHlo.binary_writes, StableHlo.reshape_writes,
    Finset.singleton_subset_iff, List.mem_toFinset]
  repeat' apply And.intro
  all_goals exact List.mem_map.mpr ⟨_, by decide, rfl⟩

theorem gru1_val : StableHlo.after (opsGru1 (F := Ideal)) X (Proc.devRef .tc main_v202)
    = Cert.Gnn.gruK (X (Proc.devRef .tc main_v156)) (X (Proc.devRef .tc main_v110)) (matOfT (⟨1, by decide⟩ : Fin 3) (X (Proc.devRef .tc main_arg10))) (matOfT (⟨1, by decide⟩ : Fin 3) (X (Proc.devRef .tc main_arg11)))
        (rowOf (⟨1, by decide⟩ : Fin 3) (X (Proc.devRef .tc main_arg12))) (rowOf (⟨1, by decide⟩ : Fin 3) (X (Proc.devRef .tc main_arg13))) := by
  after_results_simp
  exact Gru.gruH_eq (⟨1, by decide⟩ : Fin 3) Gen.slices_S3x96x32_S1x96x32_1_0_0 Gen.slices_S3x96_S1x96_1_0 _ _ _ _ _ _

/-! ## Round 2: the gated update (`opsGru2`) -/

/-- The references the stretch writes. -/
def written_gru2 : List (Ref sig .tc) :=
  [main_v249, main_v250, main_v251, main_v252, main_v253, main_v254, main_v255, main_v256, main_v257, main_v258, main_v259, main_v260, main_v261, main_v262, main_v263, main_v264, main_v265, main_v266, main_v267, main_v268, main_v269, main_v270, main_v271, main_v272, main_v273, main_v274, main_v275, main_cst_26, main_v276, main_v277, main_cst_27, main_v278, main_v279, main_v280, main_v281, main_v282, main_cst_28, main_v283, main_v284, main_cst_29, main_v285, main_v286, main_v287, main_v288, main_v289, main_cst_30, main_v290, main_v291, main_v292, main_v293, main_v294]

theorem gru2_keep (r : Ref sig .tc) (hr : r ∉ written_gru2) : StableHlo.after (opsGru2 (F := Ideal)) X (Proc.devRef .tc r) = X (Proc.devRef .tc r) := by
  refine StableHlo.after_of_writes_sub _ X ?_ hr
  simp only [opsGru2, List.Forall, StableHlo.nullary_writes, StableHlo.unary_writes, StableHlo.binary_writes, StableHlo.reshape_writes,
    Finset.singleton_subset_iff, List.mem_toFinset]
  repeat' apply And.intro
  all_goals exact List.mem_map.mpr ⟨_, by decide, rfl⟩

theorem gru2_val : StableHlo.after (opsGru2 (F := Ideal)) X (Proc.devRef .tc main_v294)
    = Cert.Gnn.gruK (X (Proc.devRef .tc main_v248)) (X (Proc.devRef .tc main_v202)) (matOfT (⟨2, by decide⟩ : Fin 3) (X (Proc.devRef .tc main_arg10))) (matOfT (⟨2, by decide⟩ : Fin 3) (X (Proc.devRef .tc main_arg11)))
        (rowOf (⟨2, by decide⟩ : Fin 3) (X (Proc.devRef .tc main_arg12))) (rowOf (⟨2, by decide⟩ : Fin 3) (X (Proc.devRef .tc main_arg13))) := by
  after_results_simp
  exact Gru.gruH_eq (⟨2, by decide⟩ : Fin 3) Gen.slices_S3x96x32_S1x96x32_2_0_0 Gen.slices_S3x96_S1x96_2_0 _ _ _ _ _ _

end Cert.ReferenceIdeal.Stages

end
-- ==== Proof.RefChain.lean ====
/-
  The reference program's value, assembled from its stretches.
  The program is one list of host operations; running a concatenation of lists is running them one after the
  other, so the buffers after the whole list are those after fifteen stretches in turn: the edge lists and degree
  reciprocals, the encoder, three rounds of (row gathers, message network, mean aggregation, gated update), the decoder.
  At each boundary between stretches the buffers that are still to be read are named: the argument arrays and the
  source list, target list and reciprocal in-degrees hold what they held; the node states entering a round and each
  stage's output hold the value the network's definition gives them. The last boundary is the network.
-/
import proofs.«427837_j2834678415534_1_alg».proof.Proof.RefRun
import proofs.«427837_j2834678415534_1_alg».proof.Proof.RefEncDec
import proofs.«427837_j2834678415534_1_alg».proof.Proof.RefMsg
import proofs.«427837_j2834678415534_1_alg».proof.Proof.RefGru

set_option maxRecDepth 16384

noncomputable section

namespace Cert.ReferenceIdeal.Value

open Cert.ReferenceIdeal Cert.ReferenceIdeal.HostFns Cert.ReferenceIdeal.Stages Idealize.ShloMosaic Idealize.ShloMosaic.TcCoe Idealize.SL.Sem

/-- The network's weights as the reference program finds them in a valuation of its buffers. -/
def paramsOf (X : Valuation τ sig (Elt Ideal)) : Cert.Gnn.Params where
  encW := X (Proc.devRef .tc main_arg2)
  encB := X (Proc.devRef .tc main_arg3)
  msgW1 := X (Proc.devRef .tc main_arg4)
  msgB1 := X (Proc.devRef .tc main_arg5)
  msgW2 := X (Proc.devRef .tc main_arg6)
  msgB2 := X (Proc.devRef .tc main_arg7)
  msgW3 := X (Proc.devRef .tc main_arg8)
  msgB3 := X (Proc.devRef .tc main_arg9)
  gruWih := X (Proc.devRef .tc main_arg10)
  gruWhh := X (Proc.devRef .tc main_arg11)
  gruBih := X (Proc.devRef .tc main_arg12)
  gruBhh := X (Proc.devRef .tc main_arg13)
  decW1 := X (Proc.devRef .tc main_arg14)
  decB1 := X (Proc.devRef .tc main_arg15)
  decW2 := X (Proc.devRef .tc main_arg16)
  decB2 := X (Proc.devRef .tc main_arg17)
  decW3 := X (Proc.devRef .tc main_arg18)
  decB3 := X (Proc.devRef .tc main_arg19)

namespace Asm

open Cert.Gnn (Mat Params asRow rowOf matOf matOfT halfOf messages round encode decode network)

/-- Running a concatenation of two lists of operations is running the first, then the second. -/
theorem after_append (l₁ l₂ : List (HloOp τ sig (Elt Ideal))) (V : Valuation τ sig (Elt Ideal)) :
    StableHlo.after (l₁ ++ l₂) V = StableHlo.after l₂ (StableHlo.after l₁ V) := by
  induction l₁ generalizing V with
  | nil => rfl
  | cons op l ih => exact ih (op.result V)

/-- Two weight records with the same eighteen components are the same. -/
theorem params_congr {a1 a1' : Mat 64 32} {a2 a2' : Cert.Gnn.Vec1 32} {a3 a3' : Cert.Gnn.Stack 3 64 64} {a4 a4' : Mat 3 64}
    {a5 a5' : Cert.Gnn.Stack 3 64 64} {a6 a6' : Mat 3 64} {a7 a7' : Cert.Gnn.Stack 3 64 32} {a8 a8' : Mat 3 32}
    {a9 a9' : Cert.Gnn.Stack 3 96 32} {a10 a10' : Cert.Gnn.Stack 3 96 32} {a11 a11' : Mat 3 96} {a12 a12' : Mat 3 96}
    {a13 a13' : Mat 32 64} {a14 a14' : Cert.Gnn.Vec1 64} {a15 a15' : Mat 64 64} {a16 a16' : Cert.Gnn.Vec1 64}
    {a17 a17' : Mat 64 8} {a18 a18' : Cert.Gnn.Vec1 8}
    (h1 : a1 = a1') (h2 : a2 = a2') (h3 : a3 = a3') (h4 : a4 = a4') (h5 : a5 = a5') (h6 : a6 = a6') (h7 : a7 = a7') (h8 : a8 = a8')
    (h9 : a9 = a9') (h10 : a10 = a10') (h11 : a11 = a11') (h12 : a12 = a12') (h13 : a13 = a13') (h14 : a14 = a14') (h15 : a15 = a15')
    (h16 : a16 = a16') (h17 : a17 = a17') (h18 : a18 = a18') :
    Params.mk a1 a2 a3 a4 a5 a6 a7 a8 a9 a10 a11 a12 a13 a14 a15 a16 a17 a18
      = Params.mk a1' a2' a3' a4' a5' a6' a7' a8' a9' a10' a11' a12' a13' a14' a15' a16' a17' a18' := by
  subst h1 h2 h3 h4 h5 h6 h7 h8 h9 h10 h11 h12 h13 h14 h15 h16 h17 h18
  rfl

/-- The argument arrays. -/
def argRefs : List (Ref sig .tc) :=
  [main_arg0, main_arg1, main_arg2, main_arg3, main_arg4, main_arg5, main_arg6, main_arg7, main_arg8, main_arg9, main_arg10, main_arg11, main_arg12, main_arg13, main_arg14, main_arg15, main_arg16, main_arg17, main_arg18, main_arg19]

/-- The buffers read in every round: the argument arrays, the source list, the target list, the reciprocal in-degrees. -/
def heldRefs : List (Ref sig .tc) :=
  [main_arg0, main_arg1, main_arg2, main_arg3, main_arg4, main_arg5, main_arg6, main_arg7, main_arg8, main_arg9, main_arg10, main_arg11, main_arg12, main_arg13, main_arg14, main_arg15, main_arg16, main_arg17, main_arg18, main_arg19, main_v3, main_v6, main_v13]

theorem argRefs_sub : ∀ r ∈ argRefs, r ∈ heldRefs := by decide

/-! ## What is held through the stretches -/

/-- At a valuation `Y` the buffers read in every round hold what the first stretch left or found: the argument arrays
    as in `X`, and the source list, target list and reciprocal in-degrees of `X`'s edge list. -/
structure Held (X Y : Valuation τ sig (Elt Ideal)) : Prop where
  args : ∀ r ∈ argRefs, Y (Proc.devRef .tc r) = X (Proc.devRef .tc r)
  src : Y (Proc.devRef .tc main_v3) = srcOf (X (Proc.devRef .tc main_arg1))
  dst : Y (Proc.devRef .tc main_v6) = dstOf (X (Proc.devRef .tc main_arg1))
  inv : Y (Proc.devRef .tc main_v13) = invDeg (dstOf (X (Proc.devRef .tc main_arg1)))

/-- A stretch that writes none of those buffers keeps them. -/
theorem Held.step {X Y : Valuation τ sig (Elt Ideal)} (h : Held X Y)
    (ops : List (HloOp τ sig (Elt Ideal))) (W : List (Ref sig .tc))
    (keep : ∀ r : Ref sig .tc, r ∉ W → StableHlo.after ops Y (Proc.devRef .tc r) = Y (Proc.devRef .tc r))
    (hW : ∀ r ∈ heldRefs, r ∉ W) : Held X (StableHlo.after ops Y) where
  args r hr := (keep r (hW r (argRefs_sub r hr))).trans (h.args r hr)
  src := (keep main_v3 (hW main_v3 (by decide))).trans h.src
  dst := (keep main_v6 (hW main_v6 (by decide))).trans h.dst
  inv := (keep main_v13 (hW main_v13 (by decide))).trans h.inv

/-- The weights read off such a valuation are `X`'s. -/
theorem Held.params {X Y : Valuation τ sig (Elt Ideal)} (h : Held X Y) : paramsOf Y = paramsOf X :=
  params_congr (h.args main_arg2 (by decide)) (h.args main_arg3 (by decide)) (h.args main_arg4 (by decide)) (h.args main_arg5 (by decide)) (h.args main_arg6 (by decide)) (h.args main_arg7 (by decide)) (h.args main_arg8 (by decide)) (h.args main_arg9 (by decide)) (h.args main_arg10 (by decide)) (h.args main_arg11 (by decide)) (h.args main_arg12 (by decide)) (h.args main_arg13 (by decide)) (h.args main_arg14 (by decide)) (h.args main_arg15 (by decide)) (h.args main_arg16 (by decide)) (h.args main_arg17 (by decide)) (h.args main_arg18 (by decide)) (h.args main_arg19 (by decide))

variable (X : Valuation τ sig (Elt Ideal))

/-- The rows of the node states at each message's target node … -/
def gd : Mat 50000 32 → Mat 850000 32 := fun h => gatherRows h (dstOf (X (Proc.devRef .tc main_arg1)))
/-- … at its source node … -/
def gs : Mat 50000 32 → Mat 850000 32 := fun h => gatherRows h (srcOf (X (Proc.devRef .tc main_arg1)))
/-- … and the mean of the messages over each target node. -/
def ag : Mat 850000 32 → Mat 50000 32 :=
  fun M => aggOf M (dstOf (X (Proc.devRef .tc main_arg1))) (invDeg (dstOf (X (Proc.devRef .tc main_arg1))))

/-- The node states after the encoder and after each round. -/
def h0 : Mat 50000 32 := encode (paramsOf X) (X (Proc.devRef .tc main_arg0))
def h1 : Mat 50000 32 := round (paramsOf X) (gd X) (gs X) (ag X) 0 (h0 X)
def h2 : Mat 50000 32 := round (paramsOf X) (gd X) (gs X) (ag X) 1 (h1 X)
def h3 : Mat 50000 32 := round (paramsOf X) (gd X) (gs X) (ag X) 2 (h2 X)

/-- The network is the decoder of the node states after the third round. -/
theorem network_eq : decode (paramsOf X) (h3 X) = network (paramsOf X) (gd X) (gs X) (ag X) (X (Proc.devRef .tc main_arg0)) := rfl

/-! ## The stages' values in the network's terms, at any valuation `Y` whose arguments are `X`'s -/

/-- The encoder's output. -/
theorem enc_stage (Y : Valuation τ sig (Elt Ideal)) (hP : paramsOf Y = paramsOf X) (x : Mat 50000 64) (hx : x = X (Proc.devRef .tc main_arg0)) :
    Cert.Gnn.encK x (Y (Proc.devRef .tc main_arg2)) (asRow (Y (Proc.devRef .tc main_arg3))) = h0 X := by
  show Cert.Gnn.encK x (paramsOf Y).encW (asRow (paramsOf Y).encB) = _
  rw [hP, hx]; rfl

/-- The message network's output in round `l` from gathered rows of the node states `h`. -/
theorem msg_stage (l : Fin 3) (Y : Valuation τ sig (Elt Ideal)) (hP : paramsOf Y = paramsOf X) (h : Mat 50000 32) (a b : Mat 850000 32)
    (ha : a = gd X h) (hb : b = gs X h) :
    Cert.Gnn.msgK a b (halfOf l 0 (by omega) (Y (Proc.devRef .tc main_arg4))) (halfOf l 32 (by omega) (Y (Proc.devRef .tc main_arg4))) (rowOf l (Y (Proc.devRef .tc main_arg5)))
        (matOf l (Y (Proc.devRef .tc main_arg6))) (rowOf l (Y (Proc.devRef .tc main_arg7))) (matOf l (Y (Proc.devRef .tc main_arg8))) (rowOf l (Y (Proc.devRef .tc main_arg9)))
      = messages (paramsOf X) (gd X) (gs X) l h := by
  show Cert.Gnn.msgK a b (halfOf l 0 (by omega) (paramsOf Y).msgW1) (halfOf l 32 (by omega) (paramsOf Y).msgW1) (rowOf l (paramsOf Y).msgB1)
        (matOf l (paramsOf Y).msgW2) (rowOf l (paramsOf Y).msgB2) (matOf l (paramsOf Y).msgW3) (rowOf l (paramsOf Y).msgB3) = _
  rw [hP, ha, hb]; rfl

/-- The mean aggregation of a round's messages. -/
theorem agg_stage (M M' : Mat 850000 32) (d : IVec S850000 32) (c : FVec Ideal S50000x1 .f32)
    (hM : M' = M) (hd : d = dstOf (X (Proc.devRef .tc main_arg1))) (hc : c = invDeg (dstOf (X (Proc.devRef .tc main_arg1)))) :
    aggOf M' d c = ag X M := by
  rw [hM, hd, hc]; rfl

/-- The gated update of round `l`: the node states after the round. -/
theorem gru_stage (l : Fin 3) (Y : Valuation τ sig (Elt Ideal)) (hP : paramsOf Y = paramsOf X) (h : Mat 50000 32) (a h' : Mat 50000 32)
    (ha : a = ag X (messages (paramsOf X) (gd X) (gs X) l h)) (hh : h' = h) :
    Cert.Gnn.gruK a h' (matOfT l (Y (Proc.devRef .tc main_arg10))) (matOfT l (Y (Proc.devRef .tc main_arg11))) (rowOf l (Y (Proc.devRef .tc main_arg12))) (rowOf l (Y (Proc.devRef .tc main_arg13)))
      = round (paramsOf X) (gd X) (gs X) (ag X) l h := by
  show Cert.Gnn.gruK a h' (matOfT l (paramsOf Y).gruWih) (matOfT l (paramsOf Y).gruWhh) (rowOf l (paramsOf Y).gruBih) (rowOf l (paramsOf Y).gruBhh) = _
  rw [hP, ha, hh]; rfl

/-- The decoder's output on the last node states. -/
theorem dec_stage (Y : Valuation τ sig (Elt Ideal)) (hP : paramsOf Y = paramsOf X) (h' : Mat 50000 32) (hh : h' = h3 X) :
    Cert.Gnn.decK h' (Y (Proc.devRef .tc main_arg14)) (asRow (Y (Proc.devRef .tc main_arg15))) (Y (Proc.devRef .tc main_arg16)) (asRow (Y (Proc.devRef .tc main_arg17))) (Y (Proc.devRef .tc main_arg18))
        (asRow (Y (Proc.devRef .tc main_arg19))) = decode (paramsOf X) (h3 X) := by
  show Cert.Gnn.decK h' (paramsOf Y).decW1 (asRow (paramsOf Y).decB1) (paramsOf Y).decW2 (asRow (paramsOf Y).decB2) (paramsOf Y).decW3
        (asRow (paramsOf Y).decB3) = _
  rw [hP, hh]; rfl

/-! ## The valuation at each boundary between stretches

Each is named, and only its defining equation is used: what a stretch does to the buffers is known through its own lemmas. -/

def X1 : Valuation τ sig (Elt Ideal) := StableHlo.after (opsPre (F := Ideal)) X
theorem X1_eq : X1 X = StableHlo.after (opsPre (F := Ideal)) X := rfl
attribute [irreducible] X1
def X2 : Valuation τ sig (Elt Ideal) := StableHlo.after (opsEnc (F := Ideal)) (X1 X)
theorem X2_eq : X2 X = StableHlo.after (opsEnc (F := Ideal)) (X1 X) := rfl
attribute [irreducible] X2
def X3 : Valuation τ sig (Elt Ideal) := StableHlo.after (opsGat0 (F := Ideal)) (X2 X)
theorem X3_eq : X3 X = StableHlo.after (opsGat0 (F := Ideal)) (X2 X) := rfl
attribute [irreducible] X3
def X4 : Valuation τ sig (Elt Ideal) := StableHlo.after (opsMsg0 (F := Ideal)) (X3 X)
theorem X4_eq : X4 X = StableHlo.after (opsMsg0 (F := Ideal)) (X3 X) := rfl
attribute [irreducible] X4
def X5 : Valuation τ sig (Elt Ideal) := StableHlo.after (opsAgg0 (F := Ideal)) (X4 X)
theorem X5_eq : X5 X = StableHlo.after (opsAgg0 (F := Ideal)) (X4 X) := rfl
attribute [irreducible] X5
def X6 : Valuation τ sig (Elt Ideal) := StableHlo.after (opsGru0 (F := Ideal)) (X5 X)
theorem X6_eq : X6 X = StableHlo.after (opsGru0 (F := Ideal)) (X5 X) := rfl
attribute [irreducible] X6
def X7 : Valuation τ sig (Elt Ideal) := StableHlo.after (opsGat1 (F := Ideal)) (X6 X)
theorem X7_eq : X7 X = StableHlo.after (opsGat1 (F := Ideal)) (X6 X) := rfl
attribute [irreducible] X7
def X8 : Valuation τ sig (Elt Ideal) := StableHlo.after (opsMsg1 (F := Ideal)) (X7 X)
theorem X8_eq : X8 X = StableHlo.after (opsMsg1 (F := Ideal)) (X7 X) := rfl
attribute [irreducible] X8
def X9 : Valuation τ sig (Elt Ideal) := StableHlo.after (opsAgg1 (F := Ideal)) (X8 X)
theorem X9_eq : X9 X = StableHlo.after (opsAgg1 (F := Ideal)) (X8 X) := rfl
attribute [irreducible] X9
def X10 : Valuation τ sig (Elt Ideal) := StableHlo.after (opsGru1 (F := Ideal)) (X9 X)
theorem X10_eq : X10 X = StableHlo.after (opsGru1 (F := Ideal)) (X9 X) := rfl
attribute [irreducible] X10
def X11 : Valuation τ sig (Elt Ideal) := StableHlo.after (opsGat2 (F := Ideal)) (X10 X)
theorem X11_eq : X11 X = StableHlo.after (opsGat2 (F := Ideal)) (X10 X) := rfl
attribute [irreducible] X11
def X12 : Valuation τ sig (Elt Ideal) := StableHlo.after (opsMsg2 (F := Ideal)) (X11 X)
theorem X12_eq : X12 X = StableHlo.after (opsMsg2 (F := Ideal)) (X11 X) := rfl
attribute [irreducible] X12
def X13 : Valuation τ sig (Elt Ideal) := StableHlo.after (opsAgg2 (F := Ideal)) (X12 X)
theorem X13_eq : X13 X = StableHlo.after (opsAgg2 (F := Ideal)) (X12 X) := rfl
attribute [irreducible] X13
def X14 : Valuation τ sig (Elt Ideal) := StableHlo.after (opsGru2 (F := Ideal)) (X13 X)
theorem X14_eq : X14 X = StableHlo.after (opsGru2 (F := Ideal)) (X13 X) := rfl
attribute [irreducible] X14
def X15 : Valuation τ sig (Elt Ideal) := StableHlo.after (opsDec (F := Ideal)) (X14 X)
theorem X15_eq : X15 X = StableHlo.after (opsDec (F := Ideal)) (X14 X) := rfl
attribute [irreducible] X15

/-! The buffers after the first `k` stretches are those at boundary `k`. -/

theorem upto1 : StableHlo.after (opsPre (F := Ideal)) X = X1 X := (X1_eq X).symm
theorem upto2 : StableHlo.after (opsPre ++ opsEnc : List (HloOp τ sig (Elt Ideal))) X = X2 X :=
  (after_append (opsPre) opsEnc X).trans ((congrArg (StableHlo.after opsEnc) (upto1 X)).trans (X2_eq X).symm)
theorem upto3 : StableHlo.after (opsPre ++ opsEnc ++ opsGat0 : List (HloOp τ sig (Elt Ideal))) X = X3 X :=
  (after_append (opsPre ++ opsEnc) opsGat0 X).trans ((congrArg (StableHlo.after opsGat0) (upto2 X)).trans (X3_eq X).symm)
theorem upto4 : StableHlo.after (opsPre ++ opsEnc ++ opsGat0 ++ opsMsg0 : List (HloOp τ sig (Elt Ideal))) X = X4 X :=
  (after_append (opsPre ++ opsEnc ++ opsGat0) opsMsg0 X).trans ((congrArg (StableHlo.after opsMsg0) (upto3 X)).trans (X4_eq X).symm)
theorem upto5 : StableHlo.after (opsPre ++ opsEnc ++ opsGat0 ++ opsMsg0 ++ opsAgg0 : List (HloOp τ sig (Elt Ideal))) X = X5 X :=
  (after_append (opsPre ++ opsEnc ++ opsGat0 ++ opsMsg0) opsAgg0 X).trans ((congrArg (StableHlo.after opsAgg0) (upto4 X)).trans (X5_eq X).symm)
theorem upto6 : StableHlo.after (opsPre ++ opsEnc ++ opsGat0 ++ opsMsg0 ++ opsAgg0 ++ opsGru0 : List (HloOp τ sig (Elt Ideal))) X = X6 X :=
  (after_append (opsPre ++ opsEnc ++ opsGat0 ++ opsMsg0 ++ opsAgg0) opsGru0 X).trans ((congrArg (StableHlo.after opsGru0) (upto5 X)).trans (X6_eq X).symm)
theorem upto7 : StableHlo.after (opsPre ++ opsEnc ++ opsGat0 ++ opsMsg0 ++ opsAgg0 ++ opsGru0 ++ opsGat1 : List (HloOp τ sig (Elt Ideal))) X = X7 X :=
  (after_append (opsPre ++ opsEnc ++ opsGat0 ++ opsMsg0 ++ opsAgg0 ++ opsGru0) opsGat1 X).trans ((congrArg (StableHlo.after opsGat1) (upto6 X)).trans (X7_eq X).symm)
theorem upto8 : StableHlo.after (opsPre ++ opsEnc ++ opsGat0 ++ opsMsg0 ++ opsAgg0 ++ opsGru0 ++ opsGat1 ++ opsMsg1 : List (HloOp τ sig (Elt Ideal))) X = X8 X :=
  (after_append (opsPre ++ opsEnc ++ opsGat0 ++ opsMsg0 ++ opsAgg0 ++ opsGru0 ++ opsGat1) opsMsg1 X).trans ((congrArg (StableHlo.after opsMsg1) (upto7 X)).trans (X8_eq X).symm)
theorem upto9 : StableHlo.after (opsPre ++ opsEnc ++ opsGat0 ++ opsMsg0 ++ opsAgg0 ++ opsGru0 ++ opsGat1 ++ opsMsg1 ++ opsAgg1 : List (HloOp τ sig (Elt Ideal))) X = X9 X :=
  (after_append (opsPre ++ opsEnc ++ opsGat0 ++ opsMsg0 ++ opsAgg0 ++ opsGru0 ++ opsGat1 ++ opsMsg1) opsAgg1 X).trans ((congrArg (StableHlo.after opsAgg1) (upto8 X)).trans (X9_eq X).symm)
theorem upto10 : StableHlo.after (opsPre ++ opsEnc ++ opsGat0 ++ opsMsg0 ++ opsAgg0 ++ opsGru0 ++ opsGat1 ++ opsMsg1 ++ opsAgg1 ++ opsGru1 : List (HloOp τ sig (Elt Ideal))) X = X10 X :=
  (after_append (opsPre ++ opsEnc ++ opsGat0 ++ opsMsg0 ++ opsAgg0 ++ opsGru0 ++ opsGat1 ++ opsMsg1 ++ opsAgg1) opsGru1 X).trans ((congrArg (StableHlo.after opsGru1) (upto9 X)).trans (X10_eq X).symm)
theorem upto11 : StableHlo.after (opsPre ++ opsEnc ++ opsGat0 ++ opsMsg0 ++ opsAgg0 ++ opsGru0 ++ opsGat1 ++ opsMsg1 ++ opsAgg1 ++ opsGru1 ++ opsGat2 : List (HloOp τ sig (Elt Ideal))) X = X11 X :=
  (after_append (opsPre ++ opsEnc ++ opsGat0 ++ opsMsg0 ++ opsAgg0 ++ opsGru0 ++ opsGat1 ++ opsMsg1 ++ opsAgg1 ++ opsGru1) opsGat2 X).trans ((congrArg (StableHlo.after opsGat2) (upto10 X)).trans (X11_eq X).symm)
theorem upto12 : StableHlo.after (opsPre ++ opsEnc ++ opsGat0 ++ opsMsg0 ++ opsAgg0 ++ opsGru0 ++ opsGat1 ++ opsMsg1 ++ opsAgg1 ++ opsGru1 ++ opsGat2 ++ opsMsg2 : List (HloOp τ sig (Elt Ideal))) X = X12 X :=
  (after_append (opsPre ++ opsEnc ++ opsGat0 ++ opsMsg0 ++ opsAgg0 ++ opsGru0 ++ opsGat1 ++ opsMsg1 ++ opsAgg1 ++ opsGru1 ++ opsGat2) opsMsg2 X).trans ((congrArg (StableHlo.after opsMsg2) (upto11 X)).trans (X12_eq X).symm)
theorem upto13 : StableHlo.after (opsPre ++ opsEnc ++ opsGat0 ++ opsMsg0 ++ opsAgg0 ++ opsGru0 ++ opsGat1 ++ opsMsg1 ++ opsAgg1 ++ opsGru1 ++ opsGat2 ++ opsMsg2 ++ opsAgg2 : List (HloOp τ sig (Elt Ideal))) X = X13 X :=
  (after_append (opsPre ++ opsEnc ++ opsGat0 ++ opsMsg0 ++ opsAgg0 ++ opsGru0 ++ opsGat1 ++ opsMsg1 ++ opsAgg1 ++ opsGru1 ++ opsGat2 ++ opsMsg2) opsAgg2 X).trans ((congrArg (StableHlo.after opsAgg2) (upto12 X)).trans (X13_eq X).symm)
theorem upto14 : StableHlo.after (opsPre ++ opsEnc ++ opsGat0 ++ opsMsg0 ++ opsAgg0 ++ opsGru0 ++ opsGat1 ++ opsMsg1 ++ opsAgg1 ++ opsGru1 ++ opsGat2 ++ opsMsg2 ++ opsAgg2 ++ opsGru2 : List (HloOp τ sig (Elt Ideal))) X = X14 X :=
  (after_append (opsPre ++ opsEnc ++ opsGat0 ++ opsMsg0 ++ opsAgg0 ++ opsGru0 ++ opsGat1 ++ opsMsg1 ++ opsAgg1 ++ opsGru1 ++ opsGat2 ++ opsMsg2 ++ opsAgg2) opsGru2 X).trans ((congrArg (StableHlo.after opsGru2) (upto13 X)).trans (X14_eq X).symm)
theorem upto15 : StableHlo.after (opsAll (F := Ideal)) X = X15 X :=
  (after_append (opsPre ++ opsEnc ++ opsGat0 ++ opsMsg0 ++ opsAgg0 ++ opsGru0 ++ opsGat1 ++ opsMsg1 ++ opsAgg1 ++ opsGru1 ++ opsGat2 ++ opsMsg2 ++ opsAgg2 ++ opsGru2) opsDec X).trans ((congrArg (StableHlo.after opsDec) (upto14 X)).trans (X15_eq X).symm)

/-! ## The boundaries, one after the other -/

theorem held1 : Held X (X1 X) := by
  rw [X1_eq]
  exact ⟨fun r hr => pre_keep X r ((by decide : ∀ r ∈ argRefs, r ∉ written_pre) r hr), pre_src X, pre_dst X, pre_invDeg X⟩
theorem held2 : Held X (X2 X) := by
  rw [X2_eq]; exact (held1 X).step opsEnc written_enc (enc_keep (X1 X)) (by decide)
theorem held3 : Held X (X3 X) := by
  rw [X3_eq]; exact (held2 X).step opsGat0 written_gat0 (gat0_keep (X2 X)) (by decide)
theorem held4 : Held X (X4 X) := by
  rw [X4_eq]; exact (held3 X).step opsMsg0 written_msg0 (msg0_keep (X3 X)) (by decide)
theorem held5 : Held X (X5 X) := by
  rw [X5_eq]; exact (held4 X).step opsAgg0 written_agg0 (agg0_keep (X4 X)) (by decide)
theorem held6 : Held X (X6 X) := by
  rw [X6_eq]; exact (held5 X).step opsGru0 written_gru0 (gru0_keep (X5 X)) (by decide)
theorem held7 : Held X (X7 X) := by
  rw [X7_eq]; exact (held6 X).step opsGat1 written_gat1 (gat1_keep (X6 X)) (by decide)
theorem held8 : Held X (X8 X) := by
  rw [X8_eq]; exact (held7 X).step opsMsg1 written_msg1 (msg1_keep (X7 X)) (by decide)
theorem held9 : Held X (X9 X) := by
  rw [X9_eq]; exact (held8 X).step opsAgg1 written_agg1 (agg1_keep (X8 X)) (by decide)
theorem held10 : Held X (X10 X) := by
  rw [X10_eq]; exact (held9 X).step opsGru1 written_gru1 (gru1_keep (X9 X)) (by decide)
theorem held11 : Held X (X11 X) := by
  rw [X11_eq]; exact (held10 X).step opsGat2 written_gat2 (gat2_keep (X10 X)) (by decide)
theorem held12 : Held X (X12 X) := by
  rw [X12_eq]; exact (held11 X).step opsMsg2 written_msg2 (msg2_keep (X11 X)) (by decide)
theorem held13 : Held X (X13 X) := by
  rw [X13_eq]; exact (held12 X).step opsAgg2 written_agg2 (agg2_keep (X12 X)) (by decide)
theorem held14 : Held X (X14 X) := by
  rw [X14_eq]; exact (held13 X).step opsGru2 written_gru2 (gru2_keep (X13 X)) (by decide)

/-- After the encoder the node states are the encoder's. -/
theorem enc_out : X2 X (Proc.devRef .tc main_v18) = h0 X :=
  (congrFun (X2_eq X) _).trans ((enc_val (X1 X)).trans (enc_stage X (X1 X) (held1 X).params _ ((held1 X).args main_arg0 (by decide))))

/-! ### Round 0 -/

theorem gat0_h : X3 X (Proc.devRef .tc main_v18) = h0 X :=
  (congrFun (X3_eq X) _).trans ((gat0_keep (X2 X) main_v18 (by decide)).trans (enc_out X))
theorem gat0_d : X3 X (Proc.devRef .tc main_v25) = gd X (h0 X) :=
  (congrFun (X3_eq X) _).trans ((gat0_hd (X2 X)).trans (congrArg₂ gatherRows (enc_out X) (held2 X).dst))
theorem gat0_s : X3 X (Proc.devRef .tc main_v32) = gs X (h0 X) :=
  (congrFun (X3_eq X) _).trans ((gat0_hs (X2 X)).trans (congrArg₂ gatherRows (enc_out X) (held2 X).src))
theorem msg0_h : X4 X (Proc.devRef .tc main_v18) = h0 X :=
  (congrFun (X4_eq X) _).trans ((msg0_keep (X3 X) main_v18 (by decide)).trans (gat0_h X))
theorem msg0_out : X4 X (Proc.devRef .tc main_v59) = messages (paramsOf X) (gd X) (gs X) 0 (h0 X) :=
  (congrFun (X4_eq X) _).trans ((msg0_val (X3 X)).trans
    (msg_stage X 0 (X3 X) (held3 X).params (h0 X) _ _ (gat0_d X) (gat0_s X)))
theorem agg0_h : X5 X (Proc.devRef .tc main_v18) = h0 X :=
  (congrFun (X5_eq X) _).trans ((agg0_keep (X4 X) main_v18 (by decide)).trans (msg0_h X))
theorem agg0_out : X5 X (Proc.devRef .tc main_v64) = ag X (messages (paramsOf X) (gd X) (gs X) 0 (h0 X)) :=
  (congrFun (X5_eq X) _).trans ((agg0_val (X4 X)).trans
    (agg_stage X _ _ _ _ (msg0_out X) (held4 X).dst (held4 X).inv))
theorem gru0_out : X6 X (Proc.devRef .tc main_v110) = h1 X :=
  (congrFun (X6_eq X) _).trans ((gru0_val (X5 X)).trans
    (gru_stage X 0 (X5 X) (held5 X).params (h0 X) _ _ (agg0_out X) (agg0_h X)))

/-! ### Round 1 -/

theorem gat1_h : X7 X (Proc.devRef .tc main_v110) = h1 X :=
  (congrFun (X7_eq X) _).trans ((gat1_keep (X6 X) main_v110 (by decide)).trans (gru0_out X))
theorem gat1_d : X7 X (Proc.devRef .tc main_v117) = gd X (h1 X) :=
  (congrFun (X7_eq X) _).trans ((gat1_hd (X6 X)).trans (congrArg₂ gatherRows (gru0_out X) (held6 X).dst))
theorem gat1_s : X7 X (Proc.devRef .tc main_v124) = gs X (h1 X) :=
  (congrFun (X7_eq X) _).trans ((gat1_hs (X6 X)).trans (congrArg₂ gatherRows (gru0_out X) (held6 X).src))
theorem msg1_h : X8 X (Proc.devRef .tc main_v110) = h1 X :=
  (congrFun (X8_eq X) _).trans ((msg1_keep (X7 X) main_v110 (by decide)).trans (gat1_h X))
theorem msg1_out : X8 X (Proc.devRef .tc main_v151) = messages (paramsOf X) (gd X) (gs X) 1 (h1 X) :=
  (congrFun (X8_eq X) _).trans ((msg1_val (X7 X)).trans
    (msg_stage X 1 (X7 X) (held7 X).params (h1 X) _ _ (gat1_d X) (gat1_s X)))
theorem agg1_h : X9 X (Proc.devRef .tc main_v110) = h1 X :=
  (congrFun (X9_eq X) _).trans ((agg1_keep (X8 X) main_v110 (by decide)).trans (msg1_h X))
theorem agg1_out : X9 X (Proc.devRef .tc main_v156) = ag X (messages (paramsOf X) (gd X) (gs X) 1 (h1 X)) :=
  (congrFun (X9_eq X) _).trans ((agg1_val (X8 X)).trans
    (agg_stage X _ _ _ _ (msg1_out X) (held8 X).dst (held8 X).inv))
theorem gru1_out : X10 X (Proc.devRef .tc main_v202) = h2 X :=
  (congrFun (X10_eq X) _).trans ((gru1_val (X9 X)).trans
    (gru_stage X 1 (X9 X) (held9 X).params (h1 X) _ _ (agg1_out X) (agg1_h X)))

/-! ### Round 2 -/

theorem gat2_h : X11 X (Proc.devRef .tc main_v202) = h2 X :=
  (congrFun (X11_eq X) _).trans ((gat2_keep (X10 X) main_v202 (by decide)).trans (gru1_out X))
theorem gat2_d : X11 X (Proc.devRef .tc main_v209) = gd X (h2 X) :=
  (congrFun (X11_eq X) _).trans ((gat2_hd (X10 X)).trans (congrArg₂ gatherRows (gru1_out X) (held10 X).dst))
theorem gat2_s : X11 X (Proc.devRef .tc main_v216) = gs X (h2 X) :=
  (congrFun (X11_eq X) _).trans ((gat2_hs (X10 X)).trans (congrArg₂ gatherRows (gru1_out X) (held10 X).src))
theorem msg2_h : X12 X (Proc.devRef .tc main_v202) = h2 X :=
  (congrFun (X12_eq X) _).trans ((msg2_keep (X11 X) main_v202 (by decide)).trans (gat2_h X))
theorem msg2_out : X12 X (Proc.devRef .tc main_v243) = messages (paramsOf X) (gd X) (gs X) 2 (h2 X) :=
  (congrFun (X12_eq X) _).trans ((msg2_val (X11 X)).trans
    (msg_stage X 2 (X11 X) (held11 X).params (h2 X) _ _ (gat2_d X) (gat2_s X)))
theorem agg2_h : X13 X (Proc.devRef .tc main_v202) = h2 X :=
  (congrFun (X13_eq X) _).trans ((agg2_keep (X12 X) main_v202 (by decide)).trans (msg2_h X))
theorem agg2_out : X13 X (Proc.devRef .tc main_v248) = ag X (messages (paramsOf X) (gd X) (gs X) 2 (h2 X)) :=
  (congrFun (X13_eq X) _).trans ((agg2_val (X12 X)).trans
    (agg_stage X _ _ _ _ (msg2_out X) (held12 X).dst (held12 X).inv))
theorem gru2_out : X14 X (Proc.devRef .tc main_v294) = h3 X :=
  (congrFun (X14_eq X) _).trans ((gru2_val (X13 X)).trans
    (gru_stage X 2 (X13 X) (held13 X).params (h2 X) _ _ (agg2_out X) (agg2_h X)))

/-- After the decoder the result buffer is the decoder of the last node states. -/
theorem dec_out : X15 X (Proc.devRef .tc main_v308) = decode (paramsOf X) (h3 X) :=
  (congrFun (X15_eq X) _).trans ((dec_val (X14 X)).trans (dec_stage X (X14 X) (held14 X).params _ (gru2_out X)))

/-- The argument arrays at the last boundary are `X`'s. -/
theorem args_kept (r : Ref sig .tc) (hr : r ∈ argRefs) : X15 X (Proc.devRef .tc r) = X (Proc.devRef .tc r) :=
  (congrFun (X15_eq X) _).trans
    ((dec_keep (X14 X) r ((by decide : ∀ r ∈ argRefs, r ∉ written_dec) r hr)).trans ((held14 X).args r hr))

end Asm

/-- The reference program's result buffer after all its operations, from any valuation: the network of the argument
    arrays, its row gathers the plain gathers at the target and source lists and its aggregation the mean over targets. -/
theorem reference_value (X : Valuation τ sig (Elt Ideal)) :
    StableHlo.after (opsAll (F := Ideal)) X (Proc.devRef .tc main_v308)
      = Cert.Gnn.network (paramsOf X)
          (fun h => gatherRows h (dstOf (X (Proc.devRef .tc main_arg1))))
          (fun h => gatherRows h (srcOf (X (Proc.devRef .tc main_arg1))))
          (fun M => aggOf M (dstOf (X (Proc.devRef .tc main_arg1))) (invDeg (dstOf (X (Proc.devRef .tc main_arg1)))))
          (X (Proc.devRef .tc main_arg0)) :=
  (congrFun (Asm.upto15 X) _).trans ((Asm.dec_out X).trans (Asm.network_eq X))

/-- No operation writes an argument array. -/
theorem reference_kept (X : Valuation τ sig (Elt Ideal)) (r : Ref sig .tc)
    (hr : r ∈ [main_arg0, main_arg1, main_arg2, main_arg3, main_arg4, main_arg5, main_arg6, main_arg7, main_arg8, main_arg9, main_arg10,
      main_arg11, main_arg12, main_arg13, main_arg14, main_arg15, main_arg16, main_arg17, main_arg18, main_arg19]) :
    StableHlo.after (opsAll (F := Ideal)) X (Proc.devRef .tc r) = X (Proc.devRef .tc r) :=
  (congrFun (Asm.upto15 X) _).trans (Asm.args_kept X r hr)

end Cert.ReferenceIdeal.Value

end
-- ==== Proof.RefValue.lean ====
/-
  The reference program's run, read as a value: every weakly fair execution terminates with the result array at the
  network of the launch contents of the argument arrays, and the argument arrays unchanged.
-/
import proofs.«427837_j2834678415534_1_alg».proof.Proof.RefChain

set_option maxRecDepth 16384

noncomputable section

namespace Cert.ReferenceIdeal.Value

open Cert.ReferenceIdeal Cert.ReferenceIdeal.HostFns Cert.ReferenceIdeal.Stages Idealize.ShloMosaic Idealize.ShloMosaic.TcCoe Idealize.SL.Sem

theorem run_value (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v308)
        = Cert.Gnn.network (paramsOf (StableHlo.launchContents m c))
            (fun h => gatherRows h (dstOf (StableHlo.launchContents m c (Proc.devRef .tc main_arg1))))
            (fun h => gatherRows h (srcOf (StableHlo.launchContents m c (Proc.devRef .tc main_arg1))))
            (fun M => aggOf M (dstOf (StableHlo.launchContents m c (Proc.devRef .tc main_arg1)))
              (invDeg (dstOf (StableHlo.launchContents m c (Proc.devRef .tc main_arg1)))))
            (StableHlo.launchContents m c (Proc.devRef .tc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) := by
  -- every buffer ends at the fold of all the operations over the launch contents; the result buffer's fold is the
  -- network, and an argument buffer's fold is what the launch put there
  exact (θ_run defs _ _).mono (fun _ h c =>
    ⟨(h c main_v308).trans (reference_value (StableHlo.launchContents m c)),
     (h c main_arg0).trans ((reference_kept (StableHlo.launchContents m c) main_arg0 (by decide)).trans rfl),
     (h c main_arg1).trans ((reference_kept (StableHlo.launchContents m c) main_arg1 (by decide)).trans rfl),
     (h c main_arg2).trans ((reference_kept (StableHlo.launchContents m c) main_arg2 (by decide)).trans rfl),
     (h c main_arg3).trans ((reference_kept (StableHlo.launchContents m c) main_arg3 (by decide)).trans rfl),
     (h c main_arg4).trans ((reference_kept (StableHlo.launchContents m c) main_arg4 (by decide)).trans rfl),
     (h c main_arg5).trans ((reference_kept (StableHlo.launchContents m c) main_arg5 (by decide)).trans rfl),
     (h c main_arg6).trans ((reference_kept (StableHlo.launchContents m c) main_arg6 (by decide)).trans rfl),
     (h c main_arg7).trans ((reference_kept (StableHlo.launchContents m c) main_arg7 (by decide)).trans rfl),
     (h c main_arg8).trans ((reference_kept (StableHlo.launchContents m c) main_arg8 (by decide)).trans rfl),
     (h c main_arg9).trans ((reference_kept (StableHlo.launchContents m c) main_arg9 (by decide)).trans rfl),
     (h c main_arg10).trans ((reference_kept (StableHlo.launchContents m c) main_arg10 (by decide)).trans rfl),
     (h c main_arg11).trans ((reference_kept (StableHlo.launchContents m c) main_arg11 (by decide)).trans rfl),
     (h c main_arg12).trans ((reference_kept (StableHlo.launchContents m c) main_arg12 (by decide)).trans rfl),
     (h c main_arg13).trans ((reference_kept (StableHlo.launchContents m c) main_arg13 (by decide)).trans rfl),
     (h c main_arg14).trans ((reference_kept (StableHlo.launchContents m c) main_arg14 (by decide)).trans rfl),
     (h c main_arg15).trans ((reference_kept (StableHlo.launchContents m c) main_arg15 (by decide)).trans rfl),
     (h c main_arg16).trans ((reference_kept (StableHlo.launchContents m c) main_arg16 (by decide)).trans rfl),
     (h c main_arg17).trans ((reference_kept (StableHlo.launchContents m c) main_arg17 (by decide)).trans rfl),
     (h c main_arg18).trans ((reference_kept (StableHlo.launchContents m c) main_arg18 (by decide)).trans rfl),
     (h c main_arg19).trans ((reference_kept (StableHlo.launchContents m c) main_arg19 (by decide)).trans rfl)⟩)
    (run_fold m ρ)

end Cert.ReferenceIdeal.Value

end
-- ==== Proof.PreTake.lean ====
/-
  The index range the precondition states, and what it gives the row gathers. The precondition's last two conjuncts
  say that every entry of the edge list is at least 0 and below 50000, read signed: a node index. The source and the
  target list of the messages (a row of the edge list followed by the nodes in order) then hold node indices only, and
  on node indices the guarded row gather is the plain one: wrapping a negative index changes nothing, and the guard
  "inside the rows" is true at every index.
-/
import proofs.«427837_j2834678415534_1_alg».proof.Defs
import proofs.«427837_j2834678415534_1_alg».proof.Proof.Gen.Pre_finite_inputs
import proofs.«427837_j2834678415534_1_alg».proof.Proof.KHostFns
import Idealize.ShloMosaic.Lib.StableHlo.Predicate
import Idealize.ShloMosaic.Lib.ReduceAll
import Idealize.ShloMosaic.Lib.ValueIdx
import Idealize.ShloMosaic.Lib.Pipeline.Value

set_option maxRecDepth 16384

noncomputable section

namespace Cert.KernelIdeal.InRange

open Cert.KernelIdeal Cert.KernelIdeal.HostFns Idealize.ShloMosaic Idealize.ShloMosaic.TcCoe Idealize.SL.Sem
open Cert.KernelIdeal.Facts₀ Cert.KernelIdeal.Facts

/-- A node index lies among the nodes. -/
def IsNode (w : BitVec 32) : Prop := 0 ≤ w.toInt ∧ w.toInt < 50000

/-- The scalar shape has one index. -/
instance : Subsingleton Cert.Pre_finite_inputs.S_.Idx := ⟨fun a b => funext fun d => d.elim0⟩

/-- A word that compares at least zero and below 50000, both signed, is a node index. -/
theorem isNode_of_cmp (w : BitVec 32) (h0 : IntOp.cmpi .sge w 0#32 = 1#1) (h1 : IntOp.cmpi .slt w 50000#32 = 1#1) :
    IsNode w := by
  rw [IntOp.cmpi_sge] at h0
  rw [IntOp.cmpi_slt] at h1
  have e0 : (0#32 : BitVec 32).toInt = 0 := by decide
  have e1 : (50000#32 : BitVec 32).toInt = 50000 := by decide
  rw [e0] at h0; rw [e1] at h1
  exact ⟨h0, h1⟩

/-- Under the precondition every entry of the edge list is a node. -/
theorem edge_isNode (m : (ℓ : Loc nD τ sig) → Buf (Elt Ideal) ℓ) (hpre : Cert.Pre_KernelIdeal m) (c : Dev nD)
    (j : S2x800000.Idx) : IsNode (m ((c.tc : Thread nD τ).loc main_arg1) j) := by
  -- the predicate's one element is 1; it is a conjunction whose last two conjuncts are the two range tests
  have e := congrFun (hpre c) ValueIdx.ix0
  dsimp only [Cert.Pre_finite_inputs.fn, Cert.Pre_finite_inputs.fn_part1, Cert.Pre_finite_inputs.fn_part2, Cert.Pre_finite_inputs.fn_part3,
    Cert.Pre_finite_inputs.fn_part4, Cert.Pre_finite_inputs.fn_part5] at e
  obtain ⟨e1, hlt⟩ := IntOp.andi_eq_one.1 e
  obtain ⟨-, hge⟩ := IntOp.andi_eq_one.1 e1
  -- each test is a conjunction over every entry
  have a := Host.reduce_andi_all _ _ _ _ _ hge j
  have b := Host.reduce_andi_all _ _ _ _ _ hlt j
  exact isNode_of_cmp _ a b

/-- The word of a number below 50000 is a node index. -/
theorem isNode_ofNat (k : Nat) (hk : k < 50000) : IsNode (BitVec.ofNat 32 k) := by
  unfold IsNode
  rw [StableHlo.Predicate.toInt_ofNat_small k (by omega)]
  omega

/-- A list of 800000 nodes followed by the nodes in order holds nodes only. -/
theorem cat_isNode (row : IVec S800000 32) (hrow : ∀ k, IsNode (row k)) (i : S850000.Idx) :
    IsNode (concatenate S850000 0 [⟨S800000, row⟩, ⟨S50000, iotaInDim S50000 32 0⟩] concatenates_S800000_S50000_S850000_d0 i) := by
  have hi : (i 0).val < 850000 := (i 0).isLt
  by_cases hlt : (i 0).val < 800000
  · -- an index among the first 800000 reads the first piece
    rw [concatenate_pair_apply_left (0 : Fin 1) row (iotaInDim S50000 32 0) concatenates_S800000_S50000_S850000_d0 i rfl
      (ValueIdx.ix1 ⟨(i 0).val, hlt⟩) (fun b => by
        have hb : b = 0 := Subsingleton.elim _ _
        subst hb; rfl)]
    exact hrow _
  · -- a later index reads the count, at the index less 800000
    rw [concatenate_pair_apply_right (0 : Fin 1) row (iotaInDim S50000 32 0) concatenates_S800000_S50000_S850000_d0 i rfl rfl
      (ValueIdx.ix1 ⟨(i 0).val - 800000, by omega⟩) (fun b hb => absurd (Subsingleton.elim _ _) hb)
      (by show (i 0).val - 800000 + 800000 = (i 0).val; omega)]
    exact isNode_ofNat _ (by show (i 0).val - 800000 < 50000; omega)

/-- The source list (an edge-list row followed by the nodes in order) holds nodes only. -/
theorem srcOf_isNode (ei : IVec S2x800000 32) (h : ∀ j, IsNode (ei j)) (i : S850000.Idx) : IsNode (srcOf ei i) := by
  unfold srcOf
  exact cat_isNode _ (fun k => h _) i

/-- The target list holds nodes only. -/
theorem dstOf_isNode (ei : IVec S2x800000 32) (h : ∀ j, IsNode (ei j)) (i : S850000.Idx) : IsNode (dstOf ei i) := by
  unfold dstOf
  exact cat_isNode _ (fun k => h _) i

/-- Wrapping changes no node index: none is negative. -/
theorem wrapIdx_eq (idx : IVec S850000 32) (hin : ∀ i, IsNode (idx i)) : wrapIdx idx = idx := by
  funext k
  have hk := (hin k).1
  have hc : IntOp.cmpi .slt (idx k) 0#32 = 0#1 := by
    apply ValueIdx.eq_zero_of_ne_one
    rw [IntOp.cmpi_slt]
    have e0 : (0#32 : BitVec 32).toInt = 0 := by decide
    omega
  show Scalar.select (IntOp.cmpi .slt (idx k) 0#32) _ _ = _
  rw [hc, ValueIdx.select_zero]

/-- A left fold by `and` from 1 over ones is 1. -/
theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a]
    exact foldl_andi_ones f hf l

/-- A column of node indices lies inside the rows at every index. -/
theorem inRows_one (w : IVec S850000x1 32) (hw : ∀ j, IsNode (w j)) (k : S850000.Idx) : inRows w k = 1#1 := by
  unfold inRows
  rw [Host.reduce_eq_foldl]
  refine foldl_andi_ones _ (fun j => ?_) _
  show IntOp.andi (IntOp.cmpi .sge (w j) 0#32) (IntOp.cmpi .sle (w j) 49999#32) = 1#1
  rw [IntOp.andi_eq_one, IntOp.cmpi_sge, IntOp.cmpi_sle]
  have e0 : (0#32 : BitVec 32).toInt = 0 := by decide
  have e1 : (49999#32 : BitVec 32).toInt = 49999 := by decide
  have := hw j
  unfold IsNode at this
  omega

/-- On node indices the guarded row gather (fill value outside the rows) is the plain row gather: no index is
    negative, so wrapping changes none, and every index is inside the rows, so the guard is true everywhere. -/
theorem takeRows_eq (h : FVec Ideal S50000x32 .f32) (idx : IVec S850000 32) (hin : ∀ i, IsNode (idx i)) :
    takeRows h idx = gatherRows h idx := by
  unfold takeRows gatherRows
  funext i
  rw [ValueIdx.select_apply]
  have hg : broadcastInDim S850000x32 ![0] bcast_S850000_S850000x32_0
      (inRows (broadcastInDim S850000x1 ![0] bcast_S850000_S850000x1_0 (wrapIdx idx))) i = 1#1 := by
    refine inRows_one _ (fun j => ?_) _
    rw [wrapIdx_eq idx hin]
    exact hin _
  rw [hg, ValueIdx.select_one]

end Cert.KernelIdeal.InRange

end
-- ==== Proof.Bridge.lean ====
/-
  The two programs compute one network. Both runs end at `Cert.Gnn.network` of the argument arrays; they differ only
  in how they gather rows: the kernel program guards each gathered row by "the wrapped index lies among the rows" and
  the reference gathers without a guard. Under the precondition every node index of the edge list lies among the
  nodes, so the guard is true everywhere and the two gathers are one function; the aggregation and the index lists
  are the same host operations in both programs.
-/
import proofs.«427837_j2834678415534_1_alg».proof.Defs
import proofs.«427837_j2834678415534_1_alg».proof.Proof.Gen.Kernel.Frame
import proofs.«427837_j2834678415534_1_alg».proof.Proof.Gen.ReferenceIdeal
import proofs.«427837_j2834678415534_1_alg».proof.Proof.KValue
import proofs.«427837_j2834678415534_1_alg».proof.Proof.RefValue
import proofs.«427837_j2834678415534_1_alg».proof.Proof.PreTake

set_option maxRecDepth 16384

noncomputable section

namespace Cert.Proof.Parts

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run with the value dropped. -/
theorem frame_ri : Cert.frame_ReferenceIdeal := fun m ρ _ =>
  (θ_run Cert.ReferenceIdeal.defs _ _).mono (fun _ h c => (h c).2) (Cert.ReferenceIdeal.Value.run_value m ρ)

theorem preserves : Cert.preserves_Kernel_KernelIdeal := trivial

/-! ## The two programs' host functions are the same operations -/

theorem dstOf_same : Cert.ReferenceIdeal.HostFns.dstOf = Cert.KernelIdeal.HostFns.dstOf := rfl
theorem srcOf_same : Cert.ReferenceIdeal.HostFns.srcOf = Cert.KernelIdeal.HostFns.srcOf := rfl
theorem invDeg_same : Cert.ReferenceIdeal.HostFns.invDeg = Cert.KernelIdeal.HostFns.invDeg := rfl
theorem gatherRows_same : Cert.ReferenceIdeal.HostFns.gatherRows = Cert.KernelIdeal.HostFns.gatherRows := rfl
theorem aggOf_same : Cert.ReferenceIdeal.HostFns.aggOf = Cert.KernelIdeal.HostFns.aggOf := rfl

/-- Two weight records with the same eighteen components are the same. -/
theorem params_same {a1 a1' : Cert.Gnn.Mat 64 32} {a2 a2' : Cert.Gnn.Vec1 32} {a3 a3' : Cert.Gnn.Stack 3 64 64} {a4 a4' : Cert.Gnn.Mat 3 64}
    {a5 a5' : Cert.Gnn.Stack 3 64 64} {a6 a6' : Cert.Gnn.Mat 3 64} {a7 a7' : Cert.Gnn.Stack 3 64 32} {a8 a8' : Cert.Gnn.Mat 3 32}
    {a9 a9' : Cert.Gnn.Stack 3 96 32} {a10 a10' : Cert.Gnn.Stack 3 96 32} {a11 a11' : Cert.Gnn.Mat 3 96} {a12 a12' : Cert.Gnn.Mat 3 96}
    {a13 a13' : Cert.Gnn.Mat 32 64} {a14 a14' : Cert.Gnn.Vec1 64} {a15 a15' : Cert.Gnn.Mat 64 64} {a16 a16' : Cert.Gnn.Vec1 64}
    {a17 a17' : Cert.Gnn.Mat 64 8} {a18 a18' : Cert.Gnn.Vec1 8}
    (h1 : a1 = a1') (h2 : a2 = a2') (h3 : a3 = a3') (h4 : a4 = a4') (h5 : a5 = a5') (h6 : a6 = a6') (h7 : a7 = a7') (h8 : a8 = a8')
    (h9 : a9 = a9') (h10 : a10 = a10') (h11 : a11 = a11') (h12 : a12 = a12') (h13 : a13 = a13') (h14 : a14 = a14') (h15 : a15 = a15')
    (h16 : a16 = a16') (h17 : a17 = a17') (h18 : a18 = a18') :
    Cert.Gnn.Params.mk a1 a2 a3 a4 a5 a6 a7 a8 a9 a10 a11 a12 a13 a14 a15 a16 a17 a18
      = Cert.Gnn.Params.mk a1' a2' a3' a4' a5' a6' a7' a8' a9' a10' a11' a12' a13' a14' a15' a16' a17' a18' := by
  subst h1 h2 h3 h4 h5 h6 h7 h8 h9 h10 h11 h12 h13 h14 h15 h16 h17 h18
  rfl

/-- The network depends on its five arguments only. -/
theorem network_congr {P P' : Cert.Gnn.Params} {gd gd' gs gs' : Cert.Gnn.Mat 50000 32 → Cert.Gnn.Mat 850000 32}
    {ag ag' : Cert.Gnn.Mat 850000 32 → Cert.Gnn.Mat 50000 32} {x x' : Cert.Gnn.Mat 50000 64}
    (hP : P = P') (hgd : gd = gd') (hgs : gs = gs') (hag : ag = ag') (hx : x = x') :
    Cert.Gnn.network P gd gs ag x = Cert.Gnn.network P' gd' gs' ag' x' := by
  subst hP hgd hgs hag hx
  rfl

section Agree

variable (m : (ℓ : Loc Cert.KernelIdeal.nD Cert.KernelIdeal.τ Cert.KernelIdeal.sig) → Buf (Elt Ideal) ℓ) (g : Dev Cert.KernelIdeal.nD → PrngReg)
  (m' : (ℓ : Loc Cert.ReferenceIdeal.nD Cert.ReferenceIdeal.τ Cert.ReferenceIdeal.sig) → Buf (Elt Ideal) ℓ)
  (c : Dev Cert.KernelIdeal.nD)

/-- On node indices the kernel program's guarded gather at the target list is the reference's plain gather. -/
theorem gd_same (hpre : Cert.Pre_KernelIdeal m) (e : IVec Cert.ReferenceIdeal.S2x800000 32)
    (he : e = m ((c.tc : Thread Cert.KernelIdeal.nD Cert.KernelIdeal.τ).loc Cert.KernelIdeal.main_arg1)) :
    (fun h => Cert.ReferenceIdeal.HostFns.gatherRows h (Cert.ReferenceIdeal.HostFns.dstOf e)) = Cert.KernelIdeal.Value.gd m g c := by
  subst he
  funext h
  rw [gatherRows_same, dstOf_same]
  exact (Cert.KernelIdeal.InRange.takeRows_eq h _
    (Cert.KernelIdeal.InRange.dstOf_isNode _ (Cert.KernelIdeal.InRange.edge_isNode m hpre c))).symm

/-- The same at the source list. -/
theorem gs_same (hpre : Cert.Pre_KernelIdeal m) (e : IVec Cert.ReferenceIdeal.S2x800000 32)
    (he : e = m ((c.tc : Thread Cert.KernelIdeal.nD Cert.KernelIdeal.τ).loc Cert.KernelIdeal.main_arg1)) :
    (fun h => Cert.ReferenceIdeal.HostFns.gatherRows h (Cert.ReferenceIdeal.HostFns.srcOf e)) = Cert.KernelIdeal.Value.gs m g c := by
  subst he
  funext h
  rw [gatherRows_same, srcOf_same]
  exact (Cert.KernelIdeal.InRange.takeRows_eq h _
    (Cert.KernelIdeal.InRange.srcOf_isNode _ (Cert.KernelIdeal.InRange.edge_isNode m hpre c))).symm

/-- The mean aggregation is the same function in both programs. -/
theorem ag_same (e : IVec Cert.ReferenceIdeal.S2x800000 32)
    (he : e = m ((c.tc : Thread Cert.KernelIdeal.nD Cert.KernelIdeal.τ).loc Cert.KernelIdeal.main_arg1)) :
    (fun M => Cert.ReferenceIdeal.HostFns.aggOf M (Cert.ReferenceIdeal.HostFns.dstOf e)
        (Cert.ReferenceIdeal.HostFns.invDeg (Cert.ReferenceIdeal.HostFns.dstOf e))) = Cert.KernelIdeal.Value.ag m g c := by
  subst he
  rw [aggOf_same, dstOf_same, invDeg_same]
  rfl

end Agree

/-- From memories that agree on the arguments, under the precondition, both programs end with the same result array. -/
theorem algebraic : Cert.algebraic_KernelIdeal_ReferenceIdeal := by
  intro m g m' g' hpre hagree
  refine ⟨fun c => Cert.Gnn.network (Cert.KernelIdeal.Value.paramsOf m g c) (Cert.KernelIdeal.Value.gd m g c)
    (Cert.KernelIdeal.Value.gs m g c) (Cert.KernelIdeal.Value.ag m g c)
    (Cert.KernelIdeal.Value.L0 m g c (Proc.devRef .tc Cert.KernelIdeal.main_arg0)), Cert.KernelIdeal.Value.run_value m g, ?_⟩
  refine (θ_run Cert.ReferenceIdeal.defs _ _).mono (fun _ h c => ⟨(h c).1.trans ?_, (h c).2⟩)
    (Cert.ReferenceIdeal.Value.run_value m' g')
  obtain ⟨a0, a1, a2, a3, a4, a5, a6, a7, a8, a9, a10, a11, a12, a13, a14, a15, a16, a17, a18, a19⟩ := hagree c
  refine network_congr ?_ (gd_same m g c hpre _ a1) (gs_same m g c hpre _ a1) (ag_same m g c _ a1) a0
  exact params_same a2 a3 a4 a5 a6 a7 a8 a9 a10 a11 a12 a13 a14 a15 a16 a17 a18 a19

end Cert.Proof.Parts

end
-- ==== Proof.lean ====
/-
  A message-passing graph network, as a pipelined kernel program and as a plain host program, compute one function.

  The network: an encoder `relu (x W + b)` on the node features; three rounds, each of which gathers for every message
  (every edge, and one self loop per node) the state rows of its target and its source, runs three dense layers on the pair, `tanh` after the first two (the first layer as
  `h_dst W1[:32] + h_src W1[32:] + b1`), averages the messages arriving at each
  node (a scatter-sum times the reciprocal in-degree), and updates the node states by a gated recurrent cell; and a
  decoder of three dense layers, `tanh` after the first two. The kernel program runs the four dense stages as eight regions whose grids tile the ROWS
  (node or message) and leaves the gathers, the scatter-sum and the weight slicing to host operations between them; the
  reference is host operations throughout.

  Read at the extended reals (a format change is the identity, a matrix product into a zero accumulator is the exact
  sum), every dense stage maps each row of its inputs to a row of its output, so what a region leaves in its output
  array, block by block, is the stage's function of the whole arrays (`Spec.lean`, `ArrEnc/ArrMsg/ArrGru/ArrDec.lean`);
  the host stretches on both sides are read as named functions of the arrays they take (`KHost*.lean`,
  `Ref*.lean`); walking either program from boundary to boundary gives the same composition, `Cert.Gnn.network`
  (`Chain.lean`, `KRound*.lean`, `KChain.lean`, `RefChain.lean`). The one difference left is the row gather: the
  kernel program guards every gathered row by "the index lies among the rows" (a fill value otherwise), the reference
  gathers with its indices clamped. Under the precondition that the edge list holds node indices the guard is true
  everywhere and the two gathers are one function (`PreTake.lean`, `Bridge.lean`). No law of arithmetic beyond the
  commutativity and associativity of addition is used (the reference's one 64-term first-layer sum is the kernel's
  two 32-term sums), so finiteness of the float inputs is never opened.
-/
import proofs.«427837_j2834678415534_1_alg».proof.Defs
import proofs.«427837_j2834678415534_1_alg».proof.Proof.Gen.Kernel
import proofs.«427837_j2834678415534_1_alg».proof.Proof.Gen.KernelIdeal
import proofs.«427837_j2834678415534_1_alg».proof.Proof.Gen.ReferenceIdeal
import proofs.«427837_j2834678415534_1_alg».proof.Proof.Gen.Pre_finite_inputs
import proofs.«427837_j2834678415534_1_alg».proof.Proof.Bridge

noncomputable section

namespace Cert.Proof

theorem claim : Cert.Claim :=
  ⟨Cert.Kernel.Gen.facts, Cert.KernelIdeal.Gen.facts, Cert.ReferenceIdeal.Gen.facts, Cert.Pre_finite_inputs.Gen.facts,
    Parts.frame_k, Parts.frame_ki, Parts.frame_ri, Parts.preserves, Parts.algebraic⟩

end Cert.Proof

end
